-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x1 : Shape := ⟨2, ![50000, 1]⟩
abbrev S2x1600000 : Shape := ⟨2, ![2, 1600000]⟩
abbrev S1600000x3 : Shape := ⟨2, ![1600000, 3]⟩
abbrev S50000 : Shape := ⟨1, ![50000]⟩
abbrev S5x64 : Shape := ⟨2, ![5, 64]⟩
abbrev S64 : Shape := ⟨1, ![64]⟩
abbrev S64x64 : Shape := ⟨2, ![64, 64]⟩
abbrev S65x64 : Shape := ⟨2, ![65, 64]⟩
abbrev S64x2 : Shape := ⟨2, ![64, 2]⟩
abbrev S2 : Shape := ⟨1, ![2]⟩
abbrev S_ : Shape := ⟨0, ![]⟩

class Facts : Prop where
  bcast_S_S50000x1 : S_.BroadcastsInDim S50000x1 (![] : Fin 0 → Fin S50000x1.rank)
  reducesTo_S50000x1_S_d0_1 : S50000x1.ReducesTo [0, 1] S_
  h_S_ : 0 < S_.numel
  bcast_S_S1600000x3 : S_.BroadcastsInDim S1600000x3 (![] : Fin 0 → Fin S1600000x3.rank)
  reducesTo_S1600000x3_S_d0_1 : S1600000x3.ReducesTo [0, 1] S_
  bcast_S_S5x64 : S_.BroadcastsInDim S5x64 (![] : Fin 0 → Fin S5x64.rank)
  reducesTo_S5x64_S_d0_1 : S5x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S65x64 : S_.BroadcastsInDim S65x64 (![] : Fin 0 → Fin S65x64.rank)
  reducesTo_S65x64_S_d0_1 : S65x64.ReducesTo [0, 1] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_
  bcast_S_S2x1600000 : S_.BroadcastsInDim S2x1600000 (![] : Fin 0 → Fin S2x1600000.rank)
  reducesTo_S2x1600000_S_d0_1 : S2x1600000.ReducesTo [0, 1] S_

variable [Facts]

def fn_part5 {F : FTy → Type} [FloatOps F] (main_arg1 : IVec S2x1600000 32) (main_v83 : IVec S_ 1) (main_v84 : FVec F S2 .f32) (main_cst_32 : FVec F S_ .f32) : IVec S_ 1 :=
  let main_v85 : FVec F S2 .f32 := broadcastInDim S2 ![] bcast_S_S2 main_cst_32
  let main_v86 : IVec S2 1 := cmpf .olt main_v84 main_v85
  let main_c_33 : IVec S_ 1 := constantI S_ 1 1#1
  let main_v87 : IVec S_ 1 := (fun x v => Host.reduce IntOp.andi x v reducesTo_S2_S_d0 h_S_) main_v86 main_c_33
  let main_v88 : IVec S_ 1 := andi main_v83 main_v87
  let main_c_34 : IVec S_ 32 := constantI S_ 32 0#32
  let main_v89 : IVec S2x1600000 32 := broadcastInDim S2x1600000 ![] bcast_S_S2x1600000 main_c_34
  let main_v90 : IVec S2x1600000 1 := cmpi .sge main_arg1 main_v89
  let main_c_35 : IVec S_ 32 := constantI S_ 32 50000#32
  let main_v91 : IVec S2x1600000 32 := broadcastInDim S2x1600000 ![] bcast_S_S2x1600000 main_c_35
  let main_v92 : IVec S2x1600000 1 := cmpi .slt main_arg1 main_v91
  let main_v93 : IVec S2x1600000 1 := andi main_v90 main_v92
  let main_c_36 : IVec S_ 1 := constantI S_ 1 1#1
  let main_v94 : IVec S_ 1 := (fun x v => Host.reduce IntOp.andi x v reducesTo_S2x1600000_S_d0_1 h_S_) main_v93 main_c_36
  let main_v95 : IVec S_ 1 := andi main_v88 main_v94
  main_v95

def fn_part4 {F : FTy → Type} [FloatOps F] (main_arg1 : IVec S2x1600000 32) (main_arg16 : FVec F S64x64 .f32) (main_arg17 : FVec F S64 .f32) (main_arg18 : FVec F S64x2 .f32) (main_arg19 : FVec F S2 .f32) (main_v63 : IVec S_ 1) (main_v67 : IVec S_ 1) : IVec S_ 1 :=
  let main_v68 : IVec S_ 1 := andi main_v63 main_v67
  let main_v69 : FVec F S64x64 .f32 := Host.absf main_arg16
  let main_cst_26 : FVec F S_ .f32 := constant S_ .f32 0x7F800000#32
  let main_v70 : FVec F S64x64 .f32 := broadcastInDim S64x64 ![] bcast_S_S64x64 main_cst_26
  let main_v71 : IVec S64x64 1 := cmpf .olt main_v69 main_v70
  let main_c_27 : IVec S_ 1 := constantI S_ 1 1#1
  let main_v72 : IVec S_ 1 := (fun x v => Host.reduce IntOp.andi x v reducesTo_S64x64_S_d0_1 h_S_) main_v71 main_c_27
  let main_v73 : IVec S_ 1 := andi main_v68 main_v72
  let main_v74 : FVec F S64 .f32 := Host.absf main_arg17
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64x2 .f32 := Host.absf main_arg18
  let main_cst_30 : FVec F S_ .f32 := constant S_ .f32 0x7F800000#32
  let main_v80 : FVec F S64x2 .f32 := broadcastInDim S64x2 ![] bcast_S_S64x2 main_cst_30
  let main_v81 : IVec S64x2 1 := cmpf .olt main_v79 main_v80
  let main_c_31 : IVec S_ 1 := constantI S_ 1 1#1
  let main_v82 : IVec S_ 1 := (fun x v => Host.reduce IntOp.andi x v reducesTo_S64x2_S_d0_1 h_S_) main_v81 main_c_31
  let main_v83 : IVec S_ 1 := andi main_v78 main_v82
  let main_v84 : FVec F S2 .f32 := Host.absf main_arg19
  let main_cst_32 : FVec F S_ .f32 := constant S_ .f32 0x7F800000#32
  fn_part5 (F := F) main_arg1 main_v83 main_v84 main_cst_32

def fn_part3 {F : FTy → Type} [FloatOps F] (main_arg1 : IVec S2x1600000 32) (main_arg13 : FVec F S64 .f32) (main_arg14 : FVec F S64x64 .f32) (main_arg15 : FVec F S64 .f32) (main_arg16 : FVec F S64x64 .f32) (main_arg17 : FVec F S64 .f32) (main_arg18 : FVec F S64x2 .f32) (main_arg19 : FVec F S2 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x64 .f32 := Host.absf main_arg14
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64 .f32 := Host.absf main_arg15
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg1 main_arg16 main_arg17 main_arg18 main_arg19 main_v63 main_v67

def fn_part2 {F : FTy → Type} [FloatOps F] (main_arg1 : IVec S2x1600000 32) (main_arg9 : FVec F S64 .f32) (main_arg10 : FVec F S64x64 .f32) (main_arg11 : FVec F S64 .f32) (main_arg12 : FVec F S64x64 .f32) (main_arg13 : FVec F S64 .f32) (main_arg14 : FVec F S64x64 .f32) (main_arg15 : FVec F S64 .f32) (main_arg16 : FVec F S64x64 .f32) (main_arg17 : FVec F S64 .f32) (main_arg18 : FVec F S64x2 .f32) (main_arg19 : FVec F S2 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg10
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg12
  let main_cst_18 : FVec F S_ .f32 := constant S_ .f32 0x7F800000#32
  let main_v50 : FVec F S64x64 .f32 := broadcastInDim S64x64 ![] bcast_S_S64x64 main_cst_18
  fn_part3 (F := F) main_arg1 main_arg13 main_arg14 main_arg15 main_arg16 main_arg17 main_arg18 main_arg19 main_v48 main_v49 main_v50

def fn_part1 {F : FTy → Type} [FloatOps F] (main_arg1 : IVec S2x1600000 32) (main_arg6 : FVec F S64x64 .f32) (main_arg7 : FVec F S64 .f32) (main_arg8 : FVec F S65x64 .f32) (main_arg9 : FVec F S64 .f32) (main_arg10 : FVec F S64x64 .f32) (main_arg11 : FVec F S64 .f32) (main_arg12 : FVec F S64x64 .f32) (main_arg13 : FVec F S64 .f32) (main_arg14 : FVec F S64x64 .f32) (main_arg15 : FVec F S64 .f32) (main_arg16 : FVec F S64x64 .f32) (main_arg17 : FVec F S64 .f32) (main_arg18 : FVec F S64x2 .f32) (main_arg19 : FVec F S2 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S65x64 .f32 := Host.absf main_arg8
  let main_cst_10 : FVec F S_ .f32 := constant S_ .f32 0x7F800000#32
  let main_v30 : FVec F S65x64 .f32 := broadcastInDim S65x64 ![] bcast_S_S65x64 main_cst_10
  let main_v31 : IVec S65x64 1 := cmpf .olt main_v29 main_v30
  let main_c_11 : IVec S_ 1 := constantI S_ 1 1#1
  let main_v32 : IVec S_ 1 := (fun x v => Host.reduce IntOp.andi x v reducesTo_S65x64_S_d0_1 h_S_) main_v31 main_c_11
  let main_v33 : IVec S_ 1 := andi main_v28 main_v32
  fn_part2 (F := F) main_arg1 main_arg9 main_arg10 main_arg11 main_arg12 main_arg13 main_arg14 main_arg15 main_arg16 main_arg17 main_arg18 main_arg19 main_v33

def fn {F : FTy → Type} [FloatOps F] (main_arg0 : FVec F S50000x1 .f32) (main_arg1 : IVec S2x1600000 32) (main_arg2 : FVec F S1600000x3 .f32) (main_arg3 : IVec S50000 32) (main_arg4 : FVec F S5x64 .f32) (main_arg5 : FVec F S64 .f32) (main_arg6 : FVec F S64x64 .f32) (main_arg7 : FVec F S64 .f32) (main_arg8 : FVec F S65x64 .f32) (main_arg9 : FVec F S64 .f32) (main_arg10 : FVec F S64x64 .f32) (main_arg11 : FVec F S64 .f32) (main_arg12 : FVec F S64x64 .f32) (main_arg13 : FVec F S64 .f32) (main_arg14 : FVec F S64x64 .f32) (main_arg15 : FVec F S64 .f32) (main_arg16 : FVec F S64x64 .f32) (main_arg17 : FVec F S64 .f32) (main_arg18 : FVec F S64x2 .f32) (main_arg19 : FVec F S2 .f32) : IVec S_ 1 :=
  let main_v0 : FVec F S50000x1 .f32 := Host.absf main_arg0
  let main_cst : FVec F S_ .f32 := constant S_ .f32 0x7F800000#32
  let main_v1 : FVec F S50000x1 .f32 := broadcastInDim S50000x1 ![] bcast_S_S50000x1 main_cst
  let main_v2 : IVec S50000x1 1 := cmpf .olt main_v0 main_v1
  let main_c : IVec S_ 1 := constantI S_ 1 1#1
  let main_v3 : IVec S_ 1 := (fun x v => Host.reduce IntOp.andi x v reducesTo_S50000x1_S_d0_1 h_S_) main_v2 main_c
  let main_v4 : FVec F S1600000x3 .f32 := Host.absf main_arg2
  let main_cst_0 : FVec F S_ .f32 := constant S_ .f32 0x7F800000#32
  let main_v5 : FVec F S1600000x3 .f32 := broadcastInDim S1600000x3 ![] bcast_S_S1600000x3 main_cst_0
  let main_v6 : IVec S1600000x3 1 := cmpf .olt main_v4 main_v5
  let main_c_1 : IVec S_ 1 := constantI S_ 1 1#1
  let main_v7 : IVec S_ 1 := (fun x v => Host.reduce IntOp.andi x v reducesTo_S1600000x3_S_d0_1 h_S_) main_v6 main_c_1
  let main_v8 : IVec S_ 1 := andi main_v3 main_v7
  let main_v9 : FVec F S5x64 .f32 := Host.absf main_arg4
  let main_cst_2 : FVec F S_ .f32 := constant S_ .f32 0x7F800000#32
  let main_v10 : FVec F S5x64 .f32 := broadcastInDim S5x64 ![] bcast_S_S5x64 main_cst_2
  let main_v11 : IVec S5x64 1 := cmpf .olt main_v9 main_v10
  let main_c_3 : IVec S_ 1 := constantI S_ 1 1#1
  let main_v12 : IVec S_ 1 := (fun x v => Host.reduce IntOp.andi x v reducesTo_S5x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_arg6 main_arg7 main_arg8 main_arg9 main_arg10 main_arg11 main_arg12 main_arg13 main_arg14 main_arg15 main_arg16 main_arg17 main_arg18 main_arg19 main_v13 main_v16
-- ==== Kernel.lean ====
abbrev S50000x1 : Shape := ⟨2, ![50000, 1]⟩
abbrev S2x1600000 : Shape := ⟨2, ![2, 1600000]⟩
abbrev S1600000x3 : Shape := ⟨2, ![1600000, 3]⟩
abbrev S50000 : Shape := ⟨1, ![50000]⟩
abbrev S5x64 : Shape := ⟨2, ![5, 64]⟩
abbrev S64 : Shape := ⟨1, ![64]⟩
abbrev S64x64 : Shape := ⟨2, ![64, 64]⟩
abbrev S65x64 : Shape := ⟨2, ![65, 64]⟩
abbrev S64x2 : Shape := ⟨2, ![64, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x5 : Shape := ⟨2, ![1600000, 5]⟩
abbrev S1600000x64 : Shape := ⟨2, ![1600000, 64]⟩
abbrev S16000x5 : Shape := ⟨2, ![16000, 5]⟩
abbrev S16000x64 : Shape := ⟨2, ![16000, 64]⟩
abbrev S1x64 : Shape := ⟨2, ![1, 64]⟩
abbrev S50000x64 : Shape := ⟨2, ![50000, 64]⟩
abbrev S50000x65 : Shape := ⟨2, ![50000, 65]⟩
abbrev S16 : Shape := ⟨1, ![16]⟩
abbrev S1x16 : Shape := ⟨2, ![1, 16]⟩
abbrev S50000x16 : Shape := ⟨2, ![50000, 16]⟩
abbrev S16x2 : Shape := ⟨2, ![16, 2]⟩
abbrev S10000x65 : Shape := ⟨2, ![10000, 65]⟩
abbrev S10000x16 : Shape := ⟨2, ![10000, 16]⟩
abbrev S16x64 : Shape := ⟨2, ![16, 64]⟩
abbrev S10000x64 : Shape := ⟨2, ![10000, 64]⟩
abbrev S1x2 : Shape := ⟨2, ![1, 2]⟩

abbrev nBuf : Space → Nat
  | .hbm => 85
  | .vmem => 26
  | .smem => 0
  | _ => 0

abbrev bufTy : (tb : Table) → Fin (tcTables nBuf tb) → BufTy
  | .hbm, ⟨0, _⟩ => ⟨S50000x1, .f32⟩
  | .hbm, ⟨1, _⟩ => ⟨S2x1600000, .i32⟩
  | .hbm, ⟨2, _⟩ => ⟨S1600000x3, .f32⟩
  | .hbm, ⟨3, _⟩ => ⟨S50000, .i32⟩
  | .hbm, ⟨4, _⟩ => ⟨S5x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S65x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64x64, .f32⟩
  | .hbm, ⟨13, _⟩ => ⟨S64, .f32⟩
  | .hbm, ⟨14, _⟩ => ⟨S64x64, .f32⟩
  | .hbm, ⟨15, _⟩ => ⟨S64, .f32⟩
  | .hbm, ⟨16, _⟩ => ⟨S64x64, .f32⟩
  | .hbm, ⟨17, _⟩ => ⟨S64, .f32⟩
  | .hbm, ⟨18, _⟩ => ⟨S64x2, .f32⟩
  | .hbm, ⟨19, _⟩ => ⟨S2, .f32⟩
  | .hbm, ⟨20, _⟩ => ⟨S1x1600000, .i32⟩
  | .hbm, ⟨21, _⟩ => ⟨S1600000, .i32⟩
  | .hbm, ⟨22, _⟩ => ⟨S1x1600000, .i32⟩
  | .hbm, ⟨23, _⟩ => ⟨S1600000, .i32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1, .i32⟩
  | .hbm, ⟨33, _⟩ => ⟨S_, .i32⟩
  | .hbm, ⟨34, _⟩ => ⟨S1600000x1, .i32⟩
  | .hbm, ⟨35, _⟩ => ⟨S1600000x1, .i1⟩
  | .hbm, ⟨36, _⟩ => ⟨S1x1, .i32⟩
  | .hbm, ⟨37, _⟩ => ⟨S1600000x1, .i32⟩
  | .hbm, ⟨38, _⟩ => ⟨S1600000x1, .i1⟩
  | .hbm, ⟨39, _⟩ => ⟨S1600000x1, .i1⟩
  | .hbm, ⟨40, _⟩ => ⟨S_, .i1⟩
  | .hbm, ⟨41, _⟩ => ⟨S1600000, .i1⟩
  | .hbm, ⟨42, _⟩ => ⟨S1600000x1, .f32⟩
  | .hbm, ⟨43, _⟩ => ⟨S1600000x1, .i1⟩
  | .hbm, ⟨44, _⟩ => ⟨S_, .f32⟩
  | .hbm, ⟨45, _⟩ => ⟨S1600000x1, .f32⟩
  | .hbm, ⟨46, _⟩ => ⟨S1600000x1, .f32⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1, .i32⟩
  | .hbm, ⟨56, _⟩ => ⟨S_, .i32⟩
  | .hbm, ⟨57, _⟩ => ⟨S1600000x1, .i32⟩
  | .hbm, ⟨58, _⟩ => ⟨S1600000x1, .i1⟩
  | .hbm, ⟨59, _⟩ => ⟨S1x1, .i32⟩
  | .hbm, ⟨60, _⟩ => ⟨S1600000x1, .i32⟩
  | .hbm, ⟨61, _⟩ => ⟨S1600000x1, .i1⟩
  | .hbm, ⟨62, _⟩ => ⟨S1600000x1, .i1⟩
  | .hbm, ⟨63, _⟩ => ⟨S_, .i1⟩
  | .hbm, ⟨64, _⟩ => ⟨S1600000, .i1⟩
  | .hbm, ⟨65, _⟩ => ⟨S1600000x1, .f32⟩
  | .hbm, ⟨66, _⟩ => ⟨S1600000x1, .i1⟩
  | .hbm, ⟨67, _⟩ => ⟨S_, .f32⟩
  | .hbm, ⟨68, _⟩ => ⟨S1600000x1, .f32⟩
  | .hbm, ⟨69, _⟩ => ⟨S1600000x1, .f32⟩
  | .hbm, ⟨70, _⟩ => ⟨S1600000x5, .f32⟩
  | .hbm, ⟨71, _⟩ => ⟨S1600000x64, .f32⟩
  | .hbm, ⟨72, _⟩ => ⟨S_, .f32⟩
  | .hbm, ⟨73, _⟩ => ⟨S50000x64, .f32⟩
  | .hbm, ⟨74, _⟩ => ⟨S1600000x1, .i32⟩
  | .hbm, ⟨75, _⟩ => ⟨S50000x64, .f32⟩
  | .hbm, ⟨76, _⟩ => ⟨S50000x65, .f32⟩
  | .hbm, ⟨77, _⟩ => ⟨S16, .i32⟩
  | .hbm, ⟨78, _⟩ => ⟨S50000x1, .i32⟩
  | .hbm, ⟨79, _⟩ => ⟨S1x16, .i32⟩
  | .hbm, ⟨80, _⟩ => ⟨S50000x16, .i32⟩
  | .hbm, ⟨81, _⟩ => ⟨S50000x16, .i32⟩
  | .hbm, ⟨82, _⟩ => ⟨S50000x16, .i1⟩
  | .hbm, ⟨83, _⟩ => ⟨S50000x16, .f32⟩
  | .hbm, ⟨84, _⟩ => ⟨S16x2, .f32⟩
  | .local _ .vmem, ⟨0, _⟩ => ⟨S16000x5, .f32⟩
  | .local _ .vmem, ⟨1, _⟩ => ⟨S16000x5, .f32⟩
  | .local _ .vmem, ⟨2, _⟩ => ⟨S5x64, .f32⟩
  | .local _ .vmem, ⟨3, _⟩ => ⟨S64, .f32⟩
  | .local _ .vmem, ⟨4, _⟩ => ⟨S64x64, .f32⟩
  | .local _ .vmem, ⟨5, _⟩ => ⟨S64, .f32⟩
  | .local _ .vmem, ⟨6, _⟩ => ⟨S16000x64, .f32⟩
  | .local _ .vmem, ⟨7, _⟩ => ⟨S16000x64, .f32⟩
  | .local _ .vmem, ⟨8, _⟩ => ⟨S10000x65, .f32⟩
  | .local _ .vmem, ⟨9, _⟩ => ⟨S10000x65, .f32⟩
  | .local _ .vmem, ⟨10, _⟩ => ⟨S10000x16, .f32⟩
  | .local _ .vmem, ⟨11, _⟩ => ⟨S10000x16, .f32⟩
  | .local _ .vmem, ⟨12, _⟩ => ⟨S65x64, .f32⟩
  | .local _ .vmem, ⟨13, _⟩ => ⟨S64, .f32⟩
  | .local _ .vmem, ⟨14, _⟩ => ⟨S64x64, .f32⟩
  | .local _ .vmem, ⟨15, _⟩ => ⟨S64, .f32⟩
  | .local _ .vmem, ⟨16, _⟩ => ⟨S64x64, .f32⟩
  | .local _ .vmem, ⟨17, _⟩ => ⟨S64, .f32⟩
  | .local _ .vmem, ⟨18, _⟩ => ⟨S64x64, .f32⟩
  | .local _ .vmem, ⟨19, _⟩ => ⟨S64, .f32⟩
  | .local _ .vmem, ⟨20, _⟩ => ⟨S64x64, .f32⟩
  | .local _ .vmem, ⟨21, _⟩ => ⟨S64, .f32⟩
  | .local _ .vmem, ⟨22, _⟩ => ⟨S64x2, .f32⟩
  | .local _ .vmem, ⟨23, _⟩ => ⟨S2, .f32⟩
  | .local _ .vmem, ⟨24, _⟩ => ⟨S16x2, .f32⟩
  | .local _ .vmem, ⟨25, _⟩ => ⟨S16x64, .f32⟩
  | _, _ => ⟨S50000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_call0_c : Ref sig .tc := ⟨.hbm, 24, rfl⟩
abbrev main_call0_v0 : Ref sig .tc := ⟨.hbm, 25, rfl⟩
abbrev main_call0_v1 : Ref sig .tc := ⟨.hbm, 26, rfl⟩
abbrev main_call0_c_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_c_1 : Ref sig .tc := ⟨.hbm, 32, rfl⟩
abbrev main_call0_c_2 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_3 : Ref sig .tc := ⟨.hbm, 40, rfl⟩
abbrev main_call0_v12 : Ref sig .tc := ⟨.hbm, 41, rfl⟩
abbrev main_call0_v13 : Ref sig .tc := ⟨.hbm, 42, rfl⟩
abbrev main_call0_v14 : Ref sig .tc := ⟨.hbm, 43, rfl⟩
abbrev main_call0_cst : Ref sig .tc := ⟨.hbm, 44, rfl⟩
abbrev main_call0_v15 : Ref sig .tc := ⟨.hbm, 45, rfl⟩
abbrev main_v4 : Ref sig .tc := ⟨.hbm, 46, rfl⟩
abbrev main_call1_c : Ref sig .tc := ⟨.hbm, 47, rfl⟩
abbrev main_call1_v0 : Ref sig .tc := ⟨.hbm, 48, rfl⟩
abbrev main_call1_v1 : Ref sig .tc := ⟨.hbm, 49, rfl⟩
abbrev main_call1_c_0 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_v5 : Ref sig .tc := ⟨.hbm, 54, rfl⟩
abbrev main_call1_c_1 : Ref sig .tc := ⟨.hbm, 55, rfl⟩
abbrev main_call1_c_2 : Ref sig .tc := ⟨.hbm, 56, rfl⟩
abbrev main_call1_v6 : Ref sig .tc := ⟨.hbm, 57, rfl⟩
abbrev main_call1_v7 : Ref sig .tc := ⟨.hbm, 58, rfl⟩
abbrev main_call1_v8 : Ref sig .tc := ⟨.hbm, 59, rfl⟩
abbrev main_call1_v9 : Ref sig .tc := ⟨.hbm, 60, rfl⟩
abbrev main_call1_v10 : Ref sig .tc := ⟨.hbm, 61, rfl⟩
abbrev main_call1_v11 : Ref sig .tc := ⟨.hbm, 62, rfl⟩
abbrev main_call1_c_3 : Ref sig .tc := ⟨.hbm, 63, rfl⟩
abbrev main_call1_v12 : Ref sig .tc := ⟨.hbm, 64, rfl⟩
abbrev main_call1_v13 : Ref sig .tc := ⟨.hbm, 65, rfl⟩
abbrev main_call1_v14 : Ref sig .tc := ⟨.hbm, 66, rfl⟩
abbrev main_call1_cst : Ref sig .tc := ⟨.hbm, 67, rfl⟩
abbrev main_call1_v15 : Ref sig .tc := ⟨.hbm, 68, rfl⟩
abbrev main_v5 : Ref sig .tc := ⟨.hbm, 69, rfl⟩
abbrev main_v6 : Ref sig .tc := ⟨.hbm, 70, rfl⟩
abbrev main_v7 : Ref sig .tc := ⟨.hbm, 71, rfl⟩
abbrev main_cst : Ref sig .tc := ⟨.hbm, 72, rfl⟩
abbrev main_v8 : Ref sig .tc := ⟨.hbm, 73, rfl⟩
abbrev main_v9 : Ref sig .tc := ⟨.hbm, 74, rfl⟩
abbrev main_v10 : Ref sig .tc := ⟨.hbm, 75, rfl⟩
abbrev main_v11 : Ref sig .tc := ⟨.hbm, 76, rfl⟩
abbrev main_v12 : Ref sig .tc := ⟨.hbm, 77, rfl⟩
abbrev main_v13 : Ref sig .tc := ⟨.hbm, 78, rfl⟩
abbrev main_v14 : Ref sig .tc := ⟨.hbm, 79, rfl⟩
abbrev main_v15 : Ref sig .tc := ⟨.hbm, 80, rfl⟩
abbrev main_v16 : Ref sig .tc := ⟨.hbm, 81, rfl⟩
abbrev main_v17 : Ref sig .tc := ⟨.hbm, 82, rfl⟩
abbrev main_v18 : Ref sig .tc := ⟨.hbm, 83, rfl⟩
abbrev main_v19 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg9_0 : Ref sig .tc := ⟨.vmem, 19, rfl⟩
abbrev cc1_stg10_0 : Ref sig .tc := ⟨.vmem, 20, rfl⟩
abbrev cc1_stg11_0 : Ref sig .tc := ⟨.vmem, 21, rfl⟩
abbrev cc1_stg12_0 : Ref sig .tc := ⟨.vmem, 22, rfl⟩
abbrev cc1_stg13_0 : Ref sig .tc := ⟨.vmem, 23, rfl⟩
abbrev cc1_stg14_0 : Ref sig .tc := ⟨.vmem, 24, rfl⟩
abbrev cc1_scratch0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem9_0 : DmaSem sig := 19
abbrev cc1_sem10_0 : DmaSem sig := 20
abbrev cc1_sem11_0 : DmaSem sig := 21
abbrev cc1_sem12_0 : DmaSem sig := 22
abbrev cc1_sem13_0 : DmaSem sig := 23
abbrev cc1_sem14_0 : DmaSem sig := 24

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16000x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S16000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![5], ![false]⟩

def k1_cond2 (i : grid1.Coords) : BitVec 1 :=
  let arg0 : BitVec 32 := BitVec.ofNat 32 (i 0).val
  let c4_i32 : BitVec 32 := 4#32
  let v33 : BitVec 1 := Scalar.cmpi .eq arg0 c4_i32
  let v34 : BitVec 32 := Scalar.extui v33
  let c0_i32_17 : BitVec 32 := 0#32
  let v35 : BitVec 1 := Scalar.cmpi .ne v34 c0_i32_17
  v35

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S10000x65 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S65x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S64x64 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S64 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S64x2 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S2 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S16x2 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  concatenates_S1600000x1_S1600000x1_S1600000x3_S1600000x5_d1 : Shape.Concatenates [S1600000x1, S1600000x1, S1600000x3] S1600000x5 1
  inb_S16000x5_S16000x5_0_0 : ∀ a, (![0, 0] : Fin 2 → Nat) a + S16000x5.size a ≤ S16000x5.size a
  h_S16000x5 : 0 < S16000x5.numel
  shapeCasts_S16000x5_S16000x5 : S16000x5.ShapeCasts S16000x5
  bitsLt_bf16_f32 : FTy.bits .bf16 < FTy.bits .f32
  inb_S5x64_S5x64_0_0 : ∀ a, (![0, 0] : Fin 2 → Nat) a + S5x64.size a ≤ S5x64.size a
  h_S5x64 : 0 < S5x64.numel
  inb_S64_S64_0 : ∀ a, (![0] : Fin 1 → Nat) a + S64.size a ≤ S64.size a
  h_S64 : 0 < S64.numel
  shapeCasts_S64_S1x64 : S64.ShapeCasts S1x64
  broadcasts_S1x64_S16000x64 : S1x64.Broadcasts S16000x64
  inb_S64x64_S64x64_0_0 : ∀ a, (![0, 0] : Fin 2 → Nat) a + S64x64.size a ≤ S64x64.size a
  h_S64x64 : 0 < S64x64.numel
  inb_S16000x64_S16000x64_0_0 : ∀ a, (![0, 0] : Fin 2 → Nat) a + S16000x64.size a ≤ S16000x64.size a
  h_S16000x64 : 0 < S16000x64.numel
  bcast_S_S50000x64 : S_.BroadcastsInDim S50000x64 (![] : Fin 0 → Fin S50000x64.rank)
  concatenates_S50000x1_S50000x64_S50000x65_d1 : Shape.Concatenates [S50000x1, S50000x64] S50000x65 1
  bcast_S50000_S50000x1_0 : S50000.BroadcastsInDim S50000x1 (![0] : Fin 1 → Fin S50000x1.rank)
  bcast_S16_S1x16_1 : S16.BroadcastsInDim S1x16 (![1] : Fin 1 → Fin S1x16.rank)
  bcast_S50000x1_S50000x16_0_1 : S50000x1.BroadcastsInDim S50000x16 (![0, 1] : Fin 2 → Fin S50000x16.rank)
  bcast_S1x16_S50000x16_0_1 : S1x16.BroadcastsInDim S50000x16 (![0, 1] : Fin 2 → Fin S50000x16.rank)
  inb_S16x64_S16x64_0_0 : ∀ a, (![0, 0] : Fin 2 → Nat) a + S16x64.size a ≤ S16x64.size a
  h_S16x64 : 0 < S16x64.numel
  shapeCasts_S16x64_S16x64 : S16x64.ShapeCasts S16x64
  inb_S10000x65_S10000x65_0_0 : ∀ a, (![0, 0] : Fin 2 → Nat) a + S10000x65.size a ≤ S10000x65.size a
  h_S10000x65 : 0 < S10000x65.numel
  shapeCasts_S10000x65_S10000x65 : S10000x65.ShapeCasts S10000x65
  inb_S65x64_S65x64_0_0 : ∀ a, (![0, 0] : Fin 2 → Nat) a + S65x64.size a ≤ S65x64.size a
  h_S65x64 : 0 < S65x64.numel
  broadcasts_S1x64_S10000x64 : S1x64.Broadcasts S10000x64
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  broadcasts_S1x64_S16x64 : S1x64.Broadcasts S16x64
  inb_S64x2_S64x2_0_0 : ∀ a, (![0, 0] : Fin 2 → Nat) a + S64x2.size a ≤ S64x2.size a
  h_S64x2 : 0 < S64x2.numel
  inb_S2_S2_0 : ∀ a, (![0] : Fin 1 → Nat) a + S2.size a ≤ S2.size a
  h_S2 : 0 < S2.numel
  shapeCasts_S2_S1x2 : S2.ShapeCasts S1x2
  broadcasts_S1x2_S16x2 : S1x2.Broadcasts S16x2
  inb_S16x2_S16x2_0_0 : ∀ a, (![0, 0] : Fin 2 → Nat) a + S16x2.size a ≤ S16x2.size a
  h_S16x2 : 0 < S16x2.numel
  gather_S50000x1_S1600000x1_S1600000x1_1_0_n_n_0_1_11_wf : GatherDims.WF S50000x1 S1600000x1 S1600000x1 [1] [0] [] [0] [] 1 ![1, 1]
  dot_S16000x5_S5x64_S16000x64_1_0_0_1_n_n_wf : DotDims.WF S16000x5 S5x64 S16000x64 [1] [0] [0] [1] [] []
  dot_S16000x64_S64x64_S16000x64_1_0_0_1_n_n_wf : DotDims.WF S16000x64 S64x64 S16000x64 [1] [0] [0] [1] [] []
  scatter_S50000x64_S1600000x1_S1600000x64_1_0_0_1_wf : ScatterDims.WF S50000x64 S1600000x1 S1600000x64 [1] [0] [0] 1
  dot_S10000x65_S65x64_S10000x64_1_0_0_1_n_n_wf : DotDims.WF S10000x65 S65x64 S10000x64 [1] [0] [0] [1] [] []
  dot_S10000x64_S64x64_S10000x64_1_0_0_1_n_n_wf : DotDims.WF S10000x64 S64x64 S10000x64 [1] [0] [0] [1] [] []
  dot_S10000x16_S10000x64_S16x64_0_0_1_1_n_n_wf : DotDims.WF S10000x16 S10000x64 S16x64 [0] [0] [1] [1] [] []
  dot_S16x64_S64x64_S16x64_1_0_0_1_n_n_wf : DotDims.WF S16x64 S64x64 S16x64 [1] [0] [0] [1] [] []
  dot_S16x64_S64x2_S16x2_1_0_0_1_n_n_wf : DotDims.WF S16x64 S64x2 S16x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16000x5.size a ≤ S1600000x5.size a
  hwx0_0 : ∀ i : grid0.Coords, EltTy.bits .f32 = 32 ∨ (Rect.block (s := S1600000x5) S16000x5.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5x64.size a ≤ S5x64.size a
  hwx0_1 : ∀ i : grid0.Coords, EltTy.bits .f32 = 32 ∨ (Rect.block (s := S5x64) S5x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16000x64.size a ≤ S1600000x64.size a
  hwx0_5 : ∀ i : grid0.Coords, EltTy.bits .f32 = 32 ∨ (Rect.block (s := S1600000x64) S16000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x65.size a ≤ S50000x65.size a
  hwx1_0 : ∀ i : grid1.Coords, EltTy.bits .f32 = 32 ∨ (Rect.block (s := S50000x65) S10000x65.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x16.size a ≤ S50000x16.size a
  hwx1_1 : ∀ i : grid1.Coords, EltTy.bits .f32 = 32 ∨ (Rect.block (s := S50000x16) S10000x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S65x64.size a ≤ S65x64.size a
  hwx1_2 : ∀ i : grid1.Coords, EltTy.bits .f32 = 32 ∨ (Rect.block (s := S65x64) S65x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64.size a ≤ S64.size a
  hwx1_5 : ∀ i : grid1.Coords, EltTy.bits .f32 = 32 ∨ (Rect.block (s := S64) S64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x64.size a ≤ S64x64.size a
  hwx1_6 : ∀ i : grid1.Coords, EltTy.bits .f32 = 32 ∨ (Rect.block (s := S64x64) S64x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64.size a ≤ S64.size a
  hwx1_7 : ∀ i : grid1.Coords, EltTy.bits .f32 = 32 ∨ (Rect.block (s := S64) S64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S64x64.size a ≤ S64x64.size a
  hwx1_8 : ∀ i : grid1.Coords, EltTy.bits .f32 = 32 ∨ (Rect.block (s := S64x64) S64x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S64.size a ≤ S64.size a
  hwx1_9 : ∀ i : grid1.Coords, EltTy.bits .f32 = 32 ∨ (Rect.block (s := S64) S64.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S64x64.size a ≤ S64x64.size a
  hwx1_10 : ∀ i : grid1.Coords, EltTy.bits .f32 = 32 ∨ (Rect.block (s := S64x64) S64x64.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S64.size a ≤ S64.size a
  hwx1_11 : ∀ i : grid1.Coords, EltTy.bits .f32 = 32 ∨ (Rect.block (s := S64) S64.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S64x2.size a ≤ S64x2.size a
  hwx1_12 : ∀ i : grid1.Coords, EltTy.bits .f32 = 32 ∨ (Rect.block (s := S64x2) S64x2.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S2.size a ≤ S2.size a
  hwx1_13 : ∀ i : grid1.Coords, EltTy.bits .f32 = 32 ∨ (Rect.block (s := S2) S2.size (cc1_transform_13 i) (hinb1_13 i)).WholeWords (EltTy.packing .f32)
  hstage1_14 : ∀ j, (stage1_14 j).IsWhole
  nbuf1_14 : grid1.bufCount reads1_14 true = 1
  hreads1_14 : ∀ i i' : grid1.Coords, (∀ a, reads1_14 a = true → i a = i' a) → cc1_transform_14 i = cc1_transform_14 i'
  hinb1_14 : ∀ (i : grid1.Coords) a, (cc1_transform_14 i a + 1) * S16x2.size a ≤ S16x2.size a
  hwx1_14 : ∀ i : grid1.Coords, EltTy.bits .f32 = 32 ∨ (Rect.block (s := S16x2) S16x2.size (cc1_transform_14 i) (hinb1_14 i)).WholeWords (EltTy.packing .f32)

variable [Facts₀]

def gather_S50000x1_S1600000x1_S1600000x1_1_0_n_n_0_1_11 : GatherDims S50000x1 S1600000x1 S1600000x1 where
  offsetDims := [1]
  collapsedSliceDims := [0]
  operandBatchingDims := []
  startIndicesBatchingDims := []
  startIndexMap := [0]
  indexVectorDim := 1
  sliceSizes := ![1, 1]
  wf := gather_S50000x1_S1600000x1_S1600000x1_1_0_n_n_0_1_11_wf
def dot_S16000x5_S5x64_S16000x64_1_0_0_1_n_n : DotDims S16000x5 S5x64 S16000x64 where
  lhsContracting := [1]
  rhsContracting := [0]
  lhsNonContracting := [0]
  rhsNonContracting := [1]
  lhsBatch := []
  rhsBatch := []
  wf := dot_S16000x5_S5x64_S16000x64_1_0_0_1_n_n_wf
def dot_S16000x64_S64x64_S16000x64_1_0_0_1_n_n : DotDims S16000x64 S64x64 S16000x64 where
  lhsContracting := [1]
  rhsContracting := [0]
  lhsNonContracting := [0]
  rhsNonContracting := [1]
  lhsBatch := []
  rhsBatch := []
  wf := dot_S16000x64_S64x64_S16000x64_1_0_0_1_n_n_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def dot_S10000x65_S65x64_S10000x64_1_0_0_1_n_n : DotDims S10000x65 S65x64 S10000x64 where
  lhsContracting := [1]
  rhsContracting := [0]
  lhsNonContracting := [0]
  rhsNonContracting := [1]
  lhsBatch := []
  rhsBatch := []
  wf := dot_S10000x65_S65x64_S10000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x16_S10000x64_S16x64_0_0_1_1_n_n : DotDims S10000x16 S10000x64 S16x64 where
  lhsContracting := [0]
  rhsContracting := [0]
  lhsNonContracting := [1]
  rhsNonContracting := [1]
  lhsBatch := []
  rhsBatch := []
  wf := dot_S10000x16_S10000x64_S16x64_0_0_1_1_n_n_wf
def dot_S16x64_S64x64_S16x64_1_0_0_1_n_n : DotDims S16x64 S64x64 S16x64 where
  lhsContracting := [1]
  rhsContracting := [0]
  lhsNonContracting := [0]
  rhsNonContracting := [1]
  lhsBatch := []
  rhsBatch := []
  wf := dot_S16x64_S64x64_S16x64_1_0_0_1_n_n_wf
def dot_S16x64_S64x2_S16x2_1_0_0_1_n_n : DotDims S16x64 S64x2 S16x2 where
  lhsContracting := [1]
  rhsContracting := [0]
  lhsNonContracting := [0]
  rhsNonContracting := [1]
  lhsBatch := []
  rhsBatch := []
  wf := dot_S16x64_S64x2_S16x2_1_0_0_1_n_n_wf

abbrev win0_0 : Pipeline.Window sig grid0 :=
  Pipeline.Window.ofSpec (Memref.whole main_v6) S16000x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S5x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S16000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v11) S10000x65.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S10000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S65x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg11) S64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg12) S64x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg13) S64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg14) S64x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg15) S64.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_arg16) S64x64.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_arg17) S64.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_arg18) S64x2.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_arg19) S2.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_v19) S16x2.size cc1_transform_14 reads1_14 true true 1 stage1_14 sem1_14
    hrank1 hreads1_14 hinb1_14 nbuf1_14 (Memref.isWhole_whole _) hwx1_14 hstage1_14

abbrev win1 : Fin 15 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | ⟨_ + 15, h⟩ => absurd h (Nat.not_lt.2 (Nat.le_add_left _ _))
abbrev spec1 : Fin 15 → Pipeline.WinSpec sig grid1.rank := fun w => (win1 w).toWinSpec

abbrev idle1 : Fin 15 → grid1.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun i => !(k1_cond2 i == 1#1) | ⟨_ + 15, h⟩ => absurd h (Nat.not_lt.2 (Nat.le_add_left _ _))

class Facts : Prop extends Facts₀ where

variable [Facts]
-- ==== ReferenceIdeal.lean ====
abbrev S50000x1 : Shape := ⟨2, ![50000, 1]⟩
abbrev S2x1600000 : Shape := ⟨2, ![2, 1600000]⟩
abbrev S1600000x3 : Shape := ⟨2, ![1600000, 3]⟩
abbrev S50000 : Shape := ⟨1, ![50000]⟩
abbrev S5x64 : Shape := ⟨2, ![5, 64]⟩
abbrev S64 : Shape := ⟨1, ![64]⟩
abbrev S64x64 : Shape := ⟨2, ![64, 64]⟩
abbrev S65x64 : Shape := ⟨2, ![65, 64]⟩
abbrev S64x2 : Shape := ⟨2, ![64, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x5 : Shape := ⟨2, ![1600000, 5]⟩
abbrev S1600000x64 : Shape := ⟨2, ![1600000, 64]⟩
abbrev S1x64 : Shape := ⟨2, ![1, 64]⟩
abbrev S50000x64 : Shape := ⟨2, ![50000, 64]⟩
abbrev S50000x65 : Shape := ⟨2, ![50000, 65]⟩
abbrev S16x64 : Shape := ⟨2, ![16, 64]⟩
abbrev S16x2 : Shape := ⟨2, ![16, 2]⟩
abbrev S1x2 : Shape := ⟨2, ![1, 2]⟩

abbrev nBuf : Space → Nat
  | .hbm => 99
  | .vmem => 0
  | .smem => 0
  | _ => 0

abbrev bufTy : (tb : Table) → Fin (tcTables nBuf tb) → BufTy
  | .hbm, ⟨0, _⟩ => ⟨S50000x1, .f32⟩
  | .hbm, ⟨1, _⟩ => ⟨S2x1600000, .i32⟩
  | .hbm, ⟨2, _⟩ => ⟨S1600000x3, .f32⟩
  | .hbm, ⟨3, _⟩ => ⟨S50000, .i32⟩
  | .hbm, ⟨4, _⟩ => ⟨S5x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S65x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64x64, .f32⟩
  | .hbm, ⟨13, _⟩ => ⟨S64, .f32⟩
  | .hbm, ⟨14, _⟩ => ⟨S64x64, .f32⟩
  | .hbm, ⟨15, _⟩ => ⟨S64, .f32⟩
  | .hbm, ⟨16, _⟩ => ⟨S64x64, .f32⟩
  | .hbm, ⟨17, _⟩ => ⟨S64, .f32⟩
  | .hbm, ⟨18, _⟩ => ⟨S64x2, .f32⟩
  | .hbm, ⟨19, _⟩ => ⟨S2, .f32⟩
  | .hbm, ⟨20, _⟩ => ⟨S1x1600000, .i32⟩
  | .hbm, ⟨21, _⟩ => ⟨S1600000, .i32⟩
  | .hbm, ⟨22, _⟩ => ⟨S1x1600000, .i32⟩
  | .hbm, ⟨23, _⟩ => ⟨S1600000, .i32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x1, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000x1, .f32⟩
  | .hbm, ⟨42, _⟩ => ⟨S1600000x5, .f32⟩
  | .hbm, ⟨43, _⟩ => ⟨S1600000x64, .f32⟩
  | .hbm, ⟨44, _⟩ => ⟨S1x64, .f32⟩
  | .hbm, ⟨45, _⟩ => ⟨S1600000x64, .f32⟩
  | .hbm, ⟨46, _⟩ => ⟨S1600000x64, .f32⟩
  | .hbm, ⟨47, _⟩ => ⟨S_, .f32⟩
  | .hbm, ⟨48, _⟩ => ⟨S1600000x64, .f32⟩
  | .hbm, ⟨49, _⟩ => ⟨S1600000x64, .f32⟩
  | .hbm, ⟨50, _⟩ => ⟨S1600000x64, .f32⟩
  | .hbm, ⟨51, _⟩ => ⟨S1x64, .f32⟩
  | .hbm, ⟨52, _⟩ => ⟨S1600000x64, .f32⟩
  | .hbm, ⟨53, _⟩ => ⟨S1600000x64, .f32⟩
  | .hbm, ⟨54, _⟩ => ⟨S_, .f32⟩
  | .hbm, ⟨55, _⟩ => ⟨S50000x64, .f32⟩
  | .hbm, ⟨56, _⟩ => ⟨S1600000x1, .i32⟩
  | .hbm, ⟨57, _⟩ => ⟨S50000x64, .f32⟩
  | .hbm, ⟨58, _⟩ => ⟨S50000x65, .f32⟩
  | .hbm, ⟨59, _⟩ => ⟨S50000x64, .f32⟩
  | .hbm, ⟨60, _⟩ => ⟨S1x64, .f32⟩
  | .hbm, ⟨61, _⟩ => ⟨S50000x64, .f32⟩
  | .hbm, ⟨62, _⟩ => ⟨S50000x64, .f32⟩
  | .hbm, ⟨63, _⟩ => ⟨S_, .f32⟩
  | .hbm, ⟨64, _⟩ => ⟨S50000x64, .f32⟩
  | .hbm, ⟨65, _⟩ => ⟨S50000x64, .f32⟩
  | .hbm, ⟨66, _⟩ => ⟨S50000x64, .f32⟩
  | .hbm, ⟨67, _⟩ => ⟨S1x64, .f32⟩
  | .hbm, ⟨68, _⟩ => ⟨S50000x64, .f32⟩
  | .hbm, ⟨69, _⟩ => ⟨S50000x64, .f32⟩
  | .hbm, ⟨70, _⟩ => ⟨S_, .f32⟩
  | .hbm, ⟨71, _⟩ => ⟨S16x64, .f32⟩
  | .hbm, ⟨72, _⟩ => ⟨S50000x1, .i32⟩
  | .hbm, ⟨73, _⟩ => ⟨S16x64, .f32⟩
  | .hbm, ⟨74, _⟩ => ⟨S16x64, .f32⟩
  | .hbm, ⟨75, _⟩ => ⟨S1x64, .f32⟩
  | .hbm, ⟨76, _⟩ => ⟨S16x64, .f32⟩
  | .hbm, ⟨77, _⟩ => ⟨S16x64, .f32⟩
  | .hbm, ⟨78, _⟩ => ⟨S_, .f32⟩
  | .hbm, ⟨79, _⟩ => ⟨S16x64, .f32⟩
  | .hbm, ⟨80, _⟩ => ⟨S16x64, .f32⟩
  | .hbm, ⟨81, _⟩ => ⟨S16x64, .f32⟩
  | .hbm, ⟨82, _⟩ => ⟨S1x64, .f32⟩
  | .hbm, ⟨83, _⟩ => ⟨S16x64, .f32⟩
  | .hbm, ⟨84, _⟩ => ⟨S16x64, .f32⟩
  | .hbm, ⟨85, _⟩ => ⟨S_, .f32⟩
  | .hbm, ⟨86, _⟩ => ⟨S16x64, .f32⟩
  | .hbm, ⟨87, _⟩ => ⟨S16x64, .f32⟩
  | .hbm, ⟨88, _⟩ => ⟨S16x64, .f32⟩
  | .hbm, ⟨89, _⟩ => ⟨S1x64, .f32⟩
  | .hbm, ⟨90, _⟩ => ⟨S16x64, .f32⟩
  | .hbm, ⟨91, _⟩ => ⟨S16x64, .f32⟩
  | .hbm, ⟨92, _⟩ => ⟨S_, .f32⟩
  | .hbm, ⟨93, _⟩ => ⟨S16x64, .f32⟩
  | .hbm, ⟨94, _⟩ => ⟨S16x64, .f32⟩
  | .hbm, ⟨95, _⟩ => ⟨S16x2, .f32⟩
  | .hbm, ⟨96, _⟩ => ⟨S1x2, .f32⟩
  | .hbm, ⟨97, _⟩ => ⟨S16x2, .f32⟩
  | .hbm, ⟨98, _⟩ => ⟨S16x2, .f32⟩
  | _, _ => ⟨S50000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_c : Ref sig .tc := ⟨.hbm, 24, rfl⟩
abbrev main_v4 : Ref sig .tc := ⟨.hbm, 25, rfl⟩
abbrev main_v5 : Ref sig .tc := ⟨.hbm, 26, rfl⟩
abbrev main_c_0 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_c_1 : Ref sig .tc := ⟨.hbm, 33, rfl⟩
abbrev main_v11 : Ref sig .tc := ⟨.hbm, 34, rfl⟩
abbrev main_v12 : Ref sig .tc := ⟨.hbm, 35, rfl⟩
abbrev main_c_2 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_call0_cst : Ref sig .tc := ⟨.hbm, 47, rfl⟩
abbrev main_call0_v0 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_cst : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_call1_cst : Ref sig .tc := ⟨.hbm, 63, rfl⟩
abbrev main_call1_v0 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_3 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_call2_cst : Ref sig .tc := ⟨.hbm, 78, rfl⟩
abbrev main_call2_v0 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_call3_cst : Ref sig .tc := ⟨.hbm, 85, rfl⟩
abbrev main_call3_v0 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_call4_cst : Ref sig .tc := ⟨.hbm, 92, rfl⟩
abbrev main_call4_v0 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x1_S1600000x1_S1600000x3_S1600000x5_d1 : Shape.Concatenates [S1600000x1, S1600000x1, S1600000x3] S1600000x5 1
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  bcast_S_S50000x64 : S_.BroadcastsInDim S50000x64 (![] : Fin 0 → Fin S50000x64.rank)
  concatenates_S50000x1_S50000x64_S50000x65_d1 : Shape.Concatenates [S50000x1, S50000x64] S50000x65 1
  bcast_S1x64_S50000x64_0_1 : S1x64.BroadcastsInDim S50000x64 (![0, 1] : Fin 2 → Fin S50000x64.rank)
  bcast_S_S16x64 : S_.BroadcastsInDim S16x64 (![] : Fin 0 → Fin S16x64.rank)
  bcast_S50000_S50000x1_0 : S50000.BroadcastsInDim S50000x1 (![0] : Fin 1 → Fin S50000x1.rank)
  bcast_S1x64_S16x64_0_1 : S1x64.BroadcastsInDim S16x64 (![0, 1] : Fin 2 → Fin S16x64.rank)
  bcast_S2_S1x2_1 : S2.BroadcastsInDim S1x2 (![1] : Fin 1 → Fin S1x2.rank)
  bcast_S1x2_S16x2_0_1 : S1x2.BroadcastsInDim S16x2 (![0, 1] : Fin 2 → Fin S16x2.rank)
  gather_S50000x1_S1600000x1_S1600000x1_1_0_n_n_0_1_11_wf : GatherDims.WF S50000x1 S1600000x1 S1600000x1 [1] [0] [] [0] [] 1 ![1, 1]
  dot_S1600000x5_S5x64_S1600000x64_1_0_0_1_n_n_wf : DotDims.WF S1600000x5 S5x64 S1600000x64 [1] [0] [0] [1] [] []
  dot_S1600000x64_S64x64_S1600000x64_1_0_0_1_n_n_wf : DotDims.WF S1600000x64 S64x64 S1600000x64 [1] [0] [0] [1] [] []
  scatter_S50000x64_S1600000x1_S1600000x64_1_0_0_1_wf : ScatterDims.WF S50000x64 S1600000x1 S1600000x64 [1] [0] [0] 1
  dot_S50000x65_S65x64_S50000x64_1_0_0_1_n_n_wf : DotDims.WF S50000x65 S65x64 S50000x64 [1] [0] [0] [1] [] []
  dot_S50000x64_S64x64_S50000x64_1_0_0_1_n_n_wf : DotDims.WF S50000x64 S64x64 S50000x64 [1] [0] [0] [1] [] []
  scatter_S16x64_S50000x1_S50000x64_1_0_0_1_wf : ScatterDims.WF S16x64 S50000x1 S50000x64 [1] [0] [0] 1
  dot_S16x64_S64x64_S16x64_1_0_0_1_n_n_wf : DotDims.WF S16x64 S64x64 S16x64 [1] [0] [0] [1] [] []
  dot_S16x64_S64x2_S16x2_1_0_0_1_n_n_wf : DotDims.WF S16x64 S64x2 S16x2 [1] [0] [0] [1] [] []

variable [Facts₀]

def gather_S50000x1_S1600000x1_S1600000x1_1_0_n_n_0_1_11 : GatherDims S50000x1 S1600000x1 S1600000x1 where
  offsetDims := [1]
  collapsedSliceDims := [0]
  operandBatchingDims := []
  startIndicesBatchingDims := []
  startIndexMap := [0]
  indexVectorDim := 1
  sliceSizes := ![1, 1]
  wf := gather_S50000x1_S1600000x1_S1600000x1_1_0_n_n_0_1_11_wf
def dot_S1600000x5_S5x64_S1600000x64_1_0_0_1_n_n : DotDims S1600000x5 S5x64 S1600000x64 where
  lhsContracting := [1]
  rhsContracting := [0]
  lhsNonContracting := [0]
  rhsNonContracting := [1]
  lhsBatch := []
  rhsBatch := []
  wf := dot_S1600000x5_S5x64_S1600000x64_1_0_0_1_n_n_wf
def dot_S1600000x64_S64x64_S1600000x64_1_0_0_1_n_n : DotDims S1600000x64 S64x64 S1600000x64 where
  lhsContracting := [1]
  rhsContracting := [0]
  lhsNonContracting := [0]
  rhsNonContracting := [1]
  lhsBatch := []
  rhsBatch := []
  wf := dot_S1600000x64_S64x64_S1600000x64_1_0_0_1_n_n_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def dot_S50000x65_S65x64_S50000x64_1_0_0_1_n_n : DotDims S50000x65 S65x64 S50000x64 where
  lhsContracting := [1]
  rhsContracting := [0]
  lhsNonContracting := [0]
  rhsNonContracting := [1]
  lhsBatch := []
  rhsBatch := []
  wf := dot_S50000x65_S65x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S16x64_S50000x1_S50000x64_1_0_0_1 : ScatterDims S16x64 S50000x1 S50000x64 where
  updateWindowDims := [1]
  insertedWindowDims := [0]
  scatterDimsToOperandDims := [0]
  indexVectorDim := 1
  wf := scatter_S16x64_S50000x1_S50000x64_1_0_0_1_wf
def dot_S16x64_S64x64_S16x64_1_0_0_1_n_n : DotDims S16x64 S64x64 S16x64 where
  lhsContracting := [1]
  rhsContracting := [0]
  lhsNonContracting := [0]
  rhsNonContracting := [1]
  lhsBatch := []
  rhsBatch := []
  wf := dot_S16x64_S64x64_S16x64_1_0_0_1_n_n_wf
def dot_S16x64_S64x2_S16x2_1_0_0_1_n_n : DotDims S16x64 S64x2 S16x2 where
  lhsContracting := [1]
  rhsContracting := [0]
  lhsNonContracting := [0]
  rhsNonContracting := [1]
  lhsBatch := []
  rhsBatch := []
  wf := dot_S16x64_S64x2_S16x2_1_0_0_1_n_n_wf

class Facts : Prop extends Facts₀ where

variable [Facts]
-- ==== Proof.K.R0Defs.lean ====
/-
  The edge stage's pallas_call (a grid of 100 points, one block of 16000 edge rows each): what its windows hold.

  At a point t the pipeline hands the body the block t of the edge rows (window 0) and the four weight arrays whole
  (windows 1 to 4, fetched once); the body stores one 16000 × 64 block, the two layers applied to the row block,
  into window 5's buffer, which is written back as block t of the result array. Stated at a parameter V, the buffer
  contents when the region is entered.
-/
import proofs.«402084_j84928683311960_2_alg».proof.Proof.Gen.Kernel.Launch
import proofs.«402084_j84928683311960_2_alg».proof.Proof.Gen.Kernel.Skeleton
import proofs.«402084_j84928683311960_2_alg».proof.Proof.Gen.Kernel.Points
import Idealize.ShloMosaic.Lib.Pipeline.FrameBody

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 16000 × 5 block, the whole weight arrays, and the whole 16000 × 64 block the body stores. -/
abbrev r0_x : Rect S16000x5 := Rect.unit (s := S16000x5) ![0, 0] S16000x5.size inb_S16000x5_S16000x5_0_0
abbrev r0_w1 : Rect S5x64 := Rect.unit (s := S5x64) ![0, 0] S5x64.size inb_S5x64_S5x64_0_0
abbrev r0_b : Rect S64 := Rect.unit (s := S64) ![0] S64.size inb_S64_S64_0
abbrev r0_w2 : Rect S64x64 := Rect.unit (s := S64x64) ![0, 0] S64x64.size inb_S64x64_S64x64_0_0
abbrev r0_e : Rect S16000x64 := Rect.unit (s := S16000x64) ![0, 0] S16000x64.size inb_S16000x64_S16000x64_0_0

/-- What the body leaves in window 5's buffer, from the five input blocks: its one store, of the two layers
    applied to the row block. -/
def out0_5 (x0 : Vec F S16000x5 .f32) (x1 : Vec F S5x64 .f32) (x2 : Vec F S64 .f32) (x3 : Vec F S64x64 .f32)
    (x4 : Vec F S64 .f32) : Vec F S16000x64 .f32 :=
  View.canon [⟨r0_e, k0_pay1 (View.ld x0 r0_x) (View.ld x1 r0_w1) (View.ld x2 r0_b) (View.ld x3 r0_w2) (View.ld x4 r0_b)⟩]

/-- The proof data of the edge stage's pipeline on core c: the arrays as the region finds them; after the body at
    point t each input's buffer at its block and the output's at the stored block; nothing else held, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by
  dsimp only [dat0]

end Cert.Kernel.Hand

end
-- ==== Proof.K.R0.lean ====
/-
  The edge stage's pallas_call, at every one of its 100 grid points: the body's triple and the pipeline's body obligation.

  The body reads five whole buffers (the block of 16000 edge rows, the two weight matrices, the two bias rows), reads
  the result buffer once without using what it finds, and stores one whole 16000 × 64 block: the two layers applied to
  the row block. Whatever the result buffer held before, one whole-buffer store leaves exactly the stored value in it.
  Each input buffer holds its window's block at every point, whether the pipeline fetched it at that point or at an
  earlier one with the same block index, because the body leaves every input buffer as it found it.
-/
import proofs.«402084_j84928683311960_2_alg».proof.Proof.K.R0Defs
import Idealize.ShloMosaic.Lib.Pipeline.FrameBody
import Idealize.ShloMosaic.Lib.Pipeline.RegionsLoop
import Idealize.ShloMosaic.Lib.Ring
import Idealize.ShloMosaic.Lib.Tactic

-- membership in a rectangle with an axis of 16000: the structural recursion goes once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each input window's buffer -/

/-- The edge-row window's buffer holds block t of the edge rows at every point t, for any proof data whose array is
    the entry contents and whose body leaves the block in place: the window is never cut and never idle, and a point
    at which it is not fetched has the block index of the point before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The first weight matrix's window: fetched at the first point only, its one block (the whole matrix) at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The first bias row's window, likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The second weight matrix's window, likewise. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The second bias row's window, likewise. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The one store covers the result buffer -/

/-- The stored rectangle is the whole 16000 × 64 buffer: one block of the buffer's own size tiles it. -/
theorem cover0_5 (p0 : Vec F S16000x64 .f32) (y : S16000x64.Idx) :
    ∃ pc ∈ ([⟨r0_e, p0⟩] : List (View.Piece (Elt F) S16000x64 .f32)), y ∈ pc.1.set :=
  View.cover_of_tiled [⟨r0_e, p0⟩] S16000x64.size (by rfl) y

/-! ## The body's triple -/

set_option maxHeartbeats 1000000 in
/-- The edge kernel's body on whole buffers — the five inputs' at contents x0 … x4, the result's at anything — runs to a
    continuation holding the inputs' as they were and the result's at the two layers of the row block (out0_5): five
    reads, one read of the result buffer whose value goes nowhere, and one store that covers the buffer. -/
theorem sound_kernel0 (c : Dev nD) (E : Set ℕ) (i : grid0.Coords)
    (arg1 : Memref sig .tc .vmem S16000x5 .f32) (harg1 : arg1.IsWhole) (arg2 : Memref sig .tc .vmem S5x64 .f32) (harg2 : arg2.IsWhole)
    (arg3 : Memref sig .tc .vmem S64 .f32) (harg3 : arg3.IsWhole) (arg4 : Memref sig .tc .vmem S64x64 .f32) (harg4 : arg4.IsWhole)
    (arg5 : Memref sig .tc .vmem S64 .f32) (harg5 : arg5.IsWhole) (arg6 : Memref sig .tc .vmem S16000x64 .f32) (harg6 : arg6.IsWhole)
    (x0 : Vec F S16000x5 .f32) (x1 : Vec F S5x64 .f32) (x2 : Vec F S64 .f32) (x3 : Vec F S64x64 .f32) (x4 : Vec F S64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E
          (cc0__edge_mlp_kernel i arg1 harg1 arg2 harg2 arg3 harg3 arg4 harg4 arg5 harg5 arg6 harg6) K := by
  simp only [cc0__edge_mlp_kernel_eq_skeleton]; unfold cc0__edge_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## Each input's buffer at the proof data of this pipeline -/

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point t: the invariant, what the core owes, and the six windows' current buffers, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the five inputs' buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _
    (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1Runs.lean ====
/-
  The node stage's pallas_call (a grid of 5 points, one block of 10000 nodes each): the windows' blocks, the two
  conditions of the body over the grid, and the body's run in each of its three control cases.

  At a point the body adds to a 16 × 64 scratch the block's node rows (two layers applied to the 65-entry input row)
  pooled by the block's one-hot rows; at the first point the scratch is first set to zero; at the last point the four
  closing layers are applied to the scratch and stored as the 16 × 2 result. Windows 0 and 1 (node rows, one-hot
  rows) are fetched at every point, windows 2 to 13 (weights) once, window 14 (the result) is stored and written back
  at the last point only. Stated at a parameter V, the buffer contents when the region is entered.
-/
import proofs.«402084_j84928683311960_2_alg».proof.Proof.Gen.Kernel.Launch
import proofs.«402084_j84928683311960_2_alg».proof.Proof.Gen.Kernel.Skeleton
import proofs.«402084_j84928683311960_2_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each of the fourteen input windows holds its block at every point, whether the pipeline fetched it there or
    not (an unfetched window's block index has not moved), for any proof data whose array is the entry contents
    and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)
theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)
theorem before1_12_of {c : Dev nD} (dat : Dat τ (Elt F) Unit ℕ (UR sig nD τ) ℕ cfg1 c) (hA : dat.A 12 = V c (Pipeline.arrRef spec1 12))
    (hafter : ∀ t, dat.after 12 t = iblk1 V c 12 t) (t : Fin cfg1.N) (d) : dat.before 12 t d = iblk1 V c 12 t :=
  (dat.before_in_eq_fetched 12 rfl (fun _ => rfl) (fun _ _ _ => rfl) (fun t => by rw [hafter]; unfold Dat.blockOf iblk1; rw [hA]; try rfl) t d).trans
    (by unfold Dat.fetched Dat.blockOf iblk1; rw [hA]; try rfl)
theorem before1_13_of {c : Dev nD} (dat : Dat τ (Elt F) Unit ℕ (UR sig nD τ) ℕ cfg1 c) (hA : dat.A 13 = V c (Pipeline.arrRef spec1 13))
    (hafter : ∀ t, dat.after 13 t = iblk1 V c 13 t) (t : Fin cfg1.N) (d) : dat.before 13 t d = iblk1 V c 13 t :=
  (dat.before_in_eq_fetched 13 rfl (fun _ => rfl) (fun _ _ _ => rfl) (fun t => by rw [hafter]; unfold Dat.blockOf iblk1; rw [hA]; try rfl) t d).trans
    (by unfold Dat.fetched Dat.blockOf iblk1; rw [hA]; try rfl)

/-! ## The two branch conditions over the grid -/

/-- The first conditional of the body: the grid coordinate is 0 (the pooled sum is reset there). -/
abbrev cond1_0 (i : grid1.Coords) : Prop := (Scalar.cmpi .ne (Scalar.extui (Scalar.cmpi .eq (BitVec.ofNat 32 (i 0).val) 0#32)) 0#32) = 1#1
/-- It holds exactly at the first of the five points. -/
theorem hcond1_0 : ∀ t : Fin cfg1.N, cond1_0 (grid1.coords t) ↔ t.val % 5 = 0 :=
  (by decide +kernel : ∀ t : Fin grid1.N, cond1_0 (grid1.coords t) ↔ t.val % 5 = 0)

/-- The second conditional: the grid coordinate is 4 (the four closing layers run there). -/
abbrev cond1_1 (i : grid1.Coords) : Prop := k1_cond2 i = 1#1
/-- It holds exactly at the last of the five points. -/
theorem hcond1_1 : ∀ t : Fin cfg1.N, cond1_1 (grid1.coords t) ↔ t.val % 5 = 4 :=
  (by decide +kernel : ∀ t : Fin grid1.N, cond1_1 (grid1.coords t) ↔ t.val % 5 = 4)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
theorem liveAt1_7 : ∀ t : Fin cfg1.N, cfg1.idle 7 (grid1.coords t) = false := by decide +kernel
theorem liveAt1_8 : ∀ t : Fin cfg1.N, cfg1.idle 8 (grid1.coords t) = false := by decide +kernel
theorem liveAt1_9 : ∀ t : Fin cfg1.N, cfg1.idle 9 (grid1.coords t) = false := by decide +kernel
theorem liveAt1_10 : ∀ t : Fin cfg1.N, cfg1.idle 10 (grid1.coords t) = false := by decide +kernel
theorem liveAt1_11 : ∀ t : Fin cfg1.N, cfg1.idle 11 (grid1.coords t) = false := by decide +kernel
theorem liveAt1_12 : ∀ t : Fin cfg1.N, cfg1.idle 12 (grid1.coords t) = false := by decide +kernel
theorem liveAt1_13 : ∀ t : Fin cfg1.N, cfg1.idle 13 (grid1.coords t) = false := by decide +kernel
/-- At the first point the result window is idle and not written back. -/
theorem idleAt1_14_A : ∀ t : Fin cfg1.N, cond1_0 (grid1.coords t) → ¬cond1_1 (grid1.coords t) → cfg1.idle 14 (grid1.coords t) = true := by decide +kernel
theorem noFlush1_14_A : ∀ t : Fin cfg1.N, cond1_0 (grid1.coords t) → ¬cond1_1 (grid1.coords t) → (cfg1.win 14).flush t = false := by decide +kernel
/-- At the three middle points likewise. -/
theorem idleAt1_14_B : ∀ t : Fin cfg1.N, ¬cond1_0 (grid1.coords t) → ¬cond1_1 (grid1.coords t) → cfg1.idle 14 (grid1.coords t) = true := by decide +kernel
theorem noFlush1_14_B : ∀ t : Fin cfg1.N, ¬cond1_0 (grid1.coords t) → ¬cond1_1 (grid1.coords t) → (cfg1.win 14).flush t = false := by decide +kernel
/-- At the last point the result window is live: the body stores the 16 × 2 result into it. -/
theorem liveAt1_14_C : ∀ t : Fin cfg1.N, ¬cond1_0 (grid1.coords t) → cond1_1 (grid1.coords t) → cfg1.idle 14 (grid1.coords t) = false := by decide +kernel

/-! ## The staging memrefs and the pooled-sum scratch -/

/-- One staging buffer of the result window, through which its contents are stated. -/
abbrev VO1_14 : View sig .tc .vmem S16x2 .f32 := (Memref.whole cc1_stg14_0 : Memref sig .tc .vmem S16x2 .f32).view
/-- Each window's current staging memref at point t, as the pipeline passes it to the body, and its wholeness. -/
abbrev ms1_0 (t : Fin cfg1.N) : Memref sig .tc .vmem S10000x65 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S10000x16 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S65x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S64x64 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S64 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S64x64 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S64 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S64x64 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S64 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S64x64 .f32 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S64 .f32 := win1_11.stage (cfg1.slots t 11)
abbrev hs1_11 (t : Fin cfg1.N) : (ms1_11 t).IsWhole := hstage1_11 ((cfg1.slots t 11).cast nbuf1_11)
abbrev ms1_12 (t : Fin cfg1.N) : Memref sig .tc .vmem S64x2 .f32 := win1_12.stage (cfg1.slots t 12)
abbrev hs1_12 (t : Fin cfg1.N) : (ms1_12 t).IsWhole := hstage1_12 ((cfg1.slots t 12).cast nbuf1_12)
abbrev ms1_13 (t : Fin cfg1.N) : Memref sig .tc .vmem S2 .f32 := win1_13.stage (cfg1.slots t 13)
abbrev hs1_13 (t : Fin cfg1.N) : (ms1_13 t).IsWhole := hstage1_13 ((cfg1.slots t 13).cast nbuf1_13)
abbrev ms1_14 (t : Fin cfg1.N) : Memref sig .tc .vmem S16x2 .f32 := win1_14.stage (cfg1.slots t 14)
abbrev hs1_14 (t : Fin cfg1.N) : (ms1_14 t).IsWhole := hstage1_14 ((cfg1.slots t 14).cast nbuf1_14)
/-- The scratch operand: the whole 16 × 64 buffer in which the pooled sum is carried from point to point. -/
abbrev scM1 : Memref sig .tc .vmem S16x64 .f32 := Memref.whole cc1_scratch0
/-- The same as a view: what it holds is stated through it. -/
abbrev VS1 : View sig .tc .vmem S16x64 .f32 := scM1.view

/-- The region's invariant with the scratch as a memref owned at some contents; the eight other scoped buffers
    (the edge stage's staging buffers) stay as they are, each at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ d, owns (c : Thread nD τ) scM1 fullShare d)) ∗ (∃ r, prngReg c r)) := by
  unfold Pipeline.ΦA; rw [scopedRest1_eq]; simp only [scM1, owns_whole]; try rfl

/-! ## The body's run, case by case -/

set_option maxHeartbeats 1000000 in
/-- THE FIRST POINT (coordinate 0). On whole memrefs — the fourteen inputs at their contents, the result window's at
    contents handed back untouched, the scratch at anything — the body runs to the continuation holding the inputs
    as they were and the scratch with two stores written: the zero block, then the first block's pooled rows added
    to what is read back. The pieces are the witness the run finds. -/
noncomputable def kernelRun1_A (c : Dev nD) (i : grid1.Coords) (arg1 : Memref sig .tc .vmem S10000x65 .f32) (harg1 : arg1.IsWhole) (arg2 : Memref sig .tc .vmem S10000x16 .f32) (harg2 : arg2.IsWhole) (arg3 : Memref sig .tc .vmem S65x64 .f32) (harg3 : arg3.IsWhole) (arg4 : Memref sig .tc .vmem S64 .f32) (harg4 : arg4.IsWhole) (arg5 : Memref sig .tc .vmem S64x64 .f32) (harg5 : arg5.IsWhole) (arg6 : Memref sig .tc .vmem S64 .f32) (harg6 : arg6.IsWhole) (arg7 : Memref sig .tc .vmem S64x64 .f32) (harg7 : arg7.IsWhole) (arg8 : Memref sig .tc .vmem S64 .f32) (harg8 : arg8.IsWhole) (arg9 : Memref sig .tc .vmem S64x64 .f32) (harg9 : arg9.IsWhole) (arg10 : Memref sig .tc .vmem S64 .f32) (harg10 : arg10.IsWhole) (arg11 : Memref sig .tc .vmem S64x64 .f32) (harg11 : arg11.IsWhole) (arg12 : Memref sig .tc .vmem S64 .f32) (harg12 : arg12.IsWhole) (arg13 : Memref sig .tc .vmem S64x2 .f32) (harg13 : arg13.IsWhole) (arg14 : Memref sig .tc .vmem S2 .f32) (harg14 : arg14.IsWhole) (arg15 : Memref sig .tc .vmem S16x2 .f32) (harg15 : arg15.IsWhole) (arg16 : Memref sig .tc .vmem S16x64 .f32) (harg16 : arg16.IsWhole) (hc0 : cond1_0 i) (hc1 : ¬cond1_1 i)
    (x0 : Vec F S10000x65 .f32) (x1 : Vec F S10000x16 .f32) (x2 : Vec F S65x64 .f32) (x3 : Vec F S64 .f32) (x4 : Vec F S64x64 .f32) (x5 : Vec F S64 .f32) (x6 : Vec F S64x64 .f32) (x7 : Vec F S64 .f32) (x8 : Vec F S64x64 .f32) (x9 : Vec F S64 .f32) (x10 : Vec F S64x64 .f32) (x11 : Vec F S64 .f32) (x12 : Vec F S64x2 .f32) (x13 : Vec F S2 .f32) :
    Σ' (L14 : List (View.Piece (Elt F) S16x2 .f32)), { LS0 : List (View.Piece (Elt F) S16x64 .f32) //
      ∀ (xi14 : Vec F S16x2 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare xi14 ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare xi14 ∗ (∃ f, arg16.view.loc (c : Thread nD τ) ↦[arg16.view.set]{fullShare} arg16.view.writes (Elt F) f LS0)) -∗ K ⟨⟩))
          ⊢ wp frame (wpE (defs₀ (F := F)) Variants.none c none) E (cc1__node_pool_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨[], ?_, fun xi14 E K => ?run⟩
  case run =>
    simp only [cc1__node_pool_kernel_eq_skeleton]; unfold cc1__node_pool_kernel_skel
    simp only [k1_part2_eq_skeleton, k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    iexists _; iexact HS0

set_option maxHeartbeats 1000000 in
/-- A MIDDLE POINT (coordinates 1, 2, 3). As at the first point, but the scratch is at the contents the point
    before left, and one store is written: this block's pooled rows added to those contents. -/
noncomputable def kernelRun1_B (c : Dev nD) (i : grid1.Coords) (arg1 : Memref sig .tc .vmem S10000x65 .f32) (harg1 : arg1.IsWhole) (arg2 : Memref sig .tc .vmem S10000x16 .f32) (harg2 : arg2.IsWhole) (arg3 : Memref sig .tc .vmem S65x64 .f32) (harg3 : arg3.IsWhole) (arg4 : Memref sig .tc .vmem S64 .f32) (harg4 : arg4.IsWhole) (arg5 : Memref sig .tc .vmem S64x64 .f32) (harg5 : arg5.IsWhole) (arg6 : Memref sig .tc .vmem S64 .f32) (harg6 : arg6.IsWhole) (arg7 : Memref sig .tc .vmem S64x64 .f32) (harg7 : arg7.IsWhole) (arg8 : Memref sig .tc .vmem S64 .f32) (harg8 : arg8.IsWhole) (arg9 : Memref sig .tc .vmem S64x64 .f32) (harg9 : arg9.IsWhole) (arg10 : Memref sig .tc .vmem S64 .f32) (harg10 : arg10.IsWhole) (arg11 : Memref sig .tc .vmem S64x64 .f32) (harg11 : arg11.IsWhole) (arg12 : Memref sig .tc .vmem S64 .f32) (harg12 : arg12.IsWhole) (arg13 : Memref sig .tc .vmem S64x2 .f32) (harg13 : arg13.IsWhole) (arg14 : Memref sig .tc .vmem S2 .f32) (harg14 : arg14.IsWhole) (arg15 : Memref sig .tc .vmem S16x2 .f32) (harg15 : arg15.IsWhole) (arg16 : Memref sig .tc .vmem S16x64 .f32) (harg16 : arg16.IsWhole) (hc0 : ¬cond1_0 i) (hc1 : ¬cond1_1 i)
    (x0 : Vec F S10000x65 .f32) (x1 : Vec F S10000x16 .f32) (x2 : Vec F S65x64 .f32) (x3 : Vec F S64 .f32) (x4 : Vec F S64x64 .f32) (x5 : Vec F S64 .f32) (x6 : Vec F S64x64 .f32) (x7 : Vec F S64 .f32) (x8 : Vec F S64x64 .f32) (x9 : Vec F S64 .f32) (x10 : Vec F S64x64 .f32) (x11 : Vec F S64 .f32) (x12 : Vec F S64x2 .f32) (x13 : Vec F S2 .f32) (xs0 : Vec F S16x64 .f32) :
    Σ' (L14 : List (View.Piece (Elt F) S16x2 .f32)), { LS0 : List (View.Piece (Elt F) S16x64 .f32) //
      ∀ (xi14 : Vec F S16x2 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare xi14 ∗ owns (c : Thread nD τ) arg16 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare xi14 ∗ (∃ f, arg16.view.loc (c : Thread nD τ) ↦[arg16.view.set]{fullShare} arg16.view.writes (Elt F) f LS0)) -∗ K ⟨⟩))
          ⊢ wp frame (wpE (defs₀ (F := F)) Variants.none c none) E (cc1__node_pool_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨[], ?_, fun xi14 E K => ?run⟩
  case run =>
    simp only [cc1__node_pool_kernel_eq_skeleton]; unfold cc1__node_pool_kernel_skel
    simp only [k1_part2_eq_skeleton, k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    iexists _; iexact HS0

set_option maxHeartbeats 1000000 in
/-- THE LAST POINT (coordinate 4). The scratch is at the contents the point before left and gets one store (the last
    block's pooled rows added); the result window's memref, at anything, gets one store: the four closing layers
    applied to the scratch as read back. -/
noncomputable def kernelRun1_C (c : Dev nD) (i : grid1.Coords) (arg1 : Memref sig .tc .vmem S10000x65 .f32) (harg1 : arg1.IsWhole) (arg2 : Memref sig .tc .vmem S10000x16 .f32) (harg2 : arg2.IsWhole) (arg3 : Memref sig .tc .vmem S65x64 .f32) (harg3 : arg3.IsWhole) (arg4 : Memref sig .tc .vmem S64 .f32) (harg4 : arg4.IsWhole) (arg5 : Memref sig .tc .vmem S64x64 .f32) (harg5 : arg5.IsWhole) (arg6 : Memref sig .tc .vmem S64 .f32) (harg6 : arg6.IsWhole) (arg7 : Memref sig .tc .vmem S64x64 .f32) (harg7 : arg7.IsWhole) (arg8 : Memref sig .tc .vmem S64 .f32) (harg8 : arg8.IsWhole) (arg9 : Memref sig .tc .vmem S64x64 .f32) (harg9 : arg9.IsWhole) (arg10 : Memref sig .tc .vmem S64 .f32) (harg10 : arg10.IsWhole) (arg11 : Memref sig .tc .vmem S64x64 .f32) (harg11 : arg11.IsWhole) (arg12 : Memref sig .tc .vmem S64 .f32) (harg12 : arg12.IsWhole) (arg13 : Memref sig .tc .vmem S64x2 .f32) (harg13 : arg13.IsWhole) (arg14 : Memref sig .tc .vmem S2 .f32) (harg14 : arg14.IsWhole) (arg15 : Memref sig .tc .vmem S16x2 .f32) (harg15 : arg15.IsWhole) (arg16 : Memref sig .tc .vmem S16x64 .f32) (harg16 : arg16.IsWhole) (hc0 : ¬cond1_0 i) (hc1 : cond1_1 i)
    (x0 : Vec F S10000x65 .f32) (x1 : Vec F S10000x16 .f32) (x2 : Vec F S65x64 .f32) (x3 : Vec F S64 .f32) (x4 : Vec F S64x64 .f32) (x5 : Vec F S64 .f32) (x6 : Vec F S64x64 .f32) (x7 : Vec F S64 .f32) (x8 : Vec F S64x64 .f32) (x9 : Vec F S64 .f32) (x10 : Vec F S64x64 .f32) (x11 : Vec F S64 .f32) (x12 : Vec F S64x2 .f32) (x13 : Vec F S2 .f32) (xs0 : Vec F S16x64 .f32) :
    Σ' (L14 : List (View.Piece (Elt F) S16x2 .f32)), { LS0 : List (View.Piece (Elt F) S16x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ owns (c : Thread nD τ) arg16 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f LS0)) -∗ K ⟨⟩))
          ⊢ wp frame (wpE (defs₀ (F := F)) Variants.none c none) E (cc1__node_pool_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, fun E K => ?run⟩
  case run =>
    simp only [cc1__node_pool_kernel_eq_skeleton]; unfold cc1__node_pool_kernel_skel
    simp only [k1_part2_eq_skeleton, k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg16.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]; · iexists _; iexact H14
    iexists _; iexact HS0

end Cert.Kernel.Hand

end
-- ==== Proof.K.R1.lean ====
/-
  The node stage's pallas_call, continued: what each control case leaves in the result window and in the 16 × 64
  scratch, the accumulation of those contents point by point, the proof data of the pipeline, and the body's
  obligation at every point.

  The scratch after point n is the first case's contents at n = 0 and otherwise the case at n run over what point
  n - 1 left; the result window is idle (handed back untouched, not written back) except at the last point, where the
  closing layers' 16 × 2 block is stored into it. Between points the invariant holds the scratch at the
  accumulation's second component; the other scoped buffers and the generator register pass through.
-/
import proofs.«402084_j84928683311960_2_alg».proof.Proof.K.R1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Case A stores nothing into the result window: no pieces (a placeholder nothing consults, the window being
    neither written back nor read at the next point). -/
def out1_A_14 (c : Dev nD) (i : grid1.Coords) (arg1 : Memref sig .tc .vmem S10000x65 .f32) (harg1 : arg1.IsWhole) (arg2 : Memref sig .tc .vmem S10000x16 .f32) (harg2 : arg2.IsWhole) (arg3 : Memref sig .tc .vmem S65x64 .f32) (harg3 : arg3.IsWhole) (arg4 : Memref sig .tc .vmem S64 .f32) (harg4 : arg4.IsWhole) (arg5 : Memref sig .tc .vmem S64x64 .f32) (harg5 : arg5.IsWhole) (arg6 : Memref sig .tc .vmem S64 .f32) (harg6 : arg6.IsWhole) (arg7 : Memref sig .tc .vmem S64x64 .f32) (harg7 : arg7.IsWhole) (arg8 : Memref sig .tc .vmem S64 .f32) (harg8 : arg8.IsWhole) (arg9 : Memref sig .tc .vmem S64x64 .f32) (harg9 : arg9.IsWhole) (arg10 : Memref sig .tc .vmem S64 .f32) (harg10 : arg10.IsWhole) (arg11 : Memref sig .tc .vmem S64x64 .f32) (harg11 : arg11.IsWhole) (arg12 : Memref sig .tc .vmem S64 .f32) (harg12 : arg12.IsWhole) (arg13 : Memref sig .tc .vmem S64x2 .f32) (harg13 : arg13.IsWhole) (arg14 : Memref sig .tc .vmem S2 .f32) (harg14 : arg14.IsWhole) (arg15 : Memref sig .tc .vmem S16x2 .f32) (harg15 : arg15.IsWhole) (arg16 : Memref sig .tc .vmem S16x64 .f32) (harg16 : arg16.IsWhole) (hc0 : cond1_0 i) (hc1 : ¬cond1_1 i)
    (x0 : Vec F S10000x65 .f32) (x1 : Vec F S10000x16 .f32) (x2 : Vec F S65x64 .f32) (x3 : Vec F S64 .f32) (x4 : Vec F S64x64 .f32) (x5 : Vec F S64 .f32) (x6 : Vec F S64x64 .f32) (x7 : Vec F S64 .f32) (x8 : Vec F S64x64 .f32) (x9 : Vec F S64 .f32) (x10 : Vec F S64x64 .f32) (x11 : Vec F S64 .f32) (x12 : Vec F S64x2 .f32) (x13 : Vec F S2 .f32) : Vec F S16x2 .f32 :=
  VO1_14.read (Elt F) (VO1_14.writes (Elt F) VO1_14.junk (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 x13).1)

/-- Case A's stores into the scratch cover its 16 × 64 block. -/
theorem scover1_A (c : Dev nD) (i : grid1.Coords) (arg1 : Memref sig .tc .vmem S10000x65 .f32) (harg1 : arg1.IsWhole) (arg2 : Memref sig .tc .vmem S10000x16 .f32) (harg2 : arg2.IsWhole) (arg3 : Memref sig .tc .vmem S65x64 .f32) (harg3 : arg3.IsWhole) (arg4 : Memref sig .tc .vmem S64 .f32) (harg4 : arg4.IsWhole) (arg5 : Memref sig .tc .vmem S64x64 .f32) (harg5 : arg5.IsWhole) (arg6 : Memref sig .tc .vmem S64 .f32) (harg6 : arg6.IsWhole) (arg7 : Memref sig .tc .vmem S64x64 .f32) (harg7 : arg7.IsWhole) (arg8 : Memref sig .tc .vmem S64 .f32) (harg8 : arg8.IsWhole) (arg9 : Memref sig .tc .vmem S64x64 .f32) (harg9 : arg9.IsWhole) (arg10 : Memref sig .tc .vmem S64 .f32) (harg10 : arg10.IsWhole) (arg11 : Memref sig .tc .vmem S64x64 .f32) (harg11 : arg11.IsWhole) (arg12 : Memref sig .tc .vmem S64 .f32) (harg12 : arg12.IsWhole) (arg13 : Memref sig .tc .vmem S64x2 .f32) (harg13 : arg13.IsWhole) (arg14 : Memref sig .tc .vmem S2 .f32) (harg14 : arg14.IsWhole) (arg15 : Memref sig .tc .vmem S16x2 .f32) (harg15 : arg15.IsWhole) (arg16 : Memref sig .tc .vmem S16x64 .f32) (harg16 : arg16.IsWhole) (hc0 : cond1_0 i) (hc1 : ¬cond1_1 i)
    (x0 : Vec F S10000x65 .f32) (x1 : Vec F S10000x16 .f32) (x2 : Vec F S65x64 .f32) (x3 : Vec F S64 .f32) (x4 : Vec F S64x64 .f32) (x5 : Vec F S64 .f32) (x6 : Vec F S64x64 .f32) (x7 : Vec F S64 .f32) (x8 : Vec F S64x64 .f32) (x9 : Vec F S64 .f32) (x10 : Vec F S64x64 .f32) (x11 : Vec F S64 .f32) (x12 : Vec F S64x2 .f32) (x13 : Vec F S2 .f32) (y : S16x64.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 x13).2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 x13).2.1 S16x64.size (by sl_kernel_rfl) y

/-- What case A leaves in the scratch: its pieces read back. -/
def sout1_A (c : Dev nD) (i : grid1.Coords) (arg1 : Memref sig .tc .vmem S10000x65 .f32) (harg1 : arg1.IsWhole) (arg2 : Memref sig .tc .vmem S10000x16 .f32) (harg2 : arg2.IsWhole) (arg3 : Memref sig .tc .vmem S65x64 .f32) (harg3 : arg3.IsWhole) (arg4 : Memref sig .tc .vmem S64 .f32) (harg4 : arg4.IsWhole) (arg5 : Memref sig .tc .vmem S64x64 .f32) (harg5 : arg5.IsWhole) (arg6 : Memref sig .tc .vmem S64 .f32) (harg6 : arg6.IsWhole) (arg7 : Memref sig .tc .vmem S64x64 .f32) (harg7 : arg7.IsWhole) (arg8 : Memref sig .tc .vmem S64 .f32) (harg8 : arg8.IsWhole) (arg9 : Memref sig .tc .vmem S64x64 .f32) (harg9 : arg9.IsWhole) (arg10 : Memref sig .tc .vmem S64 .f32) (harg10 : arg10.IsWhole) (arg11 : Memref sig .tc .vmem S64x64 .f32) (harg11 : arg11.IsWhole) (arg12 : Memref sig .tc .vmem S64 .f32) (harg12 : arg12.IsWhole) (arg13 : Memref sig .tc .vmem S64x2 .f32) (harg13 : arg13.IsWhole) (arg14 : Memref sig .tc .vmem S2 .f32) (harg14 : arg14.IsWhole) (arg15 : Memref sig .tc .vmem S16x2 .f32) (harg15 : arg15.IsWhole) (arg16 : Memref sig .tc .vmem S16x64 .f32) (harg16 : arg16.IsWhole) (hc0 : cond1_0 i) (hc1 : ¬cond1_1 i)
    (x0 : Vec F S10000x65 .f32) (x1 : Vec F S10000x16 .f32) (x2 : Vec F S65x64 .f32) (x3 : Vec F S64 .f32) (x4 : Vec F S64x64 .f32) (x5 : Vec F S64 .f32) (x6 : Vec F S64x64 .f32) (x7 : Vec F S64 .f32) (x8 : Vec F S64x64 .f32) (x9 : Vec F S64 .f32) (x10 : Vec F S64x64 .f32) (x11 : Vec F S64 .f32) (x12 : Vec F S64x2 .f32) (x13 : Vec F S2 .f32) : Vec F S16x64 .f32 :=
  VS1.read (Elt F) (VS1.writes (Elt F) VS1.junk (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 x13).2.1)

/-- Case B stores nothing into the result window: no pieces (a placeholder nothing consults, the window being
    neither written back nor read at the next point). -/
def out1_B_14 (c : Dev nD) (i : grid1.Coords) (arg1 : Memref sig .tc .vmem S10000x65 .f32) (harg1 : arg1.IsWhole) (arg2 : Memref sig .tc .vmem S10000x16 .f32) (harg2 : arg2.IsWhole) (arg3 : Memref sig .tc .vmem S65x64 .f32) (harg3 : arg3.IsWhole) (arg4 : Memref sig .tc .vmem S64 .f32) (harg4 : arg4.IsWhole) (arg5 : Memref sig .tc .vmem S64x64 .f32) (harg5 : arg5.IsWhole) (arg6 : Memref sig .tc .vmem S64 .f32) (harg6 : arg6.IsWhole) (arg7 : Memref sig .tc .vmem S64x64 .f32) (harg7 : arg7.IsWhole) (arg8 : Memref sig .tc .vmem S64 .f32) (harg8 : arg8.IsWhole) (arg9 : Memref sig .tc .vmem S64x64 .f32) (harg9 : arg9.IsWhole) (arg10 : Memref sig .tc .vmem S64 .f32) (harg10 : arg10.IsWhole) (arg11 : Memref sig .tc .vmem S64x64 .f32) (harg11 : arg11.IsWhole) (arg12 : Memref sig .tc .vmem S64 .f32) (harg12 : arg12.IsWhole) (arg13 : Memref sig .tc .vmem S64x2 .f32) (harg13 : arg13.IsWhole) (arg14 : Memref sig .tc .vmem S2 .f32) (harg14 : arg14.IsWhole) (arg15 : Memref sig .tc .vmem S16x2 .f32) (harg15 : arg15.IsWhole) (arg16 : Memref sig .tc .vmem S16x64 .f32) (harg16 : arg16.IsWhole) (hc0 : ¬cond1_0 i) (hc1 : ¬cond1_1 i)
    (x0 : Vec F S10000x65 .f32) (x1 : Vec F S10000x16 .f32) (x2 : Vec F S65x64 .f32) (x3 : Vec F S64 .f32) (x4 : Vec F S64x64 .f32) (x5 : Vec F S64 .f32) (x6 : Vec F S64x64 .f32) (x7 : Vec F S64 .f32) (x8 : Vec F S64x64 .f32) (x9 : Vec F S64 .f32) (x10 : Vec F S64x64 .f32) (x11 : Vec F S64 .f32) (x12 : Vec F S64x2 .f32) (x13 : Vec F S2 .f32) (xs0 : Vec F S16x64 .f32) : Vec F S16x2 .f32 :=
  VO1_14.read (Elt F) (VO1_14.writes (Elt F) VO1_14.junk (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 x13 xs0).1)

/-- Case B's stores into the scratch cover its 16 × 64 block. -/
theorem scover1_B (c : Dev nD) (i : grid1.Coords) (arg1 : Memref sig .tc .vmem S10000x65 .f32) (harg1 : arg1.IsWhole) (arg2 : Memref sig .tc .vmem S10000x16 .f32) (harg2 : arg2.IsWhole) (arg3 : Memref sig .tc .vmem S65x64 .f32) (harg3 : arg3.IsWhole) (arg4 : Memref sig .tc .vmem S64 .f32) (harg4 : arg4.IsWhole) (arg5 : Memref sig .tc .vmem S64x64 .f32) (harg5 : arg5.IsWhole) (arg6 : Memref sig .tc .vmem S64 .f32) (harg6 : arg6.IsWhole) (arg7 : Memref sig .tc .vmem S64x64 .f32) (harg7 : arg7.IsWhole) (arg8 : Memref sig .tc .vmem S64 .f32) (harg8 : arg8.IsWhole) (arg9 : Memref sig .tc .vmem S64x64 .f32) (harg9 : arg9.IsWhole) (arg10 : Memref sig .tc .vmem S64 .f32) (harg10 : arg10.IsWhole) (arg11 : Memref sig .tc .vmem S64x64 .f32) (harg11 : arg11.IsWhole) (arg12 : Memref sig .tc .vmem S64 .f32) (harg12 : arg12.IsWhole) (arg13 : Memref sig .tc .vmem S64x2 .f32) (harg13 : arg13.IsWhole) (arg14 : Memref sig .tc .vmem S2 .f32) (harg14 : arg14.IsWhole) (arg15 : Memref sig .tc .vmem S16x2 .f32) (harg15 : arg15.IsWhole) (arg16 : Memref sig .tc .vmem S16x64 .f32) (harg16 : arg16.IsWhole) (hc0 : ¬cond1_0 i) (hc1 : ¬cond1_1 i)
    (x0 : Vec F S10000x65 .f32) (x1 : Vec F S10000x16 .f32) (x2 : Vec F S65x64 .f32) (x3 : Vec F S64 .f32) (x4 : Vec F S64x64 .f32) (x5 : Vec F S64 .f32) (x6 : Vec F S64x64 .f32) (x7 : Vec F S64 .f32) (x8 : Vec F S64x64 .f32) (x9 : Vec F S64 .f32) (x10 : Vec F S64x64 .f32) (x11 : Vec F S64 .f32) (x12 : Vec F S64x2 .f32) (x13 : Vec F S2 .f32) (xs0 : Vec F S16x64 .f32) (y : S16x64.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 x13 xs0).2.1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 x13 xs0).2.1 S16x64.size (by sl_kernel_rfl) y

/-- What case B leaves in the scratch: its pieces read back. -/
def sout1_B (c : Dev nD) (i : grid1.Coords) (arg1 : Memref sig .tc .vmem S10000x65 .f32) (harg1 : arg1.IsWhole) (arg2 : Memref sig .tc .vmem S10000x16 .f32) (harg2 : arg2.IsWhole) (arg3 : Memref sig .tc .vmem S65x64 .f32) (harg3 : arg3.IsWhole) (arg4 : Memref sig .tc .vmem S64 .f32) (harg4 : arg4.IsWhole) (arg5 : Memref sig .tc .vmem S64x64 .f32) (harg5 : arg5.IsWhole) (arg6 : Memref sig .tc .vmem S64 .f32) (harg6 : arg6.IsWhole) (arg7 : Memref sig .tc .vmem S64x64 .f32) (harg7 : arg7.IsWhole) (arg8 : Memref sig .tc .vmem S64 .f32) (harg8 : arg8.IsWhole) (arg9 : Memref sig .tc .vmem S64x64 .f32) (harg9 : arg9.IsWhole) (arg10 : Memref sig .tc .vmem S64 .f32) (harg10 : arg10.IsWhole) (arg11 : Memref sig .tc .vmem S64x64 .f32) (harg11 : arg11.IsWhole) (arg12 : Memref sig .tc .vmem S64 .f32) (harg12 : arg12.IsWhole) (arg13 : Memref sig .tc .vmem S64x2 .f32) (harg13 : arg13.IsWhole) (arg14 : Memref sig .tc .vmem S2 .f32) (harg14 : arg14.IsWhole) (arg15 : Memref sig .tc .vmem S16x2 .f32) (harg15 : arg15.IsWhole) (arg16 : Memref sig .tc .vmem S16x64 .f32) (harg16 : arg16.IsWhole) (hc0 : ¬cond1_0 i) (hc1 : ¬cond1_1 i)
    (x0 : Vec F S10000x65 .f32) (x1 : Vec F S10000x16 .f32) (x2 : Vec F S65x64 .f32) (x3 : Vec F S64 .f32) (x4 : Vec F S64x64 .f32) (x5 : Vec F S64 .f32) (x6 : Vec F S64x64 .f32) (x7 : Vec F S64 .f32) (x8 : Vec F S64x64 .f32) (x9 : Vec F S64 .f32) (x10 : Vec F S64x64 .f32) (x11 : Vec F S64 .f32) (x12 : Vec F S64x2 .f32) (x13 : Vec F S2 .f32) (xs0 : Vec F S16x64 .f32) : Vec F S16x64 .f32 :=
  VS1.read (Elt F) (VS1.writes (Elt F) VS1.junk (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 x13 xs0).2.1)

/-- Case C's one store into the result window covers its 16 × 2 block. -/
theorem cover1_C_14 (c : Dev nD) (i : grid1.Coords) (arg1 : Memref sig .tc .vmem S10000x65 .f32) (harg1 : arg1.IsWhole) (arg2 : Memref sig .tc .vmem S10000x16 .f32) (harg2 : arg2.IsWhole) (arg3 : Memref sig .tc .vmem S65x64 .f32) (harg3 : arg3.IsWhole) (arg4 : Memref sig .tc .vmem S64 .f32) (harg4 : arg4.IsWhole) (arg5 : Memref sig .tc .vmem S64x64 .f32) (harg5 : arg5.IsWhole) (arg6 : Memref sig .tc .vmem S64 .f32) (harg6 : arg6.IsWhole) (arg7 : Memref sig .tc .vmem S64x64 .f32) (harg7 : arg7.IsWhole) (arg8 : Memref sig .tc .vmem S64 .f32) (harg8 : arg8.IsWhole) (arg9 : Memref sig .tc .vmem S64x64 .f32) (harg9 : arg9.IsWhole) (arg10 : Memref sig .tc .vmem S64 .f32) (harg10 : arg10.IsWhole) (arg11 : Memref sig .tc .vmem S64x64 .f32) (harg11 : arg11.IsWhole) (arg12 : Memref sig .tc .vmem S64 .f32) (harg12 : arg12.IsWhole) (arg13 : Memref sig .tc .vmem S64x2 .f32) (harg13 : arg13.IsWhole) (arg14 : Memref sig .tc .vmem S2 .f32) (harg14 : arg14.IsWhole) (arg15 : Memref sig .tc .vmem S16x2 .f32) (harg15 : arg15.IsWhole) (arg16 : Memref sig .tc .vmem S16x64 .f32) (harg16 : arg16.IsWhole) (hc0 : ¬cond1_0 i) (hc1 : cond1_1 i)
    (x0 : Vec F S10000x65 .f32) (x1 : Vec F S10000x16 .f32) (x2 : Vec F S65x64 .f32) (x3 : Vec F S64 .f32) (x4 : Vec F S64x64 .f32) (x5 : Vec F S64 .f32) (x6 : Vec F S64x64 .f32) (x7 : Vec F S64 .f32) (x8 : Vec F S64x64 .f32) (x9 : Vec F S64 .f32) (x10 : Vec F S64x64 .f32) (x11 : Vec F S64 .f32) (x12 : Vec F S64x2 .f32) (x13 : Vec F S2 .f32) (xs0 : Vec F S16x64 .f32) (y : S16x2.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 x13 xs0).1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 x13 xs0).1 S16x2.size (by sl_kernel_rfl) y

/-- What case C leaves in the result window's buffer: its piece read back. -/
def out1_C_14 (c : Dev nD) (i : grid1.Coords) (arg1 : Memref sig .tc .vmem S10000x65 .f32) (harg1 : arg1.IsWhole) (arg2 : Memref sig .tc .vmem S10000x16 .f32) (harg2 : arg2.IsWhole) (arg3 : Memref sig .tc .vmem S65x64 .f32) (harg3 : arg3.IsWhole) (arg4 : Memref sig .tc .vmem S64 .f32) (harg4 : arg4.IsWhole) (arg5 : Memref sig .tc .vmem S64x64 .f32) (harg5 : arg5.IsWhole) (arg6 : Memref sig .tc .vmem S64 .f32) (harg6 : arg6.IsWhole) (arg7 : Memref sig .tc .vmem S64x64 .f32) (harg7 : arg7.IsWhole) (arg8 : Memref sig .tc .vmem S64 .f32) (harg8 : arg8.IsWhole) (arg9 : Memref sig .tc .vmem S64x64 .f32) (harg9 : arg9.IsWhole) (arg10 : Memref sig .tc .vmem S64 .f32) (harg10 : arg10.IsWhole) (arg11 : Memref sig .tc .vmem S64x64 .f32) (harg11 : arg11.IsWhole) (arg12 : Memref sig .tc .vmem S64 .f32) (harg12 : arg12.IsWhole) (arg13 : Memref sig .tc .vmem S64x2 .f32) (harg13 : arg13.IsWhole) (arg14 : Memref sig .tc .vmem S2 .f32) (harg14 : arg14.IsWhole) (arg15 : Memref sig .tc .vmem S16x2 .f32) (harg15 : arg15.IsWhole) (arg16 : Memref sig .tc .vmem S16x64 .f32) (harg16 : arg16.IsWhole) (hc0 : ¬cond1_0 i) (hc1 : cond1_1 i)
    (x0 : Vec F S10000x65 .f32) (x1 : Vec F S10000x16 .f32) (x2 : Vec F S65x64 .f32) (x3 : Vec F S64 .f32) (x4 : Vec F S64x64 .f32) (x5 : Vec F S64 .f32) (x6 : Vec F S64x64 .f32) (x7 : Vec F S64 .f32) (x8 : Vec F S64x64 .f32) (x9 : Vec F S64 .f32) (x10 : Vec F S64x64 .f32) (x11 : Vec F S64 .f32) (x12 : Vec F S64x2 .f32) (x13 : Vec F S2 .f32) (xs0 : Vec F S16x64 .f32) : Vec F S16x2 .f32 :=
  VO1_14.read (Elt F) (VO1_14.writes (Elt F) VO1_14.junk (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 x13 xs0).1)

/-- Case C's stores into the scratch cover its 16 × 64 block. -/
theorem scover1_C (c : Dev nD) (i : grid1.Coords) (arg1 : Memref sig .tc .vmem S10000x65 .f32) (harg1 : arg1.IsWhole) (arg2 : Memref sig .tc .vmem S10000x16 .f32) (harg2 : arg2.IsWhole) (arg3 : Memref sig .tc .vmem S65x64 .f32) (harg3 : arg3.IsWhole) (arg4 : Memref sig .tc .vmem S64 .f32) (harg4 : arg4.IsWhole) (arg5 : Memref sig .tc .vmem S64x64 .f32) (harg5 : arg5.IsWhole) (arg6 : Memref sig .tc .vmem S64 .f32) (harg6 : arg6.IsWhole) (arg7 : Memref sig .tc .vmem S64x64 .f32) (harg7 : arg7.IsWhole) (arg8 : Memref sig .tc .vmem S64 .f32) (harg8 : arg8.IsWhole) (arg9 : Memref sig .tc .vmem S64x64 .f32) (harg9 : arg9.IsWhole) (arg10 : Memref sig .tc .vmem S64 .f32) (harg10 : arg10.IsWhole) (arg11 : Memref sig .tc .vmem S64x64 .f32) (harg11 : arg11.IsWhole) (arg12 : Memref sig .tc .vmem S64 .f32) (harg12 : arg12.IsWhole) (arg13 : Memref sig .tc .vmem S64x2 .f32) (harg13 : arg13.IsWhole) (arg14 : Memref sig .tc .vmem S2 .f32) (harg14 : arg14.IsWhole) (arg15 : Memref sig .tc .vmem S16x2 .f32) (harg15 : arg15.IsWhole) (arg16 : Memref sig .tc .vmem S16x64 .f32) (harg16 : arg16.IsWhole) (hc0 : ¬cond1_0 i) (hc1 : cond1_1 i)
    (x0 : Vec F S10000x65 .f32) (x1 : Vec F S10000x16 .f32) (x2 : Vec F S65x64 .f32) (x3 : Vec F S64 .f32) (x4 : Vec F S64x64 .f32) (x5 : Vec F S64 .f32) (x6 : Vec F S64x64 .f32) (x7 : Vec F S64 .f32) (x8 : Vec F S64x64 .f32) (x9 : Vec F S64 .f32) (x10 : Vec F S64x64 .f32) (x11 : Vec F S64 .f32) (x12 : Vec F S64x2 .f32) (x13 : Vec F S2 .f32) (xs0 : Vec F S16x64 .f32) (y : S16x64.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 x13 xs0).2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 x13 xs0).2.1 S16x64.size (by sl_kernel_rfl) y

/-- What case C leaves in the scratch: its pieces read back. -/
def sout1_C (c : Dev nD) (i : grid1.Coords) (arg1 : Memref sig .tc .vmem S10000x65 .f32) (harg1 : arg1.IsWhole) (arg2 : Memref sig .tc .vmem S10000x16 .f32) (harg2 : arg2.IsWhole) (arg3 : Memref sig .tc .vmem S65x64 .f32) (harg3 : arg3.IsWhole) (arg4 : Memref sig .tc .vmem S64 .f32) (harg4 : arg4.IsWhole) (arg5 : Memref sig .tc .vmem S64x64 .f32) (harg5 : arg5.IsWhole) (arg6 : Memref sig .tc .vmem S64 .f32) (harg6 : arg6.IsWhole) (arg7 : Memref sig .tc .vmem S64x64 .f32) (harg7 : arg7.IsWhole) (arg8 : Memref sig .tc .vmem S64 .f32) (harg8 : arg8.IsWhole) (arg9 : Memref sig .tc .vmem S64x64 .f32) (harg9 : arg9.IsWhole) (arg10 : Memref sig .tc .vmem S64 .f32) (harg10 : arg10.IsWhole) (arg11 : Memref sig .tc .vmem S64x64 .f32) (harg11 : arg11.IsWhole) (arg12 : Memref sig .tc .vmem S64 .f32) (harg12 : arg12.IsWhole) (arg13 : Memref sig .tc .vmem S64x2 .f32) (harg13 : arg13.IsWhole) (arg14 : Memref sig .tc .vmem S2 .f32) (harg14 : arg14.IsWhole) (arg15 : Memref sig .tc .vmem S16x2 .f32) (harg15 : arg15.IsWhole) (arg16 : Memref sig .tc .vmem S16x64 .f32) (harg16 : arg16.IsWhole) (hc0 : ¬cond1_0 i) (hc1 : cond1_1 i)
    (x0 : Vec F S10000x65 .f32) (x1 : Vec F S10000x16 .f32) (x2 : Vec F S65x64 .f32) (x3 : Vec F S64 .f32) (x4 : Vec F S64x64 .f32) (x5 : Vec F S64 .f32) (x6 : Vec F S64x64 .f32) (x7 : Vec F S64 .f32) (x8 : Vec F S64x64 .f32) (x9 : Vec F S64 .f32) (x10 : Vec F S64x64 .f32) (x11 : Vec F S64 .f32) (x12 : Vec F S64x2 .f32) (x13 : Vec F S2 .f32) (xs0 : Vec F S16x64 .f32) : Vec F S16x64 .f32 :=
  VS1.read (Elt F) (VS1.writes (Elt F) VS1.junk (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 x13 xs0).2.1)

/-! ## What the result window and the scratch hold after each point -/

/-- THE ACCUMULATION. What the result window's staging buffer and the scratch hold after the body at position n:
    the case the closed forms select at n, run at the point's memrefs and input blocks, the scratch read at what
    position n - 1 left. An assignment of the two conditions no point meets is no case. -/
def outsAt1 (c : Dev nD) : (n : ℕ) → n < cfg1.N → Vec F S16x2 .f32 × Vec F S16x64 .f32
  | 0, hn => (out1_A_14 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) (ms1_12 ⟨0, hn⟩) (hs1_12 ⟨0, hn⟩) (ms1_13 ⟨0, hn⟩) (hs1_13 ⟨0, hn⟩) (ms1_14 ⟨0, hn⟩) (hs1_14 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩) (iblk1 V c 10 ⟨0, hn⟩) (iblk1 V c 11 ⟨0, hn⟩) (iblk1 V c 12 ⟨0, hn⟩) (iblk1 V c 13 ⟨0, hn⟩), sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) (ms1_12 ⟨0, hn⟩) (hs1_12 ⟨0, hn⟩) (ms1_13 ⟨0, hn⟩) (hs1_13 ⟨0, hn⟩) (ms1_14 ⟨0, hn⟩) (hs1_14 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩) (iblk1 V c 10 ⟨0, hn⟩) (iblk1 V c 11 ⟨0, hn⟩) (iblk1 V c 12 ⟨0, hn⟩) (iblk1 V c 13 ⟨0, hn⟩))
  | n + 1, hn =>
    if h0 : (n + 1) % 5 = 0 then
      if h1 : (n + 1) % 5 = 4 then
        False.elim (by omega)
      else
        (out1_A_14 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (iblk1 V c 10 ⟨n + 1, hn⟩) (iblk1 V c 11 ⟨n + 1, hn⟩) (iblk1 V c 12 ⟨n + 1, hn⟩) (iblk1 V c 13 ⟨n + 1, hn⟩), sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (iblk1 V c 10 ⟨n + 1, hn⟩) (iblk1 V c 11 ⟨n + 1, hn⟩) (iblk1 V c 12 ⟨n + 1, hn⟩) (iblk1 V c 13 ⟨n + 1, hn⟩))
    else
      if h1 : (n + 1) % 5 = 4 then
        (out1_C_14 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (iblk1 V c 10 ⟨n + 1, hn⟩) (iblk1 V c 11 ⟨n + 1, hn⟩) (iblk1 V c 12 ⟨n + 1, hn⟩) (iblk1 V c 13 ⟨n + 1, hn⟩) (outsAt1 c n (Nat.lt_of_succ_lt hn)).2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (iblk1 V c 10 ⟨n + 1, hn⟩) (iblk1 V c 11 ⟨n + 1, hn⟩) (iblk1 V c 12 ⟨n + 1, hn⟩) (iblk1 V c 13 ⟨n + 1, hn⟩) (outsAt1 c n (Nat.lt_of_succ_lt hn)).2)
      else
        (out1_B_14 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (iblk1 V c 10 ⟨n + 1, hn⟩) (iblk1 V c 11 ⟨n + 1, hn⟩) (iblk1 V c 12 ⟨n + 1, hn⟩) (iblk1 V c 13 ⟨n + 1, hn⟩) (outsAt1 c n (Nat.lt_of_succ_lt hn)).2, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (iblk1 V c 10 ⟨n + 1, hn⟩) (iblk1 V c 11 ⟨n + 1, hn⟩) (iblk1 V c 12 ⟨n + 1, hn⟩) (iblk1 V c 13 ⟨n + 1, hn⟩) (outsAt1 c n (Nat.lt_of_succ_lt hn)).2)

/-- At the first point: the first case's contents. -/
theorem outsAt1_A (c : Dev nD) (t : Fin cfg1.N) (h0 : t.val % 5 = 0) (h1 : ¬t.val % 5 = 4) :
    outsAt1 V c t.val t.isLt = (out1_A_14 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t), sout1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t)) := by
  obtain ⟨n, hn⟩ := t
  cases n with
  | zero => exact rfl
  | succ n => exact (dif_pos h0).trans ((dif_neg h1).trans rfl)

/-- At a middle point: the middle case's contents, over what the point before left. -/
theorem outsAt1_B (c : Dev nD) (t : Fin cfg1.N) (h0 : ¬t.val % 5 = 0) (h1 : ¬t.val % 5 = 4) :
    outsAt1 V c t.val t.isLt = (out1_B_14 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (outsAt1 V c (t.val - 1) (Nat.lt_of_le_of_lt (Nat.sub_le _ _) t.isLt)).2, sout1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At the last point: the last case's contents, over what the point before left. -/
theorem outsAt1_C (c : Dev nD) (t : Fin cfg1.N) (h0 : ¬t.val % 5 = 0) (h1 : t.val % 5 = 4) :
    outsAt1 V c t.val t.isLt = (out1_C_14 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (outsAt1 V c (t.val - 1) (Nat.lt_of_le_of_lt (Nat.sub_le _ _) t.isLt)).2, sout1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before position n: before the first point the region's own invariant (every scoped buffer at anything);
    afterwards the scratch at what the point before left in it, the other scoped buffers at anything, the
    generator register at some state. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ owns (c : Thread nD τ) scM1 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

/-- After point n (before point n + 1): the scratch at that point's contents. -/
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ owns (c : Thread nD τ) scM1 fullShare ((outsAt1 V c n hn).2)) ∗ (∃ r, prngReg c r)) := rfl

/-- Before a point that is not the first: the scratch at what the point before left. -/
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ owns (c : Thread nD τ) scM1 fullShare ((outsAt1 V c (n - 1) (by omega)).2)) ∗ (∃ r, prngReg c r)) := by
  cases n with
  | zero => exact absurd rfl hz
  | succ n => rfl

/-! ## The pipeline's proof data -/

/-- The proof data of the node stage's pipeline on core c: the arrays as the region finds them; after the body at
    point t each input's buffer at its block and the result window's at the accumulation's first component; the
    invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = iblk1 V c 13 t := by dsimp only [dat1]
theorem after1_14 (c : Dev nD) (t : Fin cfg1.N) : (dat1 V c).after 14 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d
theorem before1_12 (c : Dev nD) (t : Fin cfg1.N) (d) : (dat1 V c).before 12 t d = iblk1 V c 12 t :=
  before1_12_of V (dat1 V c) (A_eq1 V c 12) (after1_12 V c) t d
theorem before1_13 (c : Dev nD) (t : Fin cfg1.N) (d) : (dat1 V c).before 13 t d = iblk1 V c 13 t :=
  before1_13_of V (dat1 V c) (A_eq1 V c 13) (after1_13 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d))
    ∗ (∃ d, owns (c : Thread nD τ) (ms1_12 t) fullShare ((dat1 V c).before 12 t d))
    ∗ (∃ d, owns (c : Thread nD τ) (ms1_13 t) fullShare ((dat1 V c).before 13 t d))
    ∗ (∃ d, owns (c : Thread nD τ) (ms1_14 t) fullShare ((dat1 V c).before 14 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t
    ∗ (dat1 V c).leavesExact 11 t
    ∗ (dat1 V c).leavesExact 12 t
    ∗ (dat1 V c).leavesExact 13 t
    ∗ (dat1 V c).leavesExact 14 t)

set_option maxHeartbeats 4800000 in
/-- The body at any point. The inputs' memrefs hold their blocks; the closed forms say which case the point is in;
    the invariant hands the body the scratch at what the point before left (at anything at the first point) and
    takes it back at this point's contents, the other scoped buffers and the generator register passing through;
    the result window is handed back untouched where it is idle and at the stored block at the last point; the
    core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12, before1_13]
  rw [show (dat1 V c).owesAt () t.succ = (dat1 V c).owesAt () t.castSucc from rfl]
  rw [show (dat1 V c).Φ t.succ = PhiS1 V c (t.val + 1) t.isLt from rfl, PhiS1_succ]
  have hN : t.val < 5 := lt_of_lt_of_eq t.isLt (show cfg1.N = 5 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  rw [show (dat1 V c).leavesExact 7 t = owns (c : Thread nD τ) (ms1_7 t) fullShare ((dat1 V c).after 7 t) from by
    unfold Dat.leavesExact; rw [liveAt1_7 t], after1_7]
  rw [show (dat1 V c).leavesExact 8 t = owns (c : Thread nD τ) (ms1_8 t) fullShare ((dat1 V c).after 8 t) from by
    unfold Dat.leavesExact; rw [liveAt1_8 t], after1_8]
  rw [show (dat1 V c).leavesExact 9 t = owns (c : Thread nD τ) (ms1_9 t) fullShare ((dat1 V c).after 9 t) from by
    unfold Dat.leavesExact; rw [liveAt1_9 t], after1_9]
  rw [show (dat1 V c).leavesExact 10 t = owns (c : Thread nD τ) (ms1_10 t) fullShare ((dat1 V c).after 10 t) from by
    unfold Dat.leavesExact; rw [liveAt1_10 t], after1_10]
  rw [show (dat1 V c).leavesExact 11 t = owns (c : Thread nD τ) (ms1_11 t) fullShare ((dat1 V c).after 11 t) from by
    unfold Dat.leavesExact; rw [liveAt1_11 t], after1_11]
  rw [show (dat1 V c).leavesExact 12 t = owns (c : Thread nD τ) (ms1_12 t) fullShare ((dat1 V c).after 12 t) from by
    unfold Dat.leavesExact; rw [liveAt1_12 t], after1_12]
  rw [show (dat1 V c).leavesExact 13 t = owns (c : Thread nD τ) (ms1_13 t) fullShare ((dat1 V c).after 13 t) from by
    unfold Dat.leavesExact; rw [liveAt1_13 t], after1_13]
  by_cases h0 : t.val % 5 = 0
  · by_cases h1 : t.val % 5 = 4
    · exfalso; omega
    · rw [Dat.leavesExact_idle (dat1 V c) 14 t (idleAt1_14_A t ((hcond1_0 t).mpr h0) (fun h => h1 ((hcond1_1 t).mp h))) (noFlush1_14_A t ((hcond1_0 t).mpr h0) (fun h => h1 ((hcond1_1 t).mp h)))]
      rw [outsAt1_A V c t h0 h1]
      unfold sout1_A; (try dsimp only)
      have hz : t.val = 0 := by omega
      rw [PhiS1_castSucc V c t, PhiS1_zero V c _ _ hz, PhiA1_eq]
      iintro ⟨⟨⟨R0, R1, R2, R3, R4, R5, R6, R7, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply ((kernelRun1_A c (grid1.coords t) _ _ _ _ _ _ _ _ _ _ _ _ _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [HS0]; · iexact HS0
      iintro ⟨H0, H1, H2, H3, H4, H5, H6, H7, H8, H9, H10, H11, H12, H13, H14, ⟨%es0, HS0⟩⟩
      isplitl [R0 R1 R2 R3 R4 R5 R6 R7 HS0 Hg]
      · isplitl [R0 R1 R2 R3 R4 R5 R6 R7 HS0]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          unfold owns; iexists _; isplitr
          swap; · iexact HS0
          ipureintro; exact View.read_writes_of_cover _ _ _ _ _ (scover1_A c _ _ _ _ _ _ _ _ _ _ _ _ _ _ _ _ _ _ _ _ _ _ _ _ _ _ _ _ _ _ _ _ _ ((hcond1_0 t).mpr h0) (fun h => h1 ((hcond1_1 t).mp h)) _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      iexists _; iexact H14
  · have hz : t.val ≠ 0 := fun e => h0 (by rw [e])
    by_cases h1 : t.val % 5 = 4
    · rw [show (dat1 V c).leavesExact 14 t = owns (c : Thread nD τ) (ms1_14 t) fullShare ((dat1 V c).after 14 t) from by
        unfold Dat.leavesExact; rw [liveAt1_14_C t (fun h => h0 ((hcond1_0 t).mp h)) ((hcond1_1 t).mpr h1)], after1_14]
      rw [outsAt1_C V c t h0 h1]
      unfold out1_C_14 sout1_C; (try dsimp only)
      rw [PhiS1_castSucc V c t, PhiS1_pos V c _ _ hz]
      iintro ⟨⟨⟨R0, R1, R2, R3, R4, R5, R6, R7, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply ((kernelRun1_C c (grid1.coords t) _ _ _ _ _ _ _ _ _ _ _ _ _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexists _; iexact H14
      isplitl [HS0]; · iexact HS0
      iintro ⟨H0, H1, H2, H3, H4, H5, H6, H7, H8, H9, H10, H11, H12, H13, ⟨%e14, H14⟩, ⟨%es0, HS0⟩⟩
      isplitl [R0 R1 R2 R3 R4 R5 R6 R7 HS0 Hg]
      · isplitl [R0 R1 R2 R3 R4 R5 R6 R7 HS0]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          unfold owns; iexists _; isplitr
          swap; · iexact HS0
          ipureintro; exact View.read_writes_of_cover _ _ _ _ _ (scover1_C c _ _ _ _ _ _ _ _ _ _ _ _ _ _ _ _ _ _ _ _ _ _ _ _ _ _ _ _ _ _ _ _ _ (fun h => h0 ((hcond1_0 t).mp h)) ((hcond1_1 t).mpr h1) _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      unfold owns; iexists _; isplitr
      swap; · iexact H14
      ipureintro; exact View.read_writes_of_cover _ _ _ _ _ (cover1_C_14 c _ _ _ _ _ _ _ _ _ _ _ _ _ _ _ _ _ _ _ _ _ _ _ _ _ _ _ _ _ _ _ _ _ (fun h => h0 ((hcond1_0 t).mp h)) ((hcond1_1 t).mpr h1) _ _ _ _ _ _ _ _ _ _ _ _ _ _ _)
    · rw [Dat.leavesExact_idle (dat1 V c) 14 t (idleAt1_14_B t (fun h => h0 ((hcond1_0 t).mp h)) (fun h => h1 ((hcond1_1 t).mp h))) (noFlush1_14_B t (fun h => h0 ((hcond1_0 t).mp h)) (fun h => h1 ((hcond1_1 t).mp h)))]
      rw [outsAt1_B V c t h0 h1]
      unfold sout1_B; (try dsimp only)
      rw [PhiS1_castSucc V c t, PhiS1_pos V c _ _ hz]
      iintro ⟨⟨⟨R0, R1, R2, R3, R4, R5, R6, R7, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply ((kernelRun1_B c (grid1.coords t) _ _ _ _ _ _ _ _ _ _ _ _ _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [HS0]; · iexact HS0
      iintro ⟨H0, H1, H2, H3, H4, H5, H6, H7, H8, H9, H10, H11, H12, H13, H14, ⟨%es0, HS0⟩⟩
      isplitl [R0 R1 R2 R3 R4 R5 R6 R7 HS0 Hg]
      · isplitl [R0 R1 R2 R3 R4 R5 R6 R7 HS0]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          unfold owns; iexists _; isplitr
          swap; · iexact HS0
          ipureintro; exact View.read_writes_of_cover _ _ _ _ _ (scover1_B c _ _ _ _ _ _ _ _ _ _ _ _ _ _ _ _ _ _ _ _ _ _ _ _ _ _ _ _ _ _ _ _ _ (fun h => h0 ((hcond1_0 t).mp h)) (fun h => h1 ((hcond1_1 t).mp h)) _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      iexists _; iexact H14

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the region's own back: the scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨R0, R1, R2, R3, R4, R5, R6, R7, HS0⟩, Hg⟩
  isplitl [R0 R1 R2 R3 R4 R5 R6 R7 HS0]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 5 := N_1; omega)

end Cert.Kernel.Hand

end
-- ==== Proof.K.RunCond.lean ====
/- The whole program run from its launch memory to its return, given one record per kernel region: every weakly fair
   execution terminates and every buffer that is not a kernel's own staging or scratch storage ends at the last of the
   valuations between the program's items (the launch contents, each host stretch applied, each region's result array
   replaced by what the region leaves). -/
import proofs.«402084_j84928683311960_2_alg».proof.Proof.Gen.Kernel.Regions

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

-- the launch theorem's implicit arguments are found by unifying its conclusion with this one, which takes unfolding
-- plain definitions in a metavariable's type
set_option backward.isDefEq.respectTransparency.types false in
/-- THE CONDITIONAL RUN. Under the hypotheses of the conditional frame (per region a segment record entered from the
    valuation before it and left at the one after it), every weakly fair execution of @main from memory `m` with zero
    counters terminates, and in every final memory EVERY unscoped buffer of core `c` holds the last valuation
    `V7 m outs c`: the launch contents, then each host stretch's `StableHlo.after`, then what the two regions leave. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V4 m c) ∗ E 0 c) ⊢ R0.pre c)
    (hpost0 : ∀ c : Dev nD, R0.post c ⊢ iprop(StableHlo.held (c : Thread nD τ) (Pipeline.ucRefs τ sig) (V5 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V6 m outs c) ∗ E 1 c) ⊢ R1.pre c)
    (hpost1 : ∀ c : Dev nD, R1.post c ⊢ iprop(StableHlo.held (c : Thread nD τ) (Pipeline.ucRefs τ sig) (V7 m outs c) ∗ E 2 c)) :
    θ_run defs (onTc (τ := τ) (main (F := F))) ⟨m, fun _ => 0, ρ⟩ (fun r => ∀ c : Dev nD,
      ∀ b ∈ Pipeline.ucRefs τ sig, r.2.mem (((c : Thread nD τ)).1, b) = V7 m outs c b) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          StableHlo.seq hostOps0_1,
          StableHlo.seq hostOps0_2,
          StableHlo.seq hostOps0_3,
          Prog.lift (.customCall (Pipeline.entry 0) ()),
          StableHlo.seq hostOps1,
          Prog.lift (.customCall (Pipeline.entry 1) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V7 m outs c))
    (hch := fun c => ⟨.rfl, .rfl, .rfl, .rfl, hpre0 c, hpost0 c, hpre1 c, (hpost1 c).trans (sep_mono .rfl (hE2 c))⟩)
    (hinit := ?_) (QY := fun c s => ∀ b ∈ Pipeline.ucRefs τ sig, s.mem (((c : Thread nD τ)).1, b) = V7 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last valuation
    unfold StableHlo.held
    iintro ⟨Hh, HSI⟩
    imodintro
    iapply (pointsTo_read_all (Pipeline.ucRefs τ sig) (fun b => (((c : Thread nD τ)).1, b)) (V7 m outs c) s')
    isplitl [Hh] <;> iassumption

end Cert.Kernel.Hand

end
-- ==== Proof.K.Run.lean ====
/-
  The launch of the graph network's program: @main run from the launch memory to its return, with the final
  contents of every unscoped buffer named.

  @main is seven items: four host stretches, the edge stage's pallas_call (it writes main_v7), a host stretch (the
  segment sum of the edge rows into the nodes and the operands of the node stage), the node stage's pallas_call (it
  writes main_v19). Between two items core c holds every unscoped buffer at a valuation: the launch memory, then each
  host stretch's effect, then each region's output array at what the region's write-backs leave and every other
  buffer as the region found it. The edge stage's output is the fold of its write-backs over the buffers it is
  entered from; the node stage is entered from the buffers after the next host stretch, which read that output, and
  its own output is the fold of its write-backs over those. So the two unknowns of the conditional run are solved in
  order, the first not depending on the second.

  The node stage's proof data and both body obligations are parameters here: the run only needs that the proof data
  read their arrays off the entry valuation, hold them at the full share, owe nothing, and keep the class invariant.
-/
import proofs.«402084_j84928683311960_2_alg».proof.Proof.K.RunCond
import proofs.«402084_j84928683311960_2_alg».proof.Proof.K.R0Defs
import Idealize.ShloMosaic.Lib.Pipeline.RegionsLoop
import Idealize.ShloMosaic.Lib.Pipeline.FrameSuffix
import Idealize.ShloMosaic.Lib.Pipeline.Kit

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

section Run

variable
  (hb0 : ∀ (V : (c : Dev nD) → (b : Ref sig .tc) → Buf (Elt F) ((c : Thread nD τ).loc b)) (c : Dev nD),
    BodyObligation (dat0 (F := F) V c) (defs₀ (F := F)) Variants.none () Set.univ)
  (D1 : ((c : Dev nD) → (b : Ref sig .tc) → Buf (Elt F) ((c : Thread nD τ).loc b)) → (c : Dev nD) →
    Dat τ (Elt F) Unit ℕ (UR sig nD τ) ℕ cfg1 c)

/-! ## The two outputs, solved in order -/

/-- The buffers the edge stage is entered from, read at the TensorCore's references: the launch memory after the
    four host stretches. -/
abbrev VA : (c : Dev nD) → (b : Ref sig .tc) → Buf (Elt F) ((c : Thread nD τ).loc b) := fun c b => V4 m c b

/-- The edge stage's result array as the region leaves it: its hundred write-backs folded over the entry contents. -/
def eArr (c : Dev nD) : Buf (Elt F) ((c : Thread nD τ).loc main_v7) := (dat0 (VA m) c).arrAt 5 cfg0.N

/-- The regions' outputs with only the first solved: main_v7 at the edge stage's result, anything else as launched. -/
def outsE : Outs (F := F) := fun _ => Function.update (fun r c => m ((c : Thread nD τ).loc r)) main_v7 (eArr m)

theorem outsE_v7 (c : Dev nD) : outsE m 5 main_v7 c = eArr m c := by
  unfold outsE; rw [Function.update_self]

/-- The buffers the node stage is entered from: the edge stage's result in place, then the host stretch between. -/
abbrev VB : (c : Dev nD) → (b : Ref sig .tc) → Buf (Elt F) ((c : Thread nD τ).loc b) := fun c b => V6 m (outsE m) c b

/-- The node stage's result array as the region leaves it: its write-back folded over the entry contents. -/
def oArr (c : Dev nD) : Buf (Elt F) ((c : Thread nD τ).loc main_v19) := (D1 (VB m) c).arrAt 14 cfg1.N

/-- Both outputs solved: main_v7 at the edge stage's result, main_v19 at the node stage's. -/
def outs : Outs (F := F) := fun _ =>
  Function.update (Function.update (fun r c => m ((c : Thread nD τ).loc r)) main_v7 (eArr m)) main_v19 (oArr m D1)

theorem outs_v7 (c : Dev nD) : outs m D1 5 main_v7 c = eArr m c := by
  unfold outs; rw [Function.update_of_ne (by decide), Function.update_self]

theorem outs_v19 (c : Dev nD) : outs m D1 7 main_v19 c = oArr m D1 c := by
  unfold outs; rw [Function.update_self]

/-- The valuation after the edge stage reads only the first output, on which the two solutions agree. -/
theorem V5_outs (c : Dev nD) : V5 m (outs m D1) c = V5 m (outsE m) c := by
  show Function.update (V4 m c) main_v7 (outs m D1 5 main_v7 c) = Function.update (V4 m c) main_v7 (outsE m 5 main_v7 c)
  rw [outs_v7, outsE_v7]

/-- So the node stage is entered from the same buffers under either: value lemmas stated over the full solution apply
    to the proof data, which are stated over the first. -/
theorem VB_eq (c : Dev nD) : V6 m (outs m D1) c = V6 m (outsE m) c := by
  show StableHlo.after hostOps1 (V5 m (outs m D1) c) = StableHlo.after hostOps1 (V5 m (outsE m) c)
  rw [V5_outs]

/-- The last valuation at the node stage's output is that output. -/
theorem V7_v19 (c : Dev nD) : V7 m (outs m D1) c main_v19 = oArr m D1 c := by
  show Function.update (V6 m (outs m D1) c) main_v19 (outs m D1 7 main_v19 c) main_v19 = _
  rw [Function.update_self, outs_v19]

/-! ## The proof data family and the thread state -/

/-- Each pipeline's proof data at its region's entry contents. -/
def runDats : (p : Fin 2) → (c : Dev nD) → Dat τ (Elt F) Unit ℕ (UR sig nD τ) ℕ (cfgs p) c
  | ⟨0, _⟩ => fun c => dat0 (VA m) c
  | ⟨1, _⟩ => fun c => D1 (VB m) c

/-- No core owes another anything: no level is assigned. -/
abbrev runL : GSem nD τ sig → Finset Unit := fun _ => ∅
abbrev runLv : GSem nD τ sig → Unit → ℕ := fun _ _ => 0

/-- What rides beside the buffers through every item: the core's generator register at some state and its dues, at
    nothing. -/
abbrev runR (c : Dev nD) : sProp 𝕄 :=
  iprop((∃ r, prngReg c r) ∗ ∃ W, owes (c : Thread nD τ) (0 : CellTallies nD τ sig Unit) W)

/-- An unscoped TensorCore reference is among those the thread state holds. -/
theorem mem_uc (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-! ## What each region leaves: its inputs as entered, its output at the fold, every other buffer untouched -/

/-- The edge stage's arrays at its exit are the next valuation's. -/
theorem hF0 (c : Dev nD) (w : Fin cfg0.W) :
    (dat0 (VA m) c).arrAt w cfg0.N = V5 m (outs m D1) c (Pipeline.arrRef spec0 w) := by
  rcases (by decide : ∀ w : Fin 6, w = 5 ∨ ((cfg0.win w).isOut = false
      ∧ Pipeline.arrRef spec0 w ∉ ([main_v7] : List (Ref sig .tc)))) w with rfl | ⟨hin, hne⟩
  · show (dat0 (VA m) c).arrAt 5 cfg0.N
        = Function.update (V4 m c) main_v7 (outs m D1 5 main_v7 c) main_v7
    rw [Function.update_self, outs_v7]; rfl
  · exact ((dat0 (VA m) c).arrAt_in w hin _).trans ((A_eq0 (VA m) c w).trans (V5_of m (outs m D1) c _ hne).symm)

theorem hrest0 (c : Dev nD) (b : Ref sig .tc) (hb : b ∉ Finset.univ.image (Pipeline.arrRef spec0)) :
    V5 m (outs m D1) c b = V4 m c b :=
  V5_of m (outs m D1) c b fun h => hb (by
    rw [List.mem_singleton] at h; subst h; exact Finset.mem_image.mpr ⟨5, Finset.mem_univ _, rfl⟩)

/-- The node stage's proof data read their arrays off the valuation it is entered from under the full solution. -/
theorem hA1' (hA1 : ∀ (V : (c : Dev nD) → (b : Ref sig .tc) → Buf (Elt F) ((c : Thread nD τ).loc b)) (c : Dev nD) (w : Fin cfg1.W), (D1 V c).A w = V c (Pipeline.arrRef spec1 w)) (c : Dev nD) (w : Fin cfg1.W) :
    (D1 (VB m) c).A w = V6 m (outs m D1) c (Pipeline.arrRef spec1 w) :=
  (hA1 (VB m) c w).trans (congrFun (VB_eq m D1 c).symm _)

/-- The node stage's arrays at its exit are the last valuation's. -/
theorem hF1 (hA1 : ∀ (V : (c : Dev nD) → (b : Ref sig .tc) → Buf (Elt F) ((c : Thread nD τ).loc b)) (c : Dev nD) (w : Fin cfg1.W), (D1 V c).A w = V c (Pipeline.arrRef spec1 w)) (c : Dev nD) (w : Fin cfg1.W) :
    (D1 (VB m) c).arrAt w cfg1.N = V7 m (outs m D1) c (Pipeline.arrRef spec1 w) := by
  rcases (by decide : ∀ w : Fin 15, w = 14 ∨ ((cfg1.win w).isOut = false
      ∧ Pipeline.arrRef spec1 w ∉ ([main_v19] : List (Ref sig .tc)))) w with rfl | ⟨hin, hne⟩
  · exact (V7_v19 m D1 c).symm
  · exact ((D1 (VB m) c).arrAt_in w hin _).trans ((hA1' m D1 hA1 c w).trans (V7_of m (outs m D1) c _ hne).symm)

theorem hrest1 (c : Dev nD) (b : Ref sig .tc) (hb : b ∉ Finset.univ.image (Pipeline.arrRef spec1)) :
    V7 m (outs m D1) c b = V6 m (outs m D1) c b :=
  V7_of m (outs m D1) c b fun h => hb (by
    rw [List.mem_singleton] at h; subst h; exact Finset.mem_image.mpr ⟨14, Finset.mem_univ _, rfl⟩)

/-! ## The regions as segments -/

set_option backward.isDefEq.respectTransparency.types false in
/-- THE EDGE STAGE over the thread state: entered from every unscoped buffer at the valuation after the four host
    stretches, left at that valuation with main_v7 at the stage's result. Its arrays are split out of the unscoped
    buffers and put back at the exit contents; the generator register goes into the class invariant and comes out;
    nothing is owed; the kernel has no semaphore of its own. -/
def runReg0 : Pipeline.RegionSeg (pcfgs (F := F)) adm (runDats m D1) () defs₀ Variants.none runL runLv 0 where
  win := launch0.win.to₀
  block_pos := launch0.block_pos
  stage_whole := launch0.stage_whole
  K := PEmpty
  osem k := k.elim
  ho := Pipeline.OwnSemFacts.none _
  hbody c := (hb0 (VA m) c).loose
  hwaits := Pipeline.hwaits_of_owed_zero _ _ _ _ runL runLv 0 fun _ _ => rfl
  pre c := iprop(StableHlo.held (c : Thread nD τ) (Pipeline.ucRefs τ sig) (V4 m c) ∗ runR c)
  post c := iprop(StableHlo.held (c : Thread nD τ) (Pipeline.ucRefs τ sig) (V5 m (outs m D1) c) ∗ runR c)
  X c := iprop(∃ r, prngReg c r)
  Y c := iprop(∃ r, prngReg c r)
  Z c := Pipeline.unscopedRest (Ix := Unit) (Name := ℕ) (U := UR sig nD τ) (Lvl := ℕ) spec0 c (VA m c)
  hentry c := by
    rw [Pipeline.ownSems0_none]
    have hsplit := Pipeline.arrays_of_unscopedBufs (p := 0) (pcfgs (F := F)) adm (runDats m D1) launch0.win launch0.arr_whole c
      ((runDats m D1 0 c).share_full fun _ => rfl) (VA m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun x _ => Or.inl trivial
      iexact HO
    isplitl [Hp]; · iexact Hp
    iexact Hrest
  hin c := by
    rw [show (runDats m D1 0 c).Φ 0 = Pipeline.ΦA spec0 c from rfl]; unfold Pipeline.ΦA
    iintro ⟨Hp, -, Hr⟩
    isplitl [Hr]; · iexact Hr
    iexact Hp
  hout c := by
    rw [Pipeline.ownSems0_none, show (runDats m D1 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (runDats m D1) ((runDats m D1 0 c).share_full fun _ => rfl)
      (VA m c) (fun b : Ref sig .tc => V5 m (outs m D1) c b) ((runDats m D1 0 c).arrAt · cfg0.N) (hF0 m D1 c) (hrest0 m D1 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE NODE STAGE over the thread state: entered from every unscoped buffer at the valuation after the host stretch
    that follows the edge stage, left at that valuation with main_v19 at the stage's result. The same protocol, its
    proof data the parameter's. -/
def runReg1
    (hA1 : ∀ (V : (c : Dev nD) → (b : Ref sig .tc) → Buf (Elt F) ((c : Thread nD τ).loc b)) (c : Dev nD) (w : Fin cfg1.W), (D1 V c).A w = V c (Pipeline.arrRef spec1 w))
    (hq1 : ∀ (V : (c : Dev nD) → (b : Ref sig .tc) → Buf (Elt F) ((c : Thread nD τ).loc b)) (c : Dev nD) (w : Fin cfg1.W), (D1 V c).q w = fullShare)
    (ho1 : ∀ (V : (c : Dev nD) → (b : Ref sig .tc) → Buf (Elt F) ((c : Thread nD τ).loc b)) (c : Dev nD) (t : Fin (cfg1.N + 1)), (D1 V c).owed t = 0)
    (hr1 : ∀ (V : (c : Dev nD) → (b : Ref sig .tc) → Buf (Elt F) ((c : Thread nD τ).loc b)) (c : Dev nD), (D1 V c).recorded 0 = Set.univ)
    (hb1 : ∀ (V : (c : Dev nD) → (b : Ref sig .tc) → Buf (Elt F) ((c : Thread nD τ).loc b)) (c : Dev nD), BodyObligation (D1 V c) (defs₀ (F := F)) Variants.none () Set.univ)
    (hin1 : ∀ (V : (c : Dev nD) → (b : Ref sig .tc) → Buf (Elt F) ((c : Thread nD τ).loc b)) (c : Dev nD), (Pipeline.ΦA spec1 c : sProp 𝕄) ⊢ (D1 V c).Φ 0)
    (hout1 : ∀ (V : (c : Dev nD) → (b : Ref sig .tc) → Buf (Elt F) ((c : Thread nD τ).loc b)) (c : Dev nD), (D1 V c).Φ (Fin.last cfg1.N) ⊢ (Pipeline.ΦA spec1 c : sProp 𝕄)) :
    Pipeline.RegionSeg (pcfgs (F := F)) adm (runDats m D1) () defs₀ Variants.none runL runLv 1 where
  win := launch1.win.to₀
  block_pos := launch1.block_pos
  stage_whole := launch1.stage_whole
  K := PEmpty
  osem k := k.elim
  ho := Pipeline.OwnSemFacts.none _
  hbody c := (hb1 (VB m) c).loose
  hwaits := Pipeline.hwaits_of_owed_zero _ _ _ _ runL runLv 1 fun c t => ho1 (VB m) c t
  pre c := iprop(StableHlo.held (c : Thread nD τ) (Pipeline.ucRefs τ sig) (V6 m (outs m D1) c) ∗ runR c)
  post c := iprop(StableHlo.held (c : Thread nD τ) (Pipeline.ucRefs τ sig) (V7 m (outs m D1) c) ∗ runR c)
  X c := iprop(∃ r, prngReg c r)
  Y c := iprop(∃ r, prngReg c r)
  Z c := Pipeline.unscopedRest (Ix := Unit) (Name := ℕ) (U := UR sig nD τ) (Lvl := ℕ) spec1 c (fun b : Ref sig .tc => V6 m (outs m D1) c b)
  hentry c := by
    rw [Pipeline.ownSems0_none]
    have hsplit := Pipeline.arrays_of_unscopedBufs (p := 1) (pcfgs (F := F)) adm (runDats m D1) launch1.win launch1.arr_whole c
      ((runDats m D1 1 c).share_full fun w => hq1 (VB m) c w) (fun b : Ref sig .tc => V6 m (outs m D1) c b) (hA1' m D1 hA1 c)
    rw [Pipeline.unscopedBufs_held] at hsplit
    have hz : ∀ t, (runDats m D1 1 c).owed t = 0 := fun t => ho1 (VB m) c t
    have hrec : (runDats m D1 1 c).recorded 0 = Set.univ := hr1 (VB m) c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [hz]
      icases HO with ⟨%W, HO⟩; iexists W; isplitr; · ipureintro; exact fun x _ => Or.inl (hrec ▸ Set.mem_univ x)
      iexact HO
    isplitl [Hp]; · iexact Hp
    iexact Hrest
  hin c := by
    refine BIBase.Entails.trans ?_ (hin1 (VB m) c)
    unfold Pipeline.ΦA
    iintro ⟨Hp, -, Hr⟩
    isplitl [Hr]; · iexact Hr
    iexact Hp
  hout c := by
    rw [Pipeline.ownSems0_none]
    refine (hout1 (VB m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (runDats m D1) ((runDats m D1 1 c).share_full fun w => hq1 (VB m) c w)
      (fun b : Ref sig .tc => V6 m (outs m D1) c b) (fun b : Ref sig .tc => V7 m (outs m D1) c b)
      ((runDats m D1 1 c).arrAt · cfg1.N) (hF1 m D1 hA1 c) (hrest1 m D1 c)
    rw [Pipeline.unscopedBufs_held] at hjoin
    have hz : ∀ t, (runDats m D1 1 c).owed t = 0 := fun t => ho1 (VB m) c t
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [hz]
    icases HO with ⟨%W, -, HO⟩; iexists W; iexact HO

/-! ## The launch -/

include hb0 in
set_option backward.isDefEq.respectTransparency.types false in
/-- THE RUN. Every weakly fair execution of @main from memory m with zero counters terminates, and in every final
    memory every unscoped buffer of core c holds the last valuation: the launch contents, then each host stretch's
    effect, main_v7 at the edge stage's result and main_v19 at the node stage's. -/
theorem run_all
    (hA1 : ∀ (V : (c : Dev nD) → (b : Ref sig .tc) → Buf (Elt F) ((c : Thread nD τ).loc b)) (c : Dev nD) (w : Fin cfg1.W), (D1 V c).A w = V c (Pipeline.arrRef spec1 w))
    (hq1 : ∀ (V : (c : Dev nD) → (b : Ref sig .tc) → Buf (Elt F) ((c : Thread nD τ).loc b)) (c : Dev nD) (w : Fin cfg1.W), (D1 V c).q w = fullShare)
    (ho1 : ∀ (V : (c : Dev nD) → (b : Ref sig .tc) → Buf (Elt F) ((c : Thread nD τ).loc b)) (c : Dev nD) (t : Fin (cfg1.N + 1)), (D1 V c).owed t = 0)
    (hr1 : ∀ (V : (c : Dev nD) → (b : Ref sig .tc) → Buf (Elt F) ((c : Thread nD τ).loc b)) (c : Dev nD), (D1 V c).recorded 0 = Set.univ)
    (hb1 : ∀ (V : (c : Dev nD) → (b : Ref sig .tc) → Buf (Elt F) ((c : Thread nD τ).loc b)) (c : Dev nD), BodyObligation (D1 V c) (defs₀ (F := F)) Variants.none () Set.univ)
    (hin1 : ∀ (V : (c : Dev nD) → (b : Ref sig .tc) → Buf (Elt F) ((c : Thread nD τ).loc b)) (c : Dev nD), (Pipeline.ΦA spec1 c : sProp 𝕄) ⊢ (D1 V c).Φ 0)
    (hout1 : ∀ (V : (c : Dev nD) → (b : Ref sig .tc) → Buf (Elt F) ((c : Thread nD τ).loc b)) (c : Dev nD), (D1 V c).Φ (Fin.last cfg1.N) ⊢ (Pipeline.ΦA spec1 c : sProp 𝕄))
    (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = V7 m (outs m D1) c b) :=
  run_cond m (EP := emb₁) (ι := ()) (𝒱₀ := Variants.none) (L := runL) (lv := runLv) (hL := fun _ _ => rfl) (ρ := ρ)
    (outs := outs m D1) (pdats := runDats m D1) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => runR c)
    (hE0 := by
      refine Pipeline.initEach runL runLv fun c => ?_
      iintro ⟨⟨-, HO, -, Hp, -⟩, -⟩
      imodintro
      isplitl [Hp]; · iexists _; iexact Hp
      iexists ∅; iexact HO)
    (hE2 := fun c => by iintro ⟨-, HO⟩; iexact HO)
    (R0 := runReg0 m hb0 D1) (hpre0 := fun _ => .rfl) (hpost0 := fun _ => .rfl)
    (R1 := runReg1 m D1 hA1 hq1 ho1 hr1 hb1 hin1 hout1) (hpre1 := fun _ => .rfl) (hpost1 := fun _ => .rfl)

include hb0 in
/-- THE FRAME: every argument array ends as launched (no host stretch writes one, no region's output is one). -/
theorem frame_all
    (hA1 : ∀ (V : (c : Dev nD) → (b : Ref sig .tc) → Buf (Elt F) ((c : Thread nD τ).loc b)) (c : Dev nD) (w : Fin cfg1.W), (D1 V c).A w = V c (Pipeline.arrRef spec1 w))
    (hq1 : ∀ (V : (c : Dev nD) → (b : Ref sig .tc) → Buf (Elt F) ((c : Thread nD τ).loc b)) (c : Dev nD) (w : Fin cfg1.W), (D1 V c).q w = fullShare)
    (ho1 : ∀ (V : (c : Dev nD) → (b : Ref sig .tc) → Buf (Elt F) ((c : Thread nD τ).loc b)) (c : Dev nD) (t : Fin (cfg1.N + 1)), (D1 V c).owed t = 0)
    (hr1 : ∀ (V : (c : Dev nD) → (b : Ref sig .tc) → Buf (Elt F) ((c : Thread nD τ).loc b)) (c : Dev nD), (D1 V c).recorded 0 = Set.univ)
    (hb1 : ∀ (V : (c : Dev nD) → (b : Ref sig .tc) → Buf (Elt F) ((c : Thread nD τ).loc b)) (c : Dev nD), BodyObligation (D1 V c) (defs₀ (F := F)) Variants.none () Set.univ)
    (hin1 : ∀ (V : (c : Dev nD) → (b : Ref sig .tc) → Buf (Elt F) ((c : Thread nD τ).loc b)) (c : Dev nD), (Pipeline.ΦA spec1 c : sProp 𝕄) ⊢ (D1 V c).Φ 0)
    (hout1 : ∀ (V : (c : Dev nD) → (b : Ref sig .tc) → Buf (Elt F) ((c : Thread nD τ).loc b)) (c : Dev nD), (D1 V c).Φ (Fin.last cfg1.N) ⊢ (Pipeline.ΦA spec1 c : sProp 𝕄))
    (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun r h c =>
    ⟨(h c _ (mem_uc main_arg0 (by decide))).trans (V7_main_arg0 m (outs m D1) c),
      (h c _ (mem_uc main_arg1 (by decide))).trans (V7_main_arg1 m (outs m D1) c),
      (h c _ (mem_uc main_arg2 (by decide))).trans (V7_main_arg2 m (outs m D1) c),
      (h c _ (mem_uc main_arg3 (by decide))).trans (V7_main_arg3 m (outs m D1) c),
      (h c _ (mem_uc main_arg4 (by decide))).trans (V7_main_arg4 m (outs m D1) c),
      (h c _ (mem_uc main_arg5 (by decide))).trans (V7_main_arg5 m (outs m D1) c),
      (h c _ (mem_uc main_arg6 (by decide))).trans (V7_main_arg6 m (outs m D1) c),
      (h c _ (mem_uc main_arg7 (by decide))).trans (V7_main_arg7 m (outs m D1) c),
      (h c _ (mem_uc main_arg8 (by decide))).trans (V7_main_arg8 m (outs m D1) c),
      (h c _ (mem_uc main_arg9 (by decide))).trans (V7_main_arg9 m (outs m D1) c),
      (h c _ (mem_uc main_arg10 (by decide))).trans (V7_main_arg10 m (outs m D1) c),
      (h c _ (mem_uc main_arg11 (by decide))).trans (V7_main_arg11 m (outs m D1) c),
      (h c _ (mem_uc main_arg12 (by decide))).trans (V7_main_arg12 m (outs m D1) c),
      (h c _ (mem_uc main_arg13 (by decide))).trans (V7_main_arg13 m (outs m D1) c),
      (h c _ (mem_uc main_arg14 (by decide))).trans (V7_main_arg14 m (outs m D1) c),
      (h c _ (mem_uc main_arg15 (by decide))).trans (V7_main_arg15 m (outs m D1) c),
      (h c _ (mem_uc main_arg16 (by decide))).trans (V7_main_arg16 m (outs m D1) c),
      (h c _ (mem_uc main_arg17 (by decide))).trans (V7_main_arg17 m (outs m D1) c),
      (h c _ (mem_uc main_arg18 (by decide))).trans (V7_main_arg18 m (outs m D1) c),
      (h c _ (mem_uc main_arg19 (by decide))).trans (V7_main_arg19 m (outs m D1) c)⟩)
    (run_all m hb0 D1 hA1 hq1 ho1 hr1 hb1 hin1 hout1 ρ)

include hb0 in
/-- THE VALUE AND THE FRAME: the result array ends at the node stage's fold, and every argument array as launched. -/
theorem run_value
    (hA1 : ∀ (V : (c : Dev nD) → (b : Ref sig .tc) → Buf (Elt F) ((c : Thread nD τ).loc b)) (c : Dev nD) (w : Fin cfg1.W), (D1 V c).A w = V c (Pipeline.arrRef spec1 w))
    (hq1 : ∀ (V : (c : Dev nD) → (b : Ref sig .tc) → Buf (Elt F) ((c : Thread nD τ).loc b)) (c : Dev nD) (w : Fin cfg1.W), (D1 V c).q w = fullShare)
    (ho1 : ∀ (V : (c : Dev nD) → (b : Ref sig .tc) → Buf (Elt F) ((c : Thread nD τ).loc b)) (c : Dev nD) (t : Fin (cfg1.N + 1)), (D1 V c).owed t = 0)
    (hr1 : ∀ (V : (c : Dev nD) → (b : Ref sig .tc) → Buf (Elt F) ((c : Thread nD τ).loc b)) (c : Dev nD), (D1 V c).recorded 0 = Set.univ)
    (hb1 : ∀ (V : (c : Dev nD) → (b : Ref sig .tc) → Buf (Elt F) ((c : Thread nD τ).loc b)) (c : Dev nD), BodyObligation (D1 V c) (defs₀ (F := F)) Variants.none () Set.univ)
    (hin1 : ∀ (V : (c : Dev nD) → (b : Ref sig .tc) → Buf (Elt F) ((c : Thread nD τ).loc b)) (c : Dev nD), (Pipeline.ΦA spec1 c : sProp 𝕄) ⊢ (D1 V c).Φ 0)
    (hout1 : ∀ (V : (c : Dev nD) → (b : Ref sig .tc) → Buf (Elt F) ((c : Thread nD τ).loc b)) (c : Dev nD), (D1 V c).Φ (Fin.last cfg1.N) ⊢ (Pipeline.ΦA spec1 c : sProp 𝕄))
    (ρ : Dev nD → PrngReg) :
    θ_run defs (onTc (τ := τ) (main (F := F))) ⟨m, fun _ => 0, ρ⟩ (fun r => ∀ c : Dev nD,
      r.2.mem ((c.tc : Thread nD τ).loc main_v19) = oArr m D1 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun r h c =>
    ⟨(h c _ (mem_uc main_v19 (by decide))).trans (V7_v19 m D1 c),
      (h c _ (mem_uc main_arg0 (by decide))).trans (V7_main_arg0 m (outs m D1) c),
      (h c _ (mem_uc main_arg1 (by decide))).trans (V7_main_arg1 m (outs m D1) c),
      (h c _ (mem_uc main_arg2 (by decide))).trans (V7_main_arg2 m (outs m D1) c),
      (h c _ (mem_uc main_arg3 (by decide))).trans (V7_main_arg3 m (outs m D1) c),
      (h c _ (mem_uc main_arg4 (by decide))).trans (V7_main_arg4 m (outs m D1) c),
      (h c _ (mem_uc main_arg5 (by decide))).trans (V7_main_arg5 m (outs m D1) c),
      (h c _ (mem_uc main_arg6 (by decide))).trans (V7_main_arg6 m (outs m D1) c),
      (h c _ (mem_uc main_arg7 (by decide))).trans (V7_main_arg7 m (outs m D1) c),
      (h c _ (mem_uc main_arg8 (by decide))).trans (V7_main_arg8 m (outs m D1) c),
      (h c _ (mem_uc main_arg9 (by decide))).trans (V7_main_arg9 m (outs m D1) c),
      (h c _ (mem_uc main_arg10 (by decide))).trans (V7_main_arg10 m (outs m D1) c),
      (h c _ (mem_uc main_arg11 (by decide))).trans (V7_main_arg11 m (outs m D1) c),
      (h c _ (mem_uc main_arg12 (by decide))).trans (V7_main_arg12 m (outs m D1) c),
      (h c _ (mem_uc main_arg13 (by decide))).trans (V7_main_arg13 m (outs m D1) c),
      (h c _ (mem_uc main_arg14 (by decide))).trans (V7_main_arg14 m (outs m D1) c),
      (h c _ (mem_uc main_arg15 (by decide))).trans (V7_main_arg15 m (outs m D1) c),
      (h c _ (mem_uc main_arg16 (by decide))).trans (V7_main_arg16 m (outs m D1) c),
      (h c _ (mem_uc main_arg17 (by decide))).trans (V7_main_arg17 m (outs m D1) c),
      (h c _ (mem_uc main_arg18 (by decide))).trans (V7_main_arg18 m (outs m D1) c),
      (h c _ (mem_uc main_arg19 (by decide))).trans (V7_main_arg19 m (outs m D1) c)⟩)
    (run_all m hb0 D1 hA1 hq1 ho1 hr1 hb1 hin1 hout1 ρ)

end Run

end Cert.Kernel.Hand

end
-- ==== Proof.KI.R0Defs.lean ====
/-
  The edge stage's pallas_call (a grid of 100 points, one block of 16000 edge rows each): what its windows hold.

  At a point t the pipeline hands the body the block t of the edge rows (window 0) and the four weight arrays whole
  (windows 1 to 4, fetched once); the body stores one 16000 × 64 block, the two layers applied to the row block,
  into window 5's buffer, which is written back as block t of the result array. Stated at a parameter V, the buffer
  contents when the region is entered.
-/
import proofs.«402084_j84928683311960_2_alg».proof.Proof.Gen.KernelIdeal.Launch
import proofs.«402084_j84928683311960_2_alg».proof.Proof.Gen.KernelIdeal.Skeleton
import proofs.«402084_j84928683311960_2_alg».proof.Proof.Gen.KernelIdeal.Points
import Idealize.ShloMosaic.Lib.Pipeline.FrameBody

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 16000 × 5 block, the whole weight arrays, and the whole 16000 × 64 block the body stores. -/
abbrev r0_x : Rect S16000x5 := Rect.unit (s := S16000x5) ![0, 0] S16000x5.size inb_S16000x5_S16000x5_0_0
abbrev r0_w1 : Rect S5x64 := Rect.unit (s := S5x64) ![0, 0] S5x64.size inb_S5x64_S5x64_0_0
abbrev r0_b : Rect S64 := Rect.unit (s := S64) ![0] S64.size inb_S64_S64_0
abbrev r0_w2 : Rect S64x64 := Rect.unit (s := S64x64) ![0, 0] S64x64.size inb_S64x64_S64x64_0_0
abbrev r0_e : Rect S16000x64 := Rect.unit (s := S16000x64) ![0, 0] S16000x64.size inb_S16000x64_S16000x64_0_0

/-- What the body leaves in window 5's buffer, from the five input blocks: its one store, of the two layers
    applied to the row block. -/
def out0_5 (x0 : Vec F S16000x5 .f32) (x1 : Vec F S5x64 .f32) (x2 : Vec F S64 .f32) (x3 : Vec F S64x64 .f32)
    (x4 : Vec F S64 .f32) : Vec F S16000x64 .f32 :=
  View.canon [⟨r0_e, k0_pay1 (View.ld x0 r0_x) (View.ld x1 r0_w1) (View.ld x2 r0_b) (View.ld x3 r0_w2) (View.ld x4 r0_b)⟩]

/-- The proof data of the edge stage's pipeline on core c: the arrays as the region finds them; after the body at
    point t each input's buffer at its block and the output's at the stored block; nothing else held, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by
  dsimp only [dat0]

end Cert.KernelIdeal.Hand

end
-- ==== Proof.KI.R0.lean ====
/-
  The edge stage's pallas_call, at every one of its 100 grid points: the body's triple and the pipeline's body obligation.

  The body reads five whole buffers (the block of 16000 edge rows, the two weight matrices, the two bias rows), reads
  the result buffer once without using what it finds, and stores one whole 16000 × 64 block: the two layers applied to
  the row block. Whatever the result buffer held before, one whole-buffer store leaves exactly the stored value in it.
  Each input buffer holds its window's block at every point, whether the pipeline fetched it at that point or at an
  earlier one with the same block index, because the body leaves every input buffer as it found it.
-/
import proofs.«402084_j84928683311960_2_alg».proof.Proof.KI.R0Defs
import Idealize.ShloMosaic.Lib.Pipeline.FrameBody
import Idealize.ShloMosaic.Lib.Pipeline.RegionsLoop
import Idealize.ShloMosaic.Lib.Ring
import Idealize.ShloMosaic.Lib.Tactic

-- membership in a rectangle with an axis of 16000: the structural recursion goes once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each input window's buffer -/

/-- The edge-row window's buffer holds block t of the edge rows at every point t, for any proof data whose array is
    the entry contents and whose body leaves the block in place: the window is never cut and never idle, and a point
    at which it is not fetched has the block index of the point before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The first weight matrix's window: fetched at the first point only, its one block (the whole matrix) at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The first bias row's window, likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The second weight matrix's window, likewise. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The second bias row's window, likewise. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The one store covers the result buffer -/

/-- The stored rectangle is the whole 16000 × 64 buffer: one block of the buffer's own size tiles it. -/
theorem cover0_5 (p0 : Vec F S16000x64 .f32) (y : S16000x64.Idx) :
    ∃ pc ∈ ([⟨r0_e, p0⟩] : List (View.Piece (Elt F) S16000x64 .f32)), y ∈ pc.1.set :=
  View.cover_of_tiled [⟨r0_e, p0⟩] S16000x64.size (by rfl) y

/-! ## The body's triple -/

set_option maxHeartbeats 1000000 in
/-- The edge kernel's body on whole buffers — the five inputs' at contents x0 … x4, the result's at anything — runs to a
    continuation holding the inputs' as they were and the result's at the two layers of the row block (out0_5): five
    reads, one read of the result buffer whose value goes nowhere, and one store that covers the buffer. -/
theorem sound_kernel0 (c : Dev nD) (E : Set ℕ) (i : grid0.Coords)
    (arg1 : Memref sig .tc .vmem S16000x5 .f32) (harg1 : arg1.IsWhole) (arg2 : Memref sig .tc .vmem S5x64 .f32) (harg2 : arg2.IsWhole)
    (arg3 : Memref sig .tc .vmem S64 .f32) (harg3 : arg3.IsWhole) (arg4 : Memref sig .tc .vmem S64x64 .f32) (harg4 : arg4.IsWhole)
    (arg5 : Memref sig .tc .vmem S64 .f32) (harg5 : arg5.IsWhole) (arg6 : Memref sig .tc .vmem S16000x64 .f32) (harg6 : arg6.IsWhole)
    (x0 : Vec F S16000x5 .f32) (x1 : Vec F S5x64 .f32) (x2 : Vec F S64 .f32) (x3 : Vec F S64x64 .f32) (x4 : Vec F S64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E
          (cc0__edge_mlp_kernel i arg1 harg1 arg2 harg2 arg3 harg3 arg4 harg4 arg5 harg5 arg6 harg6) K := by
  simp only [cc0__edge_mlp_kernel_eq_skeleton]; unfold cc0__edge_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## Each input's buffer at the proof data of this pipeline -/

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point t: the invariant, what the core owes, and the six windows' current buffers, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the five inputs' buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _
    (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1Runs.lean ====
/-
  The node stage's pallas_call (a grid of 5 points, one block of 10000 nodes each): the windows' blocks, the two
  conditions of the body over the grid, and the body's run in each of its three control cases.

  At a point the body adds to a 16 × 64 scratch the block's node rows (two layers applied to the 65-entry input row)
  pooled by the block's one-hot rows; at the first point the scratch is first set to zero; at the last point the four
  closing layers are applied to the scratch and stored as the 16 × 2 result. Windows 0 and 1 (node rows, one-hot
  rows) are fetched at every point, windows 2 to 13 (weights) once, window 14 (the result) is stored and written back
  at the last point only. Stated at a parameter V, the buffer contents when the region is entered.
-/
import proofs.«402084_j84928683311960_2_alg».proof.Proof.Gen.KernelIdeal.Launch
import proofs.«402084_j84928683311960_2_alg».proof.Proof.Gen.KernelIdeal.Skeleton
import proofs.«402084_j84928683311960_2_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each of the fourteen input windows holds its block at every point, whether the pipeline fetched it there or
    not (an unfetched window's block index has not moved), for any proof data whose array is the entry contents
    and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)
theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)
theorem before1_12_of {c : Dev nD} (dat : Dat τ (Elt F) Unit ℕ (UR sig nD τ) ℕ cfg1 c) (hA : dat.A 12 = V c (Pipeline.arrRef spec1 12))
    (hafter : ∀ t, dat.after 12 t = iblk1 V c 12 t) (t : Fin cfg1.N) (d) : dat.before 12 t d = iblk1 V c 12 t :=
  (dat.before_in_eq_fetched 12 rfl (fun _ => rfl) (fun _ _ _ => rfl) (fun t => by rw [hafter]; unfold Dat.blockOf iblk1; rw [hA]; try rfl) t d).trans
    (by unfold Dat.fetched Dat.blockOf iblk1; rw [hA]; try rfl)
theorem before1_13_of {c : Dev nD} (dat : Dat τ (Elt F) Unit ℕ (UR sig nD τ) ℕ cfg1 c) (hA : dat.A 13 = V c (Pipeline.arrRef spec1 13))
    (hafter : ∀ t, dat.after 13 t = iblk1 V c 13 t) (t : Fin cfg1.N) (d) : dat.before 13 t d = iblk1 V c 13 t :=
  (dat.before_in_eq_fetched 13 rfl (fun _ => rfl) (fun _ _ _ => rfl) (fun t => by rw [hafter]; unfold Dat.blockOf iblk1; rw [hA]; try rfl) t d).trans
    (by unfold Dat.fetched Dat.blockOf iblk1; rw [hA]; try rfl)

/-! ## The two branch conditions over the grid -/

/-- The first conditional of the body: the grid coordinate is 0 (the pooled sum is reset there). -/
abbrev cond1_0 (i : grid1.Coords) : Prop := (Scalar.cmpi .ne (Scalar.extui (Scalar.cmpi .eq (BitVec.ofNat 32 (i 0).val) 0#32)) 0#32) = 1#1
/-- It holds exactly at the first of the five points. -/
theorem hcond1_0 : ∀ t : Fin cfg1.N, cond1_0 (grid1.coords t) ↔ t.val % 5 = 0 :=
  (by decide +kernel : ∀ t : Fin grid1.N, cond1_0 (grid1.coords t) ↔ t.val % 5 = 0)

/-- The second conditional: the grid coordinate is 4 (the four closing layers run there). -/
abbrev cond1_1 (i : grid1.Coords) : Prop := k1_cond2 i = 1#1
/-- It holds exactly at the last of the five points. -/
theorem hcond1_1 : ∀ t : Fin cfg1.N, cond1_1 (grid1.coords t) ↔ t.val % 5 = 4 :=
  (by decide +kernel : ∀ t : Fin grid1.N, cond1_1 (grid1.coords t) ↔ t.val % 5 = 4)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
theorem liveAt1_7 : ∀ t : Fin cfg1.N, cfg1.idle 7 (grid1.coords t) = false := by decide +kernel
theorem liveAt1_8 : ∀ t : Fin cfg1.N, cfg1.idle 8 (grid1.coords t) = false := by decide +kernel
theorem liveAt1_9 : ∀ t : Fin cfg1.N, cfg1.idle 9 (grid1.coords t) = false := by decide +kernel
theorem liveAt1_10 : ∀ t : Fin cfg1.N, cfg1.idle 10 (grid1.coords t) = false := by decide +kernel
theorem liveAt1_11 : ∀ t : Fin cfg1.N, cfg1.idle 11 (grid1.coords t) = false := by decide +kernel
theorem liveAt1_12 : ∀ t : Fin cfg1.N, cfg1.idle 12 (grid1.coords t) = false := by decide +kernel
theorem liveAt1_13 : ∀ t : Fin cfg1.N, cfg1.idle 13 (grid1.coords t) = false := by decide +kernel
/-- At the first point the result window is idle and not written back. -/
theorem idleAt1_14_A : ∀ t : Fin cfg1.N, cond1_0 (grid1.coords t) → ¬cond1_1 (grid1.coords t) → cfg1.idle 14 (grid1.coords t) = true := by decide +kernel
theorem noFlush1_14_A : ∀ t : Fin cfg1.N, cond1_0 (grid1.coords t) → ¬cond1_1 (grid1.coords t) → (cfg1.win 14).flush t = false := by decide +kernel
/-- At the three middle points likewise. -/
theorem idleAt1_14_B : ∀ t : Fin cfg1.N, ¬cond1_0 (grid1.coords t) → ¬cond1_1 (grid1.coords t) → cfg1.idle 14 (grid1.coords t) = true := by decide +kernel
theorem noFlush1_14_B : ∀ t : Fin cfg1.N, ¬cond1_0 (grid1.coords t) → ¬cond1_1 (grid1.coords t) → (cfg1.win 14).flush t = false := by decide +kernel
/-- At the last point the result window is live: the body stores the 16 × 2 result into it. -/
theorem liveAt1_14_C : ∀ t : Fin cfg1.N, ¬cond1_0 (grid1.coords t) → cond1_1 (grid1.coords t) → cfg1.idle 14 (grid1.coords t) = false := by decide +kernel

/-! ## The staging memrefs and the pooled-sum scratch -/

/-- One staging buffer of the result window, through which its contents are stated. -/
abbrev VO1_14 : View sig .tc .vmem S16x2 .f32 := (Memref.whole cc1_stg14_0 : Memref sig .tc .vmem S16x2 .f32).view
/-- Each window's current staging memref at point t, as the pipeline passes it to the body, and its wholeness. -/
abbrev ms1_0 (t : Fin cfg1.N) : Memref sig .tc .vmem S10000x65 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S10000x16 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S65x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S64x64 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S64 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S64x64 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S64 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S64x64 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S64 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S64x64 .f32 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S64 .f32 := win1_11.stage (cfg1.slots t 11)
abbrev hs1_11 (t : Fin cfg1.N) : (ms1_11 t).IsWhole := hstage1_11 ((cfg1.slots t 11).cast nbuf1_11)
abbrev ms1_12 (t : Fin cfg1.N) : Memref sig .tc .vmem S64x2 .f32 := win1_12.stage (cfg1.slots t 12)
abbrev hs1_12 (t : Fin cfg1.N) : (ms1_12 t).IsWhole := hstage1_12 ((cfg1.slots t 12).cast nbuf1_12)
abbrev ms1_13 (t : Fin cfg1.N) : Memref sig .tc .vmem S2 .f32 := win1_13.stage (cfg1.slots t 13)
abbrev hs1_13 (t : Fin cfg1.N) : (ms1_13 t).IsWhole := hstage1_13 ((cfg1.slots t 13).cast nbuf1_13)
abbrev ms1_14 (t : Fin cfg1.N) : Memref sig .tc .vmem S16x2 .f32 := win1_14.stage (cfg1.slots t 14)
abbrev hs1_14 (t : Fin cfg1.N) : (ms1_14 t).IsWhole := hstage1_14 ((cfg1.slots t 14).cast nbuf1_14)
/-- The scratch operand: the whole 16 × 64 buffer in which the pooled sum is carried from point to point. -/
abbrev scM1 : Memref sig .tc .vmem S16x64 .f32 := Memref.whole cc1_scratch0
/-- The same as a view: what it holds is stated through it. -/
abbrev VS1 : View sig .tc .vmem S16x64 .f32 := scM1.view

/-- The region's invariant with the scratch as a memref owned at some contents; the eight other scoped buffers
    (the edge stage's staging buffers) stay as they are, each at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ d, owns (c : Thread nD τ) scM1 fullShare d)) ∗ (∃ r, prngReg c r)) := by
  unfold Pipeline.ΦA; rw [scopedRest1_eq]; simp only [scM1, owns_whole]; try rfl

/-! ## The body's run, case by case -/

set_option maxHeartbeats 1000000 in
/-- THE FIRST POINT (coordinate 0). On whole memrefs — the fourteen inputs at their contents, the result window's at
    contents handed back untouched, the scratch at anything — the body runs to the continuation holding the inputs
    as they were and the scratch with two stores written: the zero block, then the first block's pooled rows added
    to what is read back. The pieces are the witness the run finds. -/
noncomputable def kernelRun1_A (c : Dev nD) (i : grid1.Coords) (arg1 : Memref sig .tc .vmem S10000x65 .f32) (harg1 : arg1.IsWhole) (arg2 : Memref sig .tc .vmem S10000x16 .f32) (harg2 : arg2.IsWhole) (arg3 : Memref sig .tc .vmem S65x64 .f32) (harg3 : arg3.IsWhole) (arg4 : Memref sig .tc .vmem S64 .f32) (harg4 : arg4.IsWhole) (arg5 : Memref sig .tc .vmem S64x64 .f32) (harg5 : arg5.IsWhole) (arg6 : Memref sig .tc .vmem S64 .f32) (harg6 : arg6.IsWhole) (arg7 : Memref sig .tc .vmem S64x64 .f32) (harg7 : arg7.IsWhole) (arg8 : Memref sig .tc .vmem S64 .f32) (harg8 : arg8.IsWhole) (arg9 : Memref sig .tc .vmem S64x64 .f32) (harg9 : arg9.IsWhole) (arg10 : Memref sig .tc .vmem S64 .f32) (harg10 : arg10.IsWhole) (arg11 : Memref sig .tc .vmem S64x64 .f32) (harg11 : arg11.IsWhole) (arg12 : Memref sig .tc .vmem S64 .f32) (harg12 : arg12.IsWhole) (arg13 : Memref sig .tc .vmem S64x2 .f32) (harg13 : arg13.IsWhole) (arg14 : Memref sig .tc .vmem S2 .f32) (harg14 : arg14.IsWhole) (arg15 : Memref sig .tc .vmem S16x2 .f32) (harg15 : arg15.IsWhole) (arg16 : Memref sig .tc .vmem S16x64 .f32) (harg16 : arg16.IsWhole) (hc0 : cond1_0 i) (hc1 : ¬cond1_1 i)
    (x0 : Vec F S10000x65 .f32) (x1 : Vec F S10000x16 .f32) (x2 : Vec F S65x64 .f32) (x3 : Vec F S64 .f32) (x4 : Vec F S64x64 .f32) (x5 : Vec F S64 .f32) (x6 : Vec F S64x64 .f32) (x7 : Vec F S64 .f32) (x8 : Vec F S64x64 .f32) (x9 : Vec F S64 .f32) (x10 : Vec F S64x64 .f32) (x11 : Vec F S64 .f32) (x12 : Vec F S64x2 .f32) (x13 : Vec F S2 .f32) :
    Σ' (L14 : List (View.Piece (Elt F) S16x2 .f32)), { LS0 : List (View.Piece (Elt F) S16x64 .f32) //
      ∀ (xi14 : Vec F S16x2 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare xi14 ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare xi14 ∗ (∃ f, arg16.view.loc (c : Thread nD τ) ↦[arg16.view.set]{fullShare} arg16.view.writes (Elt F) f LS0)) -∗ K ⟨⟩))
          ⊢ wp frame (wpE (defs₀ (F := F)) Variants.none c none) E (cc1__node_pool_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨[], ?_, fun xi14 E K => ?run⟩
  case run =>
    simp only [cc1__node_pool_kernel_eq_skeleton]; unfold cc1__node_pool_kernel_skel
    simp only [k1_part2_eq_skeleton, k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    iexists _; iexact HS0

set_option maxHeartbeats 1000000 in
/-- A MIDDLE POINT (coordinates 1, 2, 3). As at the first point, but the scratch is at the contents the point
    before left, and one store is written: this block's pooled rows added to those contents. -/
noncomputable def kernelRun1_B (c : Dev nD) (i : grid1.Coords) (arg1 : Memref sig .tc .vmem S10000x65 .f32) (harg1 : arg1.IsWhole) (arg2 : Memref sig .tc .vmem S10000x16 .f32) (harg2 : arg2.IsWhole) (arg3 : Memref sig .tc .vmem S65x64 .f32) (harg3 : arg3.IsWhole) (arg4 : Memref sig .tc .vmem S64 .f32) (harg4 : arg4.IsWhole) (arg5 : Memref sig .tc .vmem S64x64 .f32) (harg5 : arg5.IsWhole) (arg6 : Memref sig .tc .vmem S64 .f32) (harg6 : arg6.IsWhole) (arg7 : Memref sig .tc .vmem S64x64 .f32) (harg7 : arg7.IsWhole) (arg8 : Memref sig .tc .vmem S64 .f32) (harg8 : arg8.IsWhole) (arg9 : Memref sig .tc .vmem S64x64 .f32) (harg9 : arg9.IsWhole) (arg10 : Memref sig .tc .vmem S64 .f32) (harg10 : arg10.IsWhole) (arg11 : Memref sig .tc .vmem S64x64 .f32) (harg11 : arg11.IsWhole) (arg12 : Memref sig .tc .vmem S64 .f32) (harg12 : arg12.IsWhole) (arg13 : Memref sig .tc .vmem S64x2 .f32) (harg13 : arg13.IsWhole) (arg14 : Memref sig .tc .vmem S2 .f32) (harg14 : arg14.IsWhole) (arg15 : Memref sig .tc .vmem S16x2 .f32) (harg15 : arg15.IsWhole) (arg16 : Memref sig .tc .vmem S16x64 .f32) (harg16 : arg16.IsWhole) (hc0 : ¬cond1_0 i) (hc1 : ¬cond1_1 i)
    (x0 : Vec F S10000x65 .f32) (x1 : Vec F S10000x16 .f32) (x2 : Vec F S65x64 .f32) (x3 : Vec F S64 .f32) (x4 : Vec F S64x64 .f32) (x5 : Vec F S64 .f32) (x6 : Vec F S64x64 .f32) (x7 : Vec F S64 .f32) (x8 : Vec F S64x64 .f32) (x9 : Vec F S64 .f32) (x10 : Vec F S64x64 .f32) (x11 : Vec F S64 .f32) (x12 : Vec F S64x2 .f32) (x13 : Vec F S2 .f32) (xs0 : Vec F S16x64 .f32) :
    Σ' (L14 : List (View.Piece (Elt F) S16x2 .f32)), { LS0 : List (View.Piece (Elt F) S16x64 .f32) //
      ∀ (xi14 : Vec F S16x2 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare xi14 ∗ owns (c : Thread nD τ) arg16 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare xi14 ∗ (∃ f, arg16.view.loc (c : Thread nD τ) ↦[arg16.view.set]{fullShare} arg16.view.writes (Elt F) f LS0)) -∗ K ⟨⟩))
          ⊢ wp frame (wpE (defs₀ (F := F)) Variants.none c none) E (cc1__node_pool_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨[], ?_, fun xi14 E K => ?run⟩
  case run =>
    simp only [cc1__node_pool_kernel_eq_skeleton]; unfold cc1__node_pool_kernel_skel
    simp only [k1_part2_eq_skeleton, k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    iexists _; iexact HS0

set_option maxHeartbeats 1000000 in
/-- THE LAST POINT (coordinate 4). The scratch is at the contents the point before left and gets one store (the last
    block's pooled rows added); the result window's memref, at anything, gets one store: the four closing layers
    applied to the scratch as read back. -/
noncomputable def kernelRun1_C (c : Dev nD) (i : grid1.Coords) (arg1 : Memref sig .tc .vmem S10000x65 .f32) (harg1 : arg1.IsWhole) (arg2 : Memref sig .tc .vmem S10000x16 .f32) (harg2 : arg2.IsWhole) (arg3 : Memref sig .tc .vmem S65x64 .f32) (harg3 : arg3.IsWhole) (arg4 : Memref sig .tc .vmem S64 .f32) (harg4 : arg4.IsWhole) (arg5 : Memref sig .tc .vmem S64x64 .f32) (harg5 : arg5.IsWhole) (arg6 : Memref sig .tc .vmem S64 .f32) (harg6 : arg6.IsWhole) (arg7 : Memref sig .tc .vmem S64x64 .f32) (harg7 : arg7.IsWhole) (arg8 : Memref sig .tc .vmem S64 .f32) (harg8 : arg8.IsWhole) (arg9 : Memref sig .tc .vmem S64x64 .f32) (harg9 : arg9.IsWhole) (arg10 : Memref sig .tc .vmem S64 .f32) (harg10 : arg10.IsWhole) (arg11 : Memref sig .tc .vmem S64x64 .f32) (harg11 : arg11.IsWhole) (arg12 : Memref sig .tc .vmem S64 .f32) (harg12 : arg12.IsWhole) (arg13 : Memref sig .tc .vmem S64x2 .f32) (harg13 : arg13.IsWhole) (arg14 : Memref sig .tc .vmem S2 .f32) (harg14 : arg14.IsWhole) (arg15 : Memref sig .tc .vmem S16x2 .f32) (harg15 : arg15.IsWhole) (arg16 : Memref sig .tc .vmem S16x64 .f32) (harg16 : arg16.IsWhole) (hc0 : ¬cond1_0 i) (hc1 : cond1_1 i)
    (x0 : Vec F S10000x65 .f32) (x1 : Vec F S10000x16 .f32) (x2 : Vec F S65x64 .f32) (x3 : Vec F S64 .f32) (x4 : Vec F S64x64 .f32) (x5 : Vec F S64 .f32) (x6 : Vec F S64x64 .f32) (x7 : Vec F S64 .f32) (x8 : Vec F S64x64 .f32) (x9 : Vec F S64 .f32) (x10 : Vec F S64x64 .f32) (x11 : Vec F S64 .f32) (x12 : Vec F S64x2 .f32) (x13 : Vec F S2 .f32) (xs0 : Vec F S16x64 .f32) :
    Σ' (L14 : List (View.Piece (Elt F) S16x2 .f32)), { LS0 : List (View.Piece (Elt F) S16x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ owns (c : Thread nD τ) arg16 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f LS0)) -∗ K ⟨⟩))
          ⊢ wp frame (wpE (defs₀ (F := F)) Variants.none c none) E (cc1__node_pool_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, fun E K => ?run⟩
  case run =>
    simp only [cc1__node_pool_kernel_eq_skeleton]; unfold cc1__node_pool_kernel_skel
    simp only [k1_part2_eq_skeleton, k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg16.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]; · iexists _; iexact H14
    iexists _; iexact HS0

end Cert.KernelIdeal.Hand

end
-- ==== Proof.KI.R1.lean ====
/-
  The node stage's pallas_call, continued: what each control case leaves in the result window and in the 16 × 64
  scratch, the accumulation of those contents point by point, the proof data of the pipeline, and the body's
  obligation at every point.

  The scratch after point n is the first case's contents at n = 0 and otherwise the case at n run over what point
  n - 1 left; the result window is idle (handed back untouched, not written back) except at the last point, where the
  closing layers' 16 × 2 block is stored into it. Between points the invariant holds the scratch at the
  accumulation's second component; the other scoped buffers and the generator register pass through.
-/
import proofs.«402084_j84928683311960_2_alg».proof.Proof.KI.R1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Case A stores nothing into the result window: no pieces (a placeholder nothing consults, the window being
    neither written back nor read at the next point). -/
def out1_A_14 (c : Dev nD) (i : grid1.Coords) (arg1 : Memref sig .tc .vmem S10000x65 .f32) (harg1 : arg1.IsWhole) (arg2 : Memref sig .tc .vmem S10000x16 .f32) (harg2 : arg2.IsWhole) (arg3 : Memref sig .tc .vmem S65x64 .f32) (harg3 : arg3.IsWhole) (arg4 : Memref sig .tc .vmem S64 .f32) (harg4 : arg4.IsWhole) (arg5 : Memref sig .tc .vmem S64x64 .f32) (harg5 : arg5.IsWhole) (arg6 : Memref sig .tc .vmem S64 .f32) (harg6 : arg6.IsWhole) (arg7 : Memref sig .tc .vmem S64x64 .f32) (harg7 : arg7.IsWhole) (arg8 : Memref sig .tc .vmem S64 .f32) (harg8 : arg8.IsWhole) (arg9 : Memref sig .tc .vmem S64x64 .f32) (harg9 : arg9.IsWhole) (arg10 : Memref sig .tc .vmem S64 .f32) (harg10 : arg10.IsWhole) (arg11 : Memref sig .tc .vmem S64x64 .f32) (harg11 : arg11.IsWhole) (arg12 : Memref sig .tc .vmem S64 .f32) (harg12 : arg12.IsWhole) (arg13 : Memref sig .tc .vmem S64x2 .f32) (harg13 : arg13.IsWhole) (arg14 : Memref sig .tc .vmem S2 .f32) (harg14 : arg14.IsWhole) (arg15 : Memref sig .tc .vmem S16x2 .f32) (harg15 : arg15.IsWhole) (arg16 : Memref sig .tc .vmem S16x64 .f32) (harg16 : arg16.IsWhole) (hc0 : cond1_0 i) (hc1 : ¬cond1_1 i)
    (x0 : Vec F S10000x65 .f32) (x1 : Vec F S10000x16 .f32) (x2 : Vec F S65x64 .f32) (x3 : Vec F S64 .f32) (x4 : Vec F S64x64 .f32) (x5 : Vec F S64 .f32) (x6 : Vec F S64x64 .f32) (x7 : Vec F S64 .f32) (x8 : Vec F S64x64 .f32) (x9 : Vec F S64 .f32) (x10 : Vec F S64x64 .f32) (x11 : Vec F S64 .f32) (x12 : Vec F S64x2 .f32) (x13 : Vec F S2 .f32) : Vec F S16x2 .f32 :=
  VO1_14.read (Elt F) (VO1_14.writes (Elt F) VO1_14.junk (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 x13).1)

/-- Case A's stores into the scratch cover its 16 × 64 block. -/
theorem scover1_A (c : Dev nD) (i : grid1.Coords) (arg1 : Memref sig .tc .vmem S10000x65 .f32) (harg1 : arg1.IsWhole) (arg2 : Memref sig .tc .vmem S10000x16 .f32) (harg2 : arg2.IsWhole) (arg3 : Memref sig .tc .vmem S65x64 .f32) (harg3 : arg3.IsWhole) (arg4 : Memref sig .tc .vmem S64 .f32) (harg4 : arg4.IsWhole) (arg5 : Memref sig .tc .vmem S64x64 .f32) (harg5 : arg5.IsWhole) (arg6 : Memref sig .tc .vmem S64 .f32) (harg6 : arg6.IsWhole) (arg7 : Memref sig .tc .vmem S64x64 .f32) (harg7 : arg7.IsWhole) (arg8 : Memref sig .tc .vmem S64 .f32) (harg8 : arg8.IsWhole) (arg9 : Memref sig .tc .vmem S64x64 .f32) (harg9 : arg9.IsWhole) (arg10 : Memref sig .tc .vmem S64 .f32) (harg10 : arg10.IsWhole) (arg11 : Memref sig .tc .vmem S64x64 .f32) (harg11 : arg11.IsWhole) (arg12 : Memref sig .tc .vmem S64 .f32) (harg12 : arg12.IsWhole) (arg13 : Memref sig .tc .vmem S64x2 .f32) (harg13 : arg13.IsWhole) (arg14 : Memref sig .tc .vmem S2 .f32) (harg14 : arg14.IsWhole) (arg15 : Memref sig .tc .vmem S16x2 .f32) (harg15 : arg15.IsWhole) (arg16 : Memref sig .tc .vmem S16x64 .f32) (harg16 : arg16.IsWhole) (hc0 : cond1_0 i) (hc1 : ¬cond1_1 i)
    (x0 : Vec F S10000x65 .f32) (x1 : Vec F S10000x16 .f32) (x2 : Vec F S65x64 .f32) (x3 : Vec F S64 .f32) (x4 : Vec F S64x64 .f32) (x5 : Vec F S64 .f32) (x6 : Vec F S64x64 .f32) (x7 : Vec F S64 .f32) (x8 : Vec F S64x64 .f32) (x9 : Vec F S64 .f32) (x10 : Vec F S64x64 .f32) (x11 : Vec F S64 .f32) (x12 : Vec F S64x2 .f32) (x13 : Vec F S2 .f32) (y : S16x64.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 x13).2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 x13).2.1 S16x64.size (by sl_kernel_rfl) y

/-- What case A leaves in the scratch: its pieces read back. -/
def sout1_A (c : Dev nD) (i : grid1.Coords) (arg1 : Memref sig .tc .vmem S10000x65 .f32) (harg1 : arg1.IsWhole) (arg2 : Memref sig .tc .vmem S10000x16 .f32) (harg2 : arg2.IsWhole) (arg3 : Memref sig .tc .vmem S65x64 .f32) (harg3 : arg3.IsWhole) (arg4 : Memref sig .tc .vmem S64 .f32) (harg4 : arg4.IsWhole) (arg5 : Memref sig .tc .vmem S64x64 .f32) (harg5 : arg5.IsWhole) (arg6 : Memref sig .tc .vmem S64 .f32) (harg6 : arg6.IsWhole) (arg7 : Memref sig .tc .vmem S64x64 .f32) (harg7 : arg7.IsWhole) (arg8 : Memref sig .tc .vmem S64 .f32) (harg8 : arg8.IsWhole) (arg9 : Memref sig .tc .vmem S64x64 .f32) (harg9 : arg9.IsWhole) (arg10 : Memref sig .tc .vmem S64 .f32) (harg10 : arg10.IsWhole) (arg11 : Memref sig .tc .vmem S64x64 .f32) (harg11 : arg11.IsWhole) (arg12 : Memref sig .tc .vmem S64 .f32) (harg12 : arg12.IsWhole) (arg13 : Memref sig .tc .vmem S64x2 .f32) (harg13 : arg13.IsWhole) (arg14 : Memref sig .tc .vmem S2 .f32) (harg14 : arg14.IsWhole) (arg15 : Memref sig .tc .vmem S16x2 .f32) (harg15 : arg15.IsWhole) (arg16 : Memref sig .tc .vmem S16x64 .f32) (harg16 : arg16.IsWhole) (hc0 : cond1_0 i) (hc1 : ¬cond1_1 i)
    (x0 : Vec F S10000x65 .f32) (x1 : Vec F S10000x16 .f32) (x2 : Vec F S65x64 .f32) (x3 : Vec F S64 .f32) (x4 : Vec F S64x64 .f32) (x5 : Vec F S64 .f32) (x6 : Vec F S64x64 .f32) (x7 : Vec F S64 .f32) (x8 : Vec F S64x64 .f32) (x9 : Vec F S64 .f32) (x10 : Vec F S64x64 .f32) (x11 : Vec F S64 .f32) (x12 : Vec F S64x2 .f32) (x13 : Vec F S2 .f32) : Vec F S16x64 .f32 :=
  VS1.read (Elt F) (VS1.writes (Elt F) VS1.junk (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 x13).2.1)

/-- Case B stores nothing into the result window: no pieces (a placeholder nothing consults, the window being
    neither written back nor read at the next point). -/
def out1_B_14 (c : Dev nD) (i : grid1.Coords) (arg1 : Memref sig .tc .vmem S10000x65 .f32) (harg1 : arg1.IsWhole) (arg2 : Memref sig .tc .vmem S10000x16 .f32) (harg2 : arg2.IsWhole) (arg3 : Memref sig .tc .vmem S65x64 .f32) (harg3 : arg3.IsWhole) (arg4 : Memref sig .tc .vmem S64 .f32) (harg4 : arg4.IsWhole) (arg5 : Memref sig .tc .vmem S64x64 .f32) (harg5 : arg5.IsWhole) (arg6 : Memref sig .tc .vmem S64 .f32) (harg6 : arg6.IsWhole) (arg7 : Memref sig .tc .vmem S64x64 .f32) (harg7 : arg7.IsWhole) (arg8 : Memref sig .tc .vmem S64 .f32) (harg8 : arg8.IsWhole) (arg9 : Memref sig .tc .vmem S64x64 .f32) (harg9 : arg9.IsWhole) (arg10 : Memref sig .tc .vmem S64 .f32) (harg10 : arg10.IsWhole) (arg11 : Memref sig .tc .vmem S64x64 .f32) (harg11 : arg11.IsWhole) (arg12 : Memref sig .tc .vmem S64 .f32) (harg12 : arg12.IsWhole) (arg13 : Memref sig .tc .vmem S64x2 .f32) (harg13 : arg13.IsWhole) (arg14 : Memref sig .tc .vmem S2 .f32) (harg14 : arg14.IsWhole) (arg15 : Memref sig .tc .vmem S16x2 .f32) (harg15 : arg15.IsWhole) (arg16 : Memref sig .tc .vmem S16x64 .f32) (harg16 : arg16.IsWhole) (hc0 : ¬cond1_0 i) (hc1 : ¬cond1_1 i)
    (x0 : Vec F S10000x65 .f32) (x1 : Vec F S10000x16 .f32) (x2 : Vec F S65x64 .f32) (x3 : Vec F S64 .f32) (x4 : Vec F S64x64 .f32) (x5 : Vec F S64 .f32) (x6 : Vec F S64x64 .f32) (x7 : Vec F S64 .f32) (x8 : Vec F S64x64 .f32) (x9 : Vec F S64 .f32) (x10 : Vec F S64x64 .f32) (x11 : Vec F S64 .f32) (x12 : Vec F S64x2 .f32) (x13 : Vec F S2 .f32) (xs0 : Vec F S16x64 .f32) : Vec F S16x2 .f32 :=
  VO1_14.read (Elt F) (VO1_14.writes (Elt F) VO1_14.junk (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 x13 xs0).1)

/-- Case B's stores into the scratch cover its 16 × 64 block. -/
theorem scover1_B (c : Dev nD) (i : grid1.Coords) (arg1 : Memref sig .tc .vmem S10000x65 .f32) (harg1 : arg1.IsWhole) (arg2 : Memref sig .tc .vmem S10000x16 .f32) (harg2 : arg2.IsWhole) (arg3 : Memref sig .tc .vmem S65x64 .f32) (harg3 : arg3.IsWhole) (arg4 : Memref sig .tc .vmem S64 .f32) (harg4 : arg4.IsWhole) (arg5 : Memref sig .tc .vmem S64x64 .f32) (harg5 : arg5.IsWhole) (arg6 : Memref sig .tc .vmem S64 .f32) (harg6 : arg6.IsWhole) (arg7 : Memref sig .tc .vmem S64x64 .f32) (harg7 : arg7.IsWhole) (arg8 : Memref sig .tc .vmem S64 .f32) (harg8 : arg8.IsWhole) (arg9 : Memref sig .tc .vmem S64x64 .f32) (harg9 : arg9.IsWhole) (arg10 : Memref sig .tc .vmem S64 .f32) (harg10 : arg10.IsWhole) (arg11 : Memref sig .tc .vmem S64x64 .f32) (harg11 : arg11.IsWhole) (arg12 : Memref sig .tc .vmem S64 .f32) (harg12 : arg12.IsWhole) (arg13 : Memref sig .tc .vmem S64x2 .f32) (harg13 : arg13.IsWhole) (arg14 : Memref sig .tc .vmem S2 .f32) (harg14 : arg14.IsWhole) (arg15 : Memref sig .tc .vmem S16x2 .f32) (harg15 : arg15.IsWhole) (arg16 : Memref sig .tc .vmem S16x64 .f32) (harg16 : arg16.IsWhole) (hc0 : ¬cond1_0 i) (hc1 : ¬cond1_1 i)
    (x0 : Vec F S10000x65 .f32) (x1 : Vec F S10000x16 .f32) (x2 : Vec F S65x64 .f32) (x3 : Vec F S64 .f32) (x4 : Vec F S64x64 .f32) (x5 : Vec F S64 .f32) (x6 : Vec F S64x64 .f32) (x7 : Vec F S64 .f32) (x8 : Vec F S64x64 .f32) (x9 : Vec F S64 .f32) (x10 : Vec F S64x64 .f32) (x11 : Vec F S64 .f32) (x12 : Vec F S64x2 .f32) (x13 : Vec F S2 .f32) (xs0 : Vec F S16x64 .f32) (y : S16x64.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 x13 xs0).2.1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 x13 xs0).2.1 S16x64.size (by sl_kernel_rfl) y

/-- What case B leaves in the scratch: its pieces read back. -/
def sout1_B (c : Dev nD) (i : grid1.Coords) (arg1 : Memref sig .tc .vmem S10000x65 .f32) (harg1 : arg1.IsWhole) (arg2 : Memref sig .tc .vmem S10000x16 .f32) (harg2 : arg2.IsWhole) (arg3 : Memref sig .tc .vmem S65x64 .f32) (harg3 : arg3.IsWhole) (arg4 : Memref sig .tc .vmem S64 .f32) (harg4 : arg4.IsWhole) (arg5 : Memref sig .tc .vmem S64x64 .f32) (harg5 : arg5.IsWhole) (arg6 : Memref sig .tc .vmem S64 .f32) (harg6 : arg6.IsWhole) (arg7 : Memref sig .tc .vmem S64x64 .f32) (harg7 : arg7.IsWhole) (arg8 : Memref sig .tc .vmem S64 .f32) (harg8 : arg8.IsWhole) (arg9 : Memref sig .tc .vmem S64x64 .f32) (harg9 : arg9.IsWhole) (arg10 : Memref sig .tc .vmem S64 .f32) (harg10 : arg10.IsWhole) (arg11 : Memref sig .tc .vmem S64x64 .f32) (harg11 : arg11.IsWhole) (arg12 : Memref sig .tc .vmem S64 .f32) (harg12 : arg12.IsWhole) (arg13 : Memref sig .tc .vmem S64x2 .f32) (harg13 : arg13.IsWhole) (arg14 : Memref sig .tc .vmem S2 .f32) (harg14 : arg14.IsWhole) (arg15 : Memref sig .tc .vmem S16x2 .f32) (harg15 : arg15.IsWhole) (arg16 : Memref sig .tc .vmem S16x64 .f32) (harg16 : arg16.IsWhole) (hc0 : ¬cond1_0 i) (hc1 : ¬cond1_1 i)
    (x0 : Vec F S10000x65 .f32) (x1 : Vec F S10000x16 .f32) (x2 : Vec F S65x64 .f32) (x3 : Vec F S64 .f32) (x4 : Vec F S64x64 .f32) (x5 : Vec F S64 .f32) (x6 : Vec F S64x64 .f32) (x7 : Vec F S64 .f32) (x8 : Vec F S64x64 .f32) (x9 : Vec F S64 .f32) (x10 : Vec F S64x64 .f32) (x11 : Vec F S64 .f32) (x12 : Vec F S64x2 .f32) (x13 : Vec F S2 .f32) (xs0 : Vec F S16x64 .f32) : Vec F S16x64 .f32 :=
  VS1.read (Elt F) (VS1.writes (Elt F) VS1.junk (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 x13 xs0).2.1)

/-- Case C's one store into the result window covers its 16 × 2 block. -/
theorem cover1_C_14 (c : Dev nD) (i : grid1.Coords) (arg1 : Memref sig .tc .vmem S10000x65 .f32) (harg1 : arg1.IsWhole) (arg2 : Memref sig .tc .vmem S10000x16 .f32) (harg2 : arg2.IsWhole) (arg3 : Memref sig .tc .vmem S65x64 .f32) (harg3 : arg3.IsWhole) (arg4 : Memref sig .tc .vmem S64 .f32) (harg4 : arg4.IsWhole) (arg5 : Memref sig .tc .vmem S64x64 .f32) (harg5 : arg5.IsWhole) (arg6 : Memref sig .tc .vmem S64 .f32) (harg6 : arg6.IsWhole) (arg7 : Memref sig .tc .vmem S64x64 .f32) (harg7 : arg7.IsWhole) (arg8 : Memref sig .tc .vmem S64 .f32) (harg8 : arg8.IsWhole) (arg9 : Memref sig .tc .vmem S64x64 .f32) (harg9 : arg9.IsWhole) (arg10 : Memref sig .tc .vmem S64 .f32) (harg10 : arg10.IsWhole) (arg11 : Memref sig .tc .vmem S64x64 .f32) (harg11 : arg11.IsWhole) (arg12 : Memref sig .tc .vmem S64 .f32) (harg12 : arg12.IsWhole) (arg13 : Memref sig .tc .vmem S64x2 .f32) (harg13 : arg13.IsWhole) (arg14 : Memref sig .tc .vmem S2 .f32) (harg14 : arg14.IsWhole) (arg15 : Memref sig .tc .vmem S16x2 .f32) (harg15 : arg15.IsWhole) (arg16 : Memref sig .tc .vmem S16x64 .f32) (harg16 : arg16.IsWhole) (hc0 : ¬cond1_0 i) (hc1 : cond1_1 i)
    (x0 : Vec F S10000x65 .f32) (x1 : Vec F S10000x16 .f32) (x2 : Vec F S65x64 .f32) (x3 : Vec F S64 .f32) (x4 : Vec F S64x64 .f32) (x5 : Vec F S64 .f32) (x6 : Vec F S64x64 .f32) (x7 : Vec F S64 .f32) (x8 : Vec F S64x64 .f32) (x9 : Vec F S64 .f32) (x10 : Vec F S64x64 .f32) (x11 : Vec F S64 .f32) (x12 : Vec F S64x2 .f32) (x13 : Vec F S2 .f32) (xs0 : Vec F S16x64 .f32) (y : S16x2.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 x13 xs0).1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 x13 xs0).1 S16x2.size (by sl_kernel_rfl) y

/-- What case C leaves in the result window's buffer: its piece read back. -/
def out1_C_14 (c : Dev nD) (i : grid1.Coords) (arg1 : Memref sig .tc .vmem S10000x65 .f32) (harg1 : arg1.IsWhole) (arg2 : Memref sig .tc .vmem S10000x16 .f32) (harg2 : arg2.IsWhole) (arg3 : Memref sig .tc .vmem S65x64 .f32) (harg3 : arg3.IsWhole) (arg4 : Memref sig .tc .vmem S64 .f32) (harg4 : arg4.IsWhole) (arg5 : Memref sig .tc .vmem S64x64 .f32) (harg5 : arg5.IsWhole) (arg6 : Memref sig .tc .vmem S64 .f32) (harg6 : arg6.IsWhole) (arg7 : Memref sig .tc .vmem S64x64 .f32) (harg7 : arg7.IsWhole) (arg8 : Memref sig .tc .vmem S64 .f32) (harg8 : arg8.IsWhole) (arg9 : Memref sig .tc .vmem S64x64 .f32) (harg9 : arg9.IsWhole) (arg10 : Memref sig .tc .vmem S64 .f32) (harg10 : arg10.IsWhole) (arg11 : Memref sig .tc .vmem S64x64 .f32) (harg11 : arg11.IsWhole) (arg12 : Memref sig .tc .vmem S64 .f32) (harg12 : arg12.IsWhole) (arg13 : Memref sig .tc .vmem S64x2 .f32) (harg13 : arg13.IsWhole) (arg14 : Memref sig .tc .vmem S2 .f32) (harg14 : arg14.IsWhole) (arg15 : Memref sig .tc .vmem S16x2 .f32) (harg15 : arg15.IsWhole) (arg16 : Memref sig .tc .vmem S16x64 .f32) (harg16 : arg16.IsWhole) (hc0 : ¬cond1_0 i) (hc1 : cond1_1 i)
    (x0 : Vec F S10000x65 .f32) (x1 : Vec F S10000x16 .f32) (x2 : Vec F S65x64 .f32) (x3 : Vec F S64 .f32) (x4 : Vec F S64x64 .f32) (x5 : Vec F S64 .f32) (x6 : Vec F S64x64 .f32) (x7 : Vec F S64 .f32) (x8 : Vec F S64x64 .f32) (x9 : Vec F S64 .f32) (x10 : Vec F S64x64 .f32) (x11 : Vec F S64 .f32) (x12 : Vec F S64x2 .f32) (x13 : Vec F S2 .f32) (xs0 : Vec F S16x64 .f32) : Vec F S16x2 .f32 :=
  VO1_14.read (Elt F) (VO1_14.writes (Elt F) VO1_14.junk (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 x13 xs0).1)

/-- Case C's stores into the scratch cover its 16 × 64 block. -/
theorem scover1_C (c : Dev nD) (i : grid1.Coords) (arg1 : Memref sig .tc .vmem S10000x65 .f32) (harg1 : arg1.IsWhole) (arg2 : Memref sig .tc .vmem S10000x16 .f32) (harg2 : arg2.IsWhole) (arg3 : Memref sig .tc .vmem S65x64 .f32) (harg3 : arg3.IsWhole) (arg4 : Memref sig .tc .vmem S64 .f32) (harg4 : arg4.IsWhole) (arg5 : Memref sig .tc .vmem S64x64 .f32) (harg5 : arg5.IsWhole) (arg6 : Memref sig .tc .vmem S64 .f32) (harg6 : arg6.IsWhole) (arg7 : Memref sig .tc .vmem S64x64 .f32) (harg7 : arg7.IsWhole) (arg8 : Memref sig .tc .vmem S64 .f32) (harg8 : arg8.IsWhole) (arg9 : Memref sig .tc .vmem S64x64 .f32) (harg9 : arg9.IsWhole) (arg10 : Memref sig .tc .vmem S64 .f32) (harg10 : arg10.IsWhole) (arg11 : Memref sig .tc .vmem S64x64 .f32) (harg11 : arg11.IsWhole) (arg12 : Memref sig .tc .vmem S64 .f32) (harg12 : arg12.IsWhole) (arg13 : Memref sig .tc .vmem S64x2 .f32) (harg13 : arg13.IsWhole) (arg14 : Memref sig .tc .vmem S2 .f32) (harg14 : arg14.IsWhole) (arg15 : Memref sig .tc .vmem S16x2 .f32) (harg15 : arg15.IsWhole) (arg16 : Memref sig .tc .vmem S16x64 .f32) (harg16 : arg16.IsWhole) (hc0 : ¬cond1_0 i) (hc1 : cond1_1 i)
    (x0 : Vec F S10000x65 .f32) (x1 : Vec F S10000x16 .f32) (x2 : Vec F S65x64 .f32) (x3 : Vec F S64 .f32) (x4 : Vec F S64x64 .f32) (x5 : Vec F S64 .f32) (x6 : Vec F S64x64 .f32) (x7 : Vec F S64 .f32) (x8 : Vec F S64x64 .f32) (x9 : Vec F S64 .f32) (x10 : Vec F S64x64 .f32) (x11 : Vec F S64 .f32) (x12 : Vec F S64x2 .f32) (x13 : Vec F S2 .f32) (xs0 : Vec F S16x64 .f32) (y : S16x64.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 x13 xs0).2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 x13 xs0).2.1 S16x64.size (by sl_kernel_rfl) y

/-- What case C leaves in the scratch: its pieces read back. -/
def sout1_C (c : Dev nD) (i : grid1.Coords) (arg1 : Memref sig .tc .vmem S10000x65 .f32) (harg1 : arg1.IsWhole) (arg2 : Memref sig .tc .vmem S10000x16 .f32) (harg2 : arg2.IsWhole) (arg3 : Memref sig .tc .vmem S65x64 .f32) (harg3 : arg3.IsWhole) (arg4 : Memref sig .tc .vmem S64 .f32) (harg4 : arg4.IsWhole) (arg5 : Memref sig .tc .vmem S64x64 .f32) (harg5 : arg5.IsWhole) (arg6 : Memref sig .tc .vmem S64 .f32) (harg6 : arg6.IsWhole) (arg7 : Memref sig .tc .vmem S64x64 .f32) (harg7 : arg7.IsWhole) (arg8 : Memref sig .tc .vmem S64 .f32) (harg8 : arg8.IsWhole) (arg9 : Memref sig .tc .vmem S64x64 .f32) (harg9 : arg9.IsWhole) (arg10 : Memref sig .tc .vmem S64 .f32) (harg10 : arg10.IsWhole) (arg11 : Memref sig .tc .vmem S64x64 .f32) (harg11 : arg11.IsWhole) (arg12 : Memref sig .tc .vmem S64 .f32) (harg12 : arg12.IsWhole) (arg13 : Memref sig .tc .vmem S64x2 .f32) (harg13 : arg13.IsWhole) (arg14 : Memref sig .tc .vmem S2 .f32) (harg14 : arg14.IsWhole) (arg15 : Memref sig .tc .vmem S16x2 .f32) (harg15 : arg15.IsWhole) (arg16 : Memref sig .tc .vmem S16x64 .f32) (harg16 : arg16.IsWhole) (hc0 : ¬cond1_0 i) (hc1 : cond1_1 i)
    (x0 : Vec F S10000x65 .f32) (x1 : Vec F S10000x16 .f32) (x2 : Vec F S65x64 .f32) (x3 : Vec F S64 .f32) (x4 : Vec F S64x64 .f32) (x5 : Vec F S64 .f32) (x6 : Vec F S64x64 .f32) (x7 : Vec F S64 .f32) (x8 : Vec F S64x64 .f32) (x9 : Vec F S64 .f32) (x10 : Vec F S64x64 .f32) (x11 : Vec F S64 .f32) (x12 : Vec F S64x2 .f32) (x13 : Vec F S2 .f32) (xs0 : Vec F S16x64 .f32) : Vec F S16x64 .f32 :=
  VS1.read (Elt F) (VS1.writes (Elt F) VS1.junk (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 x13 xs0).2.1)

/-! ## What the result window and the scratch hold after each point -/

/-- THE ACCUMULATION. What the result window's staging buffer and the scratch hold after the body at position n:
    the case the closed forms select at n, run at the point's memrefs and input blocks, the scratch read at what
    position n - 1 left. An assignment of the two conditions no point meets is no case. -/
def outsAt1 (c : Dev nD) : (n : ℕ) → n < cfg1.N → Vec F S16x2 .f32 × Vec F S16x64 .f32
  | 0, hn => (out1_A_14 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) (ms1_12 ⟨0, hn⟩) (hs1_12 ⟨0, hn⟩) (ms1_13 ⟨0, hn⟩) (hs1_13 ⟨0, hn⟩) (ms1_14 ⟨0, hn⟩) (hs1_14 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩) (iblk1 V c 10 ⟨0, hn⟩) (iblk1 V c 11 ⟨0, hn⟩) (iblk1 V c 12 ⟨0, hn⟩) (iblk1 V c 13 ⟨0, hn⟩), sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) (ms1_12 ⟨0, hn⟩) (hs1_12 ⟨0, hn⟩) (ms1_13 ⟨0, hn⟩) (hs1_13 ⟨0, hn⟩) (ms1_14 ⟨0, hn⟩) (hs1_14 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩) (iblk1 V c 10 ⟨0, hn⟩) (iblk1 V c 11 ⟨0, hn⟩) (iblk1 V c 12 ⟨0, hn⟩) (iblk1 V c 13 ⟨0, hn⟩))
  | n + 1, hn =>
    if h0 : (n + 1) % 5 = 0 then
      if h1 : (n + 1) % 5 = 4 then
        False.elim (by omega)
      else
        (out1_A_14 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (iblk1 V c 10 ⟨n + 1, hn⟩) (iblk1 V c 11 ⟨n + 1, hn⟩) (iblk1 V c 12 ⟨n + 1, hn⟩) (iblk1 V c 13 ⟨n + 1, hn⟩), sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (iblk1 V c 10 ⟨n + 1, hn⟩) (iblk1 V c 11 ⟨n + 1, hn⟩) (iblk1 V c 12 ⟨n + 1, hn⟩) (iblk1 V c 13 ⟨n + 1, hn⟩))
    else
      if h1 : (n + 1) % 5 = 4 then
        (out1_C_14 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (iblk1 V c 10 ⟨n + 1, hn⟩) (iblk1 V c 11 ⟨n + 1, hn⟩) (iblk1 V c 12 ⟨n + 1, hn⟩) (iblk1 V c 13 ⟨n + 1, hn⟩) (outsAt1 c n (Nat.lt_of_succ_lt hn)).2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (iblk1 V c 10 ⟨n + 1, hn⟩) (iblk1 V c 11 ⟨n + 1, hn⟩) (iblk1 V c 12 ⟨n + 1, hn⟩) (iblk1 V c 13 ⟨n + 1, hn⟩) (outsAt1 c n (Nat.lt_of_succ_lt hn)).2)
      else
        (out1_B_14 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (iblk1 V c 10 ⟨n + 1, hn⟩) (iblk1 V c 11 ⟨n + 1, hn⟩) (iblk1 V c 12 ⟨n + 1, hn⟩) (iblk1 V c 13 ⟨n + 1, hn⟩) (outsAt1 c n (Nat.lt_of_succ_lt hn)).2, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (iblk1 V c 10 ⟨n + 1, hn⟩) (iblk1 V c 11 ⟨n + 1, hn⟩) (iblk1 V c 12 ⟨n + 1, hn⟩) (iblk1 V c 13 ⟨n + 1, hn⟩) (outsAt1 c n (Nat.lt_of_succ_lt hn)).2)

/-- At the first point: the first case's contents. -/
theorem outsAt1_A (c : Dev nD) (t : Fin cfg1.N) (h0 : t.val % 5 = 0) (h1 : ¬t.val % 5 = 4) :
    outsAt1 V c t.val t.isLt = (out1_A_14 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t), sout1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t)) := by
  obtain ⟨n, hn⟩ := t
  cases n with
  | zero => exact rfl
  | succ n => exact (dif_pos h0).trans ((dif_neg h1).trans rfl)

/-- At a middle point: the middle case's contents, over what the point before left. -/
theorem outsAt1_B (c : Dev nD) (t : Fin cfg1.N) (h0 : ¬t.val % 5 = 0) (h1 : ¬t.val % 5 = 4) :
    outsAt1 V c t.val t.isLt = (out1_B_14 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (outsAt1 V c (t.val - 1) (Nat.lt_of_le_of_lt (Nat.sub_le _ _) t.isLt)).2, sout1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At the last point: the last case's contents, over what the point before left. -/
theorem outsAt1_C (c : Dev nD) (t : Fin cfg1.N) (h0 : ¬t.val % 5 = 0) (h1 : t.val % 5 = 4) :
    outsAt1 V c t.val t.isLt = (out1_C_14 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (outsAt1 V c (t.val - 1) (Nat.lt_of_le_of_lt (Nat.sub_le _ _) t.isLt)).2, sout1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before position n: before the first point the region's own invariant (every scoped buffer at anything);
    afterwards the scratch at what the point before left in it, the other scoped buffers at anything, the
    generator register at some state. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ owns (c : Thread nD τ) scM1 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

/-- After point n (before point n + 1): the scratch at that point's contents. -/
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ owns (c : Thread nD τ) scM1 fullShare ((outsAt1 V c n hn).2)) ∗ (∃ r, prngReg c r)) := rfl

/-- Before a point that is not the first: the scratch at what the point before left. -/
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ owns (c : Thread nD τ) scM1 fullShare ((outsAt1 V c (n - 1) (by omega)).2)) ∗ (∃ r, prngReg c r)) := by
  cases n with
  | zero => exact absurd rfl hz
  | succ n => rfl

/-! ## The pipeline's proof data -/

/-- The proof data of the node stage's pipeline on core c: the arrays as the region finds them; after the body at
    point t each input's buffer at its block and the result window's at the accumulation's first component; the
    invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = iblk1 V c 13 t := by dsimp only [dat1]
theorem after1_14 (c : Dev nD) (t : Fin cfg1.N) : (dat1 V c).after 14 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d
theorem before1_12 (c : Dev nD) (t : Fin cfg1.N) (d) : (dat1 V c).before 12 t d = iblk1 V c 12 t :=
  before1_12_of V (dat1 V c) (A_eq1 V c 12) (after1_12 V c) t d
theorem before1_13 (c : Dev nD) (t : Fin cfg1.N) (d) : (dat1 V c).before 13 t d = iblk1 V c 13 t :=
  before1_13_of V (dat1 V c) (A_eq1 V c 13) (after1_13 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d))
    ∗ (∃ d, owns (c : Thread nD τ) (ms1_12 t) fullShare ((dat1 V c).before 12 t d))
    ∗ (∃ d, owns (c : Thread nD τ) (ms1_13 t) fullShare ((dat1 V c).before 13 t d))
    ∗ (∃ d, owns (c : Thread nD τ) (ms1_14 t) fullShare ((dat1 V c).before 14 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t
    ∗ (dat1 V c).leavesExact 11 t
    ∗ (dat1 V c).leavesExact 12 t
    ∗ (dat1 V c).leavesExact 13 t
    ∗ (dat1 V c).leavesExact 14 t)

set_option maxHeartbeats 4800000 in
/-- The body at any point. The inputs' memrefs hold their blocks; the closed forms say which case the point is in;
    the invariant hands the body the scratch at what the point before left (at anything at the first point) and
    takes it back at this point's contents, the other scoped buffers and the generator register passing through;
    the result window is handed back untouched where it is idle and at the stored block at the last point; the
    core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12, before1_13]
  rw [show (dat1 V c).owesAt () t.succ = (dat1 V c).owesAt () t.castSucc from rfl]
  rw [show (dat1 V c).Φ t.succ = PhiS1 V c (t.val + 1) t.isLt from rfl, PhiS1_succ]
  have hN : t.val < 5 := lt_of_lt_of_eq t.isLt (show cfg1.N = 5 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  rw [show (dat1 V c).leavesExact 7 t = owns (c : Thread nD τ) (ms1_7 t) fullShare ((dat1 V c).after 7 t) from by
    unfold Dat.leavesExact; rw [liveAt1_7 t], after1_7]
  rw [show (dat1 V c).leavesExact 8 t = owns (c : Thread nD τ) (ms1_8 t) fullShare ((dat1 V c).after 8 t) from by
    unfold Dat.leavesExact; rw [liveAt1_8 t], after1_8]
  rw [show (dat1 V c).leavesExact 9 t = owns (c : Thread nD τ) (ms1_9 t) fullShare ((dat1 V c).after 9 t) from by
    unfold Dat.leavesExact; rw [liveAt1_9 t], after1_9]
  rw [show (dat1 V c).leavesExact 10 t = owns (c : Thread nD τ) (ms1_10 t) fullShare ((dat1 V c).after 10 t) from by
    unfold Dat.leavesExact; rw [liveAt1_10 t], after1_10]
  rw [show (dat1 V c).leavesExact 11 t = owns (c : Thread nD τ) (ms1_11 t) fullShare ((dat1 V c).after 11 t) from by
    unfold Dat.leavesExact; rw [liveAt1_11 t], after1_11]
  rw [show (dat1 V c).leavesExact 12 t = owns (c : Thread nD τ) (ms1_12 t) fullShare ((dat1 V c).after 12 t) from by
    unfold Dat.leavesExact; rw [liveAt1_12 t], after1_12]
  rw [show (dat1 V c).leavesExact 13 t = owns (c : Thread nD τ) (ms1_13 t) fullShare ((dat1 V c).after 13 t) from by
    unfold Dat.leavesExact; rw [liveAt1_13 t], after1_13]
  by_cases h0 : t.val % 5 = 0
  · by_cases h1 : t.val % 5 = 4
    · exfalso; omega
    · rw [Dat.leavesExact_idle (dat1 V c) 14 t (idleAt1_14_A t ((hcond1_0 t).mpr h0) (fun h => h1 ((hcond1_1 t).mp h))) (noFlush1_14_A t ((hcond1_0 t).mpr h0) (fun h => h1 ((hcond1_1 t).mp h)))]
      rw [outsAt1_A V c t h0 h1]
      unfold sout1_A; (try dsimp only)
      have hz : t.val = 0 := by omega
      rw [PhiS1_castSucc V c t, PhiS1_zero V c _ _ hz, PhiA1_eq]
      iintro ⟨⟨⟨R0, R1, R2, R3, R4, R5, R6, R7, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply ((kernelRun1_A c (grid1.coords t) _ _ _ _ _ _ _ _ _ _ _ _ _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [HS0]; · iexact HS0
      iintro ⟨H0, H1, H2, H3, H4, H5, H6, H7, H8, H9, H10, H11, H12, H13, H14, ⟨%es0, HS0⟩⟩
      isplitl [R0 R1 R2 R3 R4 R5 R6 R7 HS0 Hg]
      · isplitl [R0 R1 R2 R3 R4 R5 R6 R7 HS0]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          unfold owns; iexists _; isplitr
          swap; · iexact HS0
          ipureintro; exact View.read_writes_of_cover _ _ _ _ _ (scover1_A c _ _ _ _ _ _ _ _ _ _ _ _ _ _ _ _ _ _ _ _ _ _ _ _ _ _ _ _ _ _ _ _ _ ((hcond1_0 t).mpr h0) (fun h => h1 ((hcond1_1 t).mp h)) _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      iexists _; iexact H14
  · have hz : t.val ≠ 0 := fun e => h0 (by rw [e])
    by_cases h1 : t.val % 5 = 4
    · rw [show (dat1 V c).leavesExact 14 t = owns (c : Thread nD τ) (ms1_14 t) fullShare ((dat1 V c).after 14 t) from by
        unfold Dat.leavesExact; rw [liveAt1_14_C t (fun h => h0 ((hcond1_0 t).mp h)) ((hcond1_1 t).mpr h1)], after1_14]
      rw [outsAt1_C V c t h0 h1]
      unfold out1_C_14 sout1_C; (try dsimp only)
      rw [PhiS1_castSucc V c t, PhiS1_pos V c _ _ hz]
      iintro ⟨⟨⟨R0, R1, R2, R3, R4, R5, R6, R7, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply ((kernelRun1_C c (grid1.coords t) _ _ _ _ _ _ _ _ _ _ _ _ _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexists _; iexact H14
      isplitl [HS0]; · iexact HS0
      iintro ⟨H0, H1, H2, H3, H4, H5, H6, H7, H8, H9, H10, H11, H12, H13, ⟨%e14, H14⟩, ⟨%es0, HS0⟩⟩
      isplitl [R0 R1 R2 R3 R4 R5 R6 R7 HS0 Hg]
      · isplitl [R0 R1 R2 R3 R4 R5 R6 R7 HS0]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          unfold owns; iexists _; isplitr
          swap; · iexact HS0
          ipureintro; exact View.read_writes_of_cover _ _ _ _ _ (scover1_C c _ _ _ _ _ _ _ _ _ _ _ _ _ _ _ _ _ _ _ _ _ _ _ _ _ _ _ _ _ _ _ _ _ (fun h => h0 ((hcond1_0 t).mp h)) ((hcond1_1 t).mpr h1) _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      unfold owns; iexists _; isplitr
      swap; · iexact H14
      ipureintro; exact View.read_writes_of_cover _ _ _ _ _ (cover1_C_14 c _ _ _ _ _ _ _ _ _ _ _ _ _ _ _ _ _ _ _ _ _ _ _ _ _ _ _ _ _ _ _ _ _ (fun h => h0 ((hcond1_0 t).mp h)) ((hcond1_1 t).mpr h1) _ _ _ _ _ _ _ _ _ _ _ _ _ _ _)
    · rw [Dat.leavesExact_idle (dat1 V c) 14 t (idleAt1_14_B t (fun h => h0 ((hcond1_0 t).mp h)) (fun h => h1 ((hcond1_1 t).mp h))) (noFlush1_14_B t (fun h => h0 ((hcond1_0 t).mp h)) (fun h => h1 ((hcond1_1 t).mp h)))]
      rw [outsAt1_B V c t h0 h1]
      unfold sout1_B; (try dsimp only)
      rw [PhiS1_castSucc V c t, PhiS1_pos V c _ _ hz]
      iintro ⟨⟨⟨R0, R1, R2, R3, R4, R5, R6, R7, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply ((kernelRun1_B c (grid1.coords t) _ _ _ _ _ _ _ _ _ _ _ _ _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [HS0]; · iexact HS0
      iintro ⟨H0, H1, H2, H3, H4, H5, H6, H7, H8, H9, H10, H11, H12, H13, H14, ⟨%es0, HS0⟩⟩
      isplitl [R0 R1 R2 R3 R4 R5 R6 R7 HS0 Hg]
      · isplitl [R0 R1 R2 R3 R4 R5 R6 R7 HS0]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          unfold owns; iexists _; isplitr
          swap; · iexact HS0
          ipureintro; exact View.read_writes_of_cover _ _ _ _ _ (scover1_B c _ _ _ _ _ _ _ _ _ _ _ _ _ _ _ _ _ _ _ _ _ _ _ _ _ _ _ _ _ _ _ _ _ (fun h => h0 ((hcond1_0 t).mp h)) (fun h => h1 ((hcond1_1 t).mp h)) _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      iexists _; iexact H14

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the region's own back: the scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨R0, R1, R2, R3, R4, R5, R6, R7, HS0⟩, Hg⟩
  isplitl [R0 R1 R2 R3 R4 R5 R6 R7 HS0]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 5 := N_1; omega)

end Cert.KernelIdeal.Hand

end
-- ==== Proof.KI.RunCond.lean ====
/- The whole program run from its launch memory to its return, given one record per kernel region: every weakly fair
   execution terminates and every buffer that is not a kernel's own staging or scratch storage ends at the last of the
   valuations between the program's items (the launch contents, each host stretch applied, each region's result array
   replaced by what the region leaves). -/
import proofs.«402084_j84928683311960_2_alg».proof.Proof.Gen.KernelIdeal.Regions

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

-- the launch theorem's implicit arguments are found by unifying its conclusion with this one, which takes unfolding
-- plain definitions in a metavariable's type
set_option backward.isDefEq.respectTransparency.types false in
/-- THE CONDITIONAL RUN. Under the hypotheses of the conditional frame (per region a segment record entered from the
    valuation before it and left at the one after it), every weakly fair execution of @main from memory `m` with zero
    counters terminates, and in every final memory EVERY unscoped buffer of core `c` holds the last valuation
    `V7 m outs c`: the launch contents, then each host stretch's `StableHlo.after`, then what the two regions leave. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V4 m c) ∗ E 0 c) ⊢ R0.pre c)
    (hpost0 : ∀ c : Dev nD, R0.post c ⊢ iprop(StableHlo.held (c : Thread nD τ) (Pipeline.ucRefs τ sig) (V5 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V6 m outs c) ∗ E 1 c) ⊢ R1.pre c)
    (hpost1 : ∀ c : Dev nD, R1.post c ⊢ iprop(StableHlo.held (c : Thread nD τ) (Pipeline.ucRefs τ sig) (V7 m outs c) ∗ E 2 c)) :
    θ_run defs (onTc (τ := τ) (main (F := F))) ⟨m, fun _ => 0, ρ⟩ (fun r => ∀ c : Dev nD,
      ∀ b ∈ Pipeline.ucRefs τ sig, r.2.mem (((c : Thread nD τ)).1, b) = V7 m outs c b) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          StableHlo.seq hostOps0_1,
          StableHlo.seq hostOps0_2,
          StableHlo.seq hostOps0_3,
          Prog.lift (.customCall (Pipeline.entry 0) ()),
          StableHlo.seq hostOps1,
          Prog.lift (.customCall (Pipeline.entry 1) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V7 m outs c))
    (hch := fun c => ⟨.rfl, .rfl, .rfl, .rfl, hpre0 c, hpost0 c, hpre1 c, (hpost1 c).trans (sep_mono .rfl (hE2 c))⟩)
    (hinit := ?_) (QY := fun c s => ∀ b ∈ Pipeline.ucRefs τ sig, s.mem (((c : Thread nD τ)).1, b) = V7 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last valuation
    unfold StableHlo.held
    iintro ⟨Hh, HSI⟩
    imodintro
    iapply (pointsTo_read_all (Pipeline.ucRefs τ sig) (fun b => (((c : Thread nD τ)).1, b)) (V7 m outs c) s')
    isplitl [Hh] <;> iassumption

end Cert.KernelIdeal.Hand

end
-- ==== Proof.KI.Run.lean ====
/-
  The launch of the graph network's program: @main run from the launch memory to its return, with the final
  contents of every unscoped buffer named.

  @main is seven items: four host stretches, the edge stage's pallas_call (it writes main_v7), a host stretch (the
  segment sum of the edge rows into the nodes and the operands of the node stage), the node stage's pallas_call (it
  writes main_v19). Between two items core c holds every unscoped buffer at a valuation: the launch memory, then each
  host stretch's effect, then each region's output array at what the region's write-backs leave and every other
  buffer as the region found it. The edge stage's output is the fold of its write-backs over the buffers it is
  entered from; the node stage is entered from the buffers after the next host stretch, which read that output, and
  its own output is the fold of its write-backs over those. So the two unknowns of the conditional run are solved in
  order, the first not depending on the second.

  The node stage's proof data and both body obligations are parameters here: the run only needs that the proof data
  read their arrays off the entry valuation, hold them at the full share, owe nothing, and keep the class invariant.
-/
import proofs.«402084_j84928683311960_2_alg».proof.Proof.KI.RunCond
import proofs.«402084_j84928683311960_2_alg».proof.Proof.KI.R0Defs
import Idealize.ShloMosaic.Lib.Pipeline.RegionsLoop
import Idealize.ShloMosaic.Lib.Pipeline.FrameSuffix
import Idealize.ShloMosaic.Lib.Pipeline.Kit

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

section Run

variable
  (hb0 : ∀ (V : (c : Dev nD) → (b : Ref sig .tc) → Buf (Elt F) ((c : Thread nD τ).loc b)) (c : Dev nD),
    BodyObligation (dat0 (F := F) V c) (defs₀ (F := F)) Variants.none () Set.univ)
  (D1 : ((c : Dev nD) → (b : Ref sig .tc) → Buf (Elt F) ((c : Thread nD τ).loc b)) → (c : Dev nD) →
    Dat τ (Elt F) Unit ℕ (UR sig nD τ) ℕ cfg1 c)

/-! ## The two outputs, solved in order -/

/-- The buffers the edge stage is entered from, read at the TensorCore's references: the launch memory after the
    four host stretches. -/
abbrev VA : (c : Dev nD) → (b : Ref sig .tc) → Buf (Elt F) ((c : Thread nD τ).loc b) := fun c b => V4 m c b

/-- The edge stage's result array as the region leaves it: its hundred write-backs folded over the entry contents. -/
def eArr (c : Dev nD) : Buf (Elt F) ((c : Thread nD τ).loc main_v7) := (dat0 (VA m) c).arrAt 5 cfg0.N

/-- The regions' outputs with only the first solved: main_v7 at the edge stage's result, anything else as launched. -/
def outsE : Outs (F := F) := fun _ => Function.update (fun r c => m ((c : Thread nD τ).loc r)) main_v7 (eArr m)

theorem outsE_v7 (c : Dev nD) : outsE m 5 main_v7 c = eArr m c := by
  unfold outsE; rw [Function.update_self]

/-- The buffers the node stage is entered from: the edge stage's result in place, then the host stretch between. -/
abbrev VB : (c : Dev nD) → (b : Ref sig .tc) → Buf (Elt F) ((c : Thread nD τ).loc b) := fun c b => V6 m (outsE m) c b

/-- The node stage's result array as the region leaves it: its write-back folded over the entry contents. -/
def oArr (c : Dev nD) : Buf (Elt F) ((c : Thread nD τ).loc main_v19) := (D1 (VB m) c).arrAt 14 cfg1.N

/-- Both outputs solved: main_v7 at the edge stage's result, main_v19 at the node stage's. -/
def outs : Outs (F := F) := fun _ =>
  Function.update (Function.update (fun r c => m ((c : Thread nD τ).loc r)) main_v7 (eArr m)) main_v19 (oArr m D1)

theorem outs_v7 (c : Dev nD) : outs m D1 5 main_v7 c = eArr m c := by
  unfold outs; rw [Function.update_of_ne (by decide), Function.update_self]

theorem outs_v19 (c : Dev nD) : outs m D1 7 main_v19 c = oArr m D1 c := by
  unfold outs; rw [Function.update_self]

/-- The valuation after the edge stage reads only the first output, on which the two solutions agree. -/
theorem V5_outs (c : Dev nD) : V5 m (outs m D1) c = V5 m (outsE m) c := by
  show Function.update (V4 m c) main_v7 (outs m D1 5 main_v7 c) = Function.update (V4 m c) main_v7 (outsE m 5 main_v7 c)
  rw [outs_v7, outsE_v7]

/-- So the node stage is entered from the same buffers under either: value lemmas stated over the full solution apply
    to the proof data, which are stated over the first. -/
theorem VB_eq (c : Dev nD) : V6 m (outs m D1) c = V6 m (outsE m) c := by
  show StableHlo.after hostOps1 (V5 m (outs m D1) c) = StableHlo.after hostOps1 (V5 m (outsE m) c)
  rw [V5_outs]

/-- The last valuation at the node stage's output is that output. -/
theorem V7_v19 (c : Dev nD) : V7 m (outs m D1) c main_v19 = oArr m D1 c := by
  show Function.update (V6 m (outs m D1) c) main_v19 (outs m D1 7 main_v19 c) main_v19 = _
  rw [Function.update_self, outs_v19]

/-! ## The proof data family and the thread state -/

/-- Each pipeline's proof data at its region's entry contents. -/
def runDats : (p : Fin 2) → (c : Dev nD) → Dat τ (Elt F) Unit ℕ (UR sig nD τ) ℕ (cfgs p) c
  | ⟨0, _⟩ => fun c => dat0 (VA m) c
  | ⟨1, _⟩ => fun c => D1 (VB m) c

/-- No core owes another anything: no level is assigned. -/
abbrev runL : GSem nD τ sig → Finset Unit := fun _ => ∅
abbrev runLv : GSem nD τ sig → Unit → ℕ := fun _ _ => 0

/-- What rides beside the buffers through every item: the core's generator register at some state and its dues, at
    nothing. -/
abbrev runR (c : Dev nD) : sProp 𝕄 :=
  iprop((∃ r, prngReg c r) ∗ ∃ W, owes (c : Thread nD τ) (0 : CellTallies nD τ sig Unit) W)

/-- An unscoped TensorCore reference is among those the thread state holds. -/
theorem mem_uc (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-! ## What each region leaves: its inputs as entered, its output at the fold, every other buffer untouched -/

/-- The edge stage's arrays at its exit are the next valuation's. -/
theorem hF0 (c : Dev nD) (w : Fin cfg0.W) :
    (dat0 (VA m) c).arrAt w cfg0.N = V5 m (outs m D1) c (Pipeline.arrRef spec0 w) := by
  rcases (by decide : ∀ w : Fin 6, w = 5 ∨ ((cfg0.win w).isOut = false
      ∧ Pipeline.arrRef spec0 w ∉ ([main_v7] : List (Ref sig .tc)))) w with rfl | ⟨hin, hne⟩
  · show (dat0 (VA m) c).arrAt 5 cfg0.N
        = Function.update (V4 m c) main_v7 (outs m D1 5 main_v7 c) main_v7
    rw [Function.update_self, outs_v7]; rfl
  · exact ((dat0 (VA m) c).arrAt_in w hin _).trans ((A_eq0 (VA m) c w).trans (V5_of m (outs m D1) c _ hne).symm)

theorem hrest0 (c : Dev nD) (b : Ref sig .tc) (hb : b ∉ Finset.univ.image (Pipeline.arrRef spec0)) :
    V5 m (outs m D1) c b = V4 m c b :=
  V5_of m (outs m D1) c b fun h => hb (by
    rw [List.mem_singleton] at h; subst h; exact Finset.mem_image.mpr ⟨5, Finset.mem_univ _, rfl⟩)

/-- The node stage's proof data read their arrays off the valuation it is entered from under the full solution. -/
theorem hA1' (hA1 : ∀ (V : (c : Dev nD) → (b : Ref sig .tc) → Buf (Elt F) ((c : Thread nD τ).loc b)) (c : Dev nD) (w : Fin cfg1.W), (D1 V c).A w = V c (Pipeline.arrRef spec1 w)) (c : Dev nD) (w : Fin cfg1.W) :
    (D1 (VB m) c).A w = V6 m (outs m D1) c (Pipeline.arrRef spec1 w) :=
  (hA1 (VB m) c w).trans (congrFun (VB_eq m D1 c).symm _)

/-- The node stage's arrays at its exit are the last valuation's. -/
theorem hF1 (hA1 : ∀ (V : (c : Dev nD) → (b : Ref sig .tc) → Buf (Elt F) ((c : Thread nD τ).loc b)) (c : Dev nD) (w : Fin cfg1.W), (D1 V c).A w = V c (Pipeline.arrRef spec1 w)) (c : Dev nD) (w : Fin cfg1.W) :
    (D1 (VB m) c).arrAt w cfg1.N = V7 m (outs m D1) c (Pipeline.arrRef spec1 w) := by
  rcases (by decide : ∀ w : Fin 15, w = 14 ∨ ((cfg1.win w).isOut = false
      ∧ Pipeline.arrRef spec1 w ∉ ([main_v19] : List (Ref sig .tc)))) w with rfl | ⟨hin, hne⟩
  · exact (V7_v19 m D1 c).symm
  · exact ((D1 (VB m) c).arrAt_in w hin _).trans ((hA1' m D1 hA1 c w).trans (V7_of m (outs m D1) c _ hne).symm)

theorem hrest1 (c : Dev nD) (b : Ref sig .tc) (hb : b ∉ Finset.univ.image (Pipeline.arrRef spec1)) :
    V7 m (outs m D1) c b = V6 m (outs m D1) c b :=
  V7_of m (outs m D1) c b fun h => hb (by
    rw [List.mem_singleton] at h; subst h; exact Finset.mem_image.mpr ⟨14, Finset.mem_univ _, rfl⟩)

/-! ## The regions as segments -/

set_option backward.isDefEq.respectTransparency.types false in
/-- THE EDGE STAGE over the thread state: entered from every unscoped buffer at the valuation after the four host
    stretches, left at that valuation with main_v7 at the stage's result. Its arrays are split out of the unscoped
    buffers and put back at the exit contents; the generator register goes into the class invariant and comes out;
    nothing is owed; the kernel has no semaphore of its own. -/
def runReg0 : Pipeline.RegionSeg (pcfgs (F := F)) adm (runDats m D1) () defs₀ Variants.none runL runLv 0 where
  win := launch0.win.to₀
  block_pos := launch0.block_pos
  stage_whole := launch0.stage_whole
  K := PEmpty
  osem k := k.elim
  ho := Pipeline.OwnSemFacts.none _
  hbody c := (hb0 (VA m) c).loose
  hwaits := Pipeline.hwaits_of_owed_zero _ _ _ _ runL runLv 0 fun _ _ => rfl
  pre c := iprop(StableHlo.held (c : Thread nD τ) (Pipeline.ucRefs τ sig) (V4 m c) ∗ runR c)
  post c := iprop(StableHlo.held (c : Thread nD τ) (Pipeline.ucRefs τ sig) (V5 m (outs m D1) c) ∗ runR c)
  X c := iprop(∃ r, prngReg c r)
  Y c := iprop(∃ r, prngReg c r)
  Z c := Pipeline.unscopedRest (Ix := Unit) (Name := ℕ) (U := UR sig nD τ) (Lvl := ℕ) spec0 c (VA m c)
  hentry c := by
    rw [Pipeline.ownSems0_none]
    have hsplit := Pipeline.arrays_of_unscopedBufs (p := 0) (pcfgs (F := F)) adm (runDats m D1) launch0.win launch0.arr_whole c
      ((runDats m D1 0 c).share_full fun _ => rfl) (VA m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun x _ => Or.inl trivial
      iexact HO
    isplitl [Hp]; · iexact Hp
    iexact Hrest
  hin c := by
    rw [show (runDats m D1 0 c).Φ 0 = Pipeline.ΦA spec0 c from rfl]; unfold Pipeline.ΦA
    iintro ⟨Hp, -, Hr⟩
    isplitl [Hr]; · iexact Hr
    iexact Hp
  hout c := by
    rw [Pipeline.ownSems0_none, show (runDats m D1 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (runDats m D1) ((runDats m D1 0 c).share_full fun _ => rfl)
      (VA m c) (fun b : Ref sig .tc => V5 m (outs m D1) c b) ((runDats m D1 0 c).arrAt · cfg0.N) (hF0 m D1 c) (hrest0 m D1 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE NODE STAGE over the thread state: entered from every unscoped buffer at the valuation after the host stretch
    that follows the edge stage, left at that valuation with main_v19 at the stage's result. The same protocol, its
    proof data the parameter's. -/
def runReg1
    (hA1 : ∀ (V : (c : Dev nD) → (b : Ref sig .tc) → Buf (Elt F) ((c : Thread nD τ).loc b)) (c : Dev nD) (w : Fin cfg1.W), (D1 V c).A w = V c (Pipeline.arrRef spec1 w))
    (hq1 : ∀ (V : (c : Dev nD) → (b : Ref sig .tc) → Buf (Elt F) ((c : Thread nD τ).loc b)) (c : Dev nD) (w : Fin cfg1.W), (D1 V c).q w = fullShare)
    (ho1 : ∀ (V : (c : Dev nD) → (b : Ref sig .tc) → Buf (Elt F) ((c : Thread nD τ).loc b)) (c : Dev nD) (t : Fin (cfg1.N + 1)), (D1 V c).owed t = 0)
    (hr1 : ∀ (V : (c : Dev nD) → (b : Ref sig .tc) → Buf (Elt F) ((c : Thread nD τ).loc b)) (c : Dev nD), (D1 V c).recorded 0 = Set.univ)
    (hb1 : ∀ (V : (c : Dev nD) → (b : Ref sig .tc) → Buf (Elt F) ((c : Thread nD τ).loc b)) (c : Dev nD), BodyObligation (D1 V c) (defs₀ (F := F)) Variants.none () Set.univ)
    (hin1 : ∀ (V : (c : Dev nD) → (b : Ref sig .tc) → Buf (Elt F) ((c : Thread nD τ).loc b)) (c : Dev nD), (Pipeline.ΦA spec1 c : sProp 𝕄) ⊢ (D1 V c).Φ 0)
    (hout1 : ∀ (V : (c : Dev nD) → (b : Ref sig .tc) → Buf (Elt F) ((c : Thread nD τ).loc b)) (c : Dev nD), (D1 V c).Φ (Fin.last cfg1.N) ⊢ (Pipeline.ΦA spec1 c : sProp 𝕄)) :
    Pipeline.RegionSeg (pcfgs (F := F)) adm (runDats m D1) () defs₀ Variants.none runL runLv 1 where
  win := launch1.win.to₀
  block_pos := launch1.block_pos
  stage_whole := launch1.stage_whole
  K := PEmpty
  osem k := k.elim
  ho := Pipeline.OwnSemFacts.none _
  hbody c := (hb1 (VB m) c).loose
  hwaits := Pipeline.hwaits_of_owed_zero _ _ _ _ runL runLv 1 fun c t => ho1 (VB m) c t
  pre c := iprop(StableHlo.held (c : Thread nD τ) (Pipeline.ucRefs τ sig) (V6 m (outs m D1) c) ∗ runR c)
  post c := iprop(StableHlo.held (c : Thread nD τ) (Pipeline.ucRefs τ sig) (V7 m (outs m D1) c) ∗ runR c)
  X c := iprop(∃ r, prngReg c r)
  Y c := iprop(∃ r, prngReg c r)
  Z c := Pipeline.unscopedRest (Ix := Unit) (Name := ℕ) (U := UR sig nD τ) (Lvl := ℕ) spec1 c (fun b : Ref sig .tc => V6 m (outs m D1) c b)
  hentry c := by
    rw [Pipeline.ownSems0_none]
    have hsplit := Pipeline.arrays_of_unscopedBufs (p := 1) (pcfgs (F := F)) adm (runDats m D1) launch1.win launch1.arr_whole c
      ((runDats m D1 1 c).share_full fun w => hq1 (VB m) c w) (fun b : Ref sig .tc => V6 m (outs m D1) c b) (hA1' m D1 hA1 c)
    rw [Pipeline.unscopedBufs_held] at hsplit
    have hz : ∀ t, (runDats m D1 1 c).owed t = 0 := fun t => ho1 (VB m) c t
    have hrec : (runDats m D1 1 c).recorded 0 = Set.univ := hr1 (VB m) c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [hz]
      icases HO with ⟨%W, HO⟩; iexists W; isplitr; · ipureintro; exact fun x _ => Or.inl (hrec ▸ Set.mem_univ x)
      iexact HO
    isplitl [Hp]; · iexact Hp
    iexact Hrest
  hin c := by
    refine BIBase.Entails.trans ?_ (hin1 (VB m) c)
    unfold Pipeline.ΦA
    iintro ⟨Hp, -, Hr⟩
    isplitl [Hr]; · iexact Hr
    iexact Hp
  hout c := by
    rw [Pipeline.ownSems0_none]
    refine (hout1 (VB m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (runDats m D1) ((runDats m D1 1 c).share_full fun w => hq1 (VB m) c w)
      (fun b : Ref sig .tc => V6 m (outs m D1) c b) (fun b : Ref sig .tc => V7 m (outs m D1) c b)
      ((runDats m D1 1 c).arrAt · cfg1.N) (hF1 m D1 hA1 c) (hrest1 m D1 c)
    rw [Pipeline.unscopedBufs_held] at hjoin
    have hz : ∀ t, (runDats m D1 1 c).owed t = 0 := fun t => ho1 (VB m) c t
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [hz]
    icases HO with ⟨%W, -, HO⟩; iexists W; iexact HO

/-! ## The launch -/

include hb0 in
set_option backward.isDefEq.respectTransparency.types false in
/-- THE RUN. Every weakly fair execution of @main from memory m with zero counters terminates, and in every final
    memory every unscoped buffer of core c holds the last valuation: the launch contents, then each host stretch's
    effect, main_v7 at the edge stage's result and main_v19 at the node stage's. -/
theorem run_all
    (hA1 : ∀ (V : (c : Dev nD) → (b : Ref sig .tc) → Buf (Elt F) ((c : Thread nD τ).loc b)) (c : Dev nD) (w : Fin cfg1.W), (D1 V c).A w = V c (Pipeline.arrRef spec1 w))
    (hq1 : ∀ (V : (c : Dev nD) → (b : Ref sig .tc) → Buf (Elt F) ((c : Thread nD τ).loc b)) (c : Dev nD) (w : Fin cfg1.W), (D1 V c).q w = fullShare)
    (ho1 : ∀ (V : (c : Dev nD) → (b : Ref sig .tc) → Buf (Elt F) ((c : Thread nD τ).loc b)) (c : Dev nD) (t : Fin (cfg1.N + 1)), (D1 V c).owed t = 0)
    (hr1 : ∀ (V : (c : Dev nD) → (b : Ref sig .tc) → Buf (Elt F) ((c : Thread nD τ).loc b)) (c : Dev nD), (D1 V c).recorded 0 = Set.univ)
    (hb1 : ∀ (V : (c : Dev nD) → (b : Ref sig .tc) → Buf (Elt F) ((c : Thread nD τ).loc b)) (c : Dev nD), BodyObligation (D1 V c) (defs₀ (F := F)) Variants.none () Set.univ)
    (hin1 : ∀ (V : (c : Dev nD) → (b : Ref sig .tc) → Buf (Elt F) ((c : Thread nD τ).loc b)) (c : Dev nD), (Pipeline.ΦA spec1 c : sProp 𝕄) ⊢ (D1 V c).Φ 0)
    (hout1 : ∀ (V : (c : Dev nD) → (b : Ref sig .tc) → Buf (Elt F) ((c : Thread nD τ).loc b)) (c : Dev nD), (D1 V c).Φ (Fin.last cfg1.N) ⊢ (Pipeline.ΦA spec1 c : sProp 𝕄))
    (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = V7 m (outs m D1) c b) :=
  run_cond m (EP := emb₁) (ι := ()) (𝒱₀ := Variants.none) (L := runL) (lv := runLv) (hL := fun _ _ => rfl) (ρ := ρ)
    (outs := outs m D1) (pdats := runDats m D1) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => runR c)
    (hE0 := by
      refine Pipeline.initEach runL runLv fun c => ?_
      iintro ⟨⟨-, HO, -, Hp, -⟩, -⟩
      imodintro
      isplitl [Hp]; · iexists _; iexact Hp
      iexists ∅; iexact HO)
    (hE2 := fun c => by iintro ⟨-, HO⟩; iexact HO)
    (R0 := runReg0 m hb0 D1) (hpre0 := fun _ => .rfl) (hpost0 := fun _ => .rfl)
    (R1 := runReg1 m D1 hA1 hq1 ho1 hr1 hb1 hin1 hout1) (hpre1 := fun _ => .rfl) (hpost1 := fun _ => .rfl)

include hb0 in
/-- THE FRAME: every argument array ends as launched (no host stretch writes one, no region's output is one). -/
theorem frame_all
    (hA1 : ∀ (V : (c : Dev nD) → (b : Ref sig .tc) → Buf (Elt F) ((c : Thread nD τ).loc b)) (c : Dev nD) (w : Fin cfg1.W), (D1 V c).A w = V c (Pipeline.arrRef spec1 w))
    (hq1 : ∀ (V : (c : Dev nD) → (b : Ref sig .tc) → Buf (Elt F) ((c : Thread nD τ).loc b)) (c : Dev nD) (w : Fin cfg1.W), (D1 V c).q w = fullShare)
    (ho1 : ∀ (V : (c : Dev nD) → (b : Ref sig .tc) → Buf (Elt F) ((c : Thread nD τ).loc b)) (c : Dev nD) (t : Fin (cfg1.N + 1)), (D1 V c).owed t = 0)
    (hr1 : ∀ (V : (c : Dev nD) → (b : Ref sig .tc) → Buf (Elt F) ((c : Thread nD τ).loc b)) (c : Dev nD), (D1 V c).recorded 0 = Set.univ)
    (hb1 : ∀ (V : (c : Dev nD) → (b : Ref sig .tc) → Buf (Elt F) ((c : Thread nD τ).loc b)) (c : Dev nD), BodyObligation (D1 V c) (defs₀ (F := F)) Variants.none () Set.univ)
    (hin1 : ∀ (V : (c : Dev nD) → (b : Ref sig .tc) → Buf (Elt F) ((c : Thread nD τ).loc b)) (c : Dev nD), (Pipeline.ΦA spec1 c : sProp 𝕄) ⊢ (D1 V c).Φ 0)
    (hout1 : ∀ (V : (c : Dev nD) → (b : Ref sig .tc) → Buf (Elt F) ((c : Thread nD τ).loc b)) (c : Dev nD), (D1 V c).Φ (Fin.last cfg1.N) ⊢ (Pipeline.ΦA spec1 c : sProp 𝕄))
    (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun r h c =>
    ⟨(h c _ (mem_uc main_arg0 (by decide))).trans (V7_main_arg0 m (outs m D1) c),
      (h c _ (mem_uc main_arg1 (by decide))).trans (V7_main_arg1 m (outs m D1) c),
      (h c _ (mem_uc main_arg2 (by decide))).trans (V7_main_arg2 m (outs m D1) c),
      (h c _ (mem_uc main_arg3 (by decide))).trans (V7_main_arg3 m (outs m D1) c),
      (h c _ (mem_uc main_arg4 (by decide))).trans (V7_main_arg4 m (outs m D1) c),
      (h c _ (mem_uc main_arg5 (by decide))).trans (V7_main_arg5 m (outs m D1) c),
      (h c _ (mem_uc main_arg6 (by decide))).trans (V7_main_arg6 m (outs m D1) c),
      (h c _ (mem_uc main_arg7 (by decide))).trans (V7_main_arg7 m (outs m D1) c),
      (h c _ (mem_uc main_arg8 (by decide))).trans (V7_main_arg8 m (outs m D1) c),
      (h c _ (mem_uc main_arg9 (by decide))).trans (V7_main_arg9 m (outs m D1) c),
      (h c _ (mem_uc main_arg10 (by decide))).trans (V7_main_arg10 m (outs m D1) c),
      (h c _ (mem_uc main_arg11 (by decide))).trans (V7_main_arg11 m (outs m D1) c),
      (h c _ (mem_uc main_arg12 (by decide))).trans (V7_main_arg12 m (outs m D1) c),
      (h c _ (mem_uc main_arg13 (by decide))).trans (V7_main_arg13 m (outs m D1) c),
      (h c _ (mem_uc main_arg14 (by decide))).trans (V7_main_arg14 m (outs m D1) c),
      (h c _ (mem_uc main_arg15 (by decide))).trans (V7_main_arg15 m (outs m D1) c),
      (h c _ (mem_uc main_arg16 (by decide))).trans (V7_main_arg16 m (outs m D1) c),
      (h c _ (mem_uc main_arg17 (by decide))).trans (V7_main_arg17 m (outs m D1) c),
      (h c _ (mem_uc main_arg18 (by decide))).trans (V7_main_arg18 m (outs m D1) c),
      (h c _ (mem_uc main_arg19 (by decide))).trans (V7_main_arg19 m (outs m D1) c)⟩)
    (run_all m hb0 D1 hA1 hq1 ho1 hr1 hb1 hin1 hout1 ρ)

include hb0 in
/-- THE VALUE AND THE FRAME: the result array ends at the node stage's fold, and every argument array as launched. -/
theorem run_value
    (hA1 : ∀ (V : (c : Dev nD) → (b : Ref sig .tc) → Buf (Elt F) ((c : Thread nD τ).loc b)) (c : Dev nD) (w : Fin cfg1.W), (D1 V c).A w = V c (Pipeline.arrRef spec1 w))
    (hq1 : ∀ (V : (c : Dev nD) → (b : Ref sig .tc) → Buf (Elt F) ((c : Thread nD τ).loc b)) (c : Dev nD) (w : Fin cfg1.W), (D1 V c).q w = fullShare)
    (ho1 : ∀ (V : (c : Dev nD) → (b : Ref sig .tc) → Buf (Elt F) ((c : Thread nD τ).loc b)) (c : Dev nD) (t : Fin (cfg1.N + 1)), (D1 V c).owed t = 0)
    (hr1 : ∀ (V : (c : Dev nD) → (b : Ref sig .tc) → Buf (Elt F) ((c : Thread nD τ).loc b)) (c : Dev nD), (D1 V c).recorded 0 = Set.univ)
    (hb1 : ∀ (V : (c : Dev nD) → (b : Ref sig .tc) → Buf (Elt F) ((c : Thread nD τ).loc b)) (c : Dev nD), BodyObligation (D1 V c) (defs₀ (F := F)) Variants.none () Set.univ)
    (hin1 : ∀ (V : (c : Dev nD) → (b : Ref sig .tc) → Buf (Elt F) ((c : Thread nD τ).loc b)) (c : Dev nD), (Pipeline.ΦA spec1 c : sProp 𝕄) ⊢ (D1 V c).Φ 0)
    (hout1 : ∀ (V : (c : Dev nD) → (b : Ref sig .tc) → Buf (Elt F) ((c : Thread nD τ).loc b)) (c : Dev nD), (D1 V c).Φ (Fin.last cfg1.N) ⊢ (Pipeline.ΦA spec1 c : sProp 𝕄))
    (ρ : Dev nD → PrngReg) :
    θ_run defs (onTc (τ := τ) (main (F := F))) ⟨m, fun _ => 0, ρ⟩ (fun r => ∀ c : Dev nD,
      r.2.mem ((c.tc : Thread nD τ).loc main_v19) = oArr m D1 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun r h c =>
    ⟨(h c _ (mem_uc main_v19 (by decide))).trans (V7_v19 m D1 c),
      (h c _ (mem_uc main_arg0 (by decide))).trans (V7_main_arg0 m (outs m D1) c),
      (h c _ (mem_uc main_arg1 (by decide))).trans (V7_main_arg1 m (outs m D1) c),
      (h c _ (mem_uc main_arg2 (by decide))).trans (V7_main_arg2 m (outs m D1) c),
      (h c _ (mem_uc main_arg3 (by decide))).trans (V7_main_arg3 m (outs m D1) c),
      (h c _ (mem_uc main_arg4 (by decide))).trans (V7_main_arg4 m (outs m D1) c),
      (h c _ (mem_uc main_arg5 (by decide))).trans (V7_main_arg5 m (outs m D1) c),
      (h c _ (mem_uc main_arg6 (by decide))).trans (V7_main_arg6 m (outs m D1) c),
      (h c _ (mem_uc main_arg7 (by decide))).trans (V7_main_arg7 m (outs m D1) c),
      (h c _ (mem_uc main_arg8 (by decide))).trans (V7_main_arg8 m (outs m D1) c),
      (h c _ (mem_uc main_arg9 (by decide))).trans (V7_main_arg9 m (outs m D1) c),
      (h c _ (mem_uc main_arg10 (by decide))).trans (V7_main_arg10 m (outs m D1) c),
      (h c _ (mem_uc main_arg11 (by decide))).trans (V7_main_arg11 m (outs m D1) c),
      (h c _ (mem_uc main_arg12 (by decide))).trans (V7_main_arg12 m (outs m D1) c),
      (h c _ (mem_uc main_arg13 (by decide))).trans (V7_main_arg13 m (outs m D1) c),
      (h c _ (mem_uc main_arg14 (by decide))).trans (V7_main_arg14 m (outs m D1) c),
      (h c _ (mem_uc main_arg15 (by decide))).trans (V7_main_arg15 m (outs m D1) c),
      (h c _ (mem_uc main_arg16 (by decide))).trans (V7_main_arg16 m (outs m D1) c),
      (h c _ (mem_uc main_arg17 (by decide))).trans (V7_main_arg17 m (outs m D1) c),
      (h c _ (mem_uc main_arg18 (by decide))).trans (V7_main_arg18 m (outs m D1) c),
      (h c _ (mem_uc main_arg19 (by decide))).trans (V7_main_arg19 m (outs m D1) c)⟩)
    (run_all m hb0 D1 hA1 hq1 ho1 hr1 hb1 hin1 hout1 ρ)

end Run

end Cert.KernelIdeal.Hand

end
-- ==== Proof.Spec.lean ====
/-
  The function both programs compute, over the extended reals, as one function of the argument arrays.

  A layer is x ↦ x·W + b (a row of x against a column of W, summed over the shared axis, plus the bias
  entry of the column); relu is max(·, 0). The edge stage applies two layers, relu between them, to the row
  (x[src e], x[dst e], attr[e, 0..2]) of every edge e; the node stage sums the edge rows into their target nodes
  (an edge whose target word, read signed, is no node adds nothing), prepends x[n] and applies two more layers;
  the pool sums node rows by graph id (a node whose id, read signed, is no graph adds nothing); four layers, relu
  after the first three, give the result. A node index word is read signed and clamped into the table, after
  a negative word has had the table's length added (both programs do exactly this before they read x).
-/
import Idealize.ShloMosaic.Lib.ValueIdx
import Idealize.ShloMosaic.PureOps.Ideal.Laws

noncomputable section

namespace Cert.Spec

open Idealize.ShloMosaic Idealize.ShloMosaic.ValueIdx

/-- An array of extended reals over a rank-2 shape, and over a rank-1 shape. -/
abbrev A2 (R C : Nat) : Type := (⟨2, ![R, C]⟩ : Shape).Idx → EReal
abbrev A1 (C : Nat) : Type := (⟨1, ![C]⟩ : Shape).Idx → EReal

/-- One layer at entry (r, n): the row r of X against the column n of W, plus the bias at n. -/
def lin {R K N : Nat} (X : A2 R K) (W : A2 K N) (b : A1 N) : A2 R N :=
  fun i => (∑ k : Fin K, X (ix2 (i 0) k) * W (ix2 k (i 1))) + b (ix1 (i 1))

/-- relu, entry by entry. -/
def relu {R C : Nat} (X : A2 R C) : A2 R C := fun i => max (X i) 0

/-- Two layers with relu between them. -/
def mlp2 {R K H N : Nat} (X : A2 R K) (W1 : A2 K H) (b1 : A1 H) (W2 : A2 H N) (b2 : A1 N) : A2 R N :=
  lin (relu (lin X W1 b1)) W2 b2

/-- Rows summed by a signed id: entry (g, k) is 0 plus the sum, over the rows n whose id is g, of X (n, k). -/
def segsum {R G C : Nat} (id : Fin R → Int) (X : A2 R C) : A2 G C :=
  fun i => 0 + ∑ n : Fin R, if id n = ((i 0).val : Int) then X (ix2 n (i 1)) else 0

/-- A node index word as both programs use it: a negative word gets the table's length added. -/
def wrap (a : BitVec 32) : BitVec 32 := if a.slt 0#32 then a + 50000#32 else a

/-- The node a word names: read signed, clamped into the table of 50000 nodes. -/
def nodeOf (a : BitVec 32) : Fin 50000 := ⟨min a.toInt.toNat 49999, by omega⟩

/-- The edge stage's input row: x at the source, x at the target, then the three edge attributes. -/
def edgeIn (x : A2 50000 1) (ei : (⟨2, ![2, 1600000]⟩ : Shape).Idx → BitVec 32) (ea : A2 1600000 3) : A2 1600000 5 :=
  fun i =>
    if (i 1).val = 0 then x (ix2 (nodeOf (wrap (ei (ix2 0 (i 0))))) 0)
    else if h : (i 1).val = 1 then x (ix2 (nodeOf (wrap (ei (ix2 1 (i 0))))) 0)
    else ea (ix2 (i 0) ⟨(i 1).val - 2, by have := (i 1).isLt; simp at this; omega⟩)

/-- The node stage's input row: x[n], then the 64 summed edge entries of node n. -/
def nodeIn (x : A2 50000 1) (agg : A2 50000 64) : A2 50000 65 :=
  fun i => if h : (i 1).val = 0 then x (ix2 (i 0) 0)
    else agg (ix2 (i 0) ⟨(i 1).val - 1, by have := (i 1).isLt; simp at this; omega⟩)

/-- The four closing layers, relu after the first three. -/
def head (p : A2 16 64) (ow1 : A2 64 64) (ob1 : A1 64) (ow2 : A2 64 64) (ob2 : A1 64) (ow3 : A2 64 64) (ob3 : A1 64)
    (ow4 : A2 64 2) (ob4 : A1 2) : A2 16 2 :=
  lin (relu (lin (relu (lin (relu (lin p ow1 ob1)) ow2 ob2)) ow3 ob3)) ow4 ob4

/-- The edge rows after their two layers. -/
def edgeOut (x : A2 50000 1) (ei : (⟨2, ![2, 1600000]⟩ : Shape).Idx → BitVec 32) (ea : A2 1600000 3)
    (ew1 : A2 5 64) (eb1 : A1 64) (ew2 : A2 64 64) (eb2 : A1 64) : A2 1600000 64 :=
  mlp2 (edgeIn x ei ea) ew1 eb1 ew2 eb2

/-- The node rows after their two layers. -/
def nodeOut (x : A2 50000 1) (ei : (⟨2, ![2, 1600000]⟩ : Shape).Idx → BitVec 32) (e : A2 1600000 64)
    (nw1 : A2 65 64) (nb1 : A1 64) (nw2 : A2 64 64) (nb2 : A1 64) : A2 50000 64 :=
  mlp2 (nodeIn x (segsum (fun j => (ei (ix2 1 j)).toInt) e)) nw1 nb1 nw2 nb2

/-- The whole result. -/
def result (x : A2 50000 1) (ei : (⟨2, ![2, 1600000]⟩ : Shape).Idx → BitVec 32) (ea : A2 1600000 3)
    (bt : (⟨1, ![50000]⟩ : Shape).Idx → BitVec 32)
    (ew1 : A2 5 64) (eb1 : A1 64) (ew2 : A2 64 64) (eb2 : A1 64)
    (nw1 : A2 65 64) (nb1 : A1 64) (nw2 : A2 64 64) (nb2 : A1 64)
    (ow1 : A2 64 64) (ob1 : A1 64) (ow2 : A2 64 64) (ob2 : A1 64) (ow3 : A2 64 64) (ob3 : A1 64)
    (ow4 : A2 64 2) (ob4 : A1 2) : A2 16 2 :=
  head (segsum (fun n => (bt (ix1 n)).toInt)
      (nodeOut x ei (edgeOut x ei ea ew1 eb1 ew2 eb2) nw1 nb1 nw2 nb2))
    ow1 ob1 ow2 ob2 ow3 ob3 ow4 ob4

end Cert.Spec

end
-- ==== Proof.KI.K0Val.lean ====
/-
  What the edge stage's kernel call leaves in its result array: the two layers (relu between them) applied to the
  array of edge rows, as one function of the arrays the call finds.

  First the body's stored value on one block of 16000 rows: each matrix product into a zero accumulator is the sum over
  the shared axis of the products of a row entry and a column entry (the narrowing of the operands is the identity on
  the extended reals), the bias row is the bias entry of the column, and the maximum with the zero word is relu. Then
  the blocks: the grid point t reads rows 16000·t … 16000·t + 15999 of the edge rows and the weight arrays whole, and
  writes rows 16000·t … 16000·t + 15999 of the result; a row of the two layers depends only on the same row of the
  input, so the block of the result is the result of the block; the 100 blocks cover the 1600000 rows.
-/
import proofs.«402084_j84928683311960_2_alg».proof.Proof.KI.R0Defs
import proofs.«402084_j84928683311960_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-! ## The two matrix products at an entry -/

/-- The first product's left operand index at output (r, n), contraction index q: row r … -/
theorem lhs_edge1_0 (i : S16000x64.Idx) (q : dot_S16000x5_S5x64_S16000x64_1_0_0_1_n_n.contr.Idx) :
    (dot_S16000x5_S5x64_S16000x64_1_0_0_1_n_n.lhsIdx i q 0).val = (i 0).val := by
  unfold DotDims.lhsIdx
  rw [dif_neg (show ¬(0 : Fin S16000x5.rank) ∈ dot_S16000x5_S5x64_S16000x64_1_0_0_1_n_n.lhsBatch by decide), dif_pos (show (0 : Fin S16000x5.rank) ∈ dot_S16000x5_S5x64_S16000x64_1_0_0_1_n_n.lhsNonContracting by decide)]
  rfl
/-- … column q; -/
theorem lhs_edge1_1 (i : S16000x64.Idx) (q : dot_S16000x5_S5x64_S16000x64_1_0_0_1_n_n.contr.Idx) :
    (dot_S16000x5_S5x64_S16000x64_1_0_0_1_n_n.lhsIdx i q 1).val = (q ⟨0, by decide⟩).val :=
  dot_S16000x5_S5x64_S16000x64_1_0_0_1_n_n.lhsIdx_val_of_single rfl i q
/-- the right operand's: row q … -/
theorem rhs_edge1_0 (i : S16000x64.Idx) (q : dot_S16000x5_S5x64_S16000x64_1_0_0_1_n_n.contr.Idx) :
    (dot_S16000x5_S5x64_S16000x64_1_0_0_1_n_n.rhsIdx i q 0).val = (q ⟨0, by decide⟩).val :=
  dot_S16000x5_S5x64_S16000x64_1_0_0_1_n_n.rhsIdx_val_of_single rfl i q
/-- … column n. -/
theorem rhs_edge1_1 (i : S16000x64.Idx) (q : dot_S16000x5_S5x64_S16000x64_1_0_0_1_n_n.contr.Idx) :
    (dot_S16000x5_S5x64_S16000x64_1_0_0_1_n_n.rhsIdx i q 1).val = (i 1).val := by
  unfold DotDims.rhsIdx
  rw [dif_neg (show ¬(1 : Fin S5x64.rank) ∈ dot_S16000x5_S5x64_S16000x64_1_0_0_1_n_n.rhsBatch by decide), dif_pos (show (1 : Fin S5x64.rank) ∈ dot_S16000x5_S5x64_S16000x64_1_0_0_1_n_n.rhsNonContracting by decide)]
  rfl

/-- The same four for the second product. -/
theorem lhs_edge2_0 (i : S16000x64.Idx) (q : dot_S16000x64_S64x64_S16000x64_1_0_0_1_n_n.contr.Idx) :
    (dot_S16000x64_S64x64_S16000x64_1_0_0_1_n_n.lhsIdx i q 0).val = (i 0).val := by
  unfold DotDims.lhsIdx
  rw [dif_neg (show ¬(0 : Fin S16000x64.rank) ∈ dot_S16000x64_S64x64_S16000x64_1_0_0_1_n_n.lhsBatch by decide), dif_pos (show (0 : Fin S16000x64.rank) ∈ dot_S16000x64_S64x64_S16000x64_1_0_0_1_n_n.lhsNonContracting by decide)]
  rfl
theorem lhs_edge2_1 (i : S16000x64.Idx) (q : dot_S16000x64_S64x64_S16000x64_1_0_0_1_n_n.contr.Idx) :
    (dot_S16000x64_S64x64_S16000x64_1_0_0_1_n_n.lhsIdx i q 1).val = (q ⟨0, by decide⟩).val :=
  dot_S16000x64_S64x64_S16000x64_1_0_0_1_n_n.lhsIdx_val_of_single rfl i q
theorem rhs_edge2_0 (i : S16000x64.Idx) (q : dot_S16000x64_S64x64_S16000x64_1_0_0_1_n_n.contr.Idx) :
    (dot_S16000x64_S64x64_S16000x64_1_0_0_1_n_n.rhsIdx i q 0).val = (q ⟨0, by decide⟩).val :=
  dot_S16000x64_S64x64_S16000x64_1_0_0_1_n_n.rhsIdx_val_of_single rfl i q
theorem rhs_edge2_1 (i : S16000x64.Idx) (q : dot_S16000x64_S64x64_S16000x64_1_0_0_1_n_n.contr.Idx) :
    (dot_S16000x64_S64x64_S16000x64_1_0_0_1_n_n.rhsIdx i q 1).val = (i 1).val := by
  unfold DotDims.rhsIdx
  rw [dif_neg (show ¬(1 : Fin S64x64.rank) ∈ dot_S16000x64_S64x64_S16000x64_1_0_0_1_n_n.rhsBatch by decide), dif_pos (show (1 : Fin S64x64.rank) ∈ dot_S16000x64_S64x64_S16000x64_1_0_0_1_n_n.rhsNonContracting by decide)]
  rfl

/-- The first product into the zero accumulator, at entry (r, n): the sum over the 5 shared entries. -/
theorem edge_matmul1_apply {φ₁ φ₂ : FTy} (A : FVec Ideal S16000x5 φ₁) (B : FVec Ideal S5x64 φ₂) (r : Fin 16000) (n : Fin 64) :
    matmul dot_S16000x5_S5x64_S16000x64_1_0_0_1_n_n none A B (constant (F := Ideal) S16000x64 .f32 0x00000000#32) (ix2 r n)
      = ∑ k : Fin 5, A (ix2 r k) * B (ix2 k n) := by
  simp only [matmul]
  rw [Ideal.matmul_constant_zero_apply, ← Equiv.sum_comp (ValueIdx.contrEquiv1 dot_S16000x5_S5x64_S16000x64_1_0_0_1_n_n 5 rfl rfl).symm]
  refine Finset.sum_congr rfl fun k _ => ?_
  have hk := ValueIdx.contrEquiv1_symm_val dot_S16000x5_S5x64_S16000x64_1_0_0_1_n_n 5 rfl rfl k
  have el : dot_S16000x5_S5x64_S16000x64_1_0_0_1_n_n.lhsIdx (ix2 r n) ((ValueIdx.contrEquiv1 dot_S16000x5_S5x64_S16000x64_1_0_0_1_n_n 5 rfl rfl).symm k) = ix2 r k := funext fun a => Fin.ext (by
    match a with
    | ⟨0, _⟩ => exact lhs_edge1_0 _ _
    | ⟨1, _⟩ => exact (lhs_edge1_1 _ _).trans hk)
  have er : dot_S16000x5_S5x64_S16000x64_1_0_0_1_n_n.rhsIdx (ix2 r n) ((ValueIdx.contrEquiv1 dot_S16000x5_S5x64_S16000x64_1_0_0_1_n_n 5 rfl rfl).symm k) = ix2 k n := funext fun a => Fin.ext (by
    match a with
    | ⟨0, _⟩ => exact (rhs_edge1_0 _ _).trans hk
    | ⟨1, _⟩ => exact rhs_edge1_1 _ _)
  rw [el, er]

/-- The second product into the zero accumulator, at entry (r, n): the sum over the 64 shared entries. -/
theorem edge_matmul2_apply {φ₁ φ₂ : FTy} (A : FVec Ideal S16000x64 φ₁) (B : FVec Ideal S64x64 φ₂) (r : Fin 16000) (n : Fin 64) :
    matmul dot_S16000x64_S64x64_S16000x64_1_0_0_1_n_n none A B (constant (F := Ideal) S16000x64 .f32 0x00000000#32) (ix2 r n)
      = ∑ k : Fin 64, A (ix2 r k) * B (ix2 k n) := by
  simp only [matmul]
  rw [Ideal.matmul_constant_zero_apply, ← Equiv.sum_comp (ValueIdx.contrEquiv1 dot_S16000x64_S64x64_S16000x64_1_0_0_1_n_n 64 rfl rfl).symm]
  refine Finset.sum_congr rfl fun k _ => ?_
  have hk := ValueIdx.contrEquiv1_symm_val dot_S16000x64_S64x64_S16000x64_1_0_0_1_n_n 64 rfl rfl k
  have el : dot_S16000x64_S64x64_S16000x64_1_0_0_1_n_n.lhsIdx (ix2 r n) ((ValueIdx.contrEquiv1 dot_S16000x64_S64x64_S16000x64_1_0_0_1_n_n 64 rfl rfl).symm k) = ix2 r k := funext fun a => Fin.ext (by
    match a with
    | ⟨0, _⟩ => exact lhs_edge2_0 _ _
    | ⟨1, _⟩ => exact (lhs_edge2_1 _ _).trans hk)
  have er : dot_S16000x64_S64x64_S16000x64_1_0_0_1_n_n.rhsIdx (ix2 r n) ((ValueIdx.contrEquiv1 dot_S16000x64_S64x64_S16000x64_1_0_0_1_n_n 64 rfl rfl).symm k) = ix2 k n := funext fun a => Fin.ext (by
    match a with
    | ⟨0, _⟩ => exact (rhs_edge2_0 _ _).trans hk
    | ⟨1, _⟩ => exact rhs_edge2_1 _ _)
  rw [el, er]

/-- The bias row: a 64-vector viewed [1, 64] and repeated over the 16000 rows reads, at (r, n), the vector at n. -/
theorem edge_bias_apply (b : FVec Ideal S64 .f32) (r : Fin 16000) (n : Fin 64) :
    broadcastTo S16000x64 (shapeCast S1x64 b shapeCasts_S64_S1x64) broadcasts_S1x64_S16000x64 (ix2 r n) = b (ix1 n) :=
  (broadcastTo_1b_ab_apply _ broadcasts_S1x64_S16000x64 r n).trans (shapeCast_a_1a_apply b shapeCasts_S64_S1x64 0 n)

/-! ## The body's stored value is the two layers of its row block -/

/-- One layer as the body computes it (product into zero, plus the bias row) is the layer of the specification:
    the first, 5 → 64 … -/
theorem edge_layer1 (X : FVec Ideal S16000x5 .f32) (W : FVec Ideal S5x64 .f32) (b : FVec Ideal S64 .f32) :
    (addf (matmul dot_S16000x5_S5x64_S16000x64_1_0_0_1_n_n none (truncf .bf16 X bitsLt_bf16_f32) (truncf .bf16 W bitsLt_bf16_f32)
        (constant (F := Ideal) S16000x64 .f32 0x00000000#32))
      (broadcastTo S16000x64 (shapeCast S1x64 b shapeCasts_S64_S1x64) broadcasts_S1x64_S16000x64) : S16000x64.Idx → EReal)
      = Cert.Spec.lin (R := 16000) (K := 5) (N := 64) X W b := by
  funext j
  obtain ⟨r, n, rfl⟩ : ∃ (r : Fin 16000) (n : Fin 64), j = ix2 r n := ⟨j 0, j 1, eq_ix2 j⟩
  refine (addf_apply _ _ _).trans ?_
  refine (congrArg₂ (· + ·) (edge_matmul1_apply _ _ r n) (edge_bias_apply b r n)).trans ?_
  rfl

/-- … and the second, 64 → 64. -/
theorem edge_layer2 (X : FVec Ideal S16000x64 .f32) (W : FVec Ideal S64x64 .f32) (b : FVec Ideal S64 .f32) :
    (addf (matmul dot_S16000x64_S64x64_S16000x64_1_0_0_1_n_n none (truncf .bf16 X bitsLt_bf16_f32) (truncf .bf16 W bitsLt_bf16_f32)
        (constant (F := Ideal) S16000x64 .f32 0x00000000#32))
      (broadcastTo S16000x64 (shapeCast S1x64 b shapeCasts_S64_S1x64) broadcasts_S1x64_S16000x64) : S16000x64.Idx → EReal)
      = Cert.Spec.lin (R := 16000) (K := 64) (N := 64) X W b := by
  funext j
  obtain ⟨r, n, rfl⟩ : ∃ (r : Fin 16000) (n : Fin 64), j = ix2 r n := ⟨j 0, j 1, eq_ix2 j⟩
  refine (addf_apply _ _ _).trans ?_
  refine (congrArg₂ (· + ·) (edge_matmul2_apply _ _ r n) (edge_bias_apply b r n)).trans ?_
  rfl

/-- The maximum with the splat of the zero word is relu. -/
theorem edge_relu (X : FVec Ideal S16000x64 .f32) :
    (maximumf X (broadcast S16000x64 (Scalar.ofBits (F := Ideal) .f32 0x00000000#32)) : S16000x64.Idx → EReal)
      = Cert.Spec.relu (R := 16000) (C := 64) X := by
  funext j
  refine (maximumf_apply _ _ _).trans ?_
  show max (X j) (Ideal.ofBits .f32 0x00000000#32) = max (X j) 0
  rw [Ideal.ofBits_zero_f32]

/-- THE BODY'S STORED VALUE on a block of 16000 rows is the two layers of the block. -/
theorem edge_payload (x0 : Vec Ideal S16000x5 .f32) (x1 : Vec Ideal S5x64 .f32) (x2 : Vec Ideal S64 .f32)
    (x3 : Vec Ideal S64x64 .f32) (x4 : Vec Ideal S64 .f32) :
    (k0_pay1 x0 x1 x2 x3 x4 : S16000x64.Idx → EReal)
      = Cert.Spec.mlp2 (R := 16000) (K := 5) (H := 64) (N := 64) x0 x1 x2 x3 x4 := by
  unfold k0_pay1
  refine (edge_layer2 _ x3 x4).trans ?_
  refine congrArg (fun Y : Cert.Spec.A2 16000 64 => Cert.Spec.lin Y x3 x4) ?_
  refine (edge_relu _).trans ?_
  refine congrArg (fun Y : Cert.Spec.A2 16000 64 => Cert.Spec.relu Y) ?_
  refine (edge_layer1 _ x1 x2).trans ?_
  refine congrArg (fun Y : Cert.Spec.A2 16000 5 => Cert.Spec.lin Y x1 x2) ?_
  exact shapeCast_self x0 shapeCasts_S16000x5_S16000x5

/-! ## Rows: a row of the two layers depends only on the same row of the input -/

/-- If row r of X is row r' of X', then row r of the two layers of X is row r' of the two layers of X'. -/
theorem mlp2_row_congr {R R' K H N : Nat} (X : Cert.Spec.A2 R K) (X' : Cert.Spec.A2 R' K) (W1 : Cert.Spec.A2 K H)
    (b1 : Cert.Spec.A1 H) (W2 : Cert.Spec.A2 H N) (b2 : Cert.Spec.A1 N) (r : Fin R) (r' : Fin R') (n : Fin N)
    (hX : ∀ k : Fin K, X (ix2 r k) = X' (ix2 r' k)) :
    Cert.Spec.mlp2 X W1 b1 W2 b2 (ix2 r n) = Cert.Spec.mlp2 X' W1 b1 W2 b2 (ix2 r' n) := by
  show (∑ k : Fin H, max ((∑ j : Fin K, X (ix2 r j) * W1 (ix2 j k)) + b1 (ix1 k)) 0 * W2 (ix2 k n)) + b2 (ix1 n)
     = (∑ k : Fin H, max ((∑ j : Fin K, X' (ix2 r' j) * W1 (ix2 j k)) + b1 (ix1 k)) 0 * W2 (ix2 k n)) + b2 (ix1 n)
  simp only [hX]

/-- The block of the result is the result of the block: if B is the rows T·16000 … of A, then the two layers of B at
    (r, n) are the two layers of A at (T·16000 + r, n). -/
theorem edge_block_read (A : S1600000x5.Idx → EReal) (W1 : S5x64.Idx → EReal) (b1 : S64.Idx → EReal)
    (W2 : S64x64.Idx → EReal) (b2 : S64.Idx → EReal) (B : S16000x5.Idx → EReal) (T : Nat)
    (hB : ∀ (y : S16000x5.Idx) (z : S1600000x5.Idx), (z 0).val = T * 16000 + (y 0).val → (z 1).val = (y 1).val → B y = A z)
    (j : S16000x64.Idx) (i : S1600000x64.Idx) (hi0 : (i 0).val = T * 16000 + (j 0).val) (hi1 : (i 1).val = (j 1).val) :
    Cert.Spec.mlp2 (R := 16000) (K := 5) (H := 64) (N := 64) B W1 b1 W2 b2 j
      = Cert.Spec.mlp2 (R := 1600000) (K := 5) (H := 64) (N := 64) A W1 b1 W2 b2 i := by
  obtain ⟨r, n, rfl⟩ : ∃ (r : Fin 16000) (n : Fin 64), j = ix2 r n := ⟨j 0, j 1, eq_ix2 j⟩
  obtain ⟨r', n', rfl⟩ : ∃ (r' : Fin 1600000) (n' : Fin 64), i = ix2 r' n' := ⟨i 0, i 1, eq_ix2 i⟩
  obtain rfl : n' = n := Fin.ext hi1
  exact mlp2_row_congr B A W1 b1 W2 b2 r r' n' fun k => hB (ix2 r k) (ix2 r' k) hi0 rfl

/-! ## From the blocks to the array -/

theorem zeros2 : (![0, 0] : Fin 2 → Nat) = fun _ => 0 := funext fun a => by fin_cases a <;> rfl
theorem zeros1 : (![0] : Fin 1 → Nat) = fun _ => 0 := funext fun a => by fin_cases a; rfl

/-- What the body leaves in the result's buffer is the two layers of the blocks it read. -/
theorem out0_5_eq (x0 : Vec Ideal S16000x5 .f32) (x1 : Vec Ideal S5x64 .f32) (x2 : Vec Ideal S64 .f32)
    (x3 : Vec Ideal S64x64 .f32) (x4 : Vec Ideal S64 .f32) :
    (out0_5 x0 x1 x2 x3 x4 : S16000x64.Idx → EReal)
      = Cert.Spec.mlp2 (R := 16000) (K := 5) (H := 64) (N := 64) x0 x1 x2 x3 x4 := by
  unfold out0_5
  rw [View.canon_unit_zero zeros2]
  rw [View.ld_unit_zero (S := S16000x5) zeros2, View.ld_unit_zero (S := S5x64) zeros2, View.ld_unit_zero (S := S64x64) zeros2]
  simp only [View.ld_unit_zero (S := S64) zeros1]
  exact edge_payload x0 x1 x2 x3 x4

/-- The printed index maps, decided over the 100 grid points: the row blocks move with the point, the weights stay. -/
theorem edge_index_facts : ∀ t : Fin cfg0.N,
    win0_0.index t (0 : Fin 2) = t.val ∧ win0_0.index t (1 : Fin 2) = 0
    ∧ win0_5.index t (0 : Fin 2) = t.val ∧ win0_5.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0 :=
  (by decide +kernel : ∀ t : Fin grid0.N, _)

variable (V : (c : Dev nD) → (b : Ref sig .tc) → Buf (Elt Ideal) ((c : Thread nD τ).loc b))

/-- The weight windows' blocks are the weight arrays whole. -/
theorem iblk0_1_eq (c : Dev nD) (t : Fin cfg0.N) :
    (iblk0 V c 1 t : S5x64.Idx → EReal) = (V c main_arg4 : S5x64.Idx → EReal) := by
  obtain ⟨-, -, -, -, e0, e1, -⟩ := edge_index_facts t
  funext y
  show (V c main_arg4 : S5x64.Idx → EReal) (((cfg0.win 1).blk t).view.emb y) = _
  refine congrArg _ (funext fun a => Fin.ext ?_)
  match a with
  | ⟨0, _⟩ => show win0_1.index t (0 : Fin 2) * 5 + 1 * (y 0).val = (y 0).val; omega
  | ⟨1, _⟩ => show win0_1.index t (1 : Fin 2) * 64 + 1 * (y 1).val = (y 1).val; omega

theorem iblk0_2_eq (c : Dev nD) (t : Fin cfg0.N) :
    (iblk0 V c 2 t : S64.Idx → EReal) = (V c main_arg5 : S64.Idx → EReal) := by
  obtain ⟨-, -, -, -, -, -, e0, -⟩ := edge_index_facts t
  funext y
  show (V c main_arg5 : S64.Idx → EReal) (((cfg0.win 2).blk t).view.emb y) = _
  refine congrArg _ (funext fun a => Fin.ext ?_)
  match a with
  | ⟨0, _⟩ => show win0_2.index t (0 : Fin 1) * 64 + 1 * (y 0).val = (y 0).val; omega

theorem iblk0_3_eq (c : Dev nD) (t : Fin cfg0.N) :
    (iblk0 V c 3 t : S64x64.Idx → EReal) = (V c main_arg6 : S64x64.Idx → EReal) := by
  obtain ⟨-, -, -, -, -, -, -, e0, e1, -⟩ := edge_index_facts t
  funext y
  show (V c main_arg6 : S64x64.Idx → EReal) (((cfg0.win 3).blk t).view.emb y) = _
  refine congrArg _ (funext fun a => Fin.ext ?_)
  match a with
  | ⟨0, _⟩ => show win0_3.index t (0 : Fin 2) * 64 + 1 * (y 0).val = (y 0).val; omega
  | ⟨1, _⟩ => show win0_3.index t (1 : Fin 2) * 64 + 1 * (y 1).val = (y 1).val; omega

theorem iblk0_4_eq (c : Dev nD) (t : Fin cfg0.N) :
    (iblk0 V c 4 t : S64.Idx → EReal) = (V c main_arg7 : S64.Idx → EReal) := by
  obtain ⟨-, -, -, -, -, -, -, -, -, e0⟩ := edge_index_facts t
  funext y
  show (V c main_arg7 : S64.Idx → EReal) (((cfg0.win 4).blk t).view.emb y) = _
  refine congrArg _ (funext fun a => Fin.ext ?_)
  match a with
  | ⟨0, _⟩ => show win0_4.index t (0 : Fin 1) * 64 + 1 * (y 0).val = (y 0).val; omega

/-- The row window's block at point t is rows 16000·t … of the edge rows. -/
theorem iblk0_0_apply (c : Dev nD) (t : Fin cfg0.N) (y : S16000x5.Idx) (z : S1600000x5.Idx)
    (h0 : (z 0).val = t.val * 16000 + (y 0).val) (h1 : (z 1).val = (y 1).val) :
    (iblk0 V c 0 t : S16000x5.Idx → EReal) y = (V c main_v6 : S1600000x5.Idx → EReal) z := by
  obtain ⟨e0, e1, -⟩ := edge_index_facts t
  show (V c main_v6 : S1600000x5.Idx → EReal) (((cfg0.win 0).blk t).view.emb y) = _
  refine congrArg _ (funext fun a => Fin.ext ?_)
  match a with
  | ⟨0, _⟩ => show win0_0.index t (0 : Fin 2) * 16000 + 1 * (y 0).val = (z 0).val; omega
  | ⟨1, _⟩ => show win0_0.index t (1 : Fin 2) * 5 + 1 * (y 1).val = (z 1).val; omega

/-- The whole result as one function of the arrays the call finds. -/
abbrev edgeG (c : Dev nD) : S1600000x64.Idx → EReal :=
  Cert.Spec.mlp2 (R := 1600000) (K := 5) (H := 64) (N := 64) (V c main_v6) (V c main_arg4) (V c main_arg5) (V c main_arg6) (V c main_arg7)

/-- WHAT POINT t WRITES BACK is block t of the two layers of the whole array of edge rows. -/
theorem flushed0_5_eq (c : Dev nD) (t : Fin cfg0.N) :
    (dat0 (F := Ideal) V c).flushed 5 t = ((cfg0.win 5).blk t).view.read (Elt Ideal) (edgeG V c) := by
  show (cfg0.win 5).cut (grid0.coords t) ((dat0 (F := Ideal) V c).after 5 t) = _
  rw [after0_5]
  refine (congrArg ((cfg0.win 5).cut (grid0.coords t)) (out0_5_eq _ _ _ _ _)).trans ?_
  rw [iblk0_1_eq V c t, iblk0_2_eq V c t, iblk0_3_eq V c t, iblk0_4_eq V c t]
  obtain ⟨-, -, e0, e1, -⟩ := edge_index_facts t
  funext j
  show Cert.Spec.mlp2 (R := 16000) (K := 5) (H := 64) (N := 64) (iblk0 V c 0 t) (V c main_arg4) (V c main_arg5) (V c main_arg6) (V c main_arg7) j
    = edgeG V c (((cfg0.win 5).blk t).view.emb j)
  refine edge_block_read (V c main_v6) (V c main_arg4) (V c main_arg5) (V c main_arg6) (V c main_arg7) (iblk0 V c 0 t) t.val
    (fun y z h0 h1 => iblk0_0_apply V c t y z h0 h1) j _ ?_ ?_
  · show win0_5.index t (0 : Fin 2) * 16000 + 1 * (j 0).val = t.val * 16000 + (j 0).val; omega
  · show win0_5.index t (1 : Fin 2) * 64 + 1 * (j 1).val = (j 1).val; omega

/-- An index of the result array is in point t's block iff each coordinate is in the block's range on its axis. -/
theorem mem_blk0_5 (t : Fin cfg0.N) (i : S1600000x64.Idx) :
    i ∈ ((cfg0.win 5).blk t).view.set ↔ ∀ a : Fin 2, win0_5.index t a * S16000x64.size a ≤ (i a).val ∧ (i a).val < win0_5.index t a * S16000x64.size a + S16000x64.size a := by
  show i ∈ ((View.whole main_v7).slice (win0_5.rect t)).set ↔ _
  rw [View.set_slice_whole, Rect.mem_set_unit]
  exact Iff.rfl

/-- Every row is in some point's block: row r is in block r / 16000. -/
theorem edge_rows_covered (i : S1600000x64.Idx) :
    ∃ t : Fin cfg0.N, (cfg0.win 5).flush t = true ∧ i ∈ ((cfg0.win 5).blk t).view.set := by
  have hi0 : (i 0).val < 1600000 := (i 0).isLt
  have hi1 : (i 1).val < 64 := (i 1).isLt
  have hN : cfg0.N = 100 := by decide +kernel
  let t : Fin cfg0.N := ⟨(i 0).val / 16000, by rw [hN]; omega⟩
  obtain ⟨-, -, e0, e1, -⟩ := edge_index_facts t
  have ht : t.val = (i 0).val / 16000 := rfl
  refine ⟨t, flush0_5 t, ?_⟩
  rw [mem_blk0_5]
  intro a
  match a with
  | ⟨0, _⟩ => show win0_5.index t (0 : Fin 2) * 16000 ≤ (i 0).val ∧ (i 0).val < win0_5.index t (0 : Fin 2) * 16000 + 16000; omega
  | ⟨1, _⟩ => show win0_5.index t (1 : Fin 2) * 64 ≤ (i 1).val ∧ (i 1).val < win0_5.index t (1 : Fin 2) * 64 + 64; omega

/-- THE RESULT ARRAY after the call: the two layers, relu between them, of the array of edge rows. -/
theorem region0_value (c : Dev nD) :
    ((dat0 (F := Ideal) V c).arrAt 5 cfg0.N : S1600000x64.Idx → EReal)
      = Cert.Spec.mlp2 (V c main_v6) (V c main_arg4) (V c main_arg5) (V c main_arg6) (V c main_arg7) :=
  (dat0 (F := Ideal) V c).arrAt_eq_of_cover 5 (edgeG V c) (fun t _ => flushed0_5_eq V c t) edge_rows_covered

end Cert.KernelIdeal.Hand

end
-- ==== Proof.KI.R1Pieces.lean ====
/-
  The node stage's pallas_call: the contents each control case leaves, read back as values.

  The scratch after a point is the block's pooled node rows added to what it held (to the zero block at the first
  point); the result window after the last point is the four closing layers applied to the scratch. Each is the
  payload of the covering store the case's run found, its loads reading whole buffers.
-/
import proofs.«402084_j84928683311960_2_alg».proof.Proof.KI.R1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The zero offsets of a rank-2 and of a rank-1 rectangle, as functions. -/
theorem hz2 : (![0, 0] : Fin 2 → Nat) = fun _ => 0 := funext fun a => by fin_cases a <;> rfl
theorem hz1 : (![0] : Fin 1 → Nat) = fun _ => 0 := funext fun a => by fin_cases a <;> rfl

/-- At the first point the scratch ends at: the pooled rows of the block added to the zero block. The later of the
    two stores covers the scratch; the value it adds to is the zero block read back. -/
theorem sout1_A_eq (c : Dev nD) (i : grid1.Coords) (arg1 : Memref sig .tc .vmem S10000x65 .f32) (harg1 : arg1.IsWhole) (arg2 : Memref sig .tc .vmem S10000x16 .f32) (harg2 : arg2.IsWhole) (arg3 : Memref sig .tc .vmem S65x64 .f32) (harg3 : arg3.IsWhole) (arg4 : Memref sig .tc .vmem S64 .f32) (harg4 : arg4.IsWhole) (arg5 : Memref sig .tc .vmem S64x64 .f32) (harg5 : arg5.IsWhole) (arg6 : Memref sig .tc .vmem S64 .f32) (harg6 : arg6.IsWhole) (arg7 : Memref sig .tc .vmem S64x64 .f32) (harg7 : arg7.IsWhole) (arg8 : Memref sig .tc .vmem S64 .f32) (harg8 : arg8.IsWhole) (arg9 : Memref sig .tc .vmem S64x64 .f32) (harg9 : arg9.IsWhole) (arg10 : Memref sig .tc .vmem S64 .f32) (harg10 : arg10.IsWhole) (arg11 : Memref sig .tc .vmem S64x64 .f32) (harg11 : arg11.IsWhole) (arg12 : Memref sig .tc .vmem S64 .f32) (harg12 : arg12.IsWhole) (arg13 : Memref sig .tc .vmem S64x2 .f32) (harg13 : arg13.IsWhole) (arg14 : Memref sig .tc .vmem S2 .f32) (harg14 : arg14.IsWhole) (arg15 : Memref sig .tc .vmem S16x2 .f32) (harg15 : arg15.IsWhole) (arg16 : Memref sig .tc .vmem S16x64 .f32) (harg16 : arg16.IsWhole) (hc0 : cond1_0 i) (hc1 : ¬cond1_1 i)
    (x0 : Vec F S10000x65 .f32) (x1 : Vec F S10000x16 .f32) (x2 : Vec F S65x64 .f32) (x3 : Vec F S64 .f32) (x4 : Vec F S64x64 .f32) (x5 : Vec F S64 .f32) (x6 : Vec F S64x64 .f32) (x7 : Vec F S64 .f32) (x8 : Vec F S64x64 .f32) (x9 : Vec F S64 .f32) (x10 : Vec F S64x64 .f32) (x11 : Vec F S64 .f32) (x12 : Vec F S64x2 .f32) (x13 : Vec F S2 .f32) :
    sout1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 x13 = k1_pay3 x0 x2 x3 x4 x5 x1 (k1_pay2 (F := F)) := by
  unfold sout1_A
  rw [View.read_writes_eq_canon _ _ _ (scover1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 x13)]
  unfold kernelRun1_A
  dsimp only
  sl_unfold_words
  rw [View.canon_cons_unit_zero (S := S16x64) hz2]
  simp only [View.readCov_unit_zero (S := S16x64) _ hz2, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S10000x65) hz2, View.ld_unit_zero (S := S10000x16) hz2, View.ld_unit_zero (S := S65x64) hz2, View.ld_unit_zero (S := S64) hz1, View.ld_unit_zero (S := S64x64) hz2, View.ld_unit_zero (S := S64x2) hz2, View.ld_unit_zero (S := S2) hz1, View.ld_unit_zero (S := S16x2) hz2, View.ld_unit_zero (S := S16x64) hz2]

/-- At a middle point: the pooled rows of the block added to what the scratch held. -/
theorem sout1_B_eq (c : Dev nD) (i : grid1.Coords) (arg1 : Memref sig .tc .vmem S10000x65 .f32) (harg1 : arg1.IsWhole) (arg2 : Memref sig .tc .vmem S10000x16 .f32) (harg2 : arg2.IsWhole) (arg3 : Memref sig .tc .vmem S65x64 .f32) (harg3 : arg3.IsWhole) (arg4 : Memref sig .tc .vmem S64 .f32) (harg4 : arg4.IsWhole) (arg5 : Memref sig .tc .vmem S64x64 .f32) (harg5 : arg5.IsWhole) (arg6 : Memref sig .tc .vmem S64 .f32) (harg6 : arg6.IsWhole) (arg7 : Memref sig .tc .vmem S64x64 .f32) (harg7 : arg7.IsWhole) (arg8 : Memref sig .tc .vmem S64 .f32) (harg8 : arg8.IsWhole) (arg9 : Memref sig .tc .vmem S64x64 .f32) (harg9 : arg9.IsWhole) (arg10 : Memref sig .tc .vmem S64 .f32) (harg10 : arg10.IsWhole) (arg11 : Memref sig .tc .vmem S64x64 .f32) (harg11 : arg11.IsWhole) (arg12 : Memref sig .tc .vmem S64 .f32) (harg12 : arg12.IsWhole) (arg13 : Memref sig .tc .vmem S64x2 .f32) (harg13 : arg13.IsWhole) (arg14 : Memref sig .tc .vmem S2 .f32) (harg14 : arg14.IsWhole) (arg15 : Memref sig .tc .vmem S16x2 .f32) (harg15 : arg15.IsWhole) (arg16 : Memref sig .tc .vmem S16x64 .f32) (harg16 : arg16.IsWhole) (hc0 : ¬cond1_0 i) (hc1 : ¬cond1_1 i)
    (x0 : Vec F S10000x65 .f32) (x1 : Vec F S10000x16 .f32) (x2 : Vec F S65x64 .f32) (x3 : Vec F S64 .f32) (x4 : Vec F S64x64 .f32) (x5 : Vec F S64 .f32) (x6 : Vec F S64x64 .f32) (x7 : Vec F S64 .f32) (x8 : Vec F S64x64 .f32) (x9 : Vec F S64 .f32) (x10 : Vec F S64x64 .f32) (x11 : Vec F S64 .f32) (x12 : Vec F S64x2 .f32) (x13 : Vec F S2 .f32) (xs0 : Vec F S16x64 .f32) :
    sout1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 x13 xs0 = k1_pay3 x0 x2 x3 x4 x5 x1 xs0 := by
  unfold sout1_B
  rw [View.read_writes_eq_canon _ _ _ (scover1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 x13 xs0)]
  unfold kernelRun1_B
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S10000x65) hz2, View.ld_unit_zero (S := S10000x16) hz2, View.ld_unit_zero (S := S65x64) hz2, View.ld_unit_zero (S := S64) hz1, View.ld_unit_zero (S := S64x64) hz2, View.ld_unit_zero (S := S64x2) hz2, View.ld_unit_zero (S := S2) hz1, View.ld_unit_zero (S := S16x2) hz2, View.ld_unit_zero (S := S16x64) hz2]

/-- At the last point the scratch likewise, -/
theorem sout1_C_eq (c : Dev nD) (i : grid1.Coords) (arg1 : Memref sig .tc .vmem S10000x65 .f32) (harg1 : arg1.IsWhole) (arg2 : Memref sig .tc .vmem S10000x16 .f32) (harg2 : arg2.IsWhole) (arg3 : Memref sig .tc .vmem S65x64 .f32) (harg3 : arg3.IsWhole) (arg4 : Memref sig .tc .vmem S64 .f32) (harg4 : arg4.IsWhole) (arg5 : Memref sig .tc .vmem S64x64 .f32) (harg5 : arg5.IsWhole) (arg6 : Memref sig .tc .vmem S64 .f32) (harg6 : arg6.IsWhole) (arg7 : Memref sig .tc .vmem S64x64 .f32) (harg7 : arg7.IsWhole) (arg8 : Memref sig .tc .vmem S64 .f32) (harg8 : arg8.IsWhole) (arg9 : Memref sig .tc .vmem S64x64 .f32) (harg9 : arg9.IsWhole) (arg10 : Memref sig .tc .vmem S64 .f32) (harg10 : arg10.IsWhole) (arg11 : Memref sig .tc .vmem S64x64 .f32) (harg11 : arg11.IsWhole) (arg12 : Memref sig .tc .vmem S64 .f32) (harg12 : arg12.IsWhole) (arg13 : Memref sig .tc .vmem S64x2 .f32) (harg13 : arg13.IsWhole) (arg14 : Memref sig .tc .vmem S2 .f32) (harg14 : arg14.IsWhole) (arg15 : Memref sig .tc .vmem S16x2 .f32) (harg15 : arg15.IsWhole) (arg16 : Memref sig .tc .vmem S16x64 .f32) (harg16 : arg16.IsWhole) (hc0 : ¬cond1_0 i) (hc1 : cond1_1 i)
    (x0 : Vec F S10000x65 .f32) (x1 : Vec F S10000x16 .f32) (x2 : Vec F S65x64 .f32) (x3 : Vec F S64 .f32) (x4 : Vec F S64x64 .f32) (x5 : Vec F S64 .f32) (x6 : Vec F S64x64 .f32) (x7 : Vec F S64 .f32) (x8 : Vec F S64x64 .f32) (x9 : Vec F S64 .f32) (x10 : Vec F S64x64 .f32) (x11 : Vec F S64 .f32) (x12 : Vec F S64x2 .f32) (x13 : Vec F S2 .f32) (xs0 : Vec F S16x64 .f32) :
    sout1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 x13 xs0 = k1_pay3 x0 x2 x3 x4 x5 x1 xs0 := by
  unfold sout1_C
  rw [View.read_writes_eq_canon _ _ _ (scover1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 x13 xs0)]
  unfold kernelRun1_C
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S10000x65) hz2, View.ld_unit_zero (S := S10000x16) hz2, View.ld_unit_zero (S := S65x64) hz2, View.ld_unit_zero (S := S64) hz1, View.ld_unit_zero (S := S64x64) hz2, View.ld_unit_zero (S := S64x2) hz2, View.ld_unit_zero (S := S2) hz1, View.ld_unit_zero (S := S16x2) hz2, View.ld_unit_zero (S := S16x64) hz2]

/-- and the result window holds the four closing layers applied to the scratch as the store before left it. -/
theorem out1_C_14_eq (c : Dev nD) (i : grid1.Coords) (arg1 : Memref sig .tc .vmem S10000x65 .f32) (harg1 : arg1.IsWhole) (arg2 : Memref sig .tc .vmem S10000x16 .f32) (harg2 : arg2.IsWhole) (arg3 : Memref sig .tc .vmem S65x64 .f32) (harg3 : arg3.IsWhole) (arg4 : Memref sig .tc .vmem S64 .f32) (harg4 : arg4.IsWhole) (arg5 : Memref sig .tc .vmem S64x64 .f32) (harg5 : arg5.IsWhole) (arg6 : Memref sig .tc .vmem S64 .f32) (harg6 : arg6.IsWhole) (arg7 : Memref sig .tc .vmem S64x64 .f32) (harg7 : arg7.IsWhole) (arg8 : Memref sig .tc .vmem S64 .f32) (harg8 : arg8.IsWhole) (arg9 : Memref sig .tc .vmem S64x64 .f32) (harg9 : arg9.IsWhole) (arg10 : Memref sig .tc .vmem S64 .f32) (harg10 : arg10.IsWhole) (arg11 : Memref sig .tc .vmem S64x64 .f32) (harg11 : arg11.IsWhole) (arg12 : Memref sig .tc .vmem S64 .f32) (harg12 : arg12.IsWhole) (arg13 : Memref sig .tc .vmem S64x2 .f32) (harg13 : arg13.IsWhole) (arg14 : Memref sig .tc .vmem S2 .f32) (harg14 : arg14.IsWhole) (arg15 : Memref sig .tc .vmem S16x2 .f32) (harg15 : arg15.IsWhole) (arg16 : Memref sig .tc .vmem S16x64 .f32) (harg16 : arg16.IsWhole) (hc0 : ¬cond1_0 i) (hc1 : cond1_1 i)
    (x0 : Vec F S10000x65 .f32) (x1 : Vec F S10000x16 .f32) (x2 : Vec F S65x64 .f32) (x3 : Vec F S64 .f32) (x4 : Vec F S64x64 .f32) (x5 : Vec F S64 .f32) (x6 : Vec F S64x64 .f32) (x7 : Vec F S64 .f32) (x8 : Vec F S64x64 .f32) (x9 : Vec F S64 .f32) (x10 : Vec F S64x64 .f32) (x11 : Vec F S64 .f32) (x12 : Vec F S64x2 .f32) (x13 : Vec F S2 .f32) (xs0 : Vec F S16x64 .f32) :
    out1_C_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 x13 xs0 = k1_pay1 (k1_pay3 x0 x2 x3 x4 x5 x1 xs0) x6 x7 x8 x9 x10 x11 x12 x13 := by
  unfold out1_C_14
  rw [View.read_writes_eq_canon _ _ _ (cover1_C_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 x13 xs0)]
  unfold kernelRun1_C
  dsimp only
  sl_unfold_words
  rw [View.canon_unit_zero hz2]
  simp only [View.readCov_unit_zero (S := S16x64) _ hz2, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S10000x65) hz2, View.ld_unit_zero (S := S10000x16) hz2, View.ld_unit_zero (S := S65x64) hz2, View.ld_unit_zero (S := S64) hz1, View.ld_unit_zero (S := S64x64) hz2, View.ld_unit_zero (S := S64x2) hz2, View.ld_unit_zero (S := S2) hz1, View.ld_unit_zero (S := S16x2) hz2, View.ld_unit_zero (S := S16x64) hz2]

/-! ## The same at the points of the grid -/

theorem scratch_first (c : Dev nD) (t : Fin cfg1.N) (h0 : t.val % 5 = 0) :
    (outsAt1 V c t.val t.isLt).2 = k1_pay3 (iblk1 V c 0 t) (iblk1 V c 2 t) (iblk1 V c 3 t) (iblk1 V c 4 t) (iblk1 V c 5 t) (iblk1 V c 1 t) (k1_pay2 (F := F)) := by
  have h1 : ¬t.val % 5 = 4 := by omega
  rw [outsAt1_A V c t h0 h1]; dsimp only
  exact sout1_A_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t)

theorem scratch_next (c : Dev nD) (t : Fin cfg1.N) (h0 : ¬t.val % 5 = 0) :
    (outsAt1 V c t.val t.isLt).2 = k1_pay3 (iblk1 V c 0 t) (iblk1 V c 2 t) (iblk1 V c 3 t) (iblk1 V c 4 t) (iblk1 V c 5 t) (iblk1 V c 1 t) (outsAt1 V c (t.val - 1) (Nat.lt_of_le_of_lt (Nat.sub_le _ _) t.isLt)).2 := by
  by_cases h1 : t.val % 5 = 4
  · rw [outsAt1_C V c t h0 h1]; dsimp only
    exact sout1_C_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (outsAt1 V c (t.val - 1) (Nat.lt_of_le_of_lt (Nat.sub_le _ _) t.isLt)).2
  · rw [outsAt1_B V c t h0 h1]; dsimp only
    exact sout1_B_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (outsAt1 V c (t.val - 1) (Nat.lt_of_le_of_lt (Nat.sub_le _ _) t.isLt)).2

theorem out_last (c : Dev nD) (t : Fin cfg1.N) (h4 : t.val % 5 = 4) :
    (outsAt1 V c t.val t.isLt).1 = k1_pay1 (outsAt1 V c t.val t.isLt).2 (iblk1 V c 6 t) (iblk1 V c 7 t) (iblk1 V c 8 t) (iblk1 V c 9 t) (iblk1 V c 10 t) (iblk1 V c 11 t) (iblk1 V c 12 t) (iblk1 V c 13 t) := by
  have h0 : ¬t.val % 5 = 0 := by omega
  rw [outsAt1_C V c t h0 h4]; dsimp only
  refine (out1_C_14_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM1 (Memref.isWhole_whole _) (fun h => h0 ((hcond1_0 t).mp h)) ((hcond1_1 t).mpr h4) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (outsAt1 V c (t.val - 1) (Nat.lt_of_le_of_lt (Nat.sub_le _ _) t.isLt)).2).trans ?_
  exact congrArg (fun s => k1_pay1 s (iblk1 V c 6 t) (iblk1 V c 7 t) (iblk1 V c 8 t) (iblk1 V c 9 t) (iblk1 V c 10 t) (iblk1 V c 11 t) (iblk1 V c 12 t) (iblk1 V c 13 t))
    (sout1_C_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM1 (Memref.isWhole_whole _) (fun h => h0 ((hcond1_0 t).mp h)) ((hcond1_1 t).mpr h4) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (outsAt1 V c (t.val - 1) (Nat.lt_of_le_of_lt (Nat.sub_le _ _) t.isLt)).2).symm

end Cert.KernelIdeal.Hand

end
-- ==== Proof.KI.K1Math.lean ====
/-
  The node-and-pool stage (the second kernel of the program) as mathematics, over the extended reals: what the
  pooling accumulator holds after a grid point, and the four closing layers.

  A layer of the kernel is a matrix product into a zero array plus a bias row spread over the rows; the change
  to a narrower float format before each product is the identity on extended reals, so a layer is x ↦ x·W + b.
  At a grid point the body adds to the accumulator the product (one-hot block)ᵀ · (two layers of the node
  block), a product that contracts the row axis of both factors. Summed over the five blocks of 10000 rows
  this is one sum over all 50000 rows, and a one-hot factor 1 or 0 in front of a row is the condition
  "the row's id is g" of the segment sum: 1 * x = x and 0 * x = 0 hold for every extended real x, and + is
  associative and commutative there, so no finiteness is needed.
-/
import proofs.«402084_j84928683311960_2_alg».proof.Proof.Gen.KernelIdeal.Skeleton
import proofs.«402084_j84928683311960_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.ShloMosaic.ValueIdx
open Cert.Spec (A1 A2 lin relu mlp2 segsum head)

/-! ## A rows-by-columns product read at an entry -/

section Plain
variable {M K N : Nat}

/-- The left factor is read at (row of the entry, position along the shared axis). -/
theorem plain_lhsIdx (i : (⟨2, ![M, N]⟩ : Shape).Idx) (k : Fin K) :
    (DotDims.plain M K N).lhsIdx i ((contrEquiv1 (DotDims.plain M K N) K rfl rfl).symm k) = ix2 (i 0) k :=
  funext fun a => Fin.ext (by
    match a with
    | ⟨0, _⟩ => rfl
    | ⟨1, _⟩ =>
      exact ((DotDims.plain M K N).lhsIdx_val_of_single rfl i _).trans
        (contrEquiv1_symm_val (DotDims.plain M K N) K rfl rfl k))

/-- The right factor is read at (position along the shared axis, column of the entry). -/
theorem plain_rhsIdx (i : (⟨2, ![M, N]⟩ : Shape).Idx) (k : Fin K) :
    (DotDims.plain M K N).rhsIdx i ((contrEquiv1 (DotDims.plain M K N) K rfl rfl).symm k) = ix2 k (i 1) :=
  funext fun a => Fin.ext (by
    match a with
    | ⟨0, _⟩ =>
      exact ((DotDims.plain M K N).rhsIdx_val_of_single rfl i _).trans
        (contrEquiv1_symm_val (DotDims.plain M K N) K rfl rfl k)
    | ⟨1, _⟩ => rfl)

/-- A product into the zero array, at an entry: the row against the column. -/
theorem plain_matmul_apply {φ₁ φ₂ : FTy} (x : FVec Ideal ⟨2, ![M, K]⟩ φ₁) (w : FVec Ideal ⟨2, ![K, N]⟩ φ₂)
    (i : (⟨2, ![M, N]⟩ : Shape).Idx) :
    matmul (DotDims.plain M K N) none x w (constant ⟨2, ![M, N]⟩ .f32 0x00000000#32) i
      = ∑ k : Fin K, x (ix2 (i 0) k) * w (ix2 k (i 1)) := by
  refine (Ideal.matmul_constant_zero_apply (DotDims.plain M K N) none x w i).trans ?_
  rw [← Equiv.sum_comp (contrEquiv1 (DotDims.plain M K N) K rfl rfl).symm]
  refine Finset.sum_congr rfl fun k _ => ?_
  rw [plain_lhsIdx, plain_rhsIdx]
  rfl

/-- A layer as the kernel writes it — both factors narrowed, the product into the zero array, the bias row spread
    over the rows and added — is x ↦ x·W + b. -/
theorem layer_eq_lin (D : DotDims ⟨2, ![M, K]⟩ ⟨2, ![K, N]⟩ ⟨2, ![M, N]⟩) (hD : D = DotDims.plain M K N)
    (x : Vec Ideal ⟨2, ![M, K]⟩ .f32) (w : Vec Ideal ⟨2, ![K, N]⟩ .f32) (b : Vec Ideal ⟨1, ![N]⟩ .f32)
    (h1 h2 : FTy.bits .bf16 < FTy.bits .f32)
    (hc : (⟨1, ![N]⟩ : Shape).ShapeCasts ⟨2, ![1, N]⟩) (hb : (⟨2, ![1, N]⟩ : Shape).Broadcasts ⟨2, ![M, N]⟩) :
    addf (F := Ideal) (matmul D none (truncf .bf16 x h1) (truncf .bf16 w h2) (constant ⟨2, ![M, N]⟩ .f32 0x00000000#32))
        (broadcastTo ⟨2, ![M, N]⟩ (shapeCast ⟨2, ![1, N]⟩ b hc) hb)
      = lin x w b := by
  subst hD
  funext i
  obtain ⟨r, n, rfl⟩ : ∃ (r : Fin M) (n : Fin N), i = ix2 r n := ⟨i 0, i 1, eq_ix2 i⟩
  rw [addf_apply, broadcastTo_1b_ab_apply, shapeCast_a_1a_apply, plain_matmul_apply]
  rfl

end Plain

/-- The kernel's relu, a maximum with the zero word spread over the array, is relu. -/
theorem max_zero_eq_relu {R C : Nat} (v : Vec Ideal ⟨2, ![R, C]⟩ .f32) :
    maximumf (F := Ideal) v (broadcast ⟨2, ![R, C]⟩ (Scalar.ofBits .f32 0x00000000#32)) = relu v := by
  funext i
  show max (v i) (Ideal.ofBits .f32 0x00000000#32) = max (v i) 0
  rw [Ideal.ofBits_zero_f32]

/-! ## The pooling product: the row axis of both factors contracted -/

theorem pool_lhs_0 (i : S16x64.Idx) (q : dot_S10000x16_S10000x64_S16x64_0_0_1_1_n_n.contr.Idx) :
    (dot_S10000x16_S10000x64_S16x64_0_0_1_1_n_n.lhsIdx i q 0).val = (q ⟨0, by decide⟩).val :=
  dot_S10000x16_S10000x64_S16x64_0_0_1_1_n_n.lhsIdx_val_of_single rfl i q
theorem pool_lhs_1 (i : S16x64.Idx) (q : dot_S10000x16_S10000x64_S16x64_0_0_1_1_n_n.contr.Idx) :
    (dot_S10000x16_S10000x64_S16x64_0_0_1_1_n_n.lhsIdx i q 1).val = (i 0).val := by
  unfold DotDims.lhsIdx
  rw [dif_neg (show ¬(1 : Fin S10000x16.rank) ∈ dot_S10000x16_S10000x64_S16x64_0_0_1_1_n_n.lhsBatch by decide), dif_pos (show (1 : Fin S10000x16.rank) ∈ dot_S10000x16_S10000x64_S16x64_0_0_1_1_n_n.lhsNonContracting by decide)]
  rfl
theorem pool_rhs_0 (i : S16x64.Idx) (q : dot_S10000x16_S10000x64_S16x64_0_0_1_1_n_n.contr.Idx) :
    (dot_S10000x16_S10000x64_S16x64_0_0_1_1_n_n.rhsIdx i q 0).val = (q ⟨0, by decide⟩).val :=
  dot_S10000x16_S10000x64_S16x64_0_0_1_1_n_n.rhsIdx_val_of_single rfl i q
theorem pool_rhs_1 (i : S16x64.Idx) (q : dot_S10000x16_S10000x64_S16x64_0_0_1_1_n_n.contr.Idx) :
    (dot_S10000x16_S10000x64_S16x64_0_0_1_1_n_n.rhsIdx i q 1).val = (i 1).val := by
  unfold DotDims.rhsIdx
  rw [dif_neg (show ¬(1 : Fin S10000x64.rank) ∈ dot_S10000x16_S10000x64_S16x64_0_0_1_1_n_n.rhsBatch by decide), dif_pos (show (1 : Fin S10000x64.rank) ∈ dot_S10000x16_S10000x64_S16x64_0_0_1_1_n_n.rhsNonContracting by decide)]
  rfl

/-- The pooling product into the zero array, at entry (g, k): column g of the one-hot block against column k of
    the node rows, summed over the block's rows. -/
theorem pool_matmul_apply {φ₁ φ₂ : FTy} (o : FVec Ideal S10000x16 φ₁) (m : FVec Ideal S10000x64 φ₂) (g : Fin 16) (k : Fin 64) :
    matmul dot_S10000x16_S10000x64_S16x64_0_0_1_1_n_n none o m (constant S16x64 .f32 0x00000000#32) (ix2 g k)
      = ∑ n : Fin 10000, o (ix2 n g) * m (ix2 n k) := by
  refine (Ideal.matmul_constant_zero_apply dot_S10000x16_S10000x64_S16x64_0_0_1_1_n_n none o m (ix2 g k)).trans ?_
  rw [← Equiv.sum_comp (contrEquiv1 dot_S10000x16_S10000x64_S16x64_0_0_1_1_n_n 10000 rfl rfl).symm]
  refine Finset.sum_congr rfl fun n _ => ?_
  have hn := contrEquiv1_symm_val dot_S10000x16_S10000x64_S16x64_0_0_1_1_n_n 10000 rfl rfl n
  have el : dot_S10000x16_S10000x64_S16x64_0_0_1_1_n_n.lhsIdx (ix2 g k) ((contrEquiv1 dot_S10000x16_S10000x64_S16x64_0_0_1_1_n_n 10000 rfl rfl).symm n) = ix2 n g := funext fun a => Fin.ext (by
    match a with
    | ⟨0, _⟩ => exact (pool_lhs_0 _ _).trans hn
    | ⟨1, _⟩ => exact pool_lhs_1 _ _)
  have er : dot_S10000x16_S10000x64_S16x64_0_0_1_1_n_n.rhsIdx (ix2 g k) ((contrEquiv1 dot_S10000x16_S10000x64_S16x64_0_0_1_1_n_n 10000 rfl rfl).symm n) = ix2 n k := funext fun a => Fin.ext (by
    match a with
    | ⟨0, _⟩ => exact (pool_rhs_0 _ _).trans hn
    | ⟨1, _⟩ => exact pool_rhs_1 _ _)
  rw [el, er]

/-! ## The payloads -/

/-- The accumulator's first value: the zero array. -/
theorem pay2_apply (i : S16x64.Idx) : k1_pay2 (F := Ideal) i = 0 := by
  unfold k1_pay2
  refine (congrFun (shapeCast_self _ _) i).trans ?_
  exact Ideal.ofBits_zero_f32

/-- The four closing layers. -/
theorem pay1_eq (acc : Vec Ideal S16x64 .f32) (ow1 : Vec Ideal S64x64 .f32) (ob1 : Vec Ideal S64 .f32)
    (ow2 : Vec Ideal S64x64 .f32) (ob2 : Vec Ideal S64 .f32) (ow3 : Vec Ideal S64x64 .f32) (ob3 : Vec Ideal S64 .f32)
    (ow4 : Vec Ideal S64x2 .f32) (ob4 : Vec Ideal S2 .f32) :
    k1_pay1 acc ow1 ob1 ow2 ob2 ow3 ob3 ow4 ob4 = head acc ow1 ob1 ow2 ob2 ow3 ob3 ow4 ob4 := by
  unfold k1_pay1 head
  refine (layer_eq_lin _ rfl _ _ _ _ _ _ _).trans ?_
  refine congrArg (fun v => lin v ow4 ob4) ?_
  refine (max_zero_eq_relu _).trans (congrArg relu ?_)
  refine (layer_eq_lin _ rfl _ _ _ _ _ _ _).trans ?_
  refine congrArg (fun v => lin v ow3 ob3) ?_
  refine (max_zero_eq_relu _).trans (congrArg relu ?_)
  refine (layer_eq_lin _ rfl _ _ _ _ _ _ _).trans ?_
  refine congrArg (fun v => lin v ow2 ob2) ?_
  refine (max_zero_eq_relu _).trans (congrArg relu ?_)
  exact layer_eq_lin _ rfl _ _ _ _ _ _ _

/-- What a grid point adds to the accumulator: at entry (g, k), the sum over the block's rows n of the one-hot
    entry (n, g) times the two layers of the node block at (n, k). -/
theorem pay3_apply (x : Vec Ideal S10000x65 .f32) (nw1 : Vec Ideal S65x64 .f32) (nb1 : Vec Ideal S64 .f32)
    (nw2 : Vec Ideal S64x64 .f32) (nb2 : Vec Ideal S64 .f32) (o : Vec Ideal S10000x16 .f32) (acc : Vec Ideal S16x64 .f32)
    (g : Fin 16) (k : Fin 64) :
    k1_pay3 x nw1 nb1 nw2 nb2 o acc (ix2 g k)
      = acc (ix2 g k) + ∑ n : Fin 10000, o (ix2 n g) * mlp2 x nw1 nb1 nw2 nb2 (ix2 n k) := by
  unfold k1_pay3
  refine (congrFun (shapeCast_self _ _) (ix2 g k)).trans ?_
  refine (addf_apply _ _ _).trans (congrArg (acc (ix2 g k) + ·) ?_)
  refine (pool_matmul_apply _ _ g k).trans ?_
  refine Finset.sum_congr rfl fun n _ => ?_
  refine congrArg₂ (· * ·) (congrFun (shapeCast_self o _) (ix2 n g)) (congrFun ?_ (ix2 n k))
  show addf (F := Ideal) _ _ = lin (relu (lin x nw1 nb1)) nw2 nb2
  refine (layer_eq_lin _ rfl _ _ _ _ _ _ _).trans ?_
  refine congrArg (fun v => lin v nw2 nb2) ?_
  refine (max_zero_eq_relu _).trans (congrArg relu ?_)
  refine (layer_eq_lin _ rfl _ _ _ _ _ _ _).trans ?_
  exact congrArg (fun v => lin v nw1 nb1) (shapeCast_self x _)

/-! ## Rows: a layer's row depends on the same row of its input only -/

/-- If row r of X is row r' of X', then so are the rows of a layer of them. -/
theorem lin_row {R R' K N : Nat} (X : A2 R K) (X' : A2 R' K) (W : A2 K N) (b : A1 N) (r : Fin R) (r' : Fin R')
    (h : ∀ c, X (ix2 r c) = X' (ix2 r' c)) (n : Fin N) : lin X W b (ix2 r n) = lin X' W b (ix2 r' n) := by
  show (∑ c : Fin K, X (ix2 r c) * W (ix2 c n)) + b (ix1 n) = (∑ c : Fin K, X' (ix2 r' c) * W (ix2 c n)) + b (ix1 n)
  simp only [h]

/-- The same for two layers with relu between them. -/
theorem mlp2_row {R R' K H N : Nat} (X : A2 R K) (X' : A2 R' K) (W1 : A2 K H) (b1 : A1 H) (W2 : A2 H N) (b2 : A1 N)
    (r : Fin R) (r' : Fin R') (h : ∀ c, X (ix2 r c) = X' (ix2 r' c)) (n : Fin N) :
    mlp2 X W1 b1 W2 b2 (ix2 r n) = mlp2 X' W1 b1 W2 b2 (ix2 r' n) :=
  lin_row _ _ W2 b2 r r' (fun c => congrArg (max · 0) (lin_row X X' W1 b1 r r' h c)) n

/-! ## Five blocks of 10000 rows are 50000 rows -/

theorem blk_lt (t : Fin 5) (r : Fin 10000) : t.val * 10000 + r.val < 50000 := by
  have := t.isLt; have := r.isLt; omega

/-- Row r of block t is row t * 10000 + r of the array. -/
def blkEquiv : Fin 5 × Fin 10000 ≃ Fin 50000 where
  toFun p := ⟨p.1.val * 10000 + p.2.val, blk_lt p.1 p.2⟩
  invFun m := (⟨m.val / 10000, by have := m.isLt; omega⟩, ⟨m.val % 10000, by omega⟩)
  left_inv p := by
    have h1 := p.1.isLt; have h2 := p.2.isLt
    refine Prod.ext (Fin.ext ?_) (Fin.ext ?_)
    · show (p.1.val * 10000 + p.2.val) / 10000 = p.1.val
      omega
    · show (p.1.val * 10000 + p.2.val) % 10000 = p.2.val
      omega
  right_inv m := Fin.ext (by
    show m.val / 10000 * 10000 + m.val % 10000 = m.val
    omega)

/-- A sum over all rows is the sum over the blocks of the sums over a block's rows. -/
theorem sum_blocks (f : Fin 50000 → EReal) : ∑ m : Fin 50000, f m = ∑ t : Fin 5, ∑ r : Fin 10000, f (blkEquiv (t, r)) := by
  rw [← Equiv.sum_comp blkEquiv f, Fintype.sum_prod_type]

/-! ## The pool: five accumulations are one segment sum -/

/-- The accumulator after the fifth grid point holds the segment sum, by graph id, of the two layers of all node
    rows: every point adds its block's share, the one-hot factor being 1 on the rows whose id is g and 0 elsewhere. -/
theorem pool_value (X : A2 50000 65) (O : A2 50000 16)
    (nw1 : Vec Ideal S65x64 .f32) (nb1 : Vec Ideal S64 .f32) (nw2 : Vec Ideal S64x64 .f32) (nb2 : Vec Ideal S64 .f32)
    (xb : Fin 5 → Vec Ideal S10000x65 .f32) (ob : Fin 5 → Vec Ideal S10000x16 .f32)
    (hx : ∀ (t : Fin 5) (j : S10000x65.Idx), xb t j = X (ix2 ⟨t.val * 10000 + (j 0).val, blk_lt t (j 0)⟩ (j 1)))
    (ho : ∀ (t : Fin 5) (j : S10000x16.Idx), ob t j = O (ix2 ⟨t.val * 10000 + (j 0).val, blk_lt t (j 0)⟩ (j 1)))
    (acc : Fin 5 → Vec Ideal S16x64 .f32)
    (h0 : acc 0 = k1_pay3 (xb 0) nw1 nb1 nw2 nb2 (ob 0) (k1_pay2 (F := Ideal)))
    (hs : ∀ t : Fin 4, acc t.succ = k1_pay3 (xb t.succ) nw1 nb1 nw2 nb2 (ob t.succ) (acc t.castSucc))
    (id : Fin 50000 → Int) (hO : ∀ (n : Fin 50000) (g : Fin 16), O (ix2 n g) = if id n = (g.val : Int) then 1 else 0) :
    acc 4 = segsum id (mlp2 X nw1 nb1 nw2 nb2) := by
  funext i
  obtain ⟨g, k, rfl⟩ : ∃ (g : Fin 16) (k : Fin 64), i = ix2 g k := ⟨i 0, i 1, eq_ix2 i⟩
  -- a block's share is the array's conditional sum over that block's rows
  have share : ∀ t : Fin 5, (∑ n : Fin 10000, ob t (ix2 n g) * mlp2 (xb t) nw1 nb1 nw2 nb2 (ix2 n k))
      = ∑ n : Fin 10000, if id (blkEquiv (t, n)) = (g.val : Int) then mlp2 X nw1 nb1 nw2 nb2 (ix2 (blkEquiv (t, n)) k) else 0 :=
      fun t => Finset.sum_congr rfl fun n _ => by
    have e1 : ob t (ix2 n g) = O (ix2 (blkEquiv (t, n)) g) := ho t (ix2 n g)
    have e2 : mlp2 (xb t) nw1 nb1 nw2 nb2 (ix2 n k) = mlp2 X nw1 nb1 nw2 nb2 (ix2 (blkEquiv (t, n)) k) :=
      mlp2_row (xb t) X nw1 nb1 nw2 nb2 n (blkEquiv (t, n)) (fun c => hx t (ix2 n c)) k
    rw [e1, e2, hO]
    by_cases hc : id (blkEquiv (t, n)) = (g.val : Int)
    · rw [if_pos hc, if_pos hc, one_mul]
    · rw [if_neg hc, if_neg hc, zero_mul]
  have a0 : acc 0 (ix2 g k) = 0 + ∑ n : Fin 10000, ob 0 (ix2 n g) * mlp2 (xb 0) nw1 nb1 nw2 nb2 (ix2 n k) := by
    rw [h0, pay3_apply, pay2_apply]
  have a1 : acc 1 (ix2 g k) = acc 0 (ix2 g k) + ∑ n : Fin 10000, ob 1 (ix2 n g) * mlp2 (xb 1) nw1 nb1 nw2 nb2 (ix2 n k) := by
    rw [show acc 1 = _ from hs 0]; exact pay3_apply _ _ _ _ _ _ _ g k
  have a2 : acc 2 (ix2 g k) = acc 1 (ix2 g k) + ∑ n : Fin 10000, ob 2 (ix2 n g) * mlp2 (xb 2) nw1 nb1 nw2 nb2 (ix2 n k) := by
    rw [show acc 2 = _ from hs 1]; exact pay3_apply _ _ _ _ _ _ _ g k
  have a3 : acc 3 (ix2 g k) = acc 2 (ix2 g k) + ∑ n : Fin 10000, ob 3 (ix2 n g) * mlp2 (xb 3) nw1 nb1 nw2 nb2 (ix2 n k) := by
    rw [show acc 3 = _ from hs 2]; exact pay3_apply _ _ _ _ _ _ _ g k
  have a4 : acc 4 (ix2 g k) = acc 3 (ix2 g k) + ∑ n : Fin 10000, ob 4 (ix2 n g) * mlp2 (xb 4) nw1 nb1 nw2 nb2 (ix2 n k) := by
    rw [show acc 4 = _ from hs 3]; exact pay3_apply _ _ _ _ _ _ _ g k
  show acc 4 (ix2 g k) = 0 + ∑ m : Fin 50000, if id m = (g.val : Int) then mlp2 X nw1 nb1 nw2 nb2 (ix2 m k) else 0
  rw [a4, a3, a2, a1, a0, sum_blocks, Fin.sum_univ_five, share 0, share 1, share 2, share 3, share 4]
  simp only [add_assoc]

end Cert.KernelIdeal.Hand

end
-- ==== Proof.KI.K1Val.lean ====
/-
  What the node stage's region leaves in its 16 × 2 result array, as mathematics.

  The region's grid has five points, one block of 10000 node rows each. The two row-blocked windows (the 65-entry
  node rows and the one-hot rows) read, at point t, row t * 10000 + r of their array at row r of the block: a
  block's coordinate is its index times its size plus the coordinate inside the block. Every other window's one
  block is its whole array. The result window is written back at the last point only, and its one block is the
  whole result array, so the array ends holding what the body left in the window there: the four closing layers of
  the pooling accumulator. The accumulator starts from the zero array and takes one block's share at every point;
  over the five blocks that is the segment sum, by graph id, of the two node layers of all 50000 rows.
-/
import proofs.«402084_j84928683311960_2_alg».proof.Proof.KI.R1Pieces
import proofs.«402084_j84928683311960_2_alg».proof.Proof.KI.K1Math
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open Cert.Spec (A1 A2 lin relu mlp2 segsum head)

section Blocks

variable {F : FTy → Type} [FloatOps F]

/-! ## Reading an array through a window's block -/

/-- The two row-blocked windows move with the point along the rows and stay at column block 0. -/
theorem idx1_rows : ∀ t : Fin cfg1.N, win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)

theorem read_blk1_0 (t : Fin cfg1.N) (X : S50000x65.Idx → Elt F .f32) (j : S10000x65.Idx) (i : S50000x65.Idx)
    (h0 : (i 0).val = t.val * 10000 + (j 0).val) (h1 : (i 1).val = (j 1).val) :
    (((cfg1.win 0).blk t).view.read (Elt F) X : Vec F S10000x65 .f32) j = X i := by
  rw [View.read_apply]
  show X _ = X i
  congr 1
  funext a; apply Fin.ext
  obtain ⟨e0, e1, -, -⟩ := idx1_rows t
  match a with
  | ⟨0, _⟩ => show win1_0.index t (0 : Fin 2) * 10000 + 1 * (j 0).val = (i 0).val; rw [e0, h0]; omega
  | ⟨1, _⟩ => show win1_0.index t (1 : Fin 2) * 65 + 1 * (j 1).val = (i 1).val; rw [e1, h1]; omega

theorem read_blk1_1 (t : Fin cfg1.N) (X : S50000x16.Idx → Elt F .f32) (j : S10000x16.Idx) (i : S50000x16.Idx)
    (h0 : (i 0).val = t.val * 10000 + (j 0).val) (h1 : (i 1).val = (j 1).val) :
    (((cfg1.win 1).blk t).view.read (Elt F) X : Vec F S10000x16 .f32) j = X i := by
  rw [View.read_apply]
  show X _ = X i
  congr 1
  funext a; apply Fin.ext
  obtain ⟨-, -, e0, e1⟩ := idx1_rows t
  match a with
  | ⟨0, _⟩ => show win1_1.index t (0 : Fin 2) * 10000 + 1 * (j 0).val = (i 0).val; rw [e0, h0]; omega
  | ⟨1, _⟩ => show win1_1.index t (1 : Fin 2) * 16 + 1 * (j 1).val = (i 1).val; rw [e1, h1]; omega

/-- Every other window's block index is zero on every axis at every point: its one block is its whole array. -/
theorem idx1_whole : ∀ t : Fin cfg1.N, win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 2) = 0 ∧ win1_6.index t (1 : Fin 2) = 0
    ∧ win1_7.index t (0 : Fin 1) = 0
    ∧ win1_8.index t (0 : Fin 2) = 0 ∧ win1_8.index t (1 : Fin 2) = 0
    ∧ win1_9.index t (0 : Fin 1) = 0
    ∧ win1_10.index t (0 : Fin 2) = 0 ∧ win1_10.index t (1 : Fin 2) = 0
    ∧ win1_11.index t (0 : Fin 1) = 0
    ∧ win1_12.index t (0 : Fin 2) = 0 ∧ win1_12.index t (1 : Fin 2) = 0
    ∧ win1_13.index t (0 : Fin 1) = 0
    ∧ win1_14.index t (0 : Fin 2) = 0 ∧ win1_14.index t (1 : Fin 2) = 0 :=
  (by decide +kernel : ∀ t : Fin grid1.N, _)

theorem read_blk1_2 (t : Fin cfg1.N) (X : S65x64.Idx → Elt F .f32) :
    (((cfg1.win 2).blk t).view.read (Elt F) X : Vec F S65x64 .f32) = X := by
  funext j
  rw [View.read_apply]
  show X _ = X j
  congr 1
  funext a; apply Fin.ext
  obtain ⟨e0, e1, -, -, -, -, -, -, -, -, -, -, -, -, -, -, -, -, -, -⟩ := idx1_whole t
  match a with
  | ⟨0, _⟩ => show win1_2.index t (0 : Fin 2) * 65 + 1 * (j 0).val = (j 0).val; rw [e0]; omega
  | ⟨1, _⟩ => show win1_2.index t (1 : Fin 2) * 64 + 1 * (j 1).val = (j 1).val; rw [e1]; omega

theorem read_blk1_3 (t : Fin cfg1.N) (X : S64.Idx → Elt F .f32) :
    (((cfg1.win 3).blk t).view.read (Elt F) X : Vec F S64 .f32) = X := by
  funext j
  rw [View.read_apply]
  show X _ = X j
  congr 1
  funext a; apply Fin.ext
  obtain ⟨-, -, e0, -, -, -, -, -, -, -, -, -, -, -, -, -, -, -, -, -⟩ := idx1_whole t
  match a with
  | ⟨0, _⟩ => show win1_3.index t (0 : Fin 1) * 64 + 1 * (j 0).val = (j 0).val; rw [e0]; omega

theorem read_blk1_4 (t : Fin cfg1.N) (X : S64x64.Idx → Elt F .f32) :
    (((cfg1.win 4).blk t).view.read (Elt F) X : Vec F S64x64 .f32) = X := by
  funext j
  rw [View.read_apply]
  show X _ = X j
  congr 1
  funext a; apply Fin.ext
  obtain ⟨-, -, -, e0, e1, -, -, -, -, -, -, -, -, -, -, -, -, -, -, -⟩ := idx1_whole t
  match a with
  | ⟨0, _⟩ => show win1_4.index t (0 : Fin 2) * 64 + 1 * (j 0).val = (j 0).val; rw [e0]; omega
  | ⟨1, _⟩ => show win1_4.index t (1 : Fin 2) * 64 + 1 * (j 1).val = (j 1).val; rw [e1]; omega

theorem read_blk1_5 (t : Fin cfg1.N) (X : S64.Idx → Elt F .f32) :
    (((cfg1.win 5).blk t).view.read (Elt F) X : Vec F S64 .f32) = X := by
  funext j
  rw [View.read_apply]
  show X _ = X j
  congr 1
  funext a; apply Fin.ext
  obtain ⟨-, -, -, -, -, e0, -, -, -, -, -, -, -, -, -, -, -, -, -, -⟩ := idx1_whole t
  match a with
  | ⟨0, _⟩ => show win1_5.index t (0 : Fin 1) * 64 + 1 * (j 0).val = (j 0).val; rw [e0]; omega

theorem read_blk1_6 (t : Fin cfg1.N) (X : S64x64.Idx → Elt F .f32) :
    (((cfg1.win 6).blk t).view.read (Elt F) X : Vec F S64x64 .f32) = X := by
  funext j
  rw [View.read_apply]
  show X _ = X j
  congr 1
  funext a; apply Fin.ext
  obtain ⟨-, -, -, -, -, -, e0, e1, -, -, -, -, -, -, -, -, -, -, -, -⟩ := idx1_whole t
  match a with
  | ⟨0, _⟩ => show win1_6.index t (0 : Fin 2) * 64 + 1 * (j 0).val = (j 0).val; rw [e0]; omega
  | ⟨1, _⟩ => show win1_6.index t (1 : Fin 2) * 64 + 1 * (j 1).val = (j 1).val; rw [e1]; omega

theorem read_blk1_7 (t : Fin cfg1.N) (X : S64.Idx → Elt F .f32) :
    (((cfg1.win 7).blk t).view.read (Elt F) X : Vec F S64 .f32) = X := by
  funext j
  rw [View.read_apply]
  show X _ = X j
  congr 1
  funext a; apply Fin.ext
  obtain ⟨-, -, -, -, -, -, -, -, e0, -, -, -, -, -, -, -, -, -, -, -⟩ := idx1_whole t
  match a with
  | ⟨0, _⟩ => show win1_7.index t (0 : Fin 1) * 64 + 1 * (j 0).val = (j 0).val; rw [e0]; omega

theorem read_blk1_8 (t : Fin cfg1.N) (X : S64x64.Idx → Elt F .f32) :
    (((cfg1.win 8).blk t).view.read (Elt F) X : Vec F S64x64 .f32) = X := by
  funext j
  rw [View.read_apply]
  show X _ = X j
  congr 1
  funext a; apply Fin.ext
  obtain ⟨-, -, -, -, -, -, -, -, -, e0, e1, -, -, -, -, -, -, -, -, -⟩ := idx1_whole t
  match a with
  | ⟨0, _⟩ => show win1_8.index t (0 : Fin 2) * 64 + 1 * (j 0).val = (j 0).val; rw [e0]; omega
  | ⟨1, _⟩ => show win1_8.index t (1 : Fin 2) * 64 + 1 * (j 1).val = (j 1).val; rw [e1]; omega

theorem read_blk1_9 (t : Fin cfg1.N) (X : S64.Idx → Elt F .f32) :
    (((cfg1.win 9).blk t).view.read (Elt F) X : Vec F S64 .f32) = X := by
  funext j
  rw [View.read_apply]
  show X _ = X j
  congr 1
  funext a; apply Fin.ext
  obtain ⟨-, -, -, -, -, -, -, -, -, -, -, e0, -, -, -, -, -, -, -, -⟩ := idx1_whole t
  match a with
  | ⟨0, _⟩ => show win1_9.index t (0 : Fin 1) * 64 + 1 * (j 0).val = (j 0).val; rw [e0]; omega

theorem read_blk1_10 (t : Fin cfg1.N) (X : S64x64.Idx → Elt F .f32) :
    (((cfg1.win 10).blk t).view.read (Elt F) X : Vec F S64x64 .f32) = X := by
  funext j
  rw [View.read_apply]
  show X _ = X j
  congr 1
  funext a; apply Fin.ext
  obtain ⟨-, -, -, -, -, -, -, -, -, -, -, -, e0, e1, -, -, -, -, -, -⟩ := idx1_whole t
  match a with
  | ⟨0, _⟩ => show win1_10.index t (0 : Fin 2) * 64 + 1 * (j 0).val = (j 0).val; rw [e0]; omega
  | ⟨1, _⟩ => show win1_10.index t (1 : Fin 2) * 64 + 1 * (j 1).val = (j 1).val; rw [e1]; omega

theorem read_blk1_11 (t : Fin cfg1.N) (X : S64.Idx → Elt F .f32) :
    (((cfg1.win 11).blk t).view.read (Elt F) X : Vec F S64 .f32) = X := by
  funext j
  rw [View.read_apply]
  show X _ = X j
  congr 1
  funext a; apply Fin.ext
  obtain ⟨-, -, -, -, -, -, -, -, -, -, -, -, -, -, e0, -, -, -, -, -⟩ := idx1_whole t
  match a with
  | ⟨0, _⟩ => show win1_11.index t (0 : Fin 1) * 64 + 1 * (j 0).val = (j 0).val; rw [e0]; omega

theorem read_blk1_12 (t : Fin cfg1.N) (X : S64x2.Idx → Elt F .f32) :
    (((cfg1.win 12).blk t).view.read (Elt F) X : Vec F S64x2 .f32) = X := by
  funext j
  rw [View.read_apply]
  show X _ = X j
  congr 1
  funext a; apply Fin.ext
  obtain ⟨-, -, -, -, -, -, -, -, -, -, -, -, -, -, -, e0, e1, -, -, -⟩ := idx1_whole t
  match a with
  | ⟨0, _⟩ => show win1_12.index t (0 : Fin 2) * 64 + 1 * (j 0).val = (j 0).val; rw [e0]; omega
  | ⟨1, _⟩ => show win1_12.index t (1 : Fin 2) * 2 + 1 * (j 1).val = (j 1).val; rw [e1]; omega

theorem read_blk1_13 (t : Fin cfg1.N) (X : S2.Idx → Elt F .f32) :
    (((cfg1.win 13).blk t).view.read (Elt F) X : Vec F S2 .f32) = X := by
  funext j
  rw [View.read_apply]
  show X _ = X j
  congr 1
  funext a; apply Fin.ext
  obtain ⟨-, -, -, -, -, -, -, -, -, -, -, -, -, -, -, -, -, e0, -, -⟩ := idx1_whole t
  match a with
  | ⟨0, _⟩ => show win1_13.index t (0 : Fin 1) * 2 + 1 * (j 0).val = (j 0).val; rw [e0]; omega

theorem read_blk1_14 (t : Fin cfg1.N) (X : S16x2.Idx → Elt F .f32) :
    (((cfg1.win 14).blk t).view.read (Elt F) X : Vec F S16x2 .f32) = X := by
  funext j
  rw [View.read_apply]
  show X _ = X j
  congr 1
  funext a; apply Fin.ext
  obtain ⟨-, -, -, -, -, -, -, -, -, -, -, -, -, -, -, -, -, -, e0, e1⟩ := idx1_whole t
  match a with
  | ⟨0, _⟩ => show win1_14.index t (0 : Fin 2) * 16 + 1 * (j 0).val = (j 0).val; rw [e0]; omega
  | ⟨1, _⟩ => show win1_14.index t (1 : Fin 2) * 2 + 1 * (j 1).val = (j 1).val; rw [e1]; omega

/-! ## The blocks of the region's arrays -/

variable (V : (c : Dev nD) → (b : Ref sig .tc) → Buf (Elt F) ((c : Thread nD τ).loc b))

theorem iblk1_0_apply (c : Dev nD) (t : Fin cfg1.N) (j : S10000x65.Idx) (i : S50000x65.Idx)
    (h0 : (i 0).val = t.val * 10000 + (j 0).val) (h1 : (i 1).val = (j 1).val) :
    (iblk1 V c 0 t : Vec F S10000x65 .f32) j = (V c main_v11 : S50000x65.Idx → Elt F .f32) i :=
  read_blk1_0 t (V c main_v11) j i h0 h1
theorem iblk1_1_apply (c : Dev nD) (t : Fin cfg1.N) (j : S10000x16.Idx) (i : S50000x16.Idx)
    (h0 : (i 0).val = t.val * 10000 + (j 0).val) (h1 : (i 1).val = (j 1).val) :
    (iblk1 V c 1 t : Vec F S10000x16 .f32) j = (V c main_v18 : S50000x16.Idx → Elt F .f32) i :=
  read_blk1_1 t (V c main_v18) j i h0 h1
theorem iblk1_2_eq (c : Dev nD) (t : Fin cfg1.N) : (iblk1 V c 2 t : Vec F S65x64 .f32) = V c main_arg8 := read_blk1_2 t (V c main_arg8)
theorem iblk1_3_eq (c : Dev nD) (t : Fin cfg1.N) : (iblk1 V c 3 t : Vec F S64 .f32) = V c main_arg9 := read_blk1_3 t (V c main_arg9)
theorem iblk1_4_eq (c : Dev nD) (t : Fin cfg1.N) : (iblk1 V c 4 t : Vec F S64x64 .f32) = V c main_arg10 := read_blk1_4 t (V c main_arg10)
theorem iblk1_5_eq (c : Dev nD) (t : Fin cfg1.N) : (iblk1 V c 5 t : Vec F S64 .f32) = V c main_arg11 := read_blk1_5 t (V c main_arg11)
theorem iblk1_6_eq (c : Dev nD) (t : Fin cfg1.N) : (iblk1 V c 6 t : Vec F S64x64 .f32) = V c main_arg12 := read_blk1_6 t (V c main_arg12)
theorem iblk1_7_eq (c : Dev nD) (t : Fin cfg1.N) : (iblk1 V c 7 t : Vec F S64 .f32) = V c main_arg13 := read_blk1_7 t (V c main_arg13)
theorem iblk1_8_eq (c : Dev nD) (t : Fin cfg1.N) : (iblk1 V c 8 t : Vec F S64x64 .f32) = V c main_arg14 := read_blk1_8 t (V c main_arg14)
theorem iblk1_9_eq (c : Dev nD) (t : Fin cfg1.N) : (iblk1 V c 9 t : Vec F S64 .f32) = V c main_arg15 := read_blk1_9 t (V c main_arg15)
theorem iblk1_10_eq (c : Dev nD) (t : Fin cfg1.N) : (iblk1 V c 10 t : Vec F S64x64 .f32) = V c main_arg16 := read_blk1_10 t (V c main_arg16)
theorem iblk1_11_eq (c : Dev nD) (t : Fin cfg1.N) : (iblk1 V c 11 t : Vec F S64 .f32) = V c main_arg17 := read_blk1_11 t (V c main_arg17)
theorem iblk1_12_eq (c : Dev nD) (t : Fin cfg1.N) : (iblk1 V c 12 t : Vec F S64x2 .f32) = V c main_arg18 := read_blk1_12 t (V c main_arg18)
theorem iblk1_13_eq (c : Dev nD) (t : Fin cfg1.N) : (iblk1 V c 13 t : Vec F S2 .f32) = V c main_arg19 := read_blk1_13 t (V c main_arg19)

/-! ## The result array -/

/-- Every index of the 16 × 2 result array lies in the block of any point: the one block is the whole array. -/
theorem mem_blk1_14 (t : Fin cfg1.N) (i : S16x2.Idx) : i ∈ ((cfg1.win 14).blk t).view.set := by
  show i ∈ ((View.whole main_v19).slice (win1_14.rect t)).set
  rw [View.set_slice_whole, Rect.mem_set_unit]
  intro a
  obtain ⟨-, -, -, -, -, -, -, -, -, -, -, -, -, -, -, -, -, -, e0, e1⟩ := idx1_whole t
  have b0 : (i 0).val < 16 := idx2_lt0 i
  have b1 : (i 1).val < 2 := idx2_lt1 i
  match a with
  | ⟨0, _⟩ => show win1_14.index t (0 : Fin 2) * 16 ≤ (i 0).val ∧ (i 0).val < win1_14.index t (0 : Fin 2) * 16 + 16; rw [e0]; omega
  | ⟨1, _⟩ => show win1_14.index t (1 : Fin 2) * 2 ≤ (i 1).val ∧ (i 1).val < win1_14.index t (1 : Fin 2) * 2 + 2; rw [e1]; omega

/-- The result array after the run is what the body left in the result window at the last point: only that point
    writes the window back, and its block is the whole array. -/
theorem arrAt1_14_of {c : Dev nD} (dat : Dat τ (Elt F) Unit ℕ (UR sig nD τ) ℕ cfg1 c) (G : S16x2.Idx → Elt F .f32)
    (hG : ∀ t : Fin cfg1.N, t.val % 5 = 4 → (dat.after 14 t : S16x2.Idx → Elt F .f32) = G) :
    (dat.arrAt 14 cfg1.N : S16x2.Idx → Elt F .f32) = G :=
  dat.arrAt_eq_of_cover 14 G
    (fun t hf => by
      show (cfg1.win 14).cut (grid1.coords t) (dat.after 14 t) = _
      rw [hG t ((flush1_14 t).mp hf)]
      exact (read_blk1_14 t G).symm)
    (fun i => ⟨t1_4, (flush1_14 t1_4).mpr rfl, mem_blk1_14 t1_4 i⟩)

end Blocks

/-! ## The value the region leaves in its result array -/

/-- The point of the grid of five at position t. -/
def pt1 (t : Fin 5) : Fin cfg1.N := ⟨t.val, by have h : cfg1.N = 5 := N_1; have := t.isLt; omega⟩

/-- The result array after the node stage's region, for any proof data whose result window holds, after the body at a
    point, the first component of an accumulation of pairs (result block, pooling accumulator) that starts from the
    zero accumulator, adds a block's share at every point and applies the closing layers at the last one: the closing
    layers of the segment sum, by graph id, of the two node layers of all 50000 rows. -/
theorem region1_value_of (V : (c : Dev nD) → (b : Ref sig .tc) → Buf (Elt Ideal) ((c : Thread nD τ).loc b)) (c : Dev nD)
    (dat : Dat τ (Elt Ideal) Unit ℕ (UR sig nD τ) ℕ cfg1 c)
    (outs : (n : ℕ) → n < cfg1.N → Vec Ideal S16x2 .f32 × Vec Ideal S16x64 .f32)
    (hafter : ∀ t : Fin cfg1.N, dat.after 14 t = (outs t.val t.isLt).1)
    (hfirst : ∀ t : Fin cfg1.N, t.val % 5 = 0 → (outs t.val t.isLt).2
        = k1_pay3 (iblk1 V c 0 t) (iblk1 V c 2 t) (iblk1 V c 3 t) (iblk1 V c 4 t) (iblk1 V c 5 t) (iblk1 V c 1 t) (k1_pay2 (F := Ideal)))
    (hnext : ∀ t : Fin cfg1.N, ¬ t.val % 5 = 0 → (outs t.val t.isLt).2
        = k1_pay3 (iblk1 V c 0 t) (iblk1 V c 2 t) (iblk1 V c 3 t) (iblk1 V c 4 t) (iblk1 V c 5 t) (iblk1 V c 1 t)
            (outs (t.val - 1) (Nat.lt_of_le_of_lt (Nat.sub_le _ _) t.isLt)).2)
    (hlast : ∀ t : Fin cfg1.N, t.val % 5 = 4 → (outs t.val t.isLt).1
        = k1_pay1 (outs t.val t.isLt).2 (iblk1 V c 6 t) (iblk1 V c 7 t) (iblk1 V c 8 t) (iblk1 V c 9 t) (iblk1 V c 10 t)
            (iblk1 V c 11 t) (iblk1 V c 12 t) (iblk1 V c 13 t))
    (id : Fin 50000 → Int)
    (hO : ∀ (n : Fin 50000) (g : Fin 16), (V c main_v18 : S50000x16.Idx → EReal) (ix2 n g) = (if id n = (g.val : Int) then 1 else 0 : EReal)) :
    (dat.arrAt 14 cfg1.N : S16x2.Idx → EReal)
      = head (segsum id (mlp2 (V c main_v11) (V c main_arg8) (V c main_arg9) (V c main_arg10) (V c main_arg11)))
          (V c main_arg12) (V c main_arg13) (V c main_arg14) (V c main_arg15) (V c main_arg16) (V c main_arg17) (V c main_arg18) (V c main_arg19) := by
  have hN : cfg1.N = 5 := N_1
  -- the pooling accumulator after each of the five points satisfies the recurrence of the pool
  have hpool : (fun t : Fin 5 => (outs (pt1 t).val (pt1 t).isLt).2) 4
      = segsum id (mlp2 (V c main_v11) (V c main_arg8) (V c main_arg9) (V c main_arg10) (V c main_arg11)) :=
    pool_value (V c main_v11) (V c main_v18) (V c main_arg8) (V c main_arg9) (V c main_arg10) (V c main_arg11)
      (fun t => iblk1 V c 0 (pt1 t)) (fun t => iblk1 V c 1 (pt1 t))
      (fun t j => iblk1_0_apply V c (pt1 t) j _ rfl rfl)
      (fun t j => iblk1_1_apply V c (pt1 t) j _ rfl rfl)
      (fun t : Fin 5 => (outs (pt1 t).val (pt1 t).isLt).2)
      (by
        show (outs (pt1 0).val (pt1 0).isLt).2 = _
        rw [hfirst (pt1 0) rfl, iblk1_2_eq, iblk1_3_eq, iblk1_4_eq, iblk1_5_eq])
      (fun t => by
        obtain ⟨n, hn⟩ := t
        show (outs (pt1 ⟨n + 1, Nat.succ_lt_succ hn⟩).val (pt1 ⟨n + 1, Nat.succ_lt_succ hn⟩).isLt).2 = _
        rw [hnext (pt1 ⟨n + 1, Nat.succ_lt_succ hn⟩) (by show ¬ (n + 1) % 5 = 0; omega), iblk1_2_eq, iblk1_3_eq, iblk1_4_eq, iblk1_5_eq]
        rfl)
      id hO
  refine arrAt1_14_of dat _ (fun t h4 => ?_)
  rw [hafter t, hlast t h4, iblk1_6_eq, iblk1_7_eq, iblk1_8_eq, iblk1_9_eq, iblk1_10_eq, iblk1_11_eq, iblk1_12_eq, iblk1_13_eq, pay1_eq]
  have ht : t = pt1 4 := Fin.ext (by show t.val = 4; have := t.isLt; omega)
  subst ht
  exact congrArg (fun a => head a (V c main_arg12) (V c main_arg13) (V c main_arg14) (V c main_arg15) (V c main_arg16) (V c main_arg17) (V c main_arg18) (V c main_arg19)) hpool

/-- The result array after the node stage's region: the closing layers of the segment sum, by graph id, of the two
    node layers of all rows, given that the one-hot array holds 1 where the row's id is the column and 0 elsewhere. -/
theorem region1_value (V : (c : Dev nD) → (b : Ref sig .tc) → Buf (Elt Ideal) ((c : Thread nD τ).loc b)) (c : Dev nD) (id : Fin 50000 → Int)
    (hO : ∀ (n : Fin 50000) (g : Fin 16), (V c main_v18 : S50000x16.Idx → EReal) (ValueIdx.ix2 n g) = (if id n = (g.val : Int) then 1 else 0 : EReal)) :
    ((dat1 (F := Ideal) V c).arrAt 14 cfg1.N : S16x2.Idx → EReal)
      = Cert.Spec.head (Cert.Spec.segsum id (Cert.Spec.mlp2 (V c main_v11) (V c main_arg8) (V c main_arg9) (V c main_arg10) (V c main_arg11)))
          (V c main_arg12) (V c main_arg13) (V c main_arg14) (V c main_arg15) (V c main_arg16) (V c main_arg17) (V c main_arg18) (V c main_arg19) :=
  region1_value_of V c (dat1 V c) (outsAt1 V c) (after1_14 V c) (scratch_first V c) (scratch_next V c) (out_last V c) id hO

end Cert.KernelIdeal.Hand

end
-- ==== Proof.LibRowGatherScatter.lean ====
/-
  A row gather followed by a row scatter-add, read at an entry (a general lemma: nothing here depends on a program).

  For an operand of shape [N, W], index arrays of shape [E, 1] and updates of shape [E, W], the row scatter-add
  (update window axis 1, inserted window axis 0, scatter axis 0, index vector axis 1) at entry (n, q) is x[n, q]
  plus the sum, over the edges e whose index dst[e], read signed, is n, of the update (e, q): an edge whose index
  is not a row contributes nothing. The row gather (offset axis 1, collapsed axis 0, start index map [0], index
  vector axis 1, slice sizes [1, W]) at (e, q) is the operand at row min(src[e], N - 1) (the index read signed and
  clamped), column q. Their composition therefore acts on every column by itself (`pass_apply`).
-/
import Idealize.ShloMosaic.Lib.ValueIdx
import Idealize.ShloMosaic.PureOps.Ideal.Laws

noncomputable section

namespace Cert.Lib.RowPass

open Idealize.ShloMosaic Idealize.ShloMosaic.ValueIdx

section Generic

/-- The row scatter's dimension numbers over an operand [N, W], indices [E, 1] and updates [E, W]. -/
abbrev scD (N E W : Nat) (wf : ScatterDims.WF ⟨2, ![N, W]⟩ ⟨2, ![E, 1]⟩ ⟨2, ![E, W]⟩ [1] [0] [0] 1) :
    ScatterDims ⟨2, ![N, W]⟩ ⟨2, ![E, 1]⟩ ⟨2, ![E, W]⟩ where
  updateWindowDims := [1]
  insertedWindowDims := [0]
  scatterDimsToOperandDims := [0]
  indexVectorDim := 1
  wf := wf

variable {N E W w : Nat} (wf : ScatterDims.WF ⟨2, ![N, W]⟩ ⟨2, ![E, 1]⟩ ⟨2, ![E, W]⟩ [1] [0] [0] 1)

/-- On the row axis the window of update (e, q) starts at dst[e], read signed. -/
theorem sc_start0 (idx : IVec ⟨2, ![E, 1]⟩ w) (e : Fin E) (q : Fin W) :
    (scD N E W wf).start (ix2 e q) idx 0 = (idx (ix2 e 0)).toInt := by
  unfold ScatterDims.start
  rw [dif_pos (show (0 : Fin 2) ∈ (scD N E W wf).scatterDimsToOperandDims from List.mem_singleton.mpr rfl)]
  congr 2
  funext b
  match b with
  | ⟨0, _⟩ => rfl
  | ⟨1, _⟩ => rfl

/-- On the column axis every window starts at 0. -/
theorem sc_start1 (idx : IVec ⟨2, ![E, 1]⟩ w) (e : Fin E) (q : Fin W) :
    (scD N E W wf).start (ix2 e q) idx 1 = 0 := by
  unfold ScatterDims.start
  rw [dif_neg (show (1 : Fin 2) ∉ ([0] : List (Fin 2)) by decide)]

/-- The row axis is inserted: the window coordinate there is 0. -/
theorem sc_window0 (e : Fin E) (q : Fin W) : (scD N E W wf).window (ix2 e q) 0 = 0 := by
  unfold ScatterDims.window
  have h : (0 : Fin 2) ∉ (scD N E W wf).sKept :=
    (by decide : (0 : Fin 2) ∉ (List.finRange 2).filter (fun a => a ∉ ([0] : List (Fin 2))))
  rw [dif_neg h]

/-- On the column axis the window coordinate of update (e, q) is q. -/
theorem sc_window1 (e : Fin E) (q : Fin W) : (scD N E W wf).window (ix2 e q) 1 = q.val := by
  unfold ScatterDims.window
  have h : (1 : Fin 2) ∈ (scD N E W wf).sKept :=
    (by decide : (1 : Fin 2) ∈ (List.finRange 2).filter (fun a => a ∉ ([0] : List (Fin 2))))
  rw [dif_pos h]
  rfl

/-- An axis of a rank-2 shape is 0 or 1. -/
theorem fin2_cases (a : Fin 2) : a = 0 ∨ a = 1 := by
  revert a; decide

/-- Update (e, q) lands at (n, q') exactly when dst[e] = n and q = q' (an update whose dst[e] is not a row lands
    nowhere). -/
theorem sc_result_iff (idx : IVec ⟨2, ![E, 1]⟩ w) (e : Fin E) (q q' : Fin W) (n : Fin N) :
    (scD N E W wf).resultIdx? (ix2 e q) idx = some (ix2 n q')
      ↔ (idx (ix2 e 0)).toInt = (n.val : Int) ∧ q = q' := by
  have hq := q.isLt
  have hn := n.isLt
  unfold ScatterDims.resultIdx?
  split
  · rename_i h
    have h0 := h 0
    rw [sc_start0, sc_window0] at h0
    constructor
    · intro hs
      have hs' := Option.some.inj hs
      have e0 := congrArg (fun f => (f 0).val) hs'
      have e1 := congrArg (fun f => (f 1).val) hs'
      simp only [sc_start0, sc_start1, sc_window0, sc_window1] at e0 e1
      refine ⟨?_, Fin.ext ?_⟩
      · change _ = n.val at e0
        omega
      · change _ = q'.val at e1
        omega
    · rintro ⟨ht, rfl⟩
      congr 1
      funext a
      refine Fin.ext ?_
      rcases fin2_cases a with rfl | rfl
      · show ((scD N E W wf).start (ix2 e q) idx 0 + ((scD N E W wf).window (ix2 e q) 0 : Int)).toNat = n.val
        rw [sc_start0, sc_window0, ht]; omega
      · show ((scD N E W wf).start (ix2 e q) idx 1 + ((scD N E W wf).window (ix2 e q) 1 : Int)).toNat = q.val
        rw [sc_start1, sc_window1]; omega
  · rename_i h
    constructor
    · intro hs; exact absurd hs (by simp)
    · rintro ⟨ht, rfl⟩
      exfalso; apply h
      intro a
      rcases fin2_cases a with rfl | rfl
      · rw [sc_start0, sc_window0, ht]
        show (0 : Int) ≤ (n.val : Int) + ((0 : Nat) : Int) ∧ (n.val : Int) + ((0 : Nat) : Int) < (N : Int)
        omega
      · rw [sc_start1, sc_window1]
        show (0 : Int) ≤ 0 + (q.val : Int) ∧ 0 + (q.val : Int) < (W : Int)
        omega

/-- The scatter-add at entry (n, q): x[n, q] plus the sum over the edges e with dst[e] = n of the update (e, q). -/
theorem sc_apply (x : (⟨2, ![N, W]⟩ : Shape).Idx → EReal) (idx : IVec ⟨2, ![E, 1]⟩ w)
    (upd : (⟨2, ![E, W]⟩ : Shape).Idx → EReal) (n : Fin N) (q : Fin W) :
    Ideal.hostScatterAdd (scD N E W wf) x idx upd (ix2 n q)
      = x (ix2 n q) + ∑ e : Fin E, if (idx (ix2 e 0)).toInt = (n.val : Int) then upd (ix2 e q) else 0 := by
  show x (ix2 n q) + ∑ j ∈ Finset.univ.filter (fun j => (scD N E W wf).resultIdx? j idx = some (ix2 n q)), upd j = _
  congr 1
  rw [Finset.sum_filter, sum_idx2]
  refine Finset.sum_congr rfl fun e _ => ?_
  rw [Finset.sum_congr rfl fun q' _ => if_congr (sc_result_iff wf idx e q' q n) rfl rfl]
  by_cases ht : (idx (ix2 e 0)).toInt = (n.val : Int)
  · simp [ht]
  · simp [ht]

/-- The row gather's dimension numbers over an operand [N, W], start indices [E, 1] and a result [E, W]. -/
abbrev gaD (N E W : Nat) (wfg : GatherDims.WF ⟨2, ![N, W]⟩ ⟨2, ![E, 1]⟩ ⟨2, ![E, W]⟩ [1] [0] [] [0] [] 1 ![1, W]) :
    GatherDims ⟨2, ![N, W]⟩ ⟨2, ![E, 1]⟩ ⟨2, ![E, W]⟩ where
  offsetDims := [1]
  collapsedSliceDims := [0]
  operandBatchingDims := []
  startIndicesBatchingDims := []
  startIndexMap := [0]
  indexVectorDim := 1
  sliceSizes := ![1, W]
  wf := wfg

variable (wfg : GatherDims.WF ⟨2, ![N, W]⟩ ⟨2, ![E, 1]⟩ ⟨2, ![E, W]⟩ [1] [0] [] [0] [] 1 ![1, W])

/-- On the row axis the slice of result (e, q) starts at src[e], read signed and clamped into [0, N - 1]. -/
theorem ga_start0 (idx : IVec ⟨2, ![E, 1]⟩ w) (e : Fin E) (q : Fin W) :
    (gaD N E W wfg).start (ix2 e q) idx 0 = min (idx (ix2 e 0)).toInt.toNat (N - 1) := by
  unfold GatherDims.start
  rw [dif_pos (show (0 : Fin 2) ∈ (gaD N E W wfg).startIndexMap from List.mem_singleton.mpr rfl)]
  have hsi : (gaD N E W wfg).siIdx (ix2 e q) ⟨List.idxOf (0 : Fin 2) (gaD N E W wfg).startIndexMap,
      List.idxOf_lt_length_iff.2 (List.mem_singleton.mpr rfl)⟩ = ix2 e 0 := by
    funext b
    match b with
    | ⟨0, _⟩ => rfl
    | ⟨1, _⟩ => rfl
  rw [hsi]
  rfl

/-- On the column axis every slice starts at 0. -/
theorem ga_start1 (idx : IVec ⟨2, ![E, 1]⟩ w) (e : Fin E) (q : Fin W) :
    (gaD N E W wfg).start (ix2 e q) idx 1 = 0 := by
  unfold GatherDims.start
  rw [dif_neg (show (1 : Fin 2) ∉ ([0] : List (Fin 2)) by decide)]

/-- The row axis is collapsed: the offset coordinate there is 0. -/
theorem ga_off0 (e : Fin E) (q : Fin W) : (gaD N E W wfg).offCoord (ix2 e q) 0 = 0 := by
  unfold GatherDims.offCoord
  have h : (0 : Fin 2) ∉ (gaD N E W wfg).sKept :=
    (by decide : (0 : Fin 2) ∉ (List.finRange 2).filter (fun a => a ∉ ([0] ++ [] : List (Fin 2))))
  rw [dif_neg h]

/-- On the column axis the offset coordinate of result (e, q) is q. -/
theorem ga_off1 (e : Fin E) (q : Fin W) : (gaD N E W wfg).offCoord (ix2 e q) 1 = q.val := by
  unfold GatherDims.offCoord
  have h : (1 : Fin 2) ∈ (gaD N E W wfg).sKept :=
    (by decide : (1 : Fin 2) ∈ (List.finRange 2).filter (fun a => a ∉ ([0] ++ [] : List (Fin 2))))
  rw [dif_pos h]
  rfl

/-- The gather at (e, q): the operand at row min(src[e], N - 1), column q. -/
theorem ga_apply {α : Type} (hN : 0 < N) (H : (⟨2, ![N, W]⟩ : Shape).Idx → α) (idx : IVec ⟨2, ![E, 1]⟩ w)
    (e : Fin E) (q : Fin W) :
    Host.gather (gaD N E W wfg) H idx (ix2 e q)
      = H (ix2 ⟨min (idx (ix2 e 0)).toInt.toNat (N - 1), by omega⟩ q) := by
  unfold Host.gather
  congr 1
  funext a
  refine Fin.ext ?_
  rcases fin2_cases a with rfl | rfl
  · show (gaD N E W wfg).start (ix2 e q) idx 0 + (gaD N E W wfg).batchCoord (ix2 e q) 0
      + (gaD N E W wfg).offCoord (ix2 e q) 0 = min (idx (ix2 e 0)).toInt.toNat (N - 1)
    rw [ga_start0, ga_off0, GatherDims.batchCoord_eq_zero _ _ _ List.not_mem_nil, Nat.add_zero]
  · show (gaD N E W wfg).start (ix2 e q) idx 1 + (gaD N E W wfg).batchCoord (ix2 e q) 1
      + (gaD N E W wfg).offCoord (ix2 e q) 1 = q.val
    rw [ga_start1, ga_off1, GatherDims.batchCoord_eq_zero _ _ _ List.not_mem_nil]
    omega

/-- The gather-then-scatter-add at entry (n, q): x[n, q] plus the sum over the edges e whose target is n of H at the
    clamped source row of e, column q. -/
theorem pass_apply (hN : 0 < N) (H x : (⟨2, ![N, W]⟩ : Shape).Idx → EReal) (idxd idxs : IVec ⟨2, ![E, 1]⟩ w)
    (n : Fin N) (q : Fin W) :
    Ideal.hostScatterAdd (scD N E W wf) x idxd (Host.gather (gaD N E W wfg) H idxs) (ix2 n q)
      = x (ix2 n q) + ∑ e : Fin E, if (idxd (ix2 e 0)).toInt = (n.val : Int)
          then H (ix2 ⟨min (idxs (ix2 e 0)).toInt.toNat (N - 1), by omega⟩ q) else 0 := by
  rw [sc_apply]
  congr 1
  refine Finset.sum_congr rfl fun e _ => ?_
  rw [ga_apply wfg hN]

end Generic

end Cert.Lib.RowPass

end
-- ==== Proof.KI.Host.lean ====
/-
  The host operations of the kernel's program, read as values.

  Before the edge stage the program cuts the two rows of the edge list (source words, target words), reads x at both:
  a negative word first gets the table's length added, the read is guarded by the test 0 ≤ word ≤ 49999 with a fill
  constant where it fails (where every word names a node the wrap is the identity, the test holds everywhere and the
  fill never shows), and joins [x at source | x at target | three attributes] along the columns. Between the two
  stages it sums the edge rows into their target nodes (a row scatter-add into zeros, an edge whose target word is
  no node adding nothing), joins [x | 64 sums] along the columns, and builds the matrix whose entry (n, g) is one
  where node n's graph id is g. Each array is read at an entry and identified with the common function's edge rows,
  node rows and row sums; the weight arrays are shown untouched.
-/
import proofs.«402084_j84928683311960_2_alg».proof.Proof.Gen.KernelIdeal.Regions
import proofs.«402084_j84928683311960_2_alg».proof.Proof.Spec
import proofs.«402084_j84928683311960_2_alg».proof.Proof.LibRowGatherScatter
import Idealize.ShloMosaic.Lib.StableHlo.Run
import Idealize.ShloMosaic.Lib.ValueIdx
import Idealize.ShloMosaic.Lib.ValueLayout
import Idealize.ShloMosaic.Lib.StableHlo.Predicate
import Idealize.ShloMosaic.Lib.Pipeline.Value

set_option Elab.async false

noncomputable section

namespace Cert.KernelIdeal.Hand

open Cert.KernelIdeal Cert.KernelIdeal.Gen
open Idealize.ShloMosaic Idealize.ShloMosaic.TcCoe Idealize.ShloMosaic.ValueIdx
open Idealize.ShloMosaic.StableHlo

/-- Every index word of the edge list names a node: read signed it lies in [0, 50000). -/
def InRange (ei : (⟨2, ![2, 1600000]⟩ : Shape).Idx → BitVec 32) : Prop := ∀ i, 0 ≤ (ei i).toInt ∧ (ei i).toInt < 50000

/-! ## Words -/

/-- A word that is not negative is left alone by the wrap. -/
theorem wrap_of_nonneg (a : BitVec 32) (h : 0 ≤ a.toInt) : Cert.Spec.wrap a = a := by
  have hs : a.slt 0#32 = false := by
    simp only [BitVec.slt, show (0#32 : BitVec 32).toInt = 0 from by decide, decide_eq_false_iff_not]
    omega
  unfold Cert.Spec.wrap
  rw [hs]
  rfl

/-- "compare below zero, add the table's length, select" on one word is the wrap. -/
theorem select_slt_eq_wrap (a : BitVec 32) :
    Scalar.select (IntOp.cmpi .slt a 0#32) (IntOp.addi a 50000#32) a = Cert.Spec.wrap a := by
  show (if BitVec.ofBool (a.slt 0#32) = 1 then a + 50000#32 else a) = if a.slt 0#32 then a + 50000#32 else a
  cases a.slt 0#32 <;> rfl

/-- The range test 0 ≤ w ≤ 49999 on a word that is in range is the set bit. -/
theorem inRange_bit (w : BitVec 32) (h0 : 0 ≤ w.toInt) (h1 : w.toInt < 50000) :
    IntOp.andi (IntOp.cmpi .sge w 0#32) (IntOp.cmpi .sle w 49999#32) = 1#1 := by
  have e0 : (0#32 : BitVec 32).toInt = 0 := by decide
  have e1 : (49999#32 : BitVec 32).toInt = 49999 := by decide
  have a : (0#32 : BitVec 32).sle w = true := by
    simp only [BitVec.sle, e0, decide_eq_true_eq]; exact h0
  have b : w.sle 49999#32 = true := by
    simp only [BitVec.sle, e1, decide_eq_true_eq]; omega
  show BitVec.ofBool ((0#32 : BitVec 32).sle w) &&& BitVec.ofBool (w.sle 49999#32) = 1#1
  rw [a, b]
  rfl

/-- A fold of "and" from the set bit over set bits is the set bit. -/
theorem fold_andi_ones {ι : Type} [DecidableEq ι] (S : Finset ι) (f : ι → BitVec 1) (hf : ∀ i ∈ S, f i = 1#1) :
    S.fold IntOp.andi 1#1 f = 1#1 := by
  induction S using Finset.cons_induction with
  | empty => rfl
  | cons a S ha ih =>
    rw [Finset.fold_cons, hf a (Finset.mem_cons_self a S), ih (fun i hi => hf i (Finset.mem_cons_of_mem hi))]
    rfl

/-- A word equals the word of a small number exactly when it reads, signed, as that number. -/
theorem eq_ofNat_iff_toInt (w : BitVec 32) (g : Nat) (hg : g < 16) : w = BitVec.ofNat 32 g ↔ w.toInt = (g : Int) := by
  constructor
  · rintro rfl
    exact StableHlo.Predicate.toInt_ofNat_small g (by omega)
  · intro h
    apply BitVec.eq_of_toInt_eq
    rw [h, StableHlo.Predicate.toInt_ofNat_small g (by omega)]

/-! ## The two rows of the edge list -/

/-- Row 0 of the [2, E] edge list, as a vector of E words. -/
theorem row0_apply (ei : S2x1600000.Idx → BitVec 32) (hs : S2x1600000.Slices ![0, 0] S1x1600000)
    (hc : S1x1600000.ShapeCasts S1600000) (e : Fin 1600000) :
    shapeCast S1600000 (extractStridedSlice S1x1600000 ![0, 0] ei hs) hc (ix1 e) = ei (ix2 0 e) := by
  refine (shapeCast_apply _ hc (ix1 e) (ix2 (0 : Fin 1) e) ?_).trans ?_
  · rw [Shape.rowMajor_val_two, Shape.rowMajor_val_one]
    show 0 * 1600000 + e.val = e.val
    omega
  · refine extractStridedSlice_apply _ ei hs (ix2 (0 : Fin 1) e) (ix2 (0 : Fin 2) e) ?_
    intro a
    match a with
    | ⟨0, _⟩ => rfl
    | ⟨1, _⟩ => show e.val = 0 + e.val; omega

/-- Row 1 likewise. -/
theorem row1_apply (ei : S2x1600000.Idx → BitVec 32) (hs : S2x1600000.Slices ![1, 0] S1x1600000)
    (hc : S1x1600000.ShapeCasts S1600000) (e : Fin 1600000) :
    shapeCast S1600000 (extractStridedSlice S1x1600000 ![1, 0] ei hs) hc (ix1 e) = ei (ix2 1 e) := by
  refine (shapeCast_apply _ hc (ix1 e) (ix2 (0 : Fin 1) e) ?_).trans ?_
  · rw [Shape.rowMajor_val_two, Shape.rowMajor_val_one]
    show 0 * 1600000 + e.val = e.val
    omega
  · refine extractStridedSlice_apply _ ei hs (ix2 (0 : Fin 1) e) (ix2 (1 : Fin 2) e) ?_
    intro a
    match a with
    | ⟨0, _⟩ => rfl
    | ⟨1, _⟩ => show e.val = 0 + e.val; omega

/-! ## The take x[·] as the program spells it -/

/-- A negative index word gets the table's length added. -/
def wrapVec (a : IVec S1600000 32) : IVec S1600000 32 :=
  select (cmpi .slt a (broadcastInDim S1600000 ![] bcast_S_S1600000 (constantI S_ 32 0#32)))
    (addi a (broadcastInDim S1600000 ![] bcast_S_S1600000 (constantI S_ 32 50000#32))) a

/-- A vector of E words as an [E, 1] column. -/
def colOf (a : IVec S1600000 32) : IVec S1600000x1 32 :=
  broadcastInDim S1600000x1 ![0] bcast_S1600000_S1600000x1_0 a

/-- The range test 0 ≤ · ≤ 49999 of every row of the column, and-reduced over the row's one entry. -/
def okVec (v : IVec S1600000x1 32) : IVec S1600000 1 :=
  Host.reduce IntOp.andi
    (andi (cmpi .sge v (broadcastInDim S1600000x1 ![] bcast_S_S1600000x1 (constantI S_ 32 0#32)))
      (cmpi .sle v (broadcastInDim S1600000x1 ![0, 1] bcast_S1x1_S1600000x1_0_1
        (broadcastInDim S1x1 ![1] bcast_S1_S1x1_1 (constantI S1 32 49999#32)))))
    (constantI S_ 1 1#1) reducesTo_S1600000x1_S1600000_d1 h_S_

/-- x gathered at the wrapped index where the index is in range, the fill constant elsewhere. -/
def takeVec {F : FTy → Type} [FloatOps F] (x : FVec F S50000x1 .f32) (a : IVec S1600000 32) : FVec F S1600000x1 .f32 :=
  select (broadcastInDim S1600000x1 ![0] bcast_S1600000_S1600000x1_0 (okVec (colOf (wrapVec a))))
    (Host.gather gather_S50000x1_S1600000x1_S1600000x1_1_0_n_n_0_1_11 x (colOf (wrapVec a)))
    (broadcastInDim S1600000x1 ![] bcast_S_S1600000x1 (constant (F := F) S_ .f32 0x7FC00000#32))

theorem wrapVec_apply (a : IVec S1600000 32) (i : S1600000.Idx) : wrapVec a i = Cert.Spec.wrap (a i) :=
  select_slt_eq_wrap (a i)

theorem colOf_apply (a : IVec S1600000 32) (e : Fin 1600000) (q : Fin 1) : colOf a (ix2 e q) = a (ix1 e) := by
  refine broadcastInDim_apply _ _ a (ix2 e q) (ix1 e) ?_
  intro b
  match b with
  | ⟨0, _⟩ => exact (if_neg (by decide : ¬ (1600000 : Nat) = 1)).symm

/-- Where every word of the column is in range the test's vector is all ones. -/
theorem okVec_of_inRange (v : IVec S1600000x1 32) (h : ∀ j, 0 ≤ (v j).toInt ∧ (v j).toInt < 50000) (i : S1600000.Idx) :
    okVec v i = 1#1 := by
  unfold okVec
  rw [Host.reduce_eq_fold]
  exact fold_andi_ones _ _ (fun j _ => inRange_bit (v j) (h j).1 (h j).2)

/-- The take read at row e, where every index word is in range: x at the node the word names. -/
theorem takeVec_apply (x : FVec Ideal S50000x1 .f32) (a : IVec S1600000 32)
    (ha : ∀ i, 0 ≤ (a i).toInt ∧ (a i).toInt < 50000) (e : Fin 1600000) (q : Fin 1) :
    takeVec x a (ix2 e q) = x (ix2 (Cert.Spec.nodeOf (Cert.Spec.wrap (a (ix1 e)))) 0) := by
  have hw : ∀ i, wrapVec a i = a i := fun i => (wrapVec_apply a i).trans (wrap_of_nonneg _ (ha i).1)
  have hok : ∀ i, okVec (colOf (wrapVec a)) i = 1#1 :=
    okVec_of_inRange _ (fun j => by
      unfold colOf broadcastInDim
      rw [hw]
      exact ha _)
  have hq : q = 0 := Subsingleton.elim _ _
  subst hq
  unfold takeVec
  rw [select_apply]
  have hc : broadcastInDim S1600000x1 ![0] bcast_S1600000_S1600000x1_0 (okVec (colOf (wrapVec a))) (ix2 e 0) = 1#1 := by
    unfold broadcastInDim
    exact hok _
  rw [hc, select_one]
  show Host.gather (Cert.Lib.RowPass.gaD 50000 1600000 1 gather_S50000x1_S1600000x1_S1600000x1_1_0_n_n_0_1_11_wf) x
      (colOf (wrapVec a)) (ix2 e 0) = _
  rw [Cert.Lib.RowPass.ga_apply _ (by decide)]
  refine congrArg (fun r : Fin 50000 => x (ix2 r (0 : Fin 1))) (Fin.ext ?_)
  show min (colOf (wrapVec a) (ix2 e 0)).toInt.toNat (50000 - 1) = min (Cert.Spec.wrap (a (ix1 e))).toInt.toNat 49999
  rw [colOf_apply, wrapVec_apply]

/-! ## The concatenations along the columns -/

/-- The edge rows [x at source | x at target | three attributes] read at (e, q). -/
theorem concat3_apply (u0 u1 : S1600000x1.Idx → EReal) (u2 : S1600000x3.Idx → EReal)
    (h : Shape.Concatenates [S1600000x1, S1600000x1, S1600000x3] S1600000x5 1) (e : Fin 1600000) (q : Fin 5) :
    concatenate S1600000x5 1 [⟨S1600000x1, u0⟩, ⟨S1600000x1, u1⟩, ⟨S1600000x3, u2⟩] h (ix2 e q)
      = if q.val = 0 then u0 (ix2 e 0)
        else if hq : q.val = 1 then u1 (ix2 e 0)
        else u2 (ix2 e ⟨q.val - 2, by have := q.isLt; omega⟩) := by
  have hq5 := q.isLt
  split_ifs with h0 h1
  · refine concatenate_apply_piece (t := S1600000x5) (1 : Fin 2) [⟨S1600000x1, u0⟩, ⟨S1600000x1, u1⟩, ⟨S1600000x3, u2⟩] h (ix2 e q) 0 (by show (0 : Nat) < 3; omega) S1600000x1 u0 rfl rfl 0 rfl (ix2 e 0) ?_ ?_
    · intro b hb
      match b with
      | ⟨0, _⟩ => rfl
      | ⟨1, _⟩ => exact absurd rfl hb
    · show 0 + 0 = q.val
      omega
  · refine concatenate_apply_piece (t := S1600000x5) (1 : Fin 2) [⟨S1600000x1, u0⟩, ⟨S1600000x1, u1⟩, ⟨S1600000x3, u2⟩] h (ix2 e q) 1 (by show (1 : Nat) < 3; omega) S1600000x1 u1 rfl rfl 1 rfl (ix2 e 0) ?_ ?_
    · intro b hb
      match b with
      | ⟨0, _⟩ => rfl
      | ⟨1, _⟩ => exact absurd rfl hb
    · show 1 + 0 = q.val
      omega
  · refine concatenate_apply_piece (t := S1600000x5) (1 : Fin 2) [⟨S1600000x1, u0⟩, ⟨S1600000x1, u1⟩, ⟨S1600000x3, u2⟩] h (ix2 e q) 2 (by show (2 : Nat) < 3; omega) S1600000x3 u2 rfl rfl 2 rfl
      (ix2 e ⟨q.val - 2, by omega⟩) ?_ ?_
    · intro b hb
      match b with
      | ⟨0, _⟩ => rfl
      | ⟨1, _⟩ => exact absurd rfl hb
    · show 2 + (q.val - 2) = q.val
      omega

/-- The node rows [x | 64 summed edge entries] read at (n, q). -/
theorem concat2_apply (u0 : S50000x1.Idx → EReal) (u1 : S50000x64.Idx → EReal)
    (h : Shape.Concatenates [S50000x1, S50000x64] S50000x65 1) (n : Fin 50000) (q : Fin 65) :
    concatenate S50000x65 1 [⟨S50000x1, u0⟩, ⟨S50000x64, u1⟩] h (ix2 n q)
      = if hq : q.val = 0 then u0 (ix2 n 0)
        else u1 (ix2 n ⟨q.val - 1, by have := q.isLt; omega⟩) := by
  have hq65 := q.isLt
  split_ifs with h0
  · refine concatenate_apply_piece (t := S50000x65) (1 : Fin 2) [⟨S50000x1, u0⟩, ⟨S50000x64, u1⟩] h (ix2 n q) 0 (by show (0 : Nat) < 2; omega) S50000x1 u0 rfl rfl 0 rfl (ix2 n 0) ?_ ?_
    · intro b hb
      match b with
      | ⟨0, _⟩ => rfl
      | ⟨1, _⟩ => exact absurd rfl hb
    · show 0 + 0 = q.val
      omega
  · refine concatenate_apply_piece (t := S50000x65) (1 : Fin 2) [⟨S50000x1, u0⟩, ⟨S50000x64, u1⟩] h (ix2 n q) 1 (by show (1 : Nat) < 2; omega) S50000x64 u1 rfl rfl 1 rfl
      (ix2 n ⟨q.val - 1, by omega⟩) ?_ ?_
    · intro b hb
      match b with
      | ⟨0, _⟩ => rfl
      | ⟨1, _⟩ => exact absurd rfl hb
    · show 1 + (q.val - 1) = q.val
      omega

/-! ## The sum of the edge rows into their target nodes, and the one-hot matrix of the graph ids -/

/-- The edge rows scatter-added into zeros [50000, 64] by the column of target words. -/
def aggVec {F : FTy → Type} [FloatOps F] (idx : IVec S1600000 32) (upd : FVec F S1600000x64 .f32) : FVec F S50000x64 .f32 :=
  Host.scatterAdd scatter_S50000x64_S1600000x1_S1600000x64_1_0_0_1
    (broadcastInDim S50000x64 ![] bcast_S_S50000x64 (constant (F := F) S_ .f32 0x00000000#32))
    (colOf idx) upd

/-- The printed dimension numbers are the row scatter's. -/
theorem scatter_dims_eq :
    scatter_S50000x64_S1600000x1_S1600000x64_1_0_0_1
      = Cert.Lib.RowPass.scD 50000 1600000 64 scatter_S50000x64_S1600000x1_S1600000x64_1_0_0_1_wf := rfl

/-- Entry (n, q) is zero plus the sum of the entries (e, q) of the edges whose target word, read signed, is n:
    the rows summed by the signed target word. -/
theorem aggVec_eq (idx : S1600000.Idx → BitVec 32) (upd : S1600000x64.Idx → EReal) :
    aggVec (F := Ideal) idx upd = Cert.Spec.segsum (fun j : Fin 1600000 => (idx (ix1 j)).toInt) upd := by
  funext i
  obtain ⟨n, q, rfl⟩ : ∃ (n : Fin 50000) (q : Fin 64), i = ix2 n q := ⟨i 0, i 1, eq_ix2 i⟩
  rw [aggVec, Host.scatterAdd]
  rw [Ideal.hostScatterAdd_def, scatter_dims_eq, Cert.Lib.RowPass.sc_apply]
  simp only [colOf_apply]
  show Ideal.ofBits .f32 0x00000000#32 + _ = 0 + _
  rw [Ideal.ofBits_zero_f32]

/-- convert (graph id = position), the graph ids along the rows and the positions 0..15 along the columns. -/
def oneHotVec {F : FTy → Type} [FloatOps F] (bt : IVec S50000 32) : FVec F S50000x16 .f32 :=
  uitofp .f32 (cmpi .eq
    (broadcastInDim S50000x16 ![0, 1] bcast_S50000x1_S50000x16_0_1 (broadcastInDim S50000x1 ![0] bcast_S50000_S50000x1_0 bt))
    (broadcastInDim S50000x16 ![0, 1] bcast_S1x16_S50000x16_0_1 (broadcastInDim S1x16 ![1] bcast_S16_S1x16_1 (iotaInDim S16 32 0))))

/-- A converted bit at an index is the bit's value as a real. -/
theorem uitofp_bit_apply {s : Shape} (x : IVec s 1) (i : s.Idx) :
    (uitofp .f32 x : FVec Ideal s .f32) i = (((x i).toNat : ℝ) : EReal) := rfl

/-- A word compare at an index compares the words there. -/
theorem cmpi_apply {s : Shape} {w : Nat} (p : CmpIPredicate) (x y : IVec s w) (i : s.Idx) :
    cmpi p x y i = IntOp.cmpi p (x i) (y i) := rfl

/-- At (n, g): one where node n's graph id, read signed, is g, zero elsewhere. -/
theorem oneHotVec_apply (bt : IVec S50000 32) (n : Fin 50000) (g : Fin 16) :
    oneHotVec (F := Ideal) bt (ix2 n g) = (if (bt (ix1 n)).toInt = (g.val : Int) then 1 else 0 : EReal) := by
  have hL : broadcastInDim S50000x16 ![0, 1] bcast_S50000x1_S50000x16_0_1
      (broadcastInDim S50000x1 ![0] bcast_S50000_S50000x1_0 bt) (ix2 n g) = bt (ix1 n) := by
    refine (broadcastInDim_apply _ _ _ (ix2 n g) (ix2 n (0 : Fin 1)) ?_).trans
      (broadcastInDim_apply _ _ bt (ix2 n (0 : Fin 1)) (ix1 n) ?_)
    · intro b
      match b with
      | ⟨0, _⟩ => exact (if_neg (by decide : ¬ (50000 : Nat) = 1)).symm
      | ⟨1, _⟩ => exact (if_pos rfl).symm
    · intro b
      match b with
      | ⟨0, _⟩ => exact (if_neg (by decide : ¬ (50000 : Nat) = 1)).symm
  have hR : broadcastInDim S50000x16 ![0, 1] bcast_S1x16_S50000x16_0_1
      (broadcastInDim S1x16 ![1] bcast_S16_S1x16_1 (iotaInDim S16 32 0)) (ix2 n g) = BitVec.ofNat 32 g.val := by
    refine (broadcastInDim_apply _ _ _ (ix2 n g) (ix2 (0 : Fin 1) g) ?_).trans
      ((broadcastInDim_apply _ _ (iotaInDim S16 32 0) (ix2 (0 : Fin 1) g) (ix1 g) ?_).trans rfl)
    · intro b
      match b with
      | ⟨0, _⟩ => exact (if_pos rfl).symm
      | ⟨1, _⟩ => exact (if_neg (by decide : ¬ (16 : Nat) = 1)).symm
    · intro b
      match b with
      | ⟨0, _⟩ => exact (if_neg (by decide : ¬ (16 : Nat) = 1)).symm
  unfold oneHotVec
  rw [uitofp_bit_apply, cmpi_apply, hL, hR]
  by_cases hw : bt (ix1 n) = BitVec.ofNat 32 g.val
  · rw [if_pos ((eq_ofNat_iff_toInt _ _ g.isLt).1 hw), StableHlo.Predicate.cmpi_eq_iff.2 hw]
    simp
  · rw [if_neg (fun h => hw ((eq_ofNat_iff_toInt _ _ g.isLt).2 h)),
      eq_zero_of_ne_one (fun h => hw (StableHlo.Predicate.cmpi_eq_iff.1 h))]
    simp

/-! ## The take's 23 operations over plain references

The program states the take inside a function called twice, its operations over references that carry their tensor
type; at the literal references of each call every such operation is the plain operation with the same function. -/

section PlainTake
variable {F : FTy → Type} [FloatOps F]

/-- The first call's operations (x taken at the source words). -/
abbrev takeOps0 : List (HloOp τ sig (Elt F)) :=
  [
    StableHlo.nullary main_call0_c ((constantI S_ 32 0#32) : (⟨S_, .i32⟩ : BufTy).Contents (Elt F)),
    StableHlo.unary main_call0_c main_call0_v0 (((broadcastInDim S1600000 ![] bcast_S_S1600000)) : (⟨S_, .i32⟩ : BufTy).Contents (Elt F) → (⟨S1600000, .i32⟩ : BufTy).Contents (Elt F)),
    StableHlo.binary main_v1 main_call0_v0 main_call0_v1 (((cmpi .slt)) : (⟨S1600000, .i32⟩ : BufTy).Contents (Elt F) → (⟨S1600000, .i32⟩ : BufTy).Contents (Elt F) → (⟨S1600000, .i1⟩ : BufTy).Contents (Elt F)),
    StableHlo.nullary main_call0_c_0 ((constantI S_ 32 50000#32) : (⟨S_, .i32⟩ : BufTy).Contents (Elt F)),
    StableHlo.unary main_call0_c_0 main_call0_v2 (((broadcastInDim S1600000 ![] bcast_S_S1600000)) : (⟨S_, .i32⟩ : BufTy).Contents (Elt F) → (⟨S1600000, .i32⟩ : BufTy).Contents (Elt F)),
    StableHlo.binary main_v1 main_call0_v2 main_call0_v3 ((addi) : (⟨S1600000, .i32⟩ : BufTy).Contents (Elt F) → (⟨S1600000, .i32⟩ : BufTy).Contents (Elt F) → (⟨S1600000, .i32⟩ : BufTy).Contents (Elt F)),
    StableHlo.ternary main_call0_v1 main_call0_v3 main_v1 main_call0_v4 ((select) : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_call0_v4 main_call0_v5 (((broadcastInDim S1600000x1 ![0] bcast_S1600000_S1600000x1_0)) : (⟨S1600000, .i32⟩ : BufTy).Contents (Elt F) → (⟨S1600000x1, .i32⟩ : BufTy).Contents (Elt F)),
    StableHlo.nullary main_call0_c_1 ((constantI S1 32 49999#32) : (⟨S1, .i32⟩ : BufTy).Contents (Elt F)),
    StableHlo.nullary main_call0_c_2 ((constantI S_ 32 0#32) : (⟨S_, .i32⟩ : BufTy).Contents (Elt F)),
    StableHlo.unary main_call0_c_2 main_call0_v6 (((broadcastInDim S1600000x1 ![] bcast_S_S1600000x1)) : (⟨S_, .i32⟩ : BufTy).Contents (Elt F) → (⟨S1600000x1, .i32⟩ : BufTy).Contents (Elt F)),
    StableHlo.binary main_call0_v5 main_call0_v6 main_call0_v7 (((cmpi .sge)) : (⟨S1600000x1, .i32⟩ : BufTy).Contents (Elt F) → (⟨S1600000x1, .i32⟩ : BufTy).Contents (Elt F) → (⟨S1600000x1, .i1⟩ : BufTy).Contents (Elt F)),
    StableHlo.unary main_call0_c_1 main_call0_v8 (((broadcastInDim S1x1 ![1] bcast_S1_S1x1_1)) : (⟨S1, .i32⟩ : BufTy).Contents (Elt F) → (⟨S1x1, .i32⟩ : BufTy).Contents (Elt F)),
    StableHlo.unary main_call0_v8 main_call0_v9 (((broadcastInDim S1600000x1 ![0, 1] bcast_S1x1_S1600000x1_0_1)) : (⟨S1x1, .i32⟩ : BufTy).Contents (Elt F) → (⟨S1600000x1, .i32⟩ : BufTy).Contents (Elt F)),
    StableHlo.binary main_call0_v5 main_call0_v9 main_call0_v10 (((cmpi .sle)) : (⟨S1600000x1, .i32⟩ : BufTy).Contents (Elt F) → (⟨S1600000x1, .i32⟩ : BufTy).Contents (Elt F) → (⟨S1600000x1, .i1⟩ : BufTy).Contents (Elt F)),
    StableHlo.binary main_call0_v7 main_call0_v10 main_call0_v11 ((andi) : (⟨S1600000x1, .i1⟩ : BufTy).Contents (Elt F) → (⟨S1600000x1, .i1⟩ : BufTy).Contents (Elt F) → (⟨S1600000x1, .i1⟩ : BufTy).Contents (Elt F)),
    StableHlo.nullary main_call0_c_3 ((constantI S_ 1 1#1) : (⟨S_, .i1⟩ : BufTy).Contents (Elt F)),
    StableHlo.binary main_call0_v11 main_call0_c_3 main_call0_v12 (((fun x v => Host.reduce IntOp.andi x v reducesTo_S1600000x1_S1600000_d1 h_S_)) : (⟨S1600000x1, .i1⟩ : BufTy).Contents (Elt F) → (⟨S_, .i1⟩ : BufTy).Contents (Elt F) → (⟨S1600000, .i1⟩ : BufTy).Contents (Elt F)),
    StableHlo.binary main_arg0 main_call0_v5 main_call0_v13 (((fun x i => Host.gather gather_S50000x1_S1600000x1_S1600000x1_1_0_n_n_0_1_11 x i)) : (⟨S50000x1, .f32⟩ : BufTy).Contents (Elt F) → (⟨S1600000x1, .i32⟩ : BufTy).Contents (Elt F) → (⟨S1600000x1, .f32⟩ : BufTy).Contents (Elt F)),
    StableHlo.unary main_call0_v12 main_call0_v14 (((broadcastInDim S1600000x1 ![0] bcast_S1600000_S1600000x1_0)) : (⟨S1600000, .i1⟩ : BufTy).Contents (Elt F) → (⟨S1600000x1, .i1⟩ : BufTy).Contents (Elt F)),
    StableHlo.nullary main_call0_cst ((constant S_ .f32 0x7FC00000#32) : (⟨S_, .f32⟩ : BufTy).Contents (Elt F)),
    StableHlo.unary main_call0_cst main_call0_v15 (((broadcastInDim S1600000x1 ![] bcast_S_S1600000x1)) : (⟨S_, .f32⟩ : BufTy).Contents (Elt F) → (⟨S1600000x1, .f32⟩ : BufTy).Contents (Elt F)),
    StableHlo.ternary main_call0_v14 main_call0_v13 main_call0_v15 main_v4 ((select) : (⟨S1600000x1, .i1⟩ : BufTy).Contents (Elt F) → (⟨S1600000x1, .f32⟩ : BufTy).Contents (Elt F) → (⟨S1600000x1, .f32⟩ : BufTy).Contents (Elt F) → (⟨S1600000x1, .f32⟩ : BufTy).Contents (Elt F)) ]

/-- The second call's operations (x taken at the target words). -/
abbrev takeOps1 : List (HloOp τ sig (Elt F)) :=
  [
    StableHlo.nullary main_call1_c ((constantI S_ 32 0#32) : (⟨S_, .i32⟩ : BufTy).Contents (Elt F)),
    StableHlo.unary main_call1_c main_call1_v0 (((broadcastInDim S1600000 ![] bcast_S_S1600000)) : (⟨S_, .i32⟩ : BufTy).Contents (Elt F) → (⟨S1600000, .i32⟩ : BufTy).Contents (Elt F)),
    StableHlo.binary main_v3 main_call1_v0 main_call1_v1 (((cmpi .slt)) : (⟨S1600000, .i32⟩ : BufTy).Contents (Elt F) → (⟨S1600000, .i32⟩ : BufTy).Contents (Elt F) → (⟨S1600000, .i1⟩ : BufTy).Contents (Elt F)),
    StableHlo.nullary main_call1_c_0 ((constantI S_ 32 50000#32) : (⟨S_, .i32⟩ : BufTy).Contents (Elt F)),
    StableHlo.unary main_call1_c_0 main_call1_v2 (((broadcastInDim S1600000 ![] bcast_S_S1600000)) : (⟨S_, .i32⟩ : BufTy).Contents (Elt F) → (⟨S1600000, .i32⟩ : BufTy).Contents (Elt F)),
    StableHlo.binary main_v3 main_call1_v2 main_call1_v3 ((addi) : (⟨S1600000, .i32⟩ : BufTy).Contents (Elt F) → (⟨S1600000, .i32⟩ : BufTy).Contents (Elt F) → (⟨S1600000, .i32⟩ : BufTy).Contents (Elt F)),
    StableHlo.ternary main_call1_v1 main_call1_v3 main_v3 main_call1_v4 ((select) : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_call1_v4 main_call1_v5 (((broadcastInDim S1600000x1 ![0] bcast_S1600000_S1600000x1_0)) : (⟨S1600000, .i32⟩ : BufTy).Contents (Elt F) → (⟨S1600000x1, .i32⟩ : BufTy).Contents (Elt F)),
    StableHlo.nullary main_call1_c_1 ((constantI S1 32 49999#32) : (⟨S1, .i32⟩ : BufTy).Contents (Elt F)),
    StableHlo.nullary main_call1_c_2 ((constantI S_ 32 0#32) : (⟨S_, .i32⟩ : BufTy).Contents (Elt F)),
    StableHlo.unary main_call1_c_2 main_call1_v6 (((broadcastInDim S1600000x1 ![] bcast_S_S1600000x1)) : (⟨S_, .i32⟩ : BufTy).Contents (Elt F) → (⟨S1600000x1, .i32⟩ : BufTy).Contents (Elt F)),
    StableHlo.binary main_call1_v5 main_call1_v6 main_call1_v7 (((cmpi .sge)) : (⟨S1600000x1, .i32⟩ : BufTy).Contents (Elt F) → (⟨S1600000x1, .i32⟩ : BufTy).Contents (Elt F) → (⟨S1600000x1, .i1⟩ : BufTy).Contents (Elt F)),
    StableHlo.unary main_call1_c_1 main_call1_v8 (((broadcastInDim S1x1 ![1] bcast_S1_S1x1_1)) : (⟨S1, .i32⟩ : BufTy).Contents (Elt F) → (⟨S1x1, .i32⟩ : BufTy).Contents (Elt F)),
    StableHlo.unary main_call1_v8 main_call1_v9 (((broadcastInDim S1600000x1 ![0, 1] bcast_S1x1_S1600000x1_0_1)) : (⟨S1x1, .i32⟩ : BufTy).Contents (Elt F) → (⟨S1600000x1, .i32⟩ : BufTy).Contents (Elt F)),
    StableHlo.binary main_call1_v5 main_call1_v9 main_call1_v10 (((cmpi .sle)) : (⟨S1600000x1, .i32⟩ : BufTy).Contents (Elt F) → (⟨S1600000x1, .i32⟩ : BufTy).Contents (Elt F) → (⟨S1600000x1, .i1⟩ : BufTy).Contents (Elt F)),
    StableHlo.binary main_call1_v7 main_call1_v10 main_call1_v11 ((andi) : (⟨S1600000x1, .i1⟩ : BufTy).Contents (Elt F) → (⟨S1600000x1, .i1⟩ : BufTy).Contents (Elt F) → (⟨S1600000x1, .i1⟩ : BufTy).Contents (Elt F)),
    StableHlo.nullary main_call1_c_3 ((constantI S_ 1 1#1) : (⟨S_, .i1⟩ : BufTy).Contents (Elt F)),
    StableHlo.binary main_call1_v11 main_call1_c_3 main_call1_v12 (((fun x v => Host.reduce IntOp.andi x v reducesTo_S1600000x1_S1600000_d1 h_S_)) : (⟨S1600000x1, .i1⟩ : BufTy).Contents (Elt F) → (⟨S_, .i1⟩ : BufTy).Contents (Elt F) → (⟨S1600000, .i1⟩ : BufTy).Contents (Elt F)),
    StableHlo.binary main_arg0 main_call1_v5 main_call1_v13 (((fun x i => Host.gather gather_S50000x1_S1600000x1_S1600000x1_1_0_n_n_0_1_11 x i)) : (⟨S50000x1, .f32⟩ : BufTy).Contents (Elt F) → (⟨S1600000x1, .i32⟩ : BufTy).Contents (Elt F) → (⟨S1600000x1, .f32⟩ : BufTy).Contents (Elt F)),
    StableHlo.unary main_call1_v12 main_call1_v14 (((broadcastInDim S1600000x1 ![0] bcast_S1600000_S1600000x1_0)) : (⟨S1600000, .i1⟩ : BufTy).Contents (Elt F) → (⟨S1600000x1, .i1⟩ : BufTy).Contents (Elt F)),
    StableHlo.nullary main_call1_cst ((constant S_ .f32 0x7FC00000#32) : (⟨S_, .f32⟩ : BufTy).Contents (Elt F)),
    StableHlo.unary main_call1_cst main_call1_v15 (((broadcastInDim S1600000x1 ![] bcast_S_S1600000x1)) : (⟨S_, .f32⟩ : BufTy).Contents (Elt F) → (⟨S1600000x1, .f32⟩ : BufTy).Contents (Elt F)),
    StableHlo.ternary main_call1_v14 main_call1_v13 main_call1_v15 main_v5 ((select) : (⟨S1600000x1, .i1⟩ : BufTy).Contents (Elt F) → (⟨S1600000x1, .f32⟩ : BufTy).Contents (Elt F) → (⟨S1600000x1, .f32⟩ : BufTy).Contents (Elt F) → (⟨S1600000x1, .f32⟩ : BufTy).Contents (Elt F)) ]

attribute [local irreducible] Host.reduce Host.gather in
theorem hostOps0_1_plain : (hostOps0_1 : List (HloOp τ sig (Elt F))) = takeOps0 := rfl
attribute [local irreducible] Host.reduce Host.gather in
theorem hostOps0_2_plain : (hostOps0_2 : List (HloOp τ sig (Elt F))) = takeOps1 := rfl

end PlainTake
/-! ## Each stretch of host operations as a pure term of the buffers before it -/

section Stretches
variable {F : FTy → Type} [FloatOps F] (W : Valuation τ sig (Elt F))

theorem ops0_v1 :
    (StableHlo.after hostOps0 W (Proc.devRef .tc main_v1) : (⟨S1600000, .i32⟩ : BufTy).Contents (Elt F))
      = shapeCast S1600000 (extractStridedSlice S1x1600000 ![0, 0] (W (Proc.devRef .tc main_arg1)) slices_S2x1600000_S1x1600000_0_0)
          shapeCasts_S1x1600000_S1600000 := by
  after_results
  all_goals rfl

theorem ops0_v3 :
    (StableHlo.after hostOps0 W (Proc.devRef .tc main_v3) : (⟨S1600000, .i32⟩ : BufTy).Contents (Elt F))
      = shapeCast S1600000 (extractStridedSlice S1x1600000 ![1, 0] (W (Proc.devRef .tc main_arg1)) slices_S2x1600000_S1x1600000_1_0)
          shapeCasts_S1x1600000_S1600000 := by
  after_results
  all_goals rfl

set_option maxHeartbeats 1000000 in
theorem ops0_1_v4 :
    (StableHlo.after hostOps0_1 W (Proc.devRef .tc main_v4) : (⟨S1600000x1, .f32⟩ : BufTy).Contents (Elt F))
      = takeVec (W (Proc.devRef .tc main_arg0)) (W (Proc.devRef .tc main_v1)) := by
  rw [hostOps0_1_plain]
  after_results
  all_goals rfl

set_option maxHeartbeats 1000000 in
theorem ops0_2_v5 :
    (StableHlo.after hostOps0_2 W (Proc.devRef .tc main_v5) : (⟨S1600000x1, .f32⟩ : BufTy).Contents (Elt F))
      = takeVec (W (Proc.devRef .tc main_arg0)) (W (Proc.devRef .tc main_v3)) := by
  rw [hostOps0_2_plain]
  after_results_simp
  all_goals rfl

theorem ops0_3_v6 :
    (StableHlo.after hostOps0_3 W (Proc.devRef .tc main_v6) : (⟨S1600000x5, .f32⟩ : BufTy).Contents (Elt F))
      = concatenate S1600000x5 1 [⟨S1600000x1, W (Proc.devRef .tc main_v4)⟩, ⟨S1600000x1, W (Proc.devRef .tc main_v5)⟩,
          ⟨S1600000x3, W (Proc.devRef .tc main_arg2)⟩] concatenates_S1600000x1_S1600000x1_S1600000x3_S1600000x5_d1 := by
  after_results
  all_goals rfl

theorem ops1_v11 :
    (StableHlo.after hostOps1 W (Proc.devRef .tc main_v11) : (⟨S50000x65, .f32⟩ : BufTy).Contents (Elt F))
      = concatenate S50000x65 1 [⟨S50000x1, W (Proc.devRef .tc main_arg0)⟩,
          ⟨S50000x64, aggVec (W (Proc.devRef .tc main_v3)) (W (Proc.devRef .tc main_v7))⟩]
          concatenates_S50000x1_S50000x64_S50000x65_d1 := by
  after_results
  all_goals rfl

theorem ops1_v18 :
    (StableHlo.after hostOps1 W (Proc.devRef .tc main_v18) : (⟨S50000x16, .f32⟩ : BufTy).Contents (Elt F))
      = oneHotVec (W (Proc.devRef .tc main_arg3)) := by
  after_results
  all_goals rfl

end Stretches

/-! ## What the regions find in the buffers they read -/

section Exports
variable (m : (ℓ : Loc nD τ sig) → Buf (Elt Ideal) ℓ) (outs : Gen.Outs (F := Ideal)) (c : Dev nD)

/-- A buffer none of the four stretches before the edge stage writes is still the launch memory's there. -/
theorem V4_keep (r : Ref sig .tc) (h0 : r ∉ hostOps0_W) (h1 : r ∉ hostOps0_1_W) (h2 : r ∉ hostOps0_2_W)
    (h3 : r ∉ hostOps0_3_W) : Gen.V4 m c (Proc.devRef .tc r) = m ((c : Thread nD τ).loc r) :=
  (V4_of m c r h3).trans <| (V3_of m c r h2).trans <| (V2_of m c r h1).trans <| (V1_of m c r h0).trans rfl

/-- A buffer no stretch writes and the edge stage may not change is still the launch memory's at the node stage. -/
theorem V6_keep (r : Ref sig .tc) (h0 : r ∉ hostOps0_W) (h1 : r ∉ hostOps0_1_W)
    (h2 : r ∉ hostOps0_2_W) (h3 : r ∉ hostOps0_3_W) (h5 : r ∉ ([main_v7] : List (Ref sig .tc))) (h6 : r ∉ hostOps1_W) :
    Gen.V6 m outs c (Proc.devRef .tc r) = m ((c : Thread nD τ).loc r) :=
  (V6_of m outs c r h6).trans <| (V5_of m outs c r h5).trans <| V4_keep m c r h0 h1 h2 h3

/-- The source words (row 0 of the edge list) and the target words (row 1), as vectors. -/
def srcOf (ei : S2x1600000.Idx → BitVec 32) : IVec S1600000 32 :=
  shapeCast S1600000 (extractStridedSlice S1x1600000 ![0, 0] ei slices_S2x1600000_S1x1600000_0_0) shapeCasts_S1x1600000_S1600000
def dstOf (ei : S2x1600000.Idx → BitVec 32) : IVec S1600000 32 :=
  shapeCast S1600000 (extractStridedSlice S1x1600000 ![1, 0] ei slices_S2x1600000_S1x1600000_1_0) shapeCasts_S1x1600000_S1600000

theorem srcOf_apply (ei : S2x1600000.Idx → BitVec 32) (e : Fin 1600000) : srcOf ei (ix1 e) = ei (ix2 0 e) :=
  row0_apply ei _ _ e
theorem dstOf_apply (ei : S2x1600000.Idx → BitVec 32) (e : Fin 1600000) : dstOf ei (ix1 e) = ei (ix2 1 e) :=
  row1_apply ei _ _ e
theorem srcOf_inRange (ei : S2x1600000.Idx → BitVec 32) (h : InRange ei) (i : S1600000.Idx) :
    0 ≤ (srcOf ei i).toInt ∧ (srcOf ei i).toInt < 50000 := by
  unfold srcOf shapeCast extractStridedSlice
  exact h _
theorem dstOf_inRange (ei : S2x1600000.Idx → BitVec 32) (h : InRange ei) (i : S1600000.Idx) :
    0 ≤ (dstOf ei i).toInt ∧ (dstOf ei i).toInt < 50000 := by
  unfold dstOf shapeCast extractStridedSlice
  exact h _

/-- After the first stretch the two vectors of words are the rows of the launched edge list. -/
theorem V1_v1 : (Gen.V1 m c (Proc.devRef .tc main_v1) : S1600000.Idx → BitVec 32) = srcOf (m ((c : Thread nD τ).loc main_arg1)) :=
  ops0_v1 (Gen.V0 m c)
theorem V1_v3 : (Gen.V1 m c (Proc.devRef .tc main_v3) : S1600000.Idx → BitVec 32) = dstOf (m ((c : Thread nD τ).loc main_arg1)) :=
  ops0_v3 (Gen.V0 m c)

/-- x taken at the source words, and at the target words. -/
theorem V3_v4 : (Gen.V3 m c (Proc.devRef .tc main_v4) : S1600000x1.Idx → EReal)
    = takeVec (F := Ideal) (m ((c : Thread nD τ).loc main_arg0)) (srcOf (m ((c : Thread nD τ).loc main_arg1))) :=
  (V3_of m c main_v4 (by decide)).trans <| (ops0_1_v4 (Gen.V1 m c)).trans <|
    congrArg₂ (takeVec (F := Ideal)) ((V1_of m c main_arg0 (by decide)).trans rfl) (V1_v1 m c)
theorem V3_v5 : (Gen.V3 m c (Proc.devRef .tc main_v5) : S1600000x1.Idx → EReal)
    = takeVec (F := Ideal) (m ((c : Thread nD τ).loc main_arg0)) (dstOf (m ((c : Thread nD τ).loc main_arg1))) :=
  (ops0_2_v5 (Gen.V2 m c)).trans <|
    congrArg₂ (takeVec (F := Ideal)) ((V2_of m c main_arg0 (by decide)).trans <| (V1_of m c main_arg0 (by decide)).trans rfl)
      ((V2_of m c main_v3 (by decide)).trans (V1_v3 m c))

/-- THE EDGE STAGE'S INPUT: what region 0 finds in its row array is the common function's edge rows. -/
theorem V4_edgeIn (h : InRange (m ((c : Thread nD τ).loc main_arg1))) :
    (Gen.V4 m c (Proc.devRef .tc main_v6) : S1600000x5.Idx → EReal)
      = Cert.Spec.edgeIn (m ((c : Thread nD τ).loc main_arg0)) (m ((c : Thread nD τ).loc main_arg1))
          (m ((c : Thread nD τ).loc main_arg2)) := by
  funext i
  obtain ⟨e, q, rfl⟩ : ∃ (e : Fin 1600000) (q : Fin 5), i = ix2 e q := ⟨i 0, i 1, eq_ix2 i⟩
  have p4 : (Gen.V3 m c (Proc.devRef .tc main_v4) : S1600000x1.Idx → EReal) (ix2 e 0)
      = m ((c : Thread nD τ).loc main_arg0) (ix2 (Cert.Spec.nodeOf (Cert.Spec.wrap (m ((c : Thread nD τ).loc main_arg1) (ix2 0 e)))) 0) := by
    rw [V3_v4, takeVec_apply _ _ (srcOf_inRange _ h), srcOf_apply]
  have p5 : (Gen.V3 m c (Proc.devRef .tc main_v5) : S1600000x1.Idx → EReal) (ix2 e 0)
      = m ((c : Thread nD τ).loc main_arg0) (ix2 (Cert.Spec.nodeOf (Cert.Spec.wrap (m ((c : Thread nD τ).loc main_arg1) (ix2 1 e)))) 0) := by
    rw [V3_v5, takeVec_apply _ _ (dstOf_inRange _ h), dstOf_apply]
  have p2 : (Gen.V3 m c (Proc.devRef .tc main_arg2) : S1600000x3.Idx → EReal) = m ((c : Thread nD τ).loc main_arg2) :=
    (V3_of m c main_arg2 (by decide)).trans <| (V2_of m c main_arg2 (by decide)).trans <| (V1_of m c main_arg2 (by decide)).trans rfl
  refine (congrFun (ops0_3_v6 (Gen.V3 m c)) (ix2 e q)).trans ?_
  rw [concat3_apply, p4, p5, p2]
  rfl

/-- THE NODE STAGE'S INPUT: what region 1 finds in its row array is the common function's node rows, over what the
    edge stage left in its result array. -/
theorem V6_nodeIn :
    (Gen.V6 m outs c (Proc.devRef .tc main_v11) : S50000x65.Idx → EReal)
      = Cert.Spec.nodeIn (m ((c : Thread nD τ).loc main_arg0))
          (Cert.Spec.segsum (fun j => ((m ((c : Thread nD τ).loc main_arg1)) (ix2 1 j)).toInt) (outs 5 main_v7 c)) := by
  funext i
  obtain ⟨n, q, rfl⟩ : ∃ (n : Fin 50000) (q : Fin 65), i = ix2 n q := ⟨i 0, i 1, eq_ix2 i⟩
  have p0 : (Gen.V5 m outs c (Proc.devRef .tc main_arg0) : S50000x1.Idx → EReal) = m ((c : Thread nD τ).loc main_arg0) :=
    (V5_of m outs c main_arg0 (by decide)).trans (V4_keep m c main_arg0 (by decide) (by decide) (by decide) (by decide))
  have p3 : (Gen.V5 m outs c (Proc.devRef .tc main_v3) : S1600000.Idx → BitVec 32) = dstOf (m ((c : Thread nD τ).loc main_arg1)) :=
    (V5_of m outs c main_v3 (by decide)).trans <| (V4_of m c main_v3 (by decide)).trans <| (V3_of m c main_v3 (by decide)).trans <|
      (V2_of m c main_v3 (by decide)).trans (V1_v3 m c)
  have p7 : (Gen.V5 m outs c (Proc.devRef .tc main_v7) : S1600000x64.Idx → EReal) = outs 5 main_v7 c := by
    show Function.update (Gen.V4 m c) (Proc.devRef .tc main_v7) (outs 5 main_v7 c) (Proc.devRef .tc main_v7) = _
    rw [Function.update_self]
  have hd : (fun j : Fin 1600000 => (dstOf (m ((c : Thread nD τ).loc main_arg1)) (ix1 j)).toInt)
      = fun j : Fin 1600000 => ((m ((c : Thread nD τ).loc main_arg1)) (ix2 1 j)).toInt :=
    funext fun j => by rw [dstOf_apply]
  refine (congrFun (ops1_v11 (Gen.V5 m outs c)) (ix2 n q)).trans ?_
  rw [concat2_apply, p0, p3, p7, aggVec_eq, hd]
  rfl

/-- THE POOLING MATRIX: entry (n, g) is one where node n's graph id, read signed, is g, and zero elsewhere. -/
theorem V6_onehot (n : Fin 50000) (g : Fin 16) :
    (Gen.V6 m outs c (Proc.devRef .tc main_v18) : S50000x16.Idx → EReal) (ix2 n g)
      = (if ((m ((c : Thread nD τ).loc main_arg3)) (ix1 n)).toInt = (g.val : Int) then 1 else 0 : EReal) := by
  have p3 : (Gen.V5 m outs c (Proc.devRef .tc main_arg3) : S50000.Idx → BitVec 32) = m ((c : Thread nD τ).loc main_arg3) :=
    (V5_of m outs c main_arg3 (by decide)).trans (V4_keep m c main_arg3 (by decide) (by decide) (by decide) (by decide))
  refine (congrFun (ops1_v18 (Gen.V5 m outs c)) (ix2 n g)).trans ?_
  rw [p3, oneHotVec_apply]

/-! ### The weight arrays are the launch memory's -/

theorem V4_arg4 : Gen.V4 m c (Proc.devRef .tc main_arg4) = m ((c : Thread nD τ).loc main_arg4) :=
  V4_keep m c main_arg4 (by decide) (by decide) (by decide) (by decide)
theorem V4_arg5 : Gen.V4 m c (Proc.devRef .tc main_arg5) = m ((c : Thread nD τ).loc main_arg5) :=
  V4_keep m c main_arg5 (by decide) (by decide) (by decide) (by decide)
theorem V4_arg6 : Gen.V4 m c (Proc.devRef .tc main_arg6) = m ((c : Thread nD τ).loc main_arg6) :=
  V4_keep m c main_arg6 (by decide) (by decide) (by decide) (by decide)
theorem V4_arg7 : Gen.V4 m c (Proc.devRef .tc main_arg7) = m ((c : Thread nD τ).loc main_arg7) :=
  V4_keep m c main_arg7 (by decide) (by decide) (by decide) (by decide)
theorem V6_arg8 : Gen.V6 m outs c (Proc.devRef .tc main_arg8) = m ((c : Thread nD τ).loc main_arg8) :=
  V6_keep m outs c main_arg8 (by decide) (by decide) (by decide) (by decide) (by decide) (by decide)
theorem V6_arg9 : Gen.V6 m outs c (Proc.devRef .tc main_arg9) = m ((c : Thread nD τ).loc main_arg9) :=
  V6_keep m outs c main_arg9 (by decide) (by decide) (by decide) (by decide) (by decide) (by decide)
theorem V6_arg10 : Gen.V6 m outs c (Proc.devRef .tc main_arg10) = m ((c : Thread nD τ).loc main_arg10) :=
  V6_keep m outs c main_arg10 (by decide) (by decide) (by decide) (by decide) (by decide) (by decide)
theorem V6_arg11 : Gen.V6 m outs c (Proc.devRef .tc main_arg11) = m ((c : Thread nD τ).loc main_arg11) :=
  V6_keep m outs c main_arg11 (by decide) (by decide) (by decide) (by decide) (by decide) (by decide)
theorem V6_arg12 : Gen.V6 m outs c (Proc.devRef .tc main_arg12) = m ((c : Thread nD τ).loc main_arg12) :=
  V6_keep m outs c main_arg12 (by decide) (by decide) (by decide) (by decide) (by decide) (by decide)
theorem V6_arg13 : Gen.V6 m outs c (Proc.devRef .tc main_arg13) = m ((c : Thread nD τ).loc main_arg13) :=
  V6_keep m outs c main_arg13 (by decide) (by decide) (by decide) (by decide) (by decide) (by decide)
theorem V6_arg14 : Gen.V6 m outs c (Proc.devRef .tc main_arg14) = m ((c : Thread nD τ).loc main_arg14) :=
  V6_keep m outs c main_arg14 (by decide) (by decide) (by decide) (by decide) (by decide) (by decide)
theorem V6_arg15 : Gen.V6 m outs c (Proc.devRef .tc main_arg15) = m ((c : Thread nD τ).loc main_arg15) :=
  V6_keep m outs c main_arg15 (by decide) (by decide) (by decide) (by decide) (by decide) (by decide)
theorem V6_arg16 : Gen.V6 m outs c (Proc.devRef .tc main_arg16) = m ((c : Thread nD τ).loc main_arg16) :=
  V6_keep m outs c main_arg16 (by decide) (by decide) (by decide) (by decide) (by decide) (by decide)
theorem V6_arg17 : Gen.V6 m outs c (Proc.devRef .tc main_arg17) = m ((c : Thread nD τ).loc main_arg17) :=
  V6_keep m outs c main_arg17 (by decide) (by decide) (by decide) (by decide) (by decide) (by decide)
theorem V6_arg18 : Gen.V6 m outs c (Proc.devRef .tc main_arg18) = m ((c : Thread nD τ).loc main_arg18) :=
  V6_keep m outs c main_arg18 (by decide) (by decide) (by decide) (by decide) (by decide) (by decide)
theorem V6_arg19 : Gen.V6 m outs c (Proc.devRef .tc main_arg19) = m ((c : Thread nD τ).loc main_arg19) :=
  V6_keep m outs c main_arg19 (by decide) (by decide) (by decide) (by decide) (by decide) (by decide)

end Exports

end Cert.KernelIdeal.Hand
end
-- ==== Proof.KI.Pre.lean ====
/-
  The precondition's index range, read back.

  The precondition is a conjunction: every float input is finite, and every word of the edge-index array
  lies in [0, 50000).  Printed as a function it is a chain of one-bit `and`s whose LAST conjunct is the
  reduction by `and`, over both axes, of  (e ≥ 0) ∧ (e < 50000)  taken elementwise with the two bounds
  broadcast from scalars.  A chain of `and`s that is 1 has every conjunct 1; a reduction by `and` that is 1
  met a 1 at every index; a signed comparison that is 1 is the order of the two words read as integers; a
  broadcast scalar reads as that scalar at every index.  Hence 0 ≤ e < 50000 at every index of the array.
-/
import proofs.«402084_j84928683311960_2_alg».proof.Defs
import proofs.«402084_j84928683311960_2_alg».proof.Proof.Gen.Pre_finite_inputs
import Idealize.ShloMosaic.Lib.ReduceAll
import Idealize.ShloMosaic.Lib.StableHlo.Predicate
import Idealize.ShloMosaic.Lib.ValueIdx

noncomputable section

namespace Cert.KernelIdeal.Hand

open Idealize.ShloMosaic Idealize.SL.Sem
open Cert.Pre_finite_inputs

/-- The scalar shape has one index. -/
instance : Subsingleton S_.Idx := ⟨fun a b => funext fun d => d.elim0⟩

/-- The two bounds, read as integers. -/
theorem toInt_zero32 : (0#32 : BitVec 32).toInt = 0 := by decide
theorem toInt_nodes32 : (50000#32 : BitVec 32).toInt = 50000 := by decide

/-- The last stretch of the chain: if its result is 1, the final conjunct is 1, so the reduction by `and`
    of (e ≥ 0) ∧ (e < 50000) is 1, so both comparisons hold at every index. -/
theorem range_of_part5 [Cert.Pre_finite_inputs.Facts] {F : FTy → Type} [FloatOps F] (e1 : IVec S2x1600000 32) (v83 : IVec S_ 1)
    (v84 : FVec F S2 .f32) (c32 : FVec F S_ .f32)
    (e : fn_part5 (F := F) e1 v83 v84 c32 ValueIdx.ix0 = 1#1) (i : S2x1600000.Idx) :
    0 ≤ (e1 i).toInt ∧ (e1 i).toInt < 50000 := by
  dsimp only [fn_part5] at e
  obtain ⟨-, hall⟩ := IntOp.andi_eq_one.1 e
  have hi := Host.reduce_andi_all _ _ _ _ _ hall i
  obtain ⟨hge, hlt⟩ := IntOp.andi_eq_one.1 hi
  have hge' := IntOp.cmpi_sge.1 hge
  have hlt' := IntOp.cmpi_slt.1 hlt
  rw [StableHlo.Predicate.bcast_scalar _ Cert.Pre_finite_inputs.Facts.h_S_] at hge' hlt'
  exact ⟨by simpa only [constantI, toInt_zero32] using hge', by simpa only [constantI, toInt_nodes32] using hlt'⟩

/-- The whole chain: the function of the twenty arguments unfolds, stretch by stretch, to its last stretch at
    the same edge-index array. -/
theorem range_of_fn [Cert.Pre_finite_inputs.Facts] {F : FTy → Type} [FloatOps F]
    (a0 : FVec F S50000x1 .f32) (a1 : IVec S2x1600000 32) (a2 : FVec F S1600000x3 .f32) (a3 : IVec S50000 32)
    (a4 : FVec F S5x64 .f32) (a5 : FVec F S64 .f32) (a6 : FVec F S64x64 .f32) (a7 : FVec F S64 .f32)
    (a8 : FVec F S65x64 .f32) (a9 : FVec F S64 .f32) (a10 : FVec F S64x64 .f32) (a11 : FVec F S64 .f32)
    (a12 : FVec F S64x64 .f32) (a13 : FVec F S64 .f32) (a14 : FVec F S64x64 .f32) (a15 : FVec F S64 .f32)
    (a16 : FVec F S64x64 .f32) (a17 : FVec F S64 .f32) (a18 : FVec F S64x2 .f32) (a19 : FVec F S2 .f32)
    (e : fn (F := F) a0 a1 a2 a3 a4 a5 a6 a7 a8 a9 a10 a11 a12 a13 a14 a15 a16 a17 a18 a19 = fun _ => 1#1)
    (i : S2x1600000.Idx) : 0 ≤ (a1 i).toInt ∧ (a1 i).toInt < 50000 := by
  have e0 := congrFun e ValueIdx.ix0
  dsimp only [fn, fn_part1, fn_part2, fn_part3, fn_part4] at e0
  exact range_of_part5 a1 _ _ _ e0 i

/-- THE PRECONDITION DECODED: on every core, every word of the edge-index array is a node number. -/
theorem inRange_of_pre (m : (ℓ : Loc Cert.KernelIdeal.nD Cert.KernelIdeal.τ Cert.KernelIdeal.sig) → Buf (Elt Ideal) ℓ)
    (h : Cert.Pre_KernelIdeal m) (c : Dev Cert.KernelIdeal.nD) :
    ∀ i : (⟨2, ![2, 1600000]⟩ : Shape).Idx,
      0 ≤ ((m ((c.tc : Thread Cert.KernelIdeal.nD Cert.KernelIdeal.τ).loc Cert.KernelIdeal.main_arg1)) i).toInt ∧
        ((m ((c.tc : Thread Cert.KernelIdeal.nD Cert.KernelIdeal.τ).loc Cert.KernelIdeal.main_arg1)) i).toInt < 50000 :=
  fun i => range_of_fn _ _ _ _ _ _ _ _ _ _ _ _ _ _ _ _ _ _ _ _ (h c) i

end Cert.KernelIdeal.Hand

end
-- ==== Proof.KI.Value.lean ====
/-
  What the idealized kernel program leaves in its result array, as one function of the argument arrays.

  The node stage's result is the four closing layers applied to the node rows summed by graph id, the node rows being
  two layers applied to the node stage's input array; that array is x beside the edge rows summed into their target
  nodes; the edge rows are what the edge stage leaves, two layers applied to the edge stage's input array; and under the
  precondition's index range that input array is x at an edge's two endpoint nodes beside the edge's attributes. The
  weight arrays are read as launched, no item of the program writing them. Together: the common function of Spec.
-/
import proofs.«402084_j84928683311960_2_alg».proof.Proof.KI.Run
import proofs.«402084_j84928683311960_2_alg».proof.Proof.KI.R1
import proofs.«402084_j84928683311960_2_alg».proof.Proof.KI.K0Val
import proofs.«402084_j84928683311960_2_alg».proof.Proof.KI.K1Val
import proofs.«402084_j84928683311960_2_alg».proof.Proof.KI.Host
import proofs.«402084_j84928683311960_2_alg».proof.Proof.KI.Pre
import proofs.«402084_j84928683311960_2_alg».proof.Proof.Spec

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ)

/-- Under the precondition the node stage's result array is the common function of the argument arrays. -/
theorem result_value [Cert.Pre_finite_inputs.Facts] (hpre : Cert.Pre_KernelIdeal m) (c : Dev nD) :
    (oArr m (fun V c => dat1 (F := Ideal) V c) c : S16x2.Idx → EReal)
      = Cert.Spec.result (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
          (m ((c.tc : Thread nD τ).loc main_arg10))
          (m ((c.tc : Thread nD τ).loc main_arg11))
          (m ((c.tc : Thread nD τ).loc main_arg12))
          (m ((c.tc : Thread nD τ).loc main_arg13))
          (m ((c.tc : Thread nD τ).loc main_arg14))
          (m ((c.tc : Thread nD τ).loc main_arg15))
          (m ((c.tc : Thread nD τ).loc main_arg16))
          (m ((c.tc : Thread nD τ).loc main_arg17))
          (m ((c.tc : Thread nD τ).loc main_arg18))
          (m ((c.tc : Thread nD τ).loc main_arg19)) := by
  have hR : InRange (m ((c : Thread nD τ).loc main_arg1)) := inRange_of_pre m hpre c
  have he : (eArr m c : S1600000x64.Idx → EReal)
      = Cert.Spec.mlp2 (Gen.V4 m c (Proc.devRef .tc main_v6)) (Gen.V4 m c (Proc.devRef .tc main_arg4))
          (Gen.V4 m c (Proc.devRef .tc main_arg5)) (Gen.V4 m c (Proc.devRef .tc main_arg6))
          (Gen.V4 m c (Proc.devRef .tc main_arg7)) := region0_value (VA m) c
  refine (region1_value (VB m) c (fun n => ((m ((c : Thread nD τ).loc main_arg3)) (ix1 n)).toInt)
    (fun n g => V6_onehot m (outsE m) c n g)).trans ?_
  show Cert.Spec.head (Cert.Spec.segsum _ (Cert.Spec.mlp2 (Gen.V6 m (outsE m) c (Proc.devRef .tc main_v11))
      (Gen.V6 m (outsE m) c (Proc.devRef .tc main_arg8)) (Gen.V6 m (outsE m) c (Proc.devRef .tc main_arg9))
      (Gen.V6 m (outsE m) c (Proc.devRef .tc main_arg10)) (Gen.V6 m (outsE m) c (Proc.devRef .tc main_arg11))))
      (Gen.V6 m (outsE m) c (Proc.devRef .tc main_arg12)) (Gen.V6 m (outsE m) c (Proc.devRef .tc main_arg13))
      (Gen.V6 m (outsE m) c (Proc.devRef .tc main_arg14)) (Gen.V6 m (outsE m) c (Proc.devRef .tc main_arg15))
      (Gen.V6 m (outsE m) c (Proc.devRef .tc main_arg16)) (Gen.V6 m (outsE m) c (Proc.devRef .tc main_arg17))
      (Gen.V6 m (outsE m) c (Proc.devRef .tc main_arg18)) (Gen.V6 m (outsE m) c (Proc.devRef .tc main_arg19)) = _
  rw [V6_nodeIn m (outsE m) c, outsE_v7 m c, he, V4_edgeIn m c hR, V4_arg4 m c, V4_arg5 m c, V4_arg6 m c, V4_arg7 m c,
    V6_arg8 m (outsE m) c, V6_arg9 m (outsE m) c, V6_arg10 m (outsE m) c, V6_arg11 m (outsE m) c,
    V6_arg12 m (outsE m) c, V6_arg13 m (outsE m) c, V6_arg14 m (outsE m) c, V6_arg15 m (outsE m) c,
    V6_arg16 m (outsE m) c, V6_arg17 m (outsE m) c, V6_arg18 m (outsE m) c, V6_arg19 m (outsE m) c]
  rfl

end Cert.KernelIdeal.Hand

end
-- ==== Proof.RefRun.lean ====
/-
  The reference program's run and its operations read one at a time: this module only brings the two
  modules in, so that everything about the reference's value is stated over them.
-/
import proofs.«402084_j84928683311960_2_alg».proof.Proof.Gen.ReferenceIdeal.Run
import proofs.«402084_j84928683311960_2_alg».proof.Proof.Gen.ReferenceIdeal.Read
-- ==== Proof.RefVal.lean ====
/-
  The reference program computes the common function: its result, read stage by stage, is the
  specification's result of the twenty argument arrays.

  The stages, in the program's order: the two rows of the edge list, each word wrapped (a negative word gets the
  table's length added) and used to read x, clamped; the edge row (x at the source, x at the target, the three
  attributes) as a three-way join along the columns; a layer as a row against a column plus the bias entry, relu as
  the maximum with zero; the sum of the edge rows into their target nodes as a row scatter-add into zeros; the node
  row (x, then the summed entries) as a two-way join; two more layers; the sum of the node rows by graph id as a
  second row scatter-add into zeros; the four closing layers.
-/
import proofs.«402084_j84928683311960_2_alg».proof.Proof.RefRun
import proofs.«402084_j84928683311960_2_alg».proof.Proof.LibRowGatherScatter
import proofs.«402084_j84928683311960_2_alg».proof.Proof.Spec
import Idealize.ShloMosaic.Lib.ValueIdx
import Idealize.ShloMosaic.Lib.ValueLayout
import Idealize.ShloMosaic.PureOps.Ideal.Laws

set_option Elab.async false

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

variable (x0 : (⟨S50000x1, .f32⟩ : BufTy).Contents (Elt Ideal)) (x1 : (⟨S2x1600000, .i32⟩ : BufTy).Contents (Elt Ideal)) (x2 : (⟨S1600000x3, .f32⟩ : BufTy).Contents (Elt Ideal)) (x3 : (⟨S50000, .i32⟩ : BufTy).Contents (Elt Ideal)) (x4 : (⟨S5x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S65x64, .f32⟩ : BufTy).Contents (Elt Ideal)) (x9 : (⟨S64, .f32⟩ : BufTy).Contents (Elt Ideal))
  (x10 : (⟨S64x64, .f32⟩ : BufTy).Contents (Elt Ideal)) (x11 : (⟨S64, .f32⟩ : BufTy).Contents (Elt Ideal)) (x12 : (⟨S64x64, .f32⟩ : BufTy).Contents (Elt Ideal)) (x13 : (⟨S64, .f32⟩ : BufTy).Contents (Elt Ideal)) (x14 : (⟨S64x64, .f32⟩ : BufTy).Contents (Elt Ideal)) (x15 : (⟨S64, .f32⟩ : BufTy).Contents (Elt Ideal)) (x16 : (⟨S64x64, .f32⟩ : BufTy).Contents (Elt Ideal)) (x17 : (⟨S64, .f32⟩ : BufTy).Contents (Elt Ideal)) (x18 : (⟨S64x2, .f32⟩ : BufTy).Contents (Elt Ideal)) (x19 : (⟨S2, .f32⟩ : BufTy).Contents (Elt Ideal))

/-! ## The index words -/

/-- Row 0 of the edge list, flattened, at edge e is the word (0, e). -/
theorem row0_word (e : Fin 1600000) : val_main_v1 (F := Ideal) x1 (ix1 e) = x1 (ix2 0 e) := by
  rw [val_main_v1_apply, val_main_v0_apply]
  congr 1
  funext a
  match a with
  | ⟨0, _⟩ => rfl
  | ⟨1, _⟩ => exact Fin.ext (Nat.mod_eq_of_lt e.isLt)

/-- Row 1 of the edge list, flattened, at edge e is the word (1, e). -/
theorem row1_word (e : Fin 1600000) : val_main_v3 (F := Ideal) x1 (ix1 e) = x1 (ix2 1 e) := by
  rw [val_main_v3_apply, val_main_v2_apply]
  congr 1
  funext a
  match a with
  | ⟨0, _⟩ => rfl
  | ⟨1, _⟩ => exact Fin.ext (Nat.mod_eq_of_lt e.isLt)

/-- Compare below zero, add the table's length, select: the wrapped word. -/
theorem wrap_word (a : BitVec 32) :
    Scalar.select (IntOp.cmpi .slt a 0#32) (IntOp.addi a 50000#32) a = Spec.wrap a := by
  unfold Spec.wrap Scalar.select IntOp.cmpi IntOp.addi
  cases h : a.slt 0#32 <;> simp

/-- The source word of edge e, wrapped. -/
theorem src_wrapped (e : Fin 1600000) : val_main_v8 (F := Ideal) x1 (ix1 e) = Spec.wrap (x1 (ix2 0 e)) := by
  rw [val_main_v8_apply, val_main_v5_apply, val_main_v7_apply, val_main_v4_apply, val_main_v6_apply,
    val_main_c_apply, val_main_c_0_apply, row0_word]
  exact wrap_word _

/-- The target word of edge e, wrapped. -/
theorem dst_wrapped (e : Fin 1600000) : val_main_v15 (F := Ideal) x1 (ix1 e) = Spec.wrap (x1 (ix2 1 e)) := by
  rw [val_main_v15_apply, val_main_v12_apply, val_main_v14_apply, val_main_v11_apply, val_main_v13_apply,
    val_main_c_1_apply, val_main_c_2_apply, row1_word]
  exact wrap_word _

/-- The wrapped source words as a column. -/
theorem src_col (e : Fin 1600000) (q : Fin 1) : val_main_v9 (F := Ideal) x1 (ix2 e q) = Spec.wrap (x1 (ix2 0 e)) := by
  rw [val_main_v9_apply]
  have h : idx_main_v9 (ix2 e q) = ix1 e := funext fun a => by match a with | ⟨0, _⟩ => rfl
  rw [h, src_wrapped]

/-- The wrapped target words as a column. -/
theorem dst_col (e : Fin 1600000) (q : Fin 1) : val_main_v16 (F := Ideal) x1 (ix2 e q) = Spec.wrap (x1 (ix2 1 e)) := by
  rw [val_main_v16_apply]
  have h : idx_main_v16 (ix2 e q) = ix1 e := funext fun a => by match a with | ⟨0, _⟩ => rfl
  rw [h, dst_wrapped]

/-- The program's gather record is the row gather over a table of 50000 rows of one column. -/
theorem gather_rec : gather_S50000x1_S1600000x1_S1600000x1_1_0_n_n_0_1_11
    = Cert.Lib.RowPass.gaD 50000 1600000 1 gather_S50000x1_S1600000x1_S1600000x1_1_0_n_n_0_1_11_wf := rfl

/-- x read at the source of edge e. -/
theorem x_at_src (e : Fin 1600000) (q : Fin 1) :
    val_main_v10 (F := Ideal) x0 x1 (ix2 e q) = x0 (ix2 (Spec.nodeOf (Spec.wrap (x1 (ix2 0 e)))) 0) := by
  unfold val_main_v10
  rw [gather_rec, Cert.Lib.RowPass.ga_apply _ (by decide)]
  congr 1
  funext a
  match a with
  | ⟨0, _⟩ => exact Fin.ext (congrArg (fun w : BitVec 32 => min w.toInt.toNat 49999) (src_col x1 e 0))
  | ⟨1, _⟩ => exact Fin.ext (show q.val = 0 by have := q.isLt; omega)

/-- x read at the target of edge e. -/
theorem x_at_dst (e : Fin 1600000) (q : Fin 1) :
    val_main_v17 (F := Ideal) x0 x1 (ix2 e q) = x0 (ix2 (Spec.nodeOf (Spec.wrap (x1 (ix2 1 e)))) 0) := by
  unfold val_main_v17
  rw [gather_rec, Cert.Lib.RowPass.ga_apply _ (by decide)]
  congr 1
  funext a
  match a with
  | ⟨0, _⟩ => exact Fin.ext (congrArg (fun w : BitVec 32 => min w.toInt.toNat 49999) (dst_col x1 e 0))
  | ⟨1, _⟩ => exact Fin.ext (show q.val = 0 by have := q.isLt; omega)

/-! ## The edge row -/

/-- A join of two one-column arrays and a three-column array along the columns, at row e and column q. -/
theorem join3_apply (P Q : S1600000x1.Idx → EReal) (T : S1600000x3.Idx → EReal) (e : Fin 1600000) (q : Fin 5) :
    concatenate S1600000x5 1 [⟨S1600000x1, P⟩, ⟨S1600000x1, Q⟩, ⟨S1600000x3, T⟩]
        concatenates_S1600000x1_S1600000x1_S1600000x3_S1600000x5_d1 (ix2 e q)
      = if q.val = 0 then P (ix2 e 0)
        else if h : q.val = 1 then Q (ix2 e 0)
        else T (ix2 e ⟨q.val - 2, by have := q.isLt; omega⟩) := by
  have hq := q.isLt
  by_cases h0 : q.val = 0
  · rw [if_pos h0]
    exact concatenate_apply_piece 1 _ _ (ix2 e q) 0 (by show 0 < 3; omega) S1600000x1 P rfl rfl 0 rfl (ix2 e 0)
      (fun (b : Fin 2) hb => by
        match b, hb with
        | ⟨0, _⟩, _ => rfl
        | ⟨1, _⟩, hb => exact absurd rfl hb)
      (by show 0 + 0 = q.val; omega)
  · rw [if_neg h0]
    by_cases h1 : q.val = 1
    · rw [dif_pos h1]
      exact concatenate_apply_piece 1 _ _ (ix2 e q) 1 (by show 1 < 3; omega) S1600000x1 Q rfl rfl 1 rfl (ix2 e 0)
        (fun (b : Fin 2) hb => by
          match b, hb with
          | ⟨0, _⟩, _ => rfl
          | ⟨1, _⟩, hb => exact absurd rfl hb)
        (by show 1 + 0 = q.val; omega)
    · rw [dif_neg h1]
      exact concatenate_apply_piece 1 _ _ (ix2 e q) 2 (by show 2 < 3; omega) S1600000x3 T rfl rfl 2 rfl
        (ix2 e ⟨q.val - 2, by omega⟩)
        (fun (b : Fin 2) hb => by
          match b, hb with
          | ⟨0, _⟩, _ => rfl
          | ⟨1, _⟩, hb => exact absurd rfl hb)
        (by show 2 + (q.val - 2) = q.val; omega)

/-- The joined edge row is the specification's: x at the source, x at the target, the three attributes. -/
theorem edge_row : val_main_v18 (F := Ideal) x0 x1 x2 = Spec.edgeIn x0 x1 x2 := by
  funext i
  obtain ⟨e, q, rfl⟩ : ∃ (e : Fin 1600000) (q : Fin 5), i = ix2 e q := ⟨i 0, i 1, eq_ix2 i⟩
  unfold val_main_v18
  rw [join3_apply, x_at_src, x_at_dst]
  rfl

/-! ## Layers and relu -/

/-- An array that at every entry is a row against a column plus the bias entry is the layer. -/
theorem lin_intro {R K N : Nat} (X : Spec.A2 R K) (W : Spec.A2 K N) (b : Spec.A1 N) (Y : Spec.A2 R N)
    (h : ∀ (r : Fin R) (n : Fin N), Y (ix2 r n) = (∑ k : Fin K, X (ix2 r k) * W (ix2 k n)) + b (ix1 n)) :
    Y = Spec.lin X W b := by
  funext i
  obtain ⟨r, n, rfl⟩ : ∃ (r : Fin R) (n : Fin N), i = ix2 r n := ⟨i 0, i 1, eq_ix2 i⟩
  rw [h]
  rfl

/-- The first edge layer. -/
theorem edge_layer1 : val_main_v22 (F := Ideal) x0 x1 x2 x4 x5 = Spec.lin (val_main_v18 (F := Ideal) x0 x1 x2) x4 x5 := by
  refine lin_intro _ _ _ _ fun r n => ?_
  rw [val_main_v22_apply, val_main_v19_apply, val_main_v21_apply, val_main_v20_apply]
  have hl : ∀ k : Fin 5, lidx_main_v19 (ix2 r n) k = ix2 r k :=
    fun k => funext fun a => by match a with | ⟨0, _⟩ => rfl | ⟨1, _⟩ => rfl
  have hr : ∀ k : Fin 5, ridx_main_v19 (ix2 r n) k = ix2 k n :=
    fun k => funext fun a => by match a with | ⟨0, _⟩ => rfl | ⟨1, _⟩ => rfl
  have hb : idx_main_v20 (idx_main_v21 (ix2 r n)) = ix1 n :=
    funext fun a => by match a with | ⟨0, _⟩ => rfl
  simp only [hl, hr, hb]
  rfl

/-- relu after the first edge layer. -/
theorem edge_relu : val_main_v23 (F := Ideal) x0 x1 x2 x4 x5 = Spec.relu (val_main_v22 (F := Ideal) x0 x1 x2 x4 x5) := by
  funext i
  rw [val_main_v23_apply, val_main_call0_v0_apply, val_main_call0_cst_apply]
  show max _ (Ideal.ofBits .f32 0x00000000#32) = max _ 0
  rw [Ideal.ofBits_zero_f32]

/-- The second edge layer. -/
theorem edge_layer2 : val_main_v27 (F := Ideal) x0 x1 x2 x4 x5 x6 x7 = Spec.lin (val_main_v23 (F := Ideal) x0 x1 x2 x4 x5) x6 x7 := by
  refine lin_intro _ _ _ _ fun r n => ?_
  rw [val_main_v27_apply, val_main_v24_apply, val_main_v26_apply, val_main_v25_apply]
  have hl : ∀ k : Fin 64, lidx_main_v24 (ix2 r n) k = ix2 r k :=
    fun k => funext fun a => by match a with | ⟨0, _⟩ => rfl | ⟨1, _⟩ => rfl
  have hr : ∀ k : Fin 64, ridx_main_v24 (ix2 r n) k = ix2 k n :=
    fun k => funext fun a => by match a with | ⟨0, _⟩ => rfl | ⟨1, _⟩ => rfl
  have hb : idx_main_v25 (idx_main_v26 (ix2 r n)) = ix1 n :=
    funext fun a => by match a with | ⟨0, _⟩ => rfl
  simp only [hl, hr, hb]
  rfl

/-! ## The sums into nodes and graphs, and the node row -/

/-- The target words of the edges as a column (unwrapped: the sum into nodes reads them as they are). -/
theorem dst_word_col (e : Fin 1600000) (q : Fin 1) : val_main_v29 (F := Ideal) x1 (ix2 e q) = x1 (ix2 1 e) := by
  rw [val_main_v29_apply]
  have h : idx_main_v29 (ix2 e q) = ix1 e := funext fun a => by match a with | ⟨0, _⟩ => rfl
  rw [h, row1_word]

/-- The graph ids of the nodes as a column. -/
theorem graph_id_col (n : Fin 50000) (q : Fin 1) : val_main_v42 (F := Ideal) x3 (ix2 n q) = x3 (ix1 n) := by
  rw [val_main_v42_apply]
  congr 1
  funext a
  match a with
  | ⟨0, _⟩ => rfl

/-- The program's scatter record into the node table is the row scatter-add over 50000 rows of 64 columns. -/
theorem scatter_nodes_rec : scatter_S50000x64_S1600000x1_S1600000x64_1_0_0_1
    = Cert.Lib.RowPass.scD 50000 1600000 64 scatter_S50000x64_S1600000x1_S1600000x64_1_0_0_1_wf := rfl

/-- The program's scatter record into the graph table is the row scatter-add over 16 rows of 64 columns. -/
theorem scatter_graphs_rec : scatter_S16x64_S50000x1_S50000x64_1_0_0_1
    = Cert.Lib.RowPass.scD 16 50000 64 scatter_S16x64_S50000x1_S50000x64_1_0_0_1_wf := rfl

/-- The edge rows summed into their target nodes: a row scatter-add into zeros. -/
theorem node_sums : val_main_v30 (F := Ideal) x0 x1 x2 x4 x5 x6 x7
    = Spec.segsum (fun j : Fin 1600000 => (x1 (ix2 1 j)).toInt) (val_main_v27 (F := Ideal) x0 x1 x2 x4 x5 x6 x7) := by
  funext i
  obtain ⟨n, q, rfl⟩ : ∃ (n : Fin 50000) (q : Fin 64), i = ix2 n q := ⟨i 0, i 1, eq_ix2 i⟩
  rw [val_main_v30, Host.scatterAdd]
  rw [Ideal.hostScatterAdd_def, scatter_nodes_rec, Cert.Lib.RowPass.sc_apply, val_main_v28_apply, val_main_cst_apply]
  simp only [dst_word_col]
  show Ideal.ofBits .f32 0x00000000#32 + _ = 0 + _
  rw [Ideal.ofBits_zero_f32]

/-- A join of a one-column array and a 64-column array along the columns, at row n and column q. -/
theorem join2_apply (P : S50000x1.Idx → EReal) (Q : S50000x64.Idx → EReal) (n : Fin 50000) (q : Fin 65) :
    concatenate S50000x65 1 [⟨S50000x1, P⟩, ⟨S50000x64, Q⟩] concatenates_S50000x1_S50000x64_S50000x65_d1 (ix2 n q)
      = if h : q.val = 0 then P (ix2 n 0) else Q (ix2 n ⟨q.val - 1, by have := q.isLt; omega⟩) := by
  have hq := q.isLt
  by_cases h0 : q.val = 0
  · rw [dif_pos h0]
    exact concatenate_pair_apply_left 1 P Q _ (ix2 n q) rfl (ix2 n 0)
      (fun (b : Fin 2) => by
        match b with
        | ⟨0, _⟩ => rfl
        | ⟨1, _⟩ => show 0 = q.val; omega)
  · rw [dif_neg h0]
    exact concatenate_pair_apply_right 1 P Q _ (ix2 n q) rfl rfl (ix2 n ⟨q.val - 1, by omega⟩)
      (fun (b : Fin 2) hb => by
        match b, hb with
        | ⟨0, _⟩, _ => rfl
        | ⟨1, _⟩, hb => exact absurd rfl hb)
      (by show (q.val - 1) + 1 = q.val; omega)

/-- The joined node row is the specification's: x at the node, then its 64 summed entries. -/
theorem node_row : val_main_v31 (F := Ideal) x0 x1 x2 x4 x5 x6 x7 = Spec.nodeIn x0 (val_main_v30 (F := Ideal) x0 x1 x2 x4 x5 x6 x7) := by
  funext i
  obtain ⟨n, q, rfl⟩ : ∃ (n : Fin 50000) (q : Fin 65), i = ix2 n q := ⟨i 0, i 1, eq_ix2 i⟩
  unfold val_main_v31
  rw [join2_apply]
  rfl

/-- The first node layer. -/
theorem node_layer1 : val_main_v35 (F := Ideal) x0 x1 x2 x4 x5 x6 x7 x8 x9 = Spec.lin (val_main_v31 (F := Ideal) x0 x1 x2 x4 x5 x6 x7) x8 x9 := by
  refine lin_intro _ _ _ _ fun r n => ?_
  rw [val_main_v35_apply, val_main_v32_apply, val_main_v34_apply, val_main_v33_apply]
  have hl : ∀ k : Fin 65, lidx_main_v32 (ix2 r n) k = ix2 r k :=
    fun k => funext fun a => by match a with | ⟨0, _⟩ => rfl | ⟨1, _⟩ => rfl
  have hr : ∀ k : Fin 65, ridx_main_v32 (ix2 r n) k = ix2 k n :=
    fun k => funext fun a => by match a with | ⟨0, _⟩ => rfl | ⟨1, _⟩ => rfl
  have hb : idx_main_v33 (idx_main_v34 (ix2 r n)) = ix1 n :=
    funext fun a => by match a with | ⟨0, _⟩ => rfl
  simp only [hl, hr, hb]
  rfl

/-- relu after the first node layer. -/
theorem node_relu : val_main_v36 (F := Ideal) x0 x1 x2 x4 x5 x6 x7 x8 x9 = Spec.relu (val_main_v35 (F := Ideal) x0 x1 x2 x4 x5 x6 x7 x8 x9) := by
  funext i
  rw [val_main_v36_apply, val_main_call1_v0_apply, val_main_call1_cst_apply]
  show max _ (Ideal.ofBits .f32 0x00000000#32) = max _ 0
  rw [Ideal.ofBits_zero_f32]

/-- The second node layer. -/
theorem node_layer2 : val_main_v40 (F := Ideal) x0 x1 x2 x4 x5 x6 x7 x8 x9 x10 x11 = Spec.lin (val_main_v36 (F := Ideal) x0 x1 x2 x4 x5 x6 x7 x8 x9) x10 x11 := by
  refine lin_intro _ _ _ _ fun r n => ?_
  rw [val_main_v40_apply, val_main_v37_apply, val_main_v39_apply, val_main_v38_apply]
  have hl : ∀ k : Fin 64, lidx_main_v37 (ix2 r n) k = ix2 r k :=
    fun k => funext fun a => by match a with | ⟨0, _⟩ => rfl | ⟨1, _⟩ => rfl
  have hr : ∀ k : Fin 64, ridx_main_v37 (ix2 r n) k = ix2 k n :=
    fun k => funext fun a => by match a with | ⟨0, _⟩ => rfl | ⟨1, _⟩ => rfl
  have hb : idx_main_v38 (idx_main_v39 (ix2 r n)) = ix1 n :=
    funext fun a => by match a with | ⟨0, _⟩ => rfl
  simp only [hl, hr, hb]
  rfl

/-- The node rows summed by graph id: a row scatter-add into zeros. -/
theorem graph_sums : val_main_v43 (F := Ideal) x0 x1 x2 x3 x4 x5 x6 x7 x8 x9 x10 x11
    = Spec.segsum (fun n : Fin 50000 => (x3 (ix1 n)).toInt) (val_main_v40 (F := Ideal) x0 x1 x2 x4 x5 x6 x7 x8 x9 x10 x11) := by
  funext i
  obtain ⟨g, q, rfl⟩ : ∃ (g : Fin 16) (q : Fin 64), i = ix2 g q := ⟨i 0, i 1, eq_ix2 i⟩
  rw [val_main_v43, Host.scatterAdd]
  rw [Ideal.hostScatterAdd_def, scatter_graphs_rec, Cert.Lib.RowPass.sc_apply, val_main_v41_apply, val_main_cst_3_apply]
  simp only [graph_id_col]
  show Ideal.ofBits .f32 0x00000000#32 + _ = 0 + _
  rw [Ideal.ofBits_zero_f32]

/-! ## The closing layers -/

/-- The first closing layer. -/
theorem out_layer1 : val_main_v47 (F := Ideal) x0 x1 x2 x3 x4 x5 x6 x7 x8 x9 x10 x11 x12 x13 = Spec.lin (val_main_v43 (F := Ideal) x0 x1 x2 x3 x4 x5 x6 x7 x8 x9 x10 x11) x12 x13 := by
  refine lin_intro _ _ _ _ fun r n => ?_
  rw [val_main_v47_apply, val_main_v44_apply, val_main_v46_apply, val_main_v45_apply]
  have hl : ∀ k : Fin 64, lidx_main_v44 (ix2 r n) k = ix2 r k :=
    fun k => funext fun a => by match a with | ⟨0, _⟩ => rfl | ⟨1, _⟩ => rfl
  have hr : ∀ k : Fin 64, ridx_main_v44 (ix2 r n) k = ix2 k n :=
    fun k => funext fun a => by match a with | ⟨0, _⟩ => rfl | ⟨1, _⟩ => rfl
  have hb : idx_main_v45 (idx_main_v46 (ix2 r n)) = ix1 n :=
    funext fun a => by match a with | ⟨0, _⟩ => rfl
  simp only [hl, hr, hb]
  rfl

/-- relu after the first closing layer. -/
theorem out_relu1 : val_main_v48 (F := Ideal) x0 x1 x2 x3 x4 x5 x6 x7 x8 x9 x10 x11 x12 x13 = Spec.relu (val_main_v47 (F := Ideal) x0 x1 x2 x3 x4 x5 x6 x7 x8 x9 x10 x11 x12 x13) := by
  funext i
  rw [val_main_v48_apply, val_main_call2_v0_apply, val_main_call2_cst_apply]
  show max _ (Ideal.ofBits .f32 0x00000000#32) = max _ 0
  rw [Ideal.ofBits_zero_f32]

/-- The second closing layer. -/
theorem out_layer2 : val_main_v52 (F := Ideal) x0 x1 x2 x3 x4 x5 x6 x7 x8 x9 x10 x11 x12 x13 x14 x15 = Spec.lin (val_main_v48 (F := Ideal) x0 x1 x2 x3 x4 x5 x6 x7 x8 x9 x10 x11 x12 x13) x14 x15 := by
  refine lin_intro _ _ _ _ fun r n => ?_
  rw [val_main_v52_apply, val_main_v49_apply, val_main_v51_apply, val_main_v50_apply]
  have hl : ∀ k : Fin 64, lidx_main_v49 (ix2 r n) k = ix2 r k :=
    fun k => funext fun a => by match a with | ⟨0, _⟩ => rfl | ⟨1, _⟩ => rfl
  have hr : ∀ k : Fin 64, ridx_main_v49 (ix2 r n) k = ix2 k n :=
    fun k => funext fun a => by match a with | ⟨0, _⟩ => rfl | ⟨1, _⟩ => rfl
  have hb : idx_main_v50 (idx_main_v51 (ix2 r n)) = ix1 n :=
    funext fun a => by match a with | ⟨0, _⟩ => rfl
  simp only [hl, hr, hb]
  rfl

/-- relu after the second closing layer. -/
theorem out_relu2 : val_main_v53 (F := Ideal) x0 x1 x2 x3 x4 x5 x6 x7 x8 x9 x10 x11 x12 x13 x14 x15 = Spec.relu (val_main_v52 (F := Ideal) x0 x1 x2 x3 x4 x5 x6 x7 x8 x9 x10 x11 x12 x13 x14 x15) := by
  funext i
  rw [val_main_v53_apply, val_main_call3_v0_apply, val_main_call3_cst_apply]
  show max _ (Ideal.ofBits .f32 0x00000000#32) = max _ 0
  rw [Ideal.ofBits_zero_f32]

/-- The third closing layer. -/
theorem out_layer3 : val_main_v57 (F := Ideal) x0 x1 x2 x3 x4 x5 x6 x7 x8 x9 x10 x11 x12 x13 x14 x15 x16 x17 = Spec.lin (val_main_v53 (F := Ideal) x0 x1 x2 x3 x4 x5 x6 x7 x8 x9 x10 x11 x12 x13 x14 x15) x16 x17 := by
  refine lin_intro _ _ _ _ fun r n => ?_
  rw [val_main_v57_apply, val_main_v54_apply, val_main_v56_apply, val_main_v55_apply]
  have hl : ∀ k : Fin 64, lidx_main_v54 (ix2 r n) k = ix2 r k :=
    fun k => funext fun a => by match a with | ⟨0, _⟩ => rfl | ⟨1, _⟩ => rfl
  have hr : ∀ k : Fin 64, ridx_main_v54 (ix2 r n) k = ix2 k n :=
    fun k => funext fun a => by match a with | ⟨0, _⟩ => rfl | ⟨1, _⟩ => rfl
  have hb : idx_main_v55 (idx_main_v56 (ix2 r n)) = ix1 n :=
    funext fun a => by match a with | ⟨0, _⟩ => rfl
  simp only [hl, hr, hb]
  rfl

/-- relu after the third closing layer. -/
theorem out_relu3 : val_main_v58 (F := Ideal) x0 x1 x2 x3 x4 x5 x6 x7 x8 x9 x10 x11 x12 x13 x14 x15 x16 x17 = Spec.relu (val_main_v57 (F := Ideal) x0 x1 x2 x3 x4 x5 x6 x7 x8 x9 x10 x11 x12 x13 x14 x15 x16 x17) := by
  funext i
  rw [val_main_v58_apply, val_main_call4_v0_apply, val_main_call4_cst_apply]
  show max _ (Ideal.ofBits .f32 0x00000000#32) = max _ 0
  rw [Ideal.ofBits_zero_f32]

/-- The last layer. -/
theorem out_layer4 : val_main_v62 (F := Ideal) x0 x1 x2 x3 x4 x5 x6 x7 x8 x9 x10 x11 x12 x13 x14 x15 x16 x17 x18 x19 = Spec.lin (val_main_v58 (F := Ideal) x0 x1 x2 x3 x4 x5 x6 x7 x8 x9 x10 x11 x12 x13 x14 x15 x16 x17) x18 x19 := by
  refine lin_intro _ _ _ _ fun r n => ?_
  rw [val_main_v62_apply, val_main_v59_apply, val_main_v61_apply, val_main_v60_apply]
  have hl : ∀ k : Fin 64, lidx_main_v59 (ix2 r n) k = ix2 r k :=
    fun k => funext fun a => by match a with | ⟨0, _⟩ => rfl | ⟨1, _⟩ => rfl
  have hr : ∀ k : Fin 64, ridx_main_v59 (ix2 r n) k = ix2 k n :=
    fun k => funext fun a => by match a with | ⟨0, _⟩ => rfl | ⟨1, _⟩ => rfl
  have hb : idx_main_v60 (idx_main_v61 (ix2 r n)) = ix1 n :=
    funext fun a => by match a with | ⟨0, _⟩ => rfl
  simp only [hl, hr, hb]
  rfl

/-! ## The whole -/

/-- The last stage, as a function of the twenty arguments, is the specification's result. -/
theorem stages : val_main_v62 (F := Ideal) x0 x1 x2 x3 x4 x5 x6 x7 x8 x9 x10 x11 x12 x13 x14 x15 x16 x17 x18 x19
    = Spec.result x0 x1 x2 x3 x4 x5 x6 x7 x8 x9 x10 x11 x12 x13 x14 x15 x16 x17 x18 x19 := by
  rw [out_layer4, out_relu3, out_layer3, out_relu2, out_layer2, out_relu1, out_layer1, graph_sums,
    node_layer2, node_relu, node_layer1, node_row, node_sums, edge_layer2, edge_relu, edge_layer1, edge_row]
  rfl

/-- The reference's result is the specification's result of the twenty argument arrays. -/
theorem result_eq (m : (ℓ : Loc nD τ sig) → Buf (Elt Ideal) ℓ) (c : Dev nD) :
    (Cert.ReferenceIdeal.Value.res_out0 (F := Ideal) m c : S16x2.Idx → EReal)
      = Cert.Spec.result (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
          (m ((c.tc : Thread nD τ).loc main_arg10))
          (m ((c.tc : Thread nD τ).loc main_arg11))
          (m ((c.tc : Thread nD τ).loc main_arg12))
          (m ((c.tc : Thread nD τ).loc main_arg13))
          (m ((c.tc : Thread nD τ).loc main_arg14))
          (m ((c.tc : Thread nD τ).loc main_arg15))
          (m ((c.tc : Thread nD τ).loc main_arg16))
          (m ((c.tc : Thread nD τ).loc main_arg17))
          (m ((c.tc : Thread nD τ).loc main_arg18))
          (m ((c.tc : Thread nD τ).loc main_arg19)) :=
  (val_main_v62_eq m c).trans (stages _ _ _ _ _ _ _ _ _ _ _ _ _ _ _ _ _ _ _ _)

end Cert.ReferenceIdeal.RefValue

end
-- ==== Proof.lean ====
/-
  A graph network layer, kernel against reference, over the extended reals.

  Both programs gather the node feature x at an edge's two endpoint words, append the edge's three attributes, apply two
  layers (relu between) to every edge row, sum the edge rows into their target nodes, prepend x, apply two more layers to
  every node row, sum the node rows by graph id, and apply four closing layers (relu after the first three). The kernel
  does the two large stages in blocks: the edge stage block by block of 16000 rows, each block's result written back to
  its place; the node stage block by block of 10000 rows, each block pooled into a 16 × 64 accumulator by a product with
  the block's one-hot rows, the closing layers applied to the accumulator after the last block. A sum taken block by block
  is the whole sum (addition of extended reals is associative and commutative), a one-hot factor 1 or 0 keeps or drops a
  row (1 · y = y and 0 · y = 0 for every extended real y), and a change of float format is the identity, so neither
  stage needs its inputs finite. The one place the two programs differ is an endpoint word outside the node table: the
  reference clamps it, the kernel fills the read with a constant. The precondition says every endpoint word is a node,
  and under it the kernel's range test passes and both read x at that node.

  The frames: each program's run from its launch memory terminates with the argument arrays unchanged; for the two kernel
  programs this is the run of their seven items (four host stretches, the edge stage, a host stretch, the node stage)
  with one record per kernel region; for the reference it is its run with the result dropped.
-/
import proofs.«402084_j84928683311960_2_alg».proof.Defs
import proofs.«402084_j84928683311960_2_alg».proof.Proof.Gen.Kernel
import proofs.«402084_j84928683311960_2_alg».proof.Proof.Gen.KernelIdeal
import proofs.«402084_j84928683311960_2_alg».proof.Proof.Gen.ReferenceIdeal
import proofs.«402084_j84928683311960_2_alg».proof.Proof.Gen.Pre_finite_inputs
import proofs.«402084_j84928683311960_2_alg».proof.Proof.K.R0
import proofs.«402084_j84928683311960_2_alg».proof.Proof.K.R1
import proofs.«402084_j84928683311960_2_alg».proof.Proof.K.Run
import proofs.«402084_j84928683311960_2_alg».proof.Proof.KI.R0
import proofs.«402084_j84928683311960_2_alg».proof.Proof.KI.R1
import proofs.«402084_j84928683311960_2_alg».proof.Proof.KI.Run
import proofs.«402084_j84928683311960_2_alg».proof.Proof.KI.Value
import proofs.«402084_j84928683311960_2_alg».proof.Proof.RefRun
import proofs.«402084_j84928683311960_2_alg».proof.Proof.RefVal
import Idealize.ShloMosaic.Adequacy
import Idealize.ShloMosaic.Init

noncomputable section

namespace Cert.Proof

open Idealize.ShloMosaic Idealize.SL.Sem

/-- The word-level kernel program runs to its end and leaves its arguments as launched. -/
theorem frame_p : Cert.frame_Kernel := fun m ρ _ =>
  Cert.Kernel.Hand.frame_all (F := Bits) m (fun V c => Cert.Kernel.Hand.body_obligation0 V c)
    (fun V c => Cert.Kernel.Hand.dat1 V c) (fun V c w => Cert.Kernel.Hand.A_eq1 V c w) (fun _ _ _ => rfl) (fun _ _ _ => rfl)
    (fun _ _ => rfl) (fun V c => Cert.Kernel.Hand.body_obligation1 V c) (fun V c => Cert.Kernel.Hand.hin1 V c)
    (fun V c => Cert.Kernel.Hand.hout1 V c) ρ

/-- The idealized kernel program runs to its end and leaves its arguments as launched. -/
theorem frame_pi : Cert.frame_KernelIdeal := fun m ρ _ =>
  Cert.KernelIdeal.Hand.frame_all (F := Ideal) m (fun V c => Cert.KernelIdeal.Hand.body_obligation0 V c)
    (fun V c => Cert.KernelIdeal.Hand.dat1 V c) (fun V c w => Cert.KernelIdeal.Hand.A_eq1 V c w) (fun _ _ _ => rfl) (fun _ _ _ => rfl)
    (fun _ _ => rfl) (fun V c => Cert.KernelIdeal.Hand.body_obligation1 V c) (fun V c => Cert.KernelIdeal.Hand.hin1 V c)
    (fun V c => Cert.KernelIdeal.Hand.hout1 V c) ρ

/-- The reference runs to its end and leaves its arguments as launched: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing: there is nothing to preserve. -/
theorem preserves : Cert.preserves_Kernel_KernelIdeal := trivial

/-- From memories agreeing on the arguments both programs end with the same 16 × 2 result: each is the common
    function of the argument arrays, the kernel's under the precondition's index range. -/
theorem algebraic : Cert.algebraic_KernelIdeal_ReferenceIdeal := by
  intro m ρ m' ρ' hpre hagree
  refine ⟨fun c => Cert.KernelIdeal.Hand.oArr m (fun V c => Cert.KernelIdeal.Hand.dat1 (F := Ideal) V c) c, ?_, ?_⟩
  · exact Cert.KernelIdeal.Hand.run_value (F := Ideal) m (fun V c => Cert.KernelIdeal.Hand.body_obligation0 V c)
      (fun V c => Cert.KernelIdeal.Hand.dat1 V c) (fun V c w => Cert.KernelIdeal.Hand.A_eq1 V c w) (fun _ _ _ => rfl) (fun _ _ _ => rfl)
      (fun _ _ => rfl) (fun V c => Cert.KernelIdeal.Hand.body_obligation1 V c) (fun V c => Cert.KernelIdeal.Hand.hin1 V c)
      (fun V c => Cert.KernelIdeal.Hand.hout1 V c) ρ
  · refine (θ_run Cert.ReferenceIdeal.defs _ _).mono (fun _ h c => ⟨(h c).1.trans ?_, (h c).2⟩)
      (Cert.ReferenceIdeal.Value.run (F := Ideal) m' ρ')
    show Cert.ReferenceIdeal.Value.res_main_v62 m' c = Cert.KernelIdeal.Hand.oArr m (fun V c => Cert.KernelIdeal.Hand.dat1 (F := Ideal) V c) c
    rw [Cert.KernelIdeal.Hand.result_value m hpre c]
    have ha := hagree c
    rw [show Cert.ReferenceIdeal.Value.res_main_v62 m' c = Cert.ReferenceIdeal.Value.res_out0 m' c from rfl,
      Cert.ReferenceIdeal.RefValue.result_eq m' c,
      ha.1, ha.2.1, ha.2.2.1, ha.2.2.2.1, ha.2.2.2.2.1, ha.2.2.2.2.2.1, ha.2.2.2.2.2.2.1, ha.2.2.2.2.2.2.2.1,
      ha.2.2.2.2.2.2.2.2.1, ha.2.2.2.2.2.2.2.2.2.1, ha.2.2.2.2.2.2.2.2.2.2.1, ha.2.2.2.2.2.2.2.2.2.2.2.1,
      ha.2.2.2.2.2.2.2.2.2.2.2.2.1, ha.2.2.2.2.2.2.2.2.2.2.2.2.2.1, ha.2.2.2.2.2.2.2.2.2.2.2.2.2.2.1,
      ha.2.2.2.2.2.2.2.2.2.2.2.2.2.2.2.1, ha.2.2.2.2.2.2.2.2.2.2.2.2.2.2.2.2.1, ha.2.2.2.2.2.2.2.2.2.2.2.2.2.2.2.2.2.1,
      ha.2.2.2.2.2.2.2.2.2.2.2.2.2.2.2.2.2.2.1, ha.2.2.2.2.2.2.2.2.2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
